-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)) →
    ∃ (v0 : (c : Dev Cert.KernelIdeal.nD) → Buf (Elt Ideal) ((c.tc : Thread Cert.KernelIdeal.nD Cert.KernelIdeal.τ).loc Cert.KernelIdeal.main_v23_0)) (v1 : (c : Dev Cert.KernelIdeal.nD) → Buf (Elt Ideal) ((c.tc : Thread Cert.KernelIdeal.nD Cert.KernelIdeal.τ).loc Cert.KernelIdeal.main_v23_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23_0) = v0 c
          ∧ r.2.mem ((c.tc : Thread Cert.KernelIdeal.nD Cert.KernelIdeal.τ).loc Cert.KernelIdeal.main_v23_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_v94) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x128 : Shape := ⟨2, ![200000, 128]⟩
abbrev S200000x6 : Shape := ⟨2, ![200000, 6]⟩
abbrev S600000x42 : Shape := ⟨2, ![600000, 42]⟩
abbrev S600000x294 : Shape := ⟨2, ![600000, 294]⟩
abbrev S600000 : Shape := ⟨1, ![600000]⟩
abbrev S6x8 : Shape := ⟨2, ![6, 8]⟩
abbrev S8x128 : Shape := ⟨2, ![8, 128]⟩
abbrev S42x8 : Shape := ⟨2, ![42, 8]⟩
abbrev S8x64 : Shape := ⟨2, ![8, 64]⟩
abbrev S294x8 : Shape := ⟨2, ![294, 8]⟩
abbrev S6x128 : Shape := ⟨2, ![6, 128]⟩
abbrev S128x128 : Shape := ⟨2, ![128, 128]⟩
abbrev S128 : Shape := ⟨1, ![128]⟩
abbrev S128x64 : Shape := ⟨2, ![128, 64]⟩
abbrev S64x128 : Shape := ⟨2, ![64, 128]⟩
abbrev S1x128x128 : Shape := ⟨3, ![1, 128, 128]⟩
abbrev S1x128 : Shape := ⟨2, ![1, 128]⟩
abbrev S2x128x128 : Shape := ⟨3, ![2, 128, 128]⟩
abbrev S2x128 : Shape := ⟨2, ![2, 128]⟩
abbrev S_ : Shape := ⟨0, ![]⟩

class Facts : Prop where
  bcast_S_S200000x128 : S_.BroadcastsInDim S200000x128 (![] : Fin 0 → Fin S200000x128.rank)
  reducesTo_S200000x128_S_d0_1 : S200000x128.ReducesTo [0, 1] S_
  h_S_ : 0 < S_.numel
  bcast_S_S200000x6 : S_.BroadcastsInDim S200000x6 (![] : Fin 0 → Fin S200000x6.rank)
  reducesTo_S200000x6_S_d0_1 : S200000x6.ReducesTo [0, 1] S_
  bcast_S_S600000x42 : S_.BroadcastsInDim S600000x42 (![] : Fin 0 → Fin S600000x42.rank)
  reducesTo_S600000x42_S_d0_1 : S600000x42.ReducesTo [0, 1] S_
  bcast_S_S600000x294 : S_.BroadcastsInDim S600000x294 (![] : Fin 0 → Fin S600000x294.rank)
  reducesTo_S600000x294_S_d0_1 : S600000x294.ReducesTo [0, 1] S_
  bcast_S_S6x8 : S_.BroadcastsInDim S6x8 (![] : Fin 0 → Fin S6x8.rank)
  reducesTo_S6x8_S_d0_1 : S6x8.ReducesTo [0, 1] S_
  bcast_S_S8x128 : S_.BroadcastsInDim S8x128 (![] : Fin 0 → Fin S8x128.rank)
  reducesTo_S8x128_S_d0_1 : S8x128.ReducesTo [0, 1] S_
  bcast_S_S42x8 : S_.BroadcastsInDim S42x8 (![] : Fin 0 → Fin S42x8.rank)
  reducesTo_S42x8_S_d0_1 : S42x8.ReducesTo [0, 1] S_
  bcast_S_S8x64 : S_.BroadcastsInDim S8x64 (![] : Fin 0 → Fin S8x64.rank)
  reducesTo_S8x64_S_d0_1 : S8x64.ReducesTo [0, 1] S_
  bcast_S_S294x8 : S_.BroadcastsInDim S294x8 (![] : Fin 0 → Fin S294x8.rank)
  reducesTo_S294x8_S_d0_1 : S294x8.ReducesTo [0, 1] S_
  bcast_S_S6x128 : S_.BroadcastsInDim S6x128 (![] : Fin 0 → Fin S6x128.rank)
  reducesTo_S6x128_S_d0_1 : S6x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64x128 : S_.BroadcastsInDim S64x128 (![] : Fin 0 → Fin S64x128.rank)
  reducesTo_S64x128_S_d0_1 : S64x128.ReducesTo [0, 1] S_
  bcast_S_S1x128x128 : S_.BroadcastsInDim S1x128x128 (![] : Fin 0 → Fin S1x128x128.rank)
  reducesTo_S1x128x128_S_d0_1_2 : S1x128x128.ReducesTo [0, 1, 2] S_
  bcast_S_S1x128 : S_.BroadcastsInDim S1x128 (![] : Fin 0 → Fin S1x128.rank)
  reducesTo_S1x128_S_d0_1 : S1x128.ReducesTo [0, 1] S_
  bcast_S_S2x128x128 : S_.BroadcastsInDim S2x128x128 (![] : Fin 0 → Fin S2x128x128.rank)
  reducesTo_S2x128x128_S_d0_1_2 : S2x128x128.ReducesTo [0, 1, 2] S_
  bcast_S_S2x128 : S_.BroadcastsInDim S2x128 (![] : Fin 0 → Fin S2x128.rank)
  reducesTo_S2x128_S_d0_1 : S2x128.ReducesTo [0, 1] S_
  bcast_S_S600000 : S_.BroadcastsInDim S600000 (![] : Fin 0 → Fin S600000.rank)
  reducesTo_S600000_S_d0 : S600000.ReducesTo [0] S_

variable [Facts]

def fn_part8 {F : FTy → Type} [FloatOps F] (main_arg4 : IVec S600000 32) (main_v133 : IVec S_ 1) (main_v135 : IVec S600000 1) (main_c_53 : IVec S_ 1) : IVec S_ 1 :=
  let main_v136 : IVec S_ 1 := (fun x v => Host.reduce IntOp.andi x v reducesTo_S600000_S_d0 h_S_) main_v135 main_c_53
  let main_v137 : IVec S_ 1 := andi main_v133 main_v136
  let main_c_54 : IVec S_ 32 := constantI S_ 32 200000#32
  let main_v138 : IVec S600000 32 := broadcastInDim S600000 ![] bcast_S_S600000 main_c_54
  let main_v139 : IVec S600000 1 := cmpi .slt main_arg4 main_v138
  let main_c_55 : IVec S_ 1 := constantI S_ 1 1#1
  let main_v140 : IVec S_ 1 := (fun x v => Host.reduce IntOp.andi x v reducesTo_S600000_S_d0 h_S_) main_v139 main_c_55
  let main_v141 : IVec S_ 1 := andi main_v137 main_v140
  main_v141

def fn_part7 {F : FTy → Type} [FloatOps F] (main_arg4 : IVec S600000 32) (main_arg27 : FVec F S2x128x128 .f32) (main_arg28 : FVec F S2x128 .f32) (main_v118 : IVec S_ 1) (main_v119 : FVec F S2x128 .f32) : IVec S_ 1 :=
  let main_cst_46 : FVec F S_ .f32 := constant S_ .f32 0x7F800000#32
  let main_v120 : FVec F S2x128 .f32 := broadcastInDim S2x128 ![] bcast_S_S2x128 main_cst_46
  let main_v121 : IVec S2x128 1 := cmpf .olt main_v119 main_v120
  let main_c_47 : IVec S_ 1 := constantI S_ 1 1#1
  let main_v122 : IVec S_ 1 := (fun x v => Host.reduce IntOp.andi x v reducesTo_S2x128_S_d0_1 h_S_) main_v121 main_c_47
  let main_v123 : IVec S_ 1 := andi main_v118 main_v122
  let main_v124 : FVec F S2x128x128 .f32 := Host.absf main_arg27
  let main_cst_48 : FVec F S_ .f32 := constant S_ .f32 0x7F800000#32
  let main_v125 : FVec F S2x128x128 .f32 := broadcastInDim S2x128x128 ![] bcast_S_S2x128x128 main_cst_48
  let main_v126 : IVec S2x128x128 1 := cmpf .olt main_v124 main_v125
  let main_c_49 : IVec S_ 1 := constantI S_ 1 1#1
  let main_v127 : IVec S_ 1 := (fun x v => Host.reduce IntOp.andi x v reducesTo_S2x128x128_S_d0_1_2 h_S_) main_v126 main_c_49
  let main_v128 : IVec S_ 1 := andi main_v123 main_v127
  let main_v129 : FVec F S2x128 .f32 := Host.absf main_arg28
  let main_cst_50 : FVec F S_ .f32 := constant S_ .f32 0x7F800000#32
  let main_v130 : FVec F S2x128 .f32 := broadcastInDim S2x128 ![] bcast_S_S2x128 main_cst_50
  let main_v131 : IVec S2x128 1 := cmpf .olt main_v129 main_v130
  let main_c_51 : IVec S_ 1 := constantI S_ 1 1#1
  let main_v132 : IVec S_ 1 := (fun x v => Host.reduce IntOp.andi x v reducesTo_S2x128_S_d0_1 h_S_) main_v131 main_c_51
  let main_v133 : IVec S_ 1 := andi main_v128 main_v132
  let main_c_52 : IVec S_ 32 := constantI S_ 32 0#32
  let main_v134 : IVec S600000 32 := broadcastInDim S600000 ![] bcast_S_S600000 main_c_52
  let main_v135 : IVec S600000 1 := cmpi .sge main_arg4 main_v134
  let main_c_53 : IVec S_ 1 := constantI S_ 1 1#1
  fn_part8 (F := F) main_arg4 main_v133 main_v135 main_c_53

def fn_part6 {F : FTy → Type} [FloatOps F] (main_arg4 : IVec S600000 32) (main_arg23 : FVec F S128x128 .f32) (main_arg24 : FVec F S128 .f32) (main_arg25 : FVec F S2x128x128 .f32) (main_arg26 : FVec F S2x128 .f32) (main_arg27 : FVec F S2x128x128 .f32) (main_arg28 : FVec F S2x128 .f32) (main_v98 : IVec S_ 1) (main_v101 : IVec S1x128 1) (main_c_39 : IVec S_ 1) : IVec S_ 1 :=
  let main_v102 : IVec S_ 1 := (fun x v => Host.reduce IntOp.andi x v reducesTo_S1x128_S_d0_1 h_S_) main_v101 main_c_39
  let main_v103 : IVec S_ 1 := andi main_v98 main_v102
  let main_v104 : FVec F S128x128 .f32 := Host.absf main_arg23
  let main_cst_40 : FVec F S_ .f32 := constant S_ .f32 0x7F800000#32
  let main_v105 : FVec F S128x128 .f32 := broadcastInDim S128x128 ![] bcast_S_S128x128 main_cst_40
  let main_v106 : IVec S128x128 1 := cmpf .olt main_v104 main_v105
  let main_c_41 : IVec S_ 1 := constantI S_ 1 1#1
  let main_v107 : IVec S_ 1 := (fun x v => Host.reduce IntOp.andi x v reducesTo_S128x128_S_d0_1 h_S_) main_v106 main_c_41
  let main_v108 : IVec S_ 1 := andi main_v103 main_v107
  let main_v109 : FVec F S128 .f32 := Host.absf main_arg24
  let main_cst_42 : FVec F S_ .f32 := constant S_ .f32 0x7F800000#32
  let main_v110 : FVec F S128 .f32 := broadcastInDim S128 ![] bcast_S_S128 main_cst_42
  let main_v111 : IVec S128 1 := cmpf .olt main_v109 main_v110
  let main_c_43 : IVec S_ 1 := constantI S_ 1 1#1
  let main_v112 : IVec S_ 1 := (fun x v => Host.reduce IntOp.andi x v reducesTo_S128_S_d0 h_S_) main_v111 main_c_43
  let main_v113 : IVec S_ 1 := andi main_v108 main_v112
  let main_v114 : FVec F S2x128x128 .f32 := Host.absf main_arg25
  let main_cst_44 : FVec F S_ .f32 := constant S_ .f32 0x7F800000#32
  let main_v115 : FVec F S2x128x128 .f32 := broadcastInDim S2x128x128 ![] bcast_S_S2x128x128 main_cst_44
  let main_v116 : IVec S2x128x128 1 := cmpf .olt main_v114 main_v115
  let main_c_45 : IVec S_ 1 := constantI S_ 1 1#1
  let main_v117 : IVec S_ 1 := (fun x v => Host.reduce IntOp.andi x v reducesTo_S2x128x128_S_d0_1_2 h_S_) main_v116 main_c_45
  let main_v118 : IVec S_ 1 := andi main_v113 main_v117
  let main_v119 : FVec F S2x128 .f32 := Host.absf main_arg26
  fn_part7 (F := F) main_arg4 main_arg27 main_arg28 main_v118 main_v119

def fn_part5 {F : FTy → Type} [FloatOps F] (main_arg4 : IVec S600000 32) (main_arg20 : FVec F S1x128 .f32) (main_arg21 : FVec F S1x128x128 .f32) (main_arg22 : FVec F S1x128 .f32) (main_arg23 : FVec F S128x128 .f32) (main_arg24 : FVec F S128 .f32) (main_arg25 : FVec F S2x128x128 .f32) (main_arg26 : FVec F S2x128 .f32) (main_arg27 : FVec F S2x128x128 .f32) (main_arg28 : FVec F S2x128 .f32) (main_v83 : IVec S_ 1) (main_v84 : FVec F S1x128x128 .f32) (main_cst_32 : FVec F S_ .f32) : IVec S_ 1 :=
  let main_v85 : FVec F S1x128x128 .f32 := broadcastInDim S1x128x128 ![] bcast_S_S1x128x128 main_cst_32
  let main_v86 : IVec S1x128x128 1 := cmpf .olt main_v84 main_v85
  let main_c_33 : IVec S_ 1 := constantI S_ 1 1#1
  let main_v87 : IVec S_ 1 := (fun x v => Host.reduce IntOp.andi x v reducesTo_S1x128x128_S_d0_1_2 h_S_) main_v86 main_c_33
  let main_v88 : IVec S_ 1 := andi main_v83 main_v87
  let main_v89 : FVec F S1x128 .f32 := Host.absf main_arg20
  let main_cst_34 : FVec F S_ .f32 := constant S_ .f32 0x7F800000#32
  let main_v90 : FVec F S1x128 .f32 := broadcastInDim S1x128 ![] bcast_S_S1x128 main_cst_34
  let main_v91 : IVec S1x128 1 := cmpf .olt main_v89 main_v90
  let main_c_35 : IVec S_ 1 := constantI S_ 1 1#1
  let main_v92 : IVec S_ 1 := (fun x v => Host.reduce IntOp.andi x v reducesTo_S1x128_S_d0_1 h_S_) main_v91 main_c_35
  let main_v93 : IVec S_ 1 := andi main_v88 main_v92
  let main_v94 : FVec F S1x128x128 .f32 := Host.absf main_arg21
  let main_cst_36 : FVec F S_ .f32 := constant S_ .f32 0x7F800000#32
  let main_v95 : FVec F S1x128x128 .f32 := broadcastInDim S1x128x128 ![] bcast_S_S1x128x128 main_cst_36
  let main_v96 : IVec S1x128x128 1 := cmpf .olt main_v94 main_v95
  let main_c_37 : IVec S_ 1 := constantI S_ 1 1#1
  let main_v97 : IVec S_ 1 := (fun x v => Host.reduce IntOp.andi x v reducesTo_S1x128x128_S_d0_1_2 h_S_) main_v96 main_c_37
  let main_v98 : IVec S_ 1 := andi main_v93 main_v97
  let main_v99 : FVec F S1x128 .f32 := Host.absf main_arg22
  let main_cst_38 : FVec F S_ .f32 := constant S_ .f32 0x7F800000#32
  let main_v100 : FVec F S1x128 .f32 := broadcastInDim S1x128 ![] bcast_S_S1x128 main_cst_38
  let main_v101 : IVec S1x128 1 := cmpf .olt main_v99 main_v100
  let main_c_39 : IVec S_ 1 := constantI S_ 1 1#1
  fn_part6 (F := F) main_arg4 main_arg23 main_arg24 main_arg25 main_arg26 main_arg27 main_arg28 main_v98 main_v101 main_c_39

def fn_part4 {F : FTy → Type} [FloatOps F] (main_arg4 : IVec S600000 32) (main_arg16 : FVec F S128 .f32) (main_arg17 : FVec F S128x64 .f32) (main_arg18 : FVec F S64x128 .f32) (main_arg19 : FVec F S1x128x128 .f32) (main_arg20 : FVec F S1x128 .f32) (main_arg21 : FVec F S1x128x128 .f32) (main_arg22 : FVec F S1x128 .f32) (main_arg23 : FVec F S128x128 .f32) (main_arg24 : FVec F S128 .f32) (main_arg25 : FVec F S2x128x128 .f32) (main_arg26 : FVec F S2x128 .f32) (main_arg27 : FVec F S2x128x128 .f32) (main_arg28 : FVec F S2x128 .f32) (main_v63 : IVec S_ 1) (main_v67 : IVec S_ 1) : IVec S_ 1 :=
  let main_v68 : IVec S_ 1 := andi main_v63 main_v67
  let main_v69 : FVec F S128 .f32 := Host.absf main_arg16
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128x64 .f32 := Host.absf main_arg17
  let main_cst_28 : FVec F S_ .f32 := constant S_ .f32 0x7F800000#32
  let main_v75 : FVec F S128x64 .f32 := broadcastInDim S128x64 ![] bcast_S_S128x64 main_cst_28
  let main_v76 : IVec S128x64 1 := cmpf .olt main_v74 main_v75
  let main_c_29 : IVec S_ 1 := constantI S_ 1 1#1
  let main_v77 : IVec S_ 1 := (fun x v => Host.reduce IntOp.andi x v reducesTo_S128x64_S_d0_1 h_S_) main_v76 main_c_29
  let main_v78 : IVec S_ 1 := andi main_v73 main_v77
  let main_v79 : FVec F S64x128 .f32 := Host.absf main_arg18
  let main_cst_30 : FVec F S_ .f32 := constant S_ .f32 0x7F800000#32
  let main_v80 : FVec F S64x128 .f32 := broadcastInDim S64x128 ![] bcast_S_S64x128 main_cst_30
  let main_v81 : IVec S64x128 1 := cmpf .olt main_v79 main_v80
  let main_c_31 : IVec S_ 1 := constantI S_ 1 1#1
  let main_v82 : IVec S_ 1 := (fun x v => Host.reduce IntOp.andi x v reducesTo_S64x128_S_d0_1 h_S_) main_v81 main_c_31
  let main_v83 : IVec S_ 1 := andi main_v78 main_v82
  let main_v84 : FVec F S1x128x128 .f32 := Host.absf main_arg19
  let main_cst_32 : FVec F S_ .f32 := constant S_ .f32 0x7F800000#32
  fn_part5 (F := F) main_arg4 main_arg20 main_arg21 main_arg22 main_arg23 main_arg24 main_arg25 main_arg26 main_arg27 main_arg28 main_v83 main_v84 main_cst_32

def fn_part3 {F : FTy → Type} [FloatOps F] (main_arg4 : IVec S600000 32) (main_arg13 : FVec F S128x128 .f32) (main_arg14 : FVec F S128 .f32) (main_arg15 : FVec F S128x128 .f32) (main_arg16 : FVec F S128 .f32) (main_arg17 : FVec F S128x64 .f32) (main_arg18 : FVec F S64x128 .f32) (main_arg19 : FVec F S1x128x128 .f32) (main_arg20 : FVec F S1x128 .f32) (main_arg21 : FVec F S1x128x128 .f32) (main_arg22 : FVec F S1x128 .f32) (main_arg23 : FVec F S128x128 .f32) (main_arg24 : FVec F S128 .f32) (main_arg25 : FVec F S2x128x128 .f32) (main_arg26 : FVec F S2x128 .f32) (main_arg27 : FVec F S2x128x128 .f32) (main_arg28 : FVec F S2x128 .f32) (main_v48 : IVec S_ 1) (main_v49 : FVec F S6x128 .f32) (main_v50 : FVec F S6x128 .f32) : IVec S_ 1 :=
  let main_v51 : IVec S6x128 1 := cmpf .olt main_v49 main_v50
  let main_c_19 : IVec S_ 1 := constantI S_ 1 1#1
  let main_v52 : IVec S_ 1 := (fun x v => Host.reduce IntOp.andi x v reducesTo_S6x128_S_d0_1 h_S_) main_v51 main_c_19
  let main_v53 : IVec S_ 1 := andi main_v48 main_v52
  let main_v54 : FVec F S128x128 .f32 := Host.absf main_arg13
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg14
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x128 .f32 := Host.absf main_arg15
  let main_cst_24 : FVec F S_ .f32 := constant S_ .f32 0x7F800000#32
  let main_v65 : FVec F S128x128 .f32 := broadcastInDim S128x128 ![] bcast_S_S128x128 main_cst_24
  let main_v66 : IVec S128x128 1 := cmpf .olt main_v64 main_v65
  let main_c_25 : IVec S_ 1 := constantI S_ 1 1#1
  let main_v67 : IVec S_ 1 := (fun x v => Host.reduce IntOp.andi x v reducesTo_S128x128_S_d0_1 h_S_) main_v66 main_c_25
  fn_part4 (F := F) main_arg4 main_arg16 main_arg17 main_arg18 main_arg19 main_arg20 main_arg21 main_arg22 main_arg23 main_arg24 main_arg25 main_arg26 main_arg27 main_arg28 main_v63 main_v67

def fn_part2 {F : FTy → Type} [FloatOps F] (main_arg4 : IVec S600000 32) (main_arg9 : FVec F S8x64 .f32) (main_arg10 : FVec F S294x8 .f32) (main_arg11 : FVec F S8x64 .f32) (main_arg12 : FVec F S6x128 .f32) (main_arg13 : FVec F S128x128 .f32) (main_arg14 : FVec F S128 .f32) (main_arg15 : FVec F S128x128 .f32) (main_arg16 : FVec F S128 .f32) (main_arg17 : FVec F S128x64 .f32) (main_arg18 : FVec F S64x128 .f32) (main_arg19 : FVec F S1x128x128 .f32) (main_arg20 : FVec F S1x128 .f32) (main_arg21 : FVec F S1x128x128 .f32) (main_arg22 : FVec F S1x128 .f32) (main_arg23 : FVec F S128x128 .f32) (main_arg24 : FVec F S128 .f32) (main_arg25 : FVec F S2x128x128 .f32) (main_arg26 : FVec F S2x128 .f32) (main_arg27 : FVec F S2x128x128 .f32) (main_arg28 : FVec F S2x128 .f32) (main_v33 : IVec S_ 1) : IVec S_ 1 :=
  let main_v34 : FVec F S8x64 .f32 := Host.absf main_arg9
  let main_cst_12 : FVec F S_ .f32 := constant S_ .f32 0x7F800000#32
  let main_v35 : FVec F S8x64 .f32 := broadcastInDim S8x64 ![] bcast_S_S8x64 main_cst_12
  let main_v36 : IVec S8x64 1 := cmpf .olt main_v34 main_v35
  let main_c_13 : IVec S_ 1 := constantI S_ 1 1#1
  let main_v37 : IVec S_ 1 := (fun x v => Host.reduce IntOp.andi x v reducesTo_S8x64_S_d0_1 h_S_) main_v36 main_c_13
  let main_v38 : IVec S_ 1 := andi main_v33 main_v37
  let main_v39 : FVec F S294x8 .f32 := Host.absf main_arg10
  let main_cst_14 : FVec F S_ .f32 := constant S_ .f32 0x7F800000#32
  let main_v40 : FVec F S294x8 .f32 := broadcastInDim S294x8 ![] bcast_S_S294x8 main_cst_14
  let main_v41 : IVec S294x8 1 := cmpf .olt main_v39 main_v40
  let main_c_15 : IVec S_ 1 := constantI S_ 1 1#1
  let main_v42 : IVec S_ 1 := (fun x v => Host.reduce IntOp.andi x v reducesTo_S294x8_S_d0_1 h_S_) main_v41 main_c_15
  let main_v43 : IVec S_ 1 := andi main_v38 main_v42
  let main_v44 : FVec F S8x64 .f32 := Host.absf main_arg11
  let main_cst_16 : FVec F S_ .f32 := constant S_ .f32 0x7F800000#32
  let main_v45 : FVec F S8x64 .f32 := broadcastInDim S8x64 ![] bcast_S_S8x64 main_cst_16
  let main_v46 : IVec S8x64 1 := cmpf .olt main_v44 main_v45
  let main_c_17 : IVec S_ 1 := constantI S_ 1 1#1
  let main_v47 : IVec S_ 1 := (fun x v => Host.reduce IntOp.andi x v reducesTo_S8x64_S_d0_1 h_S_) main_v46 main_c_17
  let main_v48 : IVec S_ 1 := andi main_v43 main_v47
  let main_v49 : FVec F S6x128 .f32 := Host.absf main_arg12
  let main_cst_18 : FVec F S_ .f32 := constant S_ .f32 0x7F800000#32
  let main_v50 : FVec F S6x128 .f32 := broadcastInDim S6x128 ![] bcast_S_S6x128 main_cst_18
  fn_part3 (F := F) main_arg4 main_arg13 main_arg14 main_arg15 main_arg16 main_arg17 main_arg18 main_arg19 main_arg20 main_arg21 main_arg22 main_arg23 main_arg24 main_arg25 main_arg26 main_arg27 main_arg28 main_v48 main_v49 main_v50

def fn_part1 {F : FTy → Type} [FloatOps F] (main_arg4 : IVec S600000 32) (main_arg6 : FVec F S6x8 .f32) (main_arg7 : FVec F S8x128 .f32) (main_arg8 : FVec F S42x8 .f32) (main_arg9 : FVec F S8x64 .f32) (main_arg10 : FVec F S294x8 .f32) (main_arg11 : FVec F S8x64 .f32) (main_arg12 : FVec F S6x128 .f32) (main_arg13 : FVec F S128x128 .f32) (main_arg14 : FVec F S128 .f32) (main_arg15 : FVec F S128x128 .f32) (main_arg16 : FVec F S128 .f32) (main_arg17 : FVec F S128x64 .f32) (main_arg18 : FVec F S64x128 .f32) (main_arg19 : FVec F S1x128x128 .f32) (main_arg20 : FVec F S1x128 .f32) (main_arg21 : FVec F S1x128x128 .f32) (main_arg22 : FVec F S1x128 .f32) (main_arg23 : FVec F S128x128 .f32) (main_arg24 : FVec F S128 .f32) (main_arg25 : FVec F S2x128x128 .f32) (main_arg26 : FVec F S2x128 .f32) (main_arg27 : FVec F S2x128x128 .f32) (main_arg28 : FVec F S2x128 .f32) (main_v13 : IVec S_ 1) (main_v16 : IVec S600000x294 1) : IVec S_ 1 :=
  let main_c_5 : IVec S_ 1 := constantI S_ 1 1#1
  let main_v17 : IVec S_ 1 := (fun x v => Host.reduce IntOp.andi x v reducesTo_S600000x294_S_d0_1 h_S_) main_v16 main_c_5
  let main_v18 : IVec S_ 1 := andi main_v13 main_v17
  let main_v19 : FVec F S6x8 .f32 := Host.absf main_arg6
  let main_cst_6 : FVec F S_ .f32 := constant S_ .f32 0x7F800000#32
  let main_v20 : FVec F S6x8 .f32 := broadcastInDim S6x8 ![] bcast_S_S6x8 main_cst_6
  let main_v21 : IVec S6x8 1 := cmpf .olt main_v19 main_v20
  let main_c_7 : IVec S_ 1 := constantI S_ 1 1#1
  let main_v22 : IVec S_ 1 := (fun x v => Host.reduce IntOp.andi x v reducesTo_S6x8_S_d0_1 h_S_) main_v21 main_c_7
  let main_v23 : IVec S_ 1 := andi main_v18 main_v22
  let main_v24 : FVec F S8x128 .f32 := Host.absf main_arg7
  let main_cst_8 : FVec F S_ .f32 := constant S_ .f32 0x7F800000#32
  let main_v25 : FVec F S8x128 .f32 := broadcastInDim S8x128 ![] bcast_S_S8x128 main_cst_8
  let main_v26 : IVec S8x128 1 := cmpf .olt main_v24 main_v25
  let main_c_9 : IVec S_ 1 := constantI S_ 1 1#1
  let main_v27 : IVec S_ 1 := (fun x v => Host.reduce IntOp.andi x v reducesTo_S8x128_S_d0_1 h_S_) main_v26 main_c_9
  let main_v28 : IVec S_ 1 := andi main_v23 main_v27
  let main_v29 : FVec F S42x8 .f32 := Host.absf main_arg8
  let main_cst_10 : FVec F S_ .f32 := constant S_ .f32 0x7F800000#32
  let main_v30 : FVec F S42x8 .f32 := broadcastInDim S42x8 ![] bcast_S_S42x8 main_cst_10
  let main_v31 : IVec S42x8 1 := cmpf .olt main_v29 main_v30
  let main_c_11 : IVec S_ 1 := constantI S_ 1 1#1
  let main_v32 : IVec S_ 1 := (fun x v => Host.reduce IntOp.andi x v reducesTo_S42x8_S_d0_1 h_S_) main_v31 main_c_11
  let main_v33 : IVec S_ 1 := andi main_v28 main_v32
  fn_part2 (F := F) main_arg4 main_arg9 main_arg10 main_arg11 main_arg12 main_arg13 main_arg14 main_arg15 main_arg16 main_arg17 main_arg18 main_arg19 main_arg20 main_arg21 main_arg22 main_arg23 main_arg24 main_arg25 main_arg26 main_arg27 main_arg28 main_v33

def fn {F : FTy → Type} [FloatOps F] (main_arg0 : FVec F S200000x128 .f32) (main_arg1 : FVec F S200000x6 .f32) (main_arg2 : FVec F S600000x42 .f32) (main_arg3 : FVec F S600000x294 .f32) (main_arg4 : IVec S600000 32) (main_arg5 : IVec S600000 32) (main_arg6 : FVec F S6x8 .f32) (main_arg7 : FVec F S8x128 .f32) (main_arg8 : FVec F S42x8 .f32) (main_arg9 : FVec F S8x64 .f32) (main_arg10 : FVec F S294x8 .f32) (main_arg11 : FVec F S8x64 .f32) (main_arg12 : FVec F S6x128 .f32) (main_arg13 : FVec F S128x128 .f32) (main_arg14 : FVec F S128 .f32) (main_arg15 : FVec F S128x128 .f32) (main_arg16 : FVec F S128 .f32) (main_arg17 : FVec F S128x64 .f32) (main_arg18 : FVec F S64x128 .f32) (main_arg19 : FVec F S1x128x128 .f32) (main_arg20 : FVec F S1x128 .f32) (main_arg21 : FVec F S1x128x128 .f32) (main_arg22 : FVec F S1x128 .f32) (main_arg23 : FVec F S128x128 .f32) (main_arg24 : FVec F S128 .f32) (main_arg25 : FVec F S2x128x128 .f32) (main_arg26 : FVec F S2x128 .f32) (main_arg27 : FVec F S2x128x128 .f32) (main_arg28 : FVec F S2x128 .f32) : IVec S_ 1 :=
  let main_v0 : FVec F S200000x128 .f32 := Host.absf main_arg0
  let main_cst : FVec F S_ .f32 := constant S_ .f32 0x7F800000#32
  let main_v1 : FVec F S200000x128 .f32 := broadcastInDim S200000x128 ![] bcast_S_S200000x128 main_cst
  let main_v2 : IVec S200000x128 1 := cmpf .olt main_v0 main_v1
  let main_c : IVec S_ 1 := constantI S_ 1 1#1
  let main_v3 : IVec S_ 1 := (fun x v => Host.reduce IntOp.andi x v reducesTo_S200000x128_S_d0_1 h_S_) main_v2 main_c
  let main_v4 : FVec F S200000x6 .f32 := Host.absf main_arg1
  let main_cst_0 : FVec F S_ .f32 := constant S_ .f32 0x7F800000#32
  let main_v5 : FVec F S200000x6 .f32 := broadcastInDim S200000x6 ![] bcast_S_S200000x6 main_cst_0
  let main_v6 : IVec S200000x6 1 := cmpf .olt main_v4 main_v5
  let main_c_1 : IVec S_ 1 := constantI S_ 1 1#1
  let main_v7 : IVec S_ 1 := (fun x v => Host.reduce IntOp.andi x v reducesTo_S200000x6_S_d0_1 h_S_) main_v6 main_c_1
  let main_v8 : IVec S_ 1 := andi main_v3 main_v7
  let main_v9 : FVec F S600000x42 .f32 := Host.absf main_arg2
  let main_cst_2 : FVec F S_ .f32 := constant S_ .f32 0x7F800000#32
  let main_v10 : FVec F S600000x42 .f32 := broadcastInDim S600000x42 ![] bcast_S_S600000x42 main_cst_2
  let main_v11 : IVec S600000x42 1 := cmpf .olt main_v9 main_v10
  let main_c_3 : IVec S_ 1 := constantI S_ 1 1#1
  let main_v12 : IVec S_ 1 := (fun x v => Host.reduce IntOp.andi x v reducesTo_S600000x42_S_d0_1 h_S_) main_v11 main_c_3
  let main_v13 : IVec S_ 1 := andi main_v8 main_v12
  let main_v14 : FVec F S600000x294 .f32 := Host.absf main_arg3
  let main_cst_4 : FVec F S_ .f32 := constant S_ .f32 0x7F800000#32
  let main_v15 : FVec F S600000x294 .f32 := broadcastInDim S600000x294 ![] bcast_S_S600000x294 main_cst_4
  let main_v16 : IVec S600000x294 1 := cmpf .olt main_v14 main_v15
  fn_part1 (F := F) main_arg4 main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_v13 main_v16
-- ==== Kernel.lean ====
abbrev S200000x128 : Shape := ⟨2, ![200000, 128]⟩
abbrev S200000x6 : Shape := ⟨2, ![200000, 6]⟩
abbrev S600000x42 : Shape := ⟨2, ![600000, 42]⟩
abbrev S600000x294 : Shape := ⟨2, ![600000, 294]⟩
abbrev S600000 : Shape := ⟨1, ![600000]⟩
abbrev S6x8 : Shape := ⟨2, ![6, 8]⟩
abbrev S8x128 : Shape := ⟨2, ![8, 128]⟩
abbrev S42x8 : Shape := ⟨2, ![42, 8]⟩
abbrev S8x64 : Shape := ⟨2, ![8, 64]⟩
abbrev S294x8 : Shape := ⟨2, ![294, 8]⟩
abbrev S6x128 : Shape := ⟨2, ![6, 128]⟩
abbrev S128x128 : Shape := ⟨2, ![128, 128]⟩
abbrev S128 : Shape := ⟨1, ![128]⟩
abbrev S128x64 : Shape := ⟨2, ![128, 64]⟩
abbrev S64x128 : Shape := ⟨2, ![64, 128]⟩
abbrev S1x128x128 : Shape := ⟨3, ![1, 128, 128]⟩
abbrev S1x128 : Shape := ⟨2, ![1, 128]⟩
abbrev S2x128x128 : Shape := ⟨3, ![2, 128, 128]⟩
abbrev S2x128 : Shape := ⟨2, ![2, 128]⟩
abbrev S200000x64 : Shape := ⟨2, ![200000, 64]⟩
abbrev S4000x128 : Shape := ⟨2, ![4000, 128]⟩
abbrev S4000x6 : Shape := ⟨2, ![4000, 6]⟩
abbrev S4000x64 : Shape := ⟨2, ![4000, 64]⟩
abbrev S4000x8 : Shape := ⟨2, ![4000, 8]⟩
abbrev S_ : Shape := ⟨0, ![]⟩
abbrev S600000x1 : Shape := ⟨2, ![600000, 1]⟩
abbrev S1 : Shape := ⟨1, ![1]⟩
abbrev S1x1 : Shape := ⟨2, ![1, 1]⟩
abbrev S600000x64 : Shape := ⟨2, ![600000, 64]⟩
abbrev S4000x42 : Shape := ⟨2, ![4000, 42]⟩
abbrev S4000x294 : Shape := ⟨2, ![4000, 294]⟩

abbrev nBuf : Space → Nat
  | .hbm => 78
  | .vmem => 55
  | .smem => 0
  | _ => 0

abbrev bufTy : (tb : Table) → Fin (tcTables nBuf tb) → BufTy
  | .hbm, ⟨0, _⟩ => ⟨S200000x128, .f32⟩
  | .hbm, ⟨1, _⟩ => ⟨S200000x6, .f32⟩
  | .hbm, ⟨2, _⟩ => ⟨S600000x42, .f32⟩
  | .hbm, ⟨3, _⟩ => ⟨S600000x294, .f32⟩
  | .hbm, ⟨4, _⟩ => ⟨S600000, .i32⟩
  | .hbm, ⟨5, _⟩ => ⟨S600000, .i32⟩
  | .hbm, ⟨6, _⟩ => ⟨S6x8, .f32⟩
  | .hbm, ⟨7, _⟩ => ⟨S8x128, .f32⟩
  | .hbm, ⟨8, _⟩ => ⟨S42x8, .f32⟩
  | .hbm, ⟨9, _⟩ => ⟨S8x64, .f32⟩
  | .hbm, ⟨10, _⟩ => ⟨S294x8, .f32⟩
  | .hbm, ⟨11, _⟩ => ⟨S8x64, .f32⟩
  | .hbm, ⟨12, _⟩ => ⟨S6x128, .f32⟩
  | .hbm, ⟨13, _⟩ => ⟨S128x128, .f32⟩
  | .hbm, ⟨14, _⟩ => ⟨S128, .f32⟩
  | .hbm, ⟨15, _⟩ => ⟨S128x128, .f32⟩
  | .hbm, ⟨16, _⟩ => ⟨S128, .f32⟩
  | .hbm, ⟨17, _⟩ => ⟨S128x64, .f32⟩
  | .hbm, ⟨18, _⟩ => ⟨S64x128, .f32⟩
  | .hbm, ⟨19, _⟩ => ⟨S1x128x128, .f32⟩
  | .hbm, ⟨20, _⟩ => ⟨S1x128, .f32⟩
  | .hbm, ⟨21, _⟩ => ⟨S1x128x128, .f32⟩
  | .hbm, ⟨22, _⟩ => ⟨S1x128, .f32⟩
  | .hbm, ⟨23, _⟩ => ⟨S128x128, .f32⟩
  | .hbm, ⟨24, _⟩ => ⟨S128, .f32⟩
  | .hbm, ⟨25, _⟩ => ⟨S2x128x128, .f32⟩
  | .hbm, ⟨26, _⟩ => ⟨S2x128, .f32⟩
  | .hbm, ⟨27, _⟩ => ⟨S2x128x128, .f32⟩
  | .hbm, ⟨28, _⟩ => ⟨S2x128, .f32⟩
  | .hbm, ⟨29, _⟩ => ⟨S1x128, .f32⟩
  | .hbm, ⟨30, _⟩ => ⟨S1x128, .f32⟩
  | .hbm, ⟨31, _⟩ => ⟨S200000x128, .f32⟩
  | .hbm, ⟨32, _⟩ => ⟨S200000x64, .f32⟩
  | .hbm, ⟨33, _⟩ => ⟨S_, .i32⟩
  | .hbm, ⟨34, _⟩ => ⟨S600000, .i32⟩
  | .hbm, ⟨35, _⟩ => ⟨S600000, .i1⟩
  | .hbm, ⟨36, _⟩ => ⟨S_, .i32⟩
  | .hbm, ⟨37, _⟩ => ⟨S600000, .i32⟩
  | .hbm, ⟨38, _⟩ => ⟨S600000, .i32⟩
  | .hbm, ⟨39, _⟩ => ⟨S600000, .i32⟩
  | .hbm, ⟨40, _⟩ => ⟨S600000x1, .i32⟩
  | .hbm, ⟨41, _⟩ => ⟨S1, .i32⟩
  | .hbm, ⟨42, _⟩ => ⟨S_, .i32⟩
  | .hbm, ⟨43, _⟩ => ⟨S600000x1, .i32⟩
  | .hbm, ⟨44, _⟩ => ⟨S600000x1, .i1⟩
  | .hbm, ⟨45, _⟩ => ⟨S1x1, .i32⟩
  | .hbm, ⟨46, _⟩ => ⟨S600000x1, .i32⟩
  | .hbm, ⟨47, _⟩ => ⟨S600000x1, .i1⟩
  | .hbm, ⟨48, _⟩ => ⟨S600000x1, .i1⟩
  | .hbm, ⟨49, _⟩ => ⟨S_, .i1⟩
  | .hbm, ⟨50, _⟩ => ⟨S600000, .i1⟩
  | .hbm, ⟨51, _⟩ => ⟨S600000x64, .f32⟩
  | .hbm, ⟨52, _⟩ => ⟨S600000x64, .i1⟩
  | .hbm, ⟨53, _⟩ => ⟨S_, .f32⟩
  | .hbm, ⟨54, _⟩ => ⟨S600000x64, .f32⟩
  | .hbm, ⟨55, _⟩ => ⟨S600000x64, .f32⟩
  | .hbm, ⟨56, _⟩ => ⟨S600000x64, .f32⟩
  | .hbm, ⟨57, _⟩ => ⟨S_, .f32⟩
  | .hbm, ⟨58, _⟩ => ⟨S200000x64, .f32⟩
  | .hbm, ⟨59, _⟩ => ⟨S600000x1, .i32⟩
  | .hbm, ⟨60, _⟩ => ⟨S200000x64, .f32⟩
  | .hbm, ⟨61, _⟩ => ⟨S128x128, .f32⟩
  | .hbm, ⟨62, _⟩ => ⟨S128x128, .f32⟩
  | .hbm, ⟨63, _⟩ => ⟨S1x128x128, .f32⟩
  | .hbm, ⟨64, _⟩ => ⟨S128x128, .f32⟩
  | .hbm, ⟨65, _⟩ => ⟨S1x128, .f32⟩
  | .hbm, ⟨66, _⟩ => ⟨S1x128x128, .f32⟩
  | .hbm, ⟨67, _⟩ => ⟨S128x128, .f32⟩
  | .hbm, ⟨68, _⟩ => ⟨S1x128, .f32⟩
  | .hbm, ⟨69, _⟩ => ⟨S1x128x128, .f32⟩
  | .hbm, ⟨70, _⟩ => ⟨S128x128, .f32⟩
  | .hbm, ⟨71, _⟩ => ⟨S1x128, .f32⟩
  | .hbm, ⟨72, _⟩ => ⟨S1x128x128, .f32⟩
  | .hbm, ⟨73, _⟩ => ⟨S128x128, .f32⟩
  | .hbm, ⟨74, _⟩ => ⟨S1x128, .f32⟩
  | .hbm, ⟨75, _⟩ => ⟨S1x128, .f32⟩
  | .hbm, ⟨76, _⟩ => ⟨S200000x128, .f32⟩
  | .hbm, ⟨77, _⟩ => ⟨S200000x128, .f32⟩
  | .local _ .vmem, ⟨0, _⟩ => ⟨S4000x128, .f32⟩
  | .local _ .vmem, ⟨1, _⟩ => ⟨S4000x128, .f32⟩
  | .local _ .vmem, ⟨2, _⟩ => ⟨S4000x6, .f32⟩
  | .local _ .vmem, ⟨3, _⟩ => ⟨S4000x6, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S6x8, .f32⟩
  | .local _ .vmem, ⟨9, _⟩ => ⟨S8x128, .f32⟩
  | .local _ .vmem, ⟨10, _⟩ => ⟨S128x64, .f32⟩
  | .local _ .vmem, ⟨11, _⟩ => ⟨S4000x128, .f32⟩
  | .local _ .vmem, ⟨12, _⟩ => ⟨S4000x128, .f32⟩
  | .local _ .vmem, ⟨13, _⟩ => ⟨S4000x64, .f32⟩
  | .local _ .vmem, ⟨14, _⟩ => ⟨S4000x64, .f32⟩
  | .local _ .vmem, ⟨15, _⟩ => ⟨S4000x42, .f32⟩
  | .local _ .vmem, ⟨16, _⟩ => ⟨S4000x42, .f32⟩
  | .local _ .vmem, ⟨17, _⟩ => ⟨S4000x294, .f32⟩
  | .local _ .vmem, ⟨18, _⟩ => ⟨S4000x294, .f32⟩
  | .local _ .vmem, ⟨19, _⟩ => ⟨S4000x64, .f32⟩
  | .local _ .vmem, ⟨20, _⟩ => ⟨S4000x64, .f32⟩
  | .local _ .vmem, ⟨21, _⟩ => ⟨S42x8, .f32⟩
  | .local _ .vmem, ⟨22, _⟩ => ⟨S8x64, .f32⟩
  | .local _ .vmem, ⟨23, _⟩ => ⟨S294x8, .f32⟩
  | .local _ .vmem, ⟨24, _⟩ => ⟨S8x64, .f32⟩
  | .local _ .vmem, ⟨25, _⟩ => ⟨S4000x64, .f32⟩
  | .local _ .vmem, ⟨26, _⟩ => ⟨S4000x64, .f32⟩
  | .local _ .vmem, ⟨27, _⟩ => ⟨S4000x128, .f32⟩
  | .local _ .vmem, ⟨28, _⟩ => ⟨S4000x128, .f32⟩
  | .local _ .vmem, ⟨29, _⟩ => ⟨S4000x64, .f32⟩
  | .local _ .vmem, ⟨30, _⟩ => ⟨S4000x64, .f32⟩
  | .local _ .vmem, ⟨31, _⟩ => ⟨S4000x128, .f32⟩
  | .local _ .vmem, ⟨32, _⟩ => ⟨S4000x128, .f32⟩
  | .local _ .vmem, ⟨33, _⟩ => ⟨S4000x6, .f32⟩
  | .local _ .vmem, ⟨34, _⟩ => ⟨S4000x6, .f32⟩
  | .local _ .vmem, ⟨35, _⟩ => ⟨S64x128, .f32⟩
  | .local _ .vmem, ⟨36, _⟩ => ⟨S128x128, .f32⟩
  | .local _ .vmem, ⟨37, _⟩ => ⟨S1x128, .f32⟩
  | .local _ .vmem, ⟨38, _⟩ => ⟨S128x128, .f32⟩
  | .local _ .vmem, ⟨39, _⟩ => ⟨S1x128, .f32⟩
  | .local _ .vmem, ⟨40, _⟩ => ⟨S128x128, .f32⟩
  | .local _ .vmem, ⟨41, _⟩ => ⟨S1x128, .f32⟩
  | .local _ .vmem, ⟨42, _⟩ => ⟨S128x128, .f32⟩
  | .local _ .vmem, ⟨43, _⟩ => ⟨S1x128, .f32⟩
  | .local _ .vmem, ⟨44, _⟩ => ⟨S128x128, .f32⟩
  | .local _ .vmem, ⟨45, _⟩ => ⟨S1x128, .f32⟩
  | .local _ .vmem, ⟨46, _⟩ => ⟨S128x128, .f32⟩
  | .local _ .vmem, ⟨47, _⟩ => ⟨S1x128, .f32⟩
  | .local _ .vmem, ⟨48, _⟩ => ⟨S128x128, .f32⟩
  | .local _ .vmem, ⟨49, _⟩ => ⟨S1x128, .f32⟩
  | .local _ .vmem, ⟨50, _⟩ => ⟨S6x128, .f32⟩
  | .local _ .vmem, ⟨51, _⟩ => ⟨S4000x128, .f32⟩
  | .local _ .vmem, ⟨52, _⟩ => ⟨S4000x128, .f32⟩
  | .local _ .vmem, ⟨53, _⟩ => ⟨S4000x128, .f32⟩
  | .local _ .vmem, ⟨54, _⟩ => ⟨S4000x128, .f32⟩
  | _, _ => ⟨S200000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | _, _ => false

abbrev semScoped : Fin 0 → Bool
  | ⟨_, h⟩ => absurd h (Nat.not_lt_zero _)

abbrev dmaSemScoped : Fin 55 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | _ => false

abbrev sig : RefSig :=
  ofTc nBuf bufTy 0 55 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_v0 : Ref sig .tc := ⟨.hbm, 29, rfl⟩
abbrev main_v1 : Ref sig .tc := ⟨.hbm, 30, rfl⟩
abbrev main_v2_0 : Ref sig .tc := ⟨.hbm, 31, rfl⟩
abbrev main_v2_1 : Ref sig .tc := ⟨.hbm, 32, rfl⟩
abbrev main_call0_c : Ref sig .tc := ⟨.hbm, 33, rfl⟩
abbrev main_call0_v0 : Ref sig .tc := ⟨.hbm, 34, rfl⟩
abbrev main_call0_v1 : Ref sig .tc := ⟨.hbm, 35, rfl⟩
abbrev main_call0_c_0 : Ref sig .tc := ⟨.hbm, 36, rfl⟩
abbrev main_call0_v2 : Ref sig .tc := ⟨.hbm, 37, rfl⟩
abbrev main_call0_v3 : Ref sig .tc := ⟨.hbm, 38, rfl⟩
abbrev main_call0_v4 : Ref sig .tc := ⟨.hbm, 39, rfl⟩
abbrev main_call0_v5 : Ref sig .tc := ⟨.hbm, 40, rfl⟩
abbrev main_call0_c_1 : Ref sig .tc := ⟨.hbm, 41, rfl⟩
abbrev main_call0_c_2 : Ref sig .tc := ⟨.hbm, 42, rfl⟩
abbrev main_call0_v6 : Ref sig .tc := ⟨.hbm, 43, rfl⟩
abbrev main_call0_v7 : Ref sig .tc := ⟨.hbm, 44, rfl⟩
abbrev main_call0_v8 : Ref sig .tc := ⟨.hbm, 45, rfl⟩
abbrev main_call0_v9 : Ref sig .tc := ⟨.hbm, 46, rfl⟩
abbrev main_call0_v10 : Ref sig .tc := ⟨.hbm, 47, rfl⟩
abbrev main_call0_v11 : Ref sig .tc := ⟨.hbm, 48, rfl⟩
abbrev main_call0_c_3 : Ref sig .tc := ⟨.hbm, 49, rfl⟩
abbrev main_call0_v12 : Ref sig .tc := ⟨.hbm, 50, rfl⟩
abbrev main_call0_v13 : Ref sig .tc := ⟨.hbm, 51, rfl⟩
abbrev main_call0_v14 : Ref sig .tc := ⟨.hbm, 52, rfl⟩
abbrev main_call0_cst : Ref sig .tc := ⟨.hbm, 53, rfl⟩
abbrev main_call0_v15 : Ref sig .tc := ⟨.hbm, 54, rfl⟩
abbrev main_v3 : Ref sig .tc := ⟨.hbm, 55, rfl⟩
abbrev main_v4 : Ref sig .tc := ⟨.hbm, 56, rfl⟩
abbrev main_cst : Ref sig .tc := ⟨.hbm, 57, rfl⟩
abbrev main_v5 : Ref sig .tc := ⟨.hbm, 58, rfl⟩
abbrev main_v6 : Ref sig .tc := ⟨.hbm, 59, rfl⟩
abbrev main_v7 : Ref sig .tc := ⟨.hbm, 60, rfl⟩
abbrev main_v8 : Ref sig .tc := ⟨.hbm, 61, rfl⟩
abbrev main_v9 : Ref sig .tc := ⟨.hbm, 62, rfl⟩
abbrev main_v10 : Ref sig .tc := ⟨.hbm, 63, rfl⟩
abbrev main_v11 : Ref sig .tc := ⟨.hbm, 64, rfl⟩
abbrev main_v12 : Ref sig .tc := ⟨.hbm, 65, rfl⟩
abbrev main_v13 : Ref sig .tc := ⟨.hbm, 66, rfl⟩
abbrev main_v14 : Ref sig .tc := ⟨.hbm, 67, rfl⟩
abbrev main_v15 : Ref sig .tc := ⟨.hbm, 68, rfl⟩
abbrev main_v16 : Ref sig .tc := ⟨.hbm, 69, rfl⟩
abbrev main_v17 : Ref sig .tc := ⟨.hbm, 70, rfl⟩
abbrev main_v18 : Ref sig .tc := ⟨.hbm, 71, rfl⟩
abbrev main_v19 : Ref sig .tc := ⟨.hbm, 72, rfl⟩
abbrev main_v20 : Ref sig .tc := ⟨.hbm, 73, rfl⟩
abbrev main_v21 : Ref sig .tc := ⟨.hbm, 74, rfl⟩
abbrev main_v22 : Ref sig .tc := ⟨.hbm, 75, rfl⟩
abbrev main_v23_0 : Ref sig .tc := ⟨.hbm, 76, rfl⟩
abbrev main_v23_1 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg1_1 : Ref sig .tc := ⟨.vmem, 18, rfl⟩
abbrev cc1_stg2_0 : Ref sig .tc := ⟨.vmem, 19, rfl⟩
abbrev cc1_stg2_1 : Ref sig .tc := ⟨.vmem, 20, rfl⟩
abbrev cc1_stg3_0 : Ref sig .tc := ⟨.vmem, 21, rfl⟩
abbrev cc1_stg4_0 : Ref sig .tc := ⟨.vmem, 22, rfl⟩
abbrev cc1_stg5_0 : Ref sig .tc := ⟨.vmem, 23, rfl⟩
abbrev cc1_stg6_0 : Ref sig .tc := ⟨.vmem, 24, rfl⟩
abbrev cc1_stg7_0 : Ref sig .tc := ⟨.vmem, 25, rfl⟩
abbrev cc1_stg7_1 : Ref sig .tc := ⟨.vmem, 26, rfl⟩
abbrev cc2_stg0_0 : Ref sig .tc := ⟨.vmem, 27, rfl⟩
abbrev cc2_stg0_1 : Ref sig .tc := ⟨.vmem, 28, rfl⟩
abbrev cc2_stg1_0 : Ref sig .tc := ⟨.vmem, 29, rfl⟩
abbrev cc2_stg1_1 : Ref sig .tc := ⟨.vmem, 30, rfl⟩
abbrev cc2_stg2_0 : Ref sig .tc := ⟨.vmem, 31, rfl⟩
abbrev cc2_stg2_1 : Ref sig .tc := ⟨.vmem, 32, rfl⟩
abbrev cc2_stg3_0 : Ref sig .tc := ⟨.vmem, 33, rfl⟩
abbrev cc2_stg3_1 : Ref sig .tc := ⟨.vmem, 34, rfl⟩
abbrev cc2_stg4_0 : Ref sig .tc := ⟨.vmem, 35, rfl⟩
abbrev cc2_stg5_0 : Ref sig .tc := ⟨.vmem, 36, rfl⟩
abbrev cc2_stg6_0 : Ref sig .tc := ⟨.vmem, 37, rfl⟩
abbrev cc2_stg7_0 : Ref sig .tc := ⟨.vmem, 38, rfl⟩
abbrev cc2_stg8_0 : Ref sig .tc := ⟨.vmem, 39, rfl⟩
abbrev cc2_stg9_0 : Ref sig .tc := ⟨.vmem, 40, rfl⟩
abbrev cc2_stg10_0 : Ref sig .tc := ⟨.vmem, 41, rfl⟩
abbrev cc2_stg11_0 : Ref sig .tc := ⟨.vmem, 42, rfl⟩
abbrev cc2_stg12_0 : Ref sig .tc := ⟨.vmem, 43, rfl⟩
abbrev cc2_stg13_0 : Ref sig .tc := ⟨.vmem, 44, rfl⟩
abbrev cc2_stg14_0 : Ref sig .tc := ⟨.vmem, 45, rfl⟩
abbrev cc2_stg15_0 : Ref sig .tc := ⟨.vmem, 46, rfl⟩
abbrev cc2_stg16_0 : Ref sig .tc := ⟨.vmem, 47, rfl⟩
abbrev cc2_stg17_0 : Ref sig .tc := ⟨.vmem, 48, rfl⟩
abbrev cc2_stg18_0 : Ref sig .tc := ⟨.vmem, 49, rfl⟩
abbrev cc2_stg19_0 : Ref sig .tc := ⟨.vmem, 50, rfl⟩
abbrev cc2_stg20_0 : Ref sig .tc := ⟨.vmem, 51, rfl⟩
abbrev cc2_stg20_1 : Ref sig .tc := ⟨.vmem, 52, rfl⟩
abbrev cc2_stg21_0 : Ref sig .tc := ⟨.vmem, 53, rfl⟩
abbrev cc2_stg21_1 : Ref sig .tc := ⟨.vmem, 54, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc0_sem10_0 : DmaSem sig := 13
abbrev cc0_sem10_1 : DmaSem sig := 14
abbrev cc1_sem0_0 : DmaSem sig := 15
abbrev cc1_sem0_1 : DmaSem sig := 16
abbrev cc1_sem1_0 : DmaSem sig := 17
abbrev cc1_sem1_1 : DmaSem sig := 18
abbrev cc1_sem2_0 : DmaSem sig := 19
abbrev cc1_sem2_1 : DmaSem sig := 20
abbrev cc1_sem3_0 : DmaSem sig := 21
abbrev cc1_sem4_0 : DmaSem sig := 22
abbrev cc1_sem5_0 : DmaSem sig := 23
abbrev cc1_sem6_0 : DmaSem sig := 24
abbrev cc1_sem7_0 : DmaSem sig := 25
abbrev cc1_sem7_1 : DmaSem sig := 26
abbrev cc2_sem0_0 : DmaSem sig := 27
abbrev cc2_sem0_1 : DmaSem sig := 28
abbrev cc2_sem1_0 : DmaSem sig := 29
abbrev cc2_sem1_1 : DmaSem sig := 30
abbrev cc2_sem2_0 : DmaSem sig := 31
abbrev cc2_sem2_1 : DmaSem sig := 32
abbrev cc2_sem3_0 : DmaSem sig := 33
abbrev cc2_sem3_1 : DmaSem sig := 34
abbrev cc2_sem4_0 : DmaSem sig := 35
abbrev cc2_sem5_0 : DmaSem sig := 36
abbrev cc2_sem6_0 : DmaSem sig := 37
abbrev cc2_sem7_0 : DmaSem sig := 38
abbrev cc2_sem8_0 : DmaSem sig := 39
abbrev cc2_sem9_0 : DmaSem sig := 40
abbrev cc2_sem10_0 : DmaSem sig := 41
abbrev cc2_sem11_0 : DmaSem sig := 42
abbrev cc2_sem12_0 : DmaSem sig := 43
abbrev cc2_sem13_0 : DmaSem sig := 44
abbrev cc2_sem14_0 : DmaSem sig := 45
abbrev cc2_sem15_0 : DmaSem sig := 46
abbrev cc2_sem16_0 : DmaSem sig := 47
abbrev cc2_sem17_0 : DmaSem sig := 48
abbrev cc2_sem18_0 : DmaSem sig := 49
abbrev cc2_sem19_0 : DmaSem sig := 50
abbrev cc2_sem20_0 : DmaSem sig := 51
abbrev cc2_sem20_1 : DmaSem sig := 52
abbrev cc2_sem21_0 : DmaSem sig := 53
abbrev cc2_sem21_1 : DmaSem sig := 54

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x6 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S6x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S4000x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S4000x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev grid1 : Pipeline.Grid := ⟨1, ![150], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x42 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x294 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S42x8 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S8x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S294x8 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S8x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S4000x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_12 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_13 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_14 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_15 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_16 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_17 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_18 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_19 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_20 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_21 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S4000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S4000x6 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S64x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S128x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S128x128 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S1x128 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 1 → Memref sig .tc .vmem S128x128 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false]

abbrev stage2_12 : Fin 1 → Memref sig .tc .vmem S1x128 .f32 := fun | 0 => Memref.whole cc2_stg12_0 | ⟨_ + 1, h⟩ => absurd h (Nat.not_lt.2 (Nat.le_add_left _ _))
abbrev sem2_12 : Fin 1 → DmaSem sig := fun | 0 => cc2_sem12_0 | ⟨_ + 1, h⟩ => absurd h (Nat.not_lt.2 (Nat.le_add_left _ _))
abbrev reads2_12 : Fin grid2.rank → Bool := ![false]

abbrev stage2_13 : Fin 1 → Memref sig .tc .vmem S128x128 .f32 := fun | 0 => Memref.whole cc2_stg13_0 | ⟨_ + 1, h⟩ => absurd h (Nat.not_lt.2 (Nat.le_add_left _ _))
abbrev sem2_13 : Fin 1 → DmaSem sig := fun | 0 => cc2_sem13_0 | ⟨_ + 1, h⟩ => absurd h (Nat.not_lt.2 (Nat.le_add_left _ _))
abbrev reads2_13 : Fin grid2.rank → Bool := ![false]

abbrev stage2_14 : Fin 1 → Memref sig .tc .vmem S1x128 .f32 := fun | 0 => Memref.whole cc2_stg14_0 | ⟨_ + 1, h⟩ => absurd h (Nat.not_lt.2 (Nat.le_add_left _ _))
abbrev sem2_14 : Fin 1 → DmaSem sig := fun | 0 => cc2_sem14_0 | ⟨_ + 1, h⟩ => absurd h (Nat.not_lt.2 (Nat.le_add_left _ _))
abbrev reads2_14 : Fin grid2.rank → Bool := ![false]

abbrev stage2_15 : Fin 1 → Memref sig .tc .vmem S128x128 .f32 := fun | 0 => Memref.whole cc2_stg15_0 | ⟨_ + 1, h⟩ => absurd h (Nat.not_lt.2 (Nat.le_add_left _ _))
abbrev sem2_15 : Fin 1 → DmaSem sig := fun | 0 => cc2_sem15_0 | ⟨_ + 1, h⟩ => absurd h (Nat.not_lt.2 (Nat.le_add_left _ _))
abbrev reads2_15 : Fin grid2.rank → Bool := ![false]

abbrev stage2_16 : Fin 1 → Memref sig .tc .vmem S1x128 .f32 := fun | 0 => Memref.whole cc2_stg16_0 | ⟨_ + 1, h⟩ => absurd h (Nat.not_lt.2 (Nat.le_add_left _ _))
abbrev sem2_16 : Fin 1 → DmaSem sig := fun | 0 => cc2_sem16_0 | ⟨_ + 1, h⟩ => absurd h (Nat.not_lt.2 (Nat.le_add_left _ _))
abbrev reads2_16 : Fin grid2.rank → Bool := ![false]

abbrev stage2_17 : Fin 1 → Memref sig .tc .vmem S128x128 .f32 := fun | 0 => Memref.whole cc2_stg17_0 | ⟨_ + 1, h⟩ => absurd h (Nat.not_lt.2 (Nat.le_add_left _ _))
abbrev sem2_17 : Fin 1 → DmaSem sig := fun | 0 => cc2_sem17_0 | ⟨_ + 1, h⟩ => absurd h (Nat.not_lt.2 (Nat.le_add_left _ _))
abbrev reads2_17 : Fin grid2.rank → Bool := ![false]

abbrev stage2_18 : Fin 1 → Memref sig .tc .vmem S1x128 .f32 := fun | 0 => Memref.whole cc2_stg18_0 | ⟨_ + 1, h⟩ => absurd h (Nat.not_lt.2 (Nat.le_add_left _ _))
abbrev sem2_18 : Fin 1 → DmaSem sig := fun | 0 => cc2_sem18_0 | ⟨_ + 1, h⟩ => absurd h (Nat.not_lt.2 (Nat.le_add_left _ _))
abbrev reads2_18 : Fin grid2.rank → Bool := ![false]

abbrev stage2_19 : Fin 1 → Memref sig .tc .vmem S6x128 .f32 := fun | 0 => Memref.whole cc2_stg19_0 | ⟨_ + 1, h⟩ => absurd h (Nat.not_lt.2 (Nat.le_add_left _ _))
abbrev sem2_19 : Fin 1 → DmaSem sig := fun | 0 => cc2_sem19_0 | ⟨_ + 1, h⟩ => absurd h (Nat.not_lt.2 (Nat.le_add_left _ _))
abbrev reads2_19 : Fin grid2.rank → Bool := ![false]

abbrev stage2_20 : Fin 2 → Memref sig .tc .vmem S4000x128 .f32 := fun | 0 => Memref.whole cc2_stg20_0 | 1 => Memref.whole cc2_stg20_1 | ⟨_ + 2, h⟩ => absurd h (Nat.not_lt.2 (Nat.le_add_left _ _))
abbrev sem2_20 : Fin 2 → DmaSem sig := fun | 0 => cc2_sem20_0 | 1 => cc2_sem20_1 | ⟨_ + 2, h⟩ => absurd h (Nat.not_lt.2 (Nat.le_add_left _ _))
abbrev reads2_20 : Fin grid2.rank → Bool := ![true]

abbrev stage2_21 : Fin 2 → Memref sig .tc .vmem S4000x128 .f32 := fun | 0 => Memref.whole cc2_stg21_0 | 1 => Memref.whole cc2_stg21_1 | ⟨_ + 2, h⟩ => absurd h (Nat.not_lt.2 (Nat.le_add_left _ _))
abbrev sem2_21 : Fin 2 → DmaSem sig := fun | 0 => cc2_sem21_0 | 1 => cc2_sem21_1 | ⟨_ + 2, h⟩ => absurd h (Nat.not_lt.2 (Nat.le_add_left _ _))
abbrev reads2_21 : Fin grid2.rank → Bool := ![true]

class Facts₀ : Prop where
  shapeCasts_S128_S1x128 : S128.ShapeCasts S1x128
  inb_S4000x128_S4000x128_0_0 : ∀ a, (![0, 0] : Fin 2 → Nat) a + S4000x128.size a ≤ S4000x128.size a
  h_S4000x128 : 0 < S4000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  inb_S4000x6_S4000x6_0_0 : ∀ a, (![0, 0] : Fin 2 → Nat) a + S4000x6.size a ≤ S4000x6.size a
  h_S4000x6 : 0 < S4000x6.numel
  inb_S6x8_S6x8_0_0 : ∀ a, (![0, 0] : Fin 2 → Nat) a + S6x8.size a ≤ S6x8.size a
  h_S6x8 : 0 < S6x8.numel
  inb_S8x128_S8x128_0_0 : ∀ a, (![0, 0] : Fin 2 → Nat) a + S8x128.size a ≤ S8x128.size a
  h_S8x128 : 0 < S8x128.numel
  inb_S128x64_S128x64_0_0 : ∀ a, (![0, 0] : Fin 2 → Nat) a + S128x64.size a ≤ S128x64.size a
  h_S128x64 : 0 < S128x64.numel
  inb_S4000x64_S4000x64_0_0 : ∀ a, (![0, 0] : Fin 2 → Nat) a + S4000x64.size a ≤ S4000x64.size a
  h_S4000x64 : 0 < S4000x64.numel
  bcast_S_S600000 : S_.BroadcastsInDim S600000 (![] : Fin 0 → Fin S600000.rank)
  bcast_S600000_S600000x1_0 : S600000.BroadcastsInDim S600000x1 (![0] : Fin 1 → Fin S600000x1.rank)
  bcast_S_S600000x1 : S_.BroadcastsInDim S600000x1 (![] : Fin 0 → Fin S600000x1.rank)
  bcast_S1_S1x1_1 : S1.BroadcastsInDim S1x1 (![1] : Fin 1 → Fin S1x1.rank)
  bcast_S1x1_S600000x1_0_1 : S1x1.BroadcastsInDim S600000x1 (![0, 1] : Fin 2 → Fin S600000x1.rank)
  reducesTo_S600000x1_S600000_d1 : S600000x1.ReducesTo [1] S600000
  h_S_ : 0 < S_.numel
  bcast_S600000_S600000x64_0 : S600000.BroadcastsInDim S600000x64 (![0] : Fin 1 → Fin S600000x64.rank)
  bcast_S_S600000x64 : S_.BroadcastsInDim S600000x64 (![] : Fin 0 → Fin S600000x64.rank)
  inb_S4000x42_S4000x42_0_0 : ∀ a, (![0, 0] : Fin 2 → Nat) a + S4000x42.size a ≤ S4000x42.size a
  h_S4000x42 : 0 < S4000x42.numel
  inb_S42x8_S42x8_0_0 : ∀ a, (![0, 0] : Fin 2 → Nat) a + S42x8.size a ≤ S42x8.size a
  h_S42x8 : 0 < S42x8.numel
  inb_S8x64_S8x64_0_0 : ∀ a, (![0, 0] : Fin 2 → Nat) a + S8x64.size a ≤ S8x64.size a
  h_S8x64 : 0 < S8x64.numel
  inb_S4000x294_S4000x294_0_0 : ∀ a, (![0, 0] : Fin 2 → Nat) a + S4000x294.size a ≤ S4000x294.size a
  h_S4000x294 : 0 < S4000x294.numel
  inb_S294x8_S294x8_0_0 : ∀ a, (![0, 0] : Fin 2 → Nat) a + S294x8.size a ≤ S294x8.size a
  h_S294x8 : 0 < S294x8.numel
  shapeCasts_S4000x64_S4000x64 : S4000x64.ShapeCasts S4000x64
  bcast_S_S200000x64 : S_.BroadcastsInDim S200000x64 (![] : Fin 0 → Fin S200000x64.rank)
  shapeCasts_S1x128x128_S128x128 : S1x128x128.ShapeCasts S128x128
  slices_S2x128x128_S1x128x128_0_0_0 : S2x128x128.Slices ![0, 0, 0] S1x128x128
  slices_S2x128_S1x128_0_0 : S2x128.Slices ![0, 0] S1x128
  slices_S2x128x128_S1x128x128_1_0_0 : S2x128x128.Slices ![1, 0, 0] S1x128x128
  slices_S2x128_S1x128_1_0 : S2x128.Slices ![1, 0] S1x128
  inb_S64x128_S64x128_0_0 : ∀ a, (![0, 0] : Fin 2 → Nat) a + S64x128.size a ≤ S64x128.size a
  h_S64x128 : 0 < S64x128.numel
  shapeCasts_S4000x128_S4000x128 : S4000x128.ShapeCasts S4000x128
  shapeCasts_S128x128_S128x128 : S128x128.ShapeCasts S128x128
  inb_S6x128_S6x128_0_0 : ∀ a, (![0, 0] : Fin 2 → Nat) a + S6x128.size a ≤ S6x128.size a
  h_S6x128 : 0 < S6x128.numel
  dot_S4000x128_S128x128_S4000x128_1_0_0_1_n_n_wf : DotDims.WF S4000x128 S128x128 S4000x128 [1] [0] [0] [1] [] []
  dot_S4000x6_S6x8_S4000x8_1_0_0_1_n_n_wf : DotDims.WF S4000x6 S6x8 S4000x8 [1] [0] [0] [1] [] []
  dot_S4000x8_S8x128_S4000x128_1_0_0_1_n_n_wf : DotDims.WF S4000x8 S8x128 S4000x128 [1] [0] [0] [1] [] []
  dot_S4000x128_S128x64_S4000x64_1_0_0_1_n_n_wf : DotDims.WF S4000x128 S128x64 S4000x64 [1] [0] [0] [1] [] []
  gather_S200000x64_S600000x1_S600000x64_1_0_n_n_0_1_164_wf : GatherDims.WF S200000x64 S600000x1 S600000x64 [1] [0] [] [0] [] 1 ![1, 64]
  dot_S4000x42_S42x8_S4000x8_1_0_0_1_n_n_wf : DotDims.WF S4000x42 S42x8 S4000x8 [1] [0] [0] [1] [] []
  dot_S4000x8_S8x64_S4000x64_1_0_0_1_n_n_wf : DotDims.WF S4000x8 S8x64 S4000x64 [1] [0] [0] [1] [] []
  dot_S4000x294_S294x8_S4000x8_1_0_0_1_n_n_wf : DotDims.WF S4000x294 S294x8 S4000x8 [1] [0] [0] [1] [] []
  scatter_S200000x64_S600000x1_S600000x64_1_0_0_1_wf : ScatterDims.WF S200000x64 S600000x1 S600000x64 [1] [0] [0] 1
  dot_S4000x64_S64x128_S4000x128_1_0_0_1_n_n_wf : DotDims.WF S4000x64 S64x128 S4000x128 [1] [0] [0] [1] [] []
  dot_S4000x6_S6x128_S4000x128_1_0_0_1_n_n_wf : DotDims.WF S4000x6 S6x128 S4000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S200000x128.size a
  hwx0_0 : ∀ i : grid0.Coords, EltTy.bits .f32 = 32 ∨ (Rect.block (s := S200000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x6.size a ≤ S200000x6.size a
  hwx0_1 : ∀ i : grid0.Coords, EltTy.bits .f32 = 32 ∨ (Rect.block (s := S200000x6) S4000x6.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S6x8.size a ≤ S6x8.size a
  hwx0_6 : ∀ i : grid0.Coords, EltTy.bits .f32 = 32 ∨ (Rect.block (s := S6x8) S6x8.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S8x128.size a ≤ S8x128.size a
  hwx0_7 : ∀ i : grid0.Coords, EltTy.bits .f32 = 32 ∨ (Rect.block (s := S8x128) S8x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x64.size a ≤ S128x64.size a
  hwx0_8 : ∀ i : grid0.Coords, EltTy.bits .f32 = 32 ∨ (Rect.block (s := S128x64) S128x64.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S4000x128.size a ≤ S200000x128.size a
  hwx0_9 : ∀ i : grid0.Coords, EltTy.bits .f32 = 32 ∨ (Rect.block (s := S200000x128) S4000x128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S4000x64.size a ≤ S200000x64.size a
  hwx0_10 : ∀ i : grid0.Coords, EltTy.bits .f32 = 32 ∨ (Rect.block (s := S200000x64) S4000x64.size (cc0_transform_10 i) (hinb0_10 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x42.size a ≤ S600000x42.size a
  hwx1_0 : ∀ i : grid1.Coords, EltTy.bits .f32 = 32 ∨ (Rect.block (s := S600000x42) S4000x42.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x294.size a ≤ S600000x294.size a
  hwx1_1 : ∀ i : grid1.Coords, EltTy.bits .f32 = 32 ∨ (Rect.block (s := S600000x294) S4000x294.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x64.size a ≤ S600000x64.size a
  hwx1_2 : ∀ i : grid1.Coords, EltTy.bits .f32 = 32 ∨ (Rect.block (s := S600000x64) S4000x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S42x8.size a ≤ S42x8.size a
  hwx1_3 : ∀ i : grid1.Coords, EltTy.bits .f32 = 32 ∨ (Rect.block (s := S42x8) S42x8.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S8x64.size a ≤ S8x64.size a
  hwx1_4 : ∀ i : grid1.Coords, EltTy.bits .f32 = 32 ∨ (Rect.block (s := S8x64) S8x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S294x8.size a ≤ S294x8.size a
  hwx1_5 : ∀ i : grid1.Coords, EltTy.bits .f32 = 32 ∨ (Rect.block (s := S294x8) S294x8.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S8x64.size a ≤ S8x64.size a
  hwx1_6 : ∀ i : grid1.Coords, EltTy.bits .f32 = 32 ∨ (Rect.block (s := S8x64) S8x64.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S4000x64.size a ≤ S600000x64.size a
  hwx1_7 : ∀ i : grid1.Coords, EltTy.bits .f32 = 32 ∨ (Rect.block (s := S600000x64) S4000x64.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S200000x128.size a
  hwx2_0 : ∀ i : grid2.Coords, EltTy.bits .f32 = 32 ∨ (Rect.block (s := S200000x128) S4000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x64.size a ≤ S200000x64.size a
  hwx2_1 : ∀ i : grid2.Coords, EltTy.bits .f32 = 32 ∨ (Rect.block (s := S200000x64) S4000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x128.size a ≤ S200000x128.size a
  hwx2_2 : ∀ i : grid2.Coords, EltTy.bits .f32 = 32 ∨ (Rect.block (s := S200000x128) S4000x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S4000x6.size a ≤ S200000x6.size a
  hwx2_3 : ∀ i : grid2.Coords, EltTy.bits .f32 = 32 ∨ (Rect.block (s := S200000x6) S4000x6.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x128.size a ≤ S64x128.size a
  hwx2_4 : ∀ i : grid2.Coords, EltTy.bits .f32 = 32 ∨ (Rect.block (s := S64x128) S64x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .f32 = 32 ∨ (Rect.block (s := S128x128) S128x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S128x128.size a ≤ S128x128.size a
  hwx2_7 : ∀ i : grid2.Coords, EltTy.bits .f32 = 32 ∨ (Rect.block (s := S128x128) S128x128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x128.size a ≤ S1x128.size a
  hwx2_8 : ∀ i : grid2.Coords, EltTy.bits .f32 = 32 ∨ (Rect.block (s := S1x128) S1x128.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S128x128.size a ≤ S128x128.size a
  hwx2_9 : ∀ i : grid2.Coords, EltTy.bits .f32 = 32 ∨ (Rect.block (s := S128x128) S128x128.size (cc2_transform_9 i) (hinb2_9 i)).WholeWords (EltTy.packing .f32)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S1x128.size a ≤ S1x128.size a
  hwx2_10 : ∀ i : grid2.Coords, EltTy.bits .f32 = 32 ∨ (Rect.block (s := S1x128) S1x128.size (cc2_transform_10 i) (hinb2_10 i)).WholeWords (EltTy.packing .f32)
  hstage2_11 : ∀ j, (stage2_11 j).IsWhole
  nbuf2_11 : grid2.bufCount reads2_11 true = 1
  hreads2_11 : ∀ i i' : grid2.Coords, (∀ a, reads2_11 a = true → i a = i' a) → cc2_transform_11 i = cc2_transform_11 i'
  hinb2_11 : ∀ (i : grid2.Coords) a, (cc2_transform_11 i a + 1) * S128x128.size a ≤ S128x128.size a
  hwx2_11 : ∀ i : grid2.Coords, EltTy.bits .f32 = 32 ∨ (Rect.block (s := S128x128) S128x128.size (cc2_transform_11 i) (hinb2_11 i)).WholeWords (EltTy.packing .f32)
  hstage2_12 : ∀ j, (stage2_12 j).IsWhole
  nbuf2_12 : grid2.bufCount reads2_12 true = 1
  hreads2_12 : ∀ i i' : grid2.Coords, (∀ a, reads2_12 a = true → i a = i' a) → cc2_transform_12 i = cc2_transform_12 i'
  hinb2_12 : ∀ (i : grid2.Coords) a, (cc2_transform_12 i a + 1) * S1x128.size a ≤ S1x128.size a
  hwx2_12 : ∀ i : grid2.Coords, EltTy.bits .f32 = 32 ∨ (Rect.block (s := S1x128) S1x128.size (cc2_transform_12 i) (hinb2_12 i)).WholeWords (EltTy.packing .f32)
  hstage2_13 : ∀ j, (stage2_13 j).IsWhole
  nbuf2_13 : grid2.bufCount reads2_13 true = 1
  hreads2_13 : ∀ i i' : grid2.Coords, (∀ a, reads2_13 a = true → i a = i' a) → cc2_transform_13 i = cc2_transform_13 i'
  hinb2_13 : ∀ (i : grid2.Coords) a, (cc2_transform_13 i a + 1) * S128x128.size a ≤ S128x128.size a
  hwx2_13 : ∀ i : grid2.Coords, EltTy.bits .f32 = 32 ∨ (Rect.block (s := S128x128) S128x128.size (cc2_transform_13 i) (hinb2_13 i)).WholeWords (EltTy.packing .f32)
  hstage2_14 : ∀ j, (stage2_14 j).IsWhole
  nbuf2_14 : grid2.bufCount reads2_14 true = 1
  hreads2_14 : ∀ i i' : grid2.Coords, (∀ a, reads2_14 a = true → i a = i' a) → cc2_transform_14 i = cc2_transform_14 i'
  hinb2_14 : ∀ (i : grid2.Coords) a, (cc2_transform_14 i a + 1) * S1x128.size a ≤ S1x128.size a
  hwx2_14 : ∀ i : grid2.Coords, EltTy.bits .f32 = 32 ∨ (Rect.block (s := S1x128) S1x128.size (cc2_transform_14 i) (hinb2_14 i)).WholeWords (EltTy.packing .f32)
  hstage2_15 : ∀ j, (stage2_15 j).IsWhole
  nbuf2_15 : grid2.bufCount reads2_15 true = 1
  hreads2_15 : ∀ i i' : grid2.Coords, (∀ a, reads2_15 a = true → i a = i' a) → cc2_transform_15 i = cc2_transform_15 i'
  hinb2_15 : ∀ (i : grid2.Coords) a, (cc2_transform_15 i a + 1) * S128x128.size a ≤ S128x128.size a
  hwx2_15 : ∀ i : grid2.Coords, EltTy.bits .f32 = 32 ∨ (Rect.block (s := S128x128) S128x128.size (cc2_transform_15 i) (hinb2_15 i)).WholeWords (EltTy.packing .f32)
  hstage2_16 : ∀ j, (stage2_16 j).IsWhole
  nbuf2_16 : grid2.bufCount reads2_16 true = 1
  hreads2_16 : ∀ i i' : grid2.Coords, (∀ a, reads2_16 a = true → i a = i' a) → cc2_transform_16 i = cc2_transform_16 i'
  hinb2_16 : ∀ (i : grid2.Coords) a, (cc2_transform_16 i a + 1) * S1x128.size a ≤ S1x128.size a
  hwx2_16 : ∀ i : grid2.Coords, EltTy.bits .f32 = 32 ∨ (Rect.block (s := S1x128) S1x128.size (cc2_transform_16 i) (hinb2_16 i)).WholeWords (EltTy.packing .f32)
  hstage2_17 : ∀ j, (stage2_17 j).IsWhole
  nbuf2_17 : grid2.bufCount reads2_17 true = 1
  hreads2_17 : ∀ i i' : grid2.Coords, (∀ a, reads2_17 a = true → i a = i' a) → cc2_transform_17 i = cc2_transform_17 i'
  hinb2_17 : ∀ (i : grid2.Coords) a, (cc2_transform_17 i a + 1) * S128x128.size a ≤ S128x128.size a
  hwx2_17 : ∀ i : grid2.Coords, EltTy.bits .f32 = 32 ∨ (Rect.block (s := S128x128) S128x128.size (cc2_transform_17 i) (hinb2_17 i)).WholeWords (EltTy.packing .f32)
  hstage2_18 : ∀ j, (stage2_18 j).IsWhole
  nbuf2_18 : grid2.bufCount reads2_18 true = 1
  hreads2_18 : ∀ i i' : grid2.Coords, (∀ a, reads2_18 a = true → i a = i' a) → cc2_transform_18 i = cc2_transform_18 i'
  hinb2_18 : ∀ (i : grid2.Coords) a, (cc2_transform_18 i a + 1) * S1x128.size a ≤ S1x128.size a
  hwx2_18 : ∀ i : grid2.Coords, EltTy.bits .f32 = 32 ∨ (Rect.block (s := S1x128) S1x128.size (cc2_transform_18 i) (hinb2_18 i)).WholeWords (EltTy.packing .f32)
  hstage2_19 : ∀ j, (stage2_19 j).IsWhole
  nbuf2_19 : grid2.bufCount reads2_19 true = 1
  hreads2_19 : ∀ i i' : grid2.Coords, (∀ a, reads2_19 a = true → i a = i' a) → cc2_transform_19 i = cc2_transform_19 i'
  hinb2_19 : ∀ (i : grid2.Coords) a, (cc2_transform_19 i a + 1) * S6x128.size a ≤ S6x128.size a
  hwx2_19 : ∀ i : grid2.Coords, EltTy.bits .f32 = 32 ∨ (Rect.block (s := S6x128) S6x128.size (cc2_transform_19 i) (hinb2_19 i)).WholeWords (EltTy.packing .f32)
  hstage2_20 : ∀ j, (stage2_20 j).IsWhole
  nbuf2_20 : grid2.bufCount reads2_20 false = 2
  hreads2_20 : ∀ i i' : grid2.Coords, (∀ a, reads2_20 a = true → i a = i' a) → cc2_transform_20 i = cc2_transform_20 i'
  hinb2_20 : ∀ (i : grid2.Coords) a, (cc2_transform_20 i a + 1) * S4000x128.size a ≤ S200000x128.size a
  hwx2_20 : ∀ i : grid2.Coords, EltTy.bits .f32 = 32 ∨ (Rect.block (s := S200000x128) S4000x128.size (cc2_transform_20 i) (hinb2_20 i)).WholeWords (EltTy.packing .f32)
  hstage2_21 : ∀ j, (stage2_21 j).IsWhole
  nbuf2_21 : grid2.bufCount reads2_21 false = 2
  hreads2_21 : ∀ i i' : grid2.Coords, (∀ a, reads2_21 a = true → i a = i' a) → cc2_transform_21 i = cc2_transform_21 i'
  hinb2_21 : ∀ (i : grid2.Coords) a, (cc2_transform_21 i a + 1) * S4000x128.size a ≤ S200000x128.size a
  hwx2_21 : ∀ i : grid2.Coords, EltTy.bits .f32 = 32 ∨ (Rect.block (s := S200000x128) S4000x128.size (cc2_transform_21 i) (hinb2_21 i)).WholeWords (EltTy.packing .f32)

variable [Facts₀]

def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def dot_S4000x6_S6x8_S4000x8_1_0_0_1_n_n : DotDims S4000x6 S6x8 S4000x8 where
  lhsContracting := [1]
  rhsContracting := [0]
  lhsNonContracting := [0]
  rhsNonContracting := [1]
  lhsBatch := []
  rhsBatch := []
  wf := dot_S4000x6_S6x8_S4000x8_1_0_0_1_n_n_wf
def dot_S4000x8_S8x128_S4000x128_1_0_0_1_n_n : DotDims S4000x8 S8x128 S4000x128 where
  lhsContracting := [1]
  rhsContracting := [0]
  lhsNonContracting := [0]
  rhsNonContracting := [1]
  lhsBatch := []
  rhsBatch := []
  wf := dot_S4000x8_S8x128_S4000x128_1_0_0_1_n_n_wf
def dot_S4000x128_S128x64_S4000x64_1_0_0_1_n_n : DotDims S4000x128 S128x64 S4000x64 where
  lhsContracting := [1]
  rhsContracting := [0]
  lhsNonContracting := [0]
  rhsNonContracting := [1]
  lhsBatch := []
  rhsBatch := []
  wf := dot_S4000x128_S128x64_S4000x64_1_0_0_1_n_n_wf
def gather_S200000x64_S600000x1_S600000x64_1_0_n_n_0_1_164 : GatherDims S200000x64 S600000x1 S600000x64 where
  offsetDims := [1]
  collapsedSliceDims := [0]
  operandBatchingDims := []
  startIndicesBatchingDims := []
  startIndexMap := [0]
  indexVectorDim := 1
  sliceSizes := ![1, 64]
  wf := gather_S200000x64_S600000x1_S600000x64_1_0_n_n_0_1_164_wf
def dot_S4000x42_S42x8_S4000x8_1_0_0_1_n_n : DotDims S4000x42 S42x8 S4000x8 where
  lhsContracting := [1]
  rhsContracting := [0]
  lhsNonContracting := [0]
  rhsNonContracting := [1]
  lhsBatch := []
  rhsBatch := []
  wf := dot_S4000x42_S42x8_S4000x8_1_0_0_1_n_n_wf
def dot_S4000x8_S8x64_S4000x64_1_0_0_1_n_n : DotDims S4000x8 S8x64 S4000x64 where
  lhsContracting := [1]
  rhsContracting := [0]
  lhsNonContracting := [0]
  rhsNonContracting := [1]
  lhsBatch := []
  rhsBatch := []
  wf := dot_S4000x8_S8x64_S4000x64_1_0_0_1_n_n_wf
def dot_S4000x294_S294x8_S4000x8_1_0_0_1_n_n : DotDims S4000x294 S294x8 S4000x8 where
  lhsContracting := [1]
  rhsContracting := [0]
  lhsNonContracting := [0]
  rhsNonContracting := [1]
  lhsBatch := []
  rhsBatch := []
  wf := dot_S4000x294_S294x8_S4000x8_1_0_0_1_n_n_wf
def scatter_S200000x64_S600000x1_S600000x64_1_0_0_1 : ScatterDims S200000x64 S600000x1 S600000x64 where
  updateWindowDims := [1]
  insertedWindowDims := [0]
  scatterDimsToOperandDims := [0]
  indexVectorDim := 1
  wf := scatter_S200000x64_S600000x1_S600000x64_1_0_0_1_wf
def dot_S4000x64_S64x128_S4000x128_1_0_0_1_n_n : DotDims S4000x64 S64x128 S4000x128 where
  lhsContracting := [1]
  rhsContracting := [0]
  lhsNonContracting := [0]
  rhsNonContracting := [1]
  lhsBatch := []
  rhsBatch := []
  wf := dot_S4000x64_S64x128_S4000x128_1_0_0_1_n_n_wf
def dot_S4000x6_S6x128_S4000x128_1_0_0_1_n_n : DotDims S4000x6 S6x128 S4000x128 where
  lhsContracting := [1]
  rhsContracting := [0]
  lhsNonContracting := [0]
  rhsNonContracting := [1]
  lhsBatch := []
  rhsBatch := []
  wf := dot_S4000x6_S6x128_S4000x128_1_0_0_1_n_n_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4000x6.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg15) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg13) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S6x8.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S8x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg17) S128x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v2_0) S4000x128.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v2_1) S4000x64.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev win1_0 : Pipeline.Window sig grid1 :=
  Pipeline.Window.ofSpec (Memref.whole main_arg2) S4000x42.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S4000x294.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S4000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg8) S42x8.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg9) S8x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg10) S294x8.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg11) S8x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v4) S4000x64.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v2_0) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v7) S4000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg0) S4000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg1) S4000x6.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_arg18) S64x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v8) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg20) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v9) S128x128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_arg22) S1x128.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_arg23) S128x128.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v22) S1x128.size cc2_transform_10 reads2_10 false true 1 stage2_10 sem2_10
    hrank2 hreads2_10 hinb2_10 nbuf2_10 (Memref.isWhole_whole _) hwx2_10 hstage2_10

abbrev win2_11 : Pipeline.Window sig grid2 :=
  Pipeline.Window.ofSpec (Memref.whole main_v11) S128x128.size cc2_transform_11 reads2_11 false true 1 stage2_11 sem2_11
    hrank2 hreads2_11 hinb2_11 nbuf2_11 (Memref.isWhole_whole _) hwx2_11 hstage2_11

abbrev win2_12 : Pipeline.Window sig grid2 :=
  Pipeline.Window.ofSpec (Memref.whole main_v12) S1x128.size cc2_transform_12 reads2_12 false true 1 stage2_12 sem2_12
    hrank2 hreads2_12 hinb2_12 nbuf2_12 (Memref.isWhole_whole _) hwx2_12 hstage2_12

abbrev win2_13 : Pipeline.Window sig grid2 :=
  Pipeline.Window.ofSpec (Memref.whole main_v14) S128x128.size cc2_transform_13 reads2_13 false true 1 stage2_13 sem2_13
    hrank2 hreads2_13 hinb2_13 nbuf2_13 (Memref.isWhole_whole _) hwx2_13 hstage2_13

abbrev win2_14 : Pipeline.Window sig grid2 :=
  Pipeline.Window.ofSpec (Memref.whole main_v15) S1x128.size cc2_transform_14 reads2_14 false true 1 stage2_14 sem2_14
    hrank2 hreads2_14 hinb2_14 nbuf2_14 (Memref.isWhole_whole _) hwx2_14 hstage2_14

abbrev win2_15 : Pipeline.Window sig grid2 :=
  Pipeline.Window.ofSpec (Memref.whole main_v17) S128x128.size cc2_transform_15 reads2_15 false true 1 stage2_15 sem2_15
    hrank2 hreads2_15 hinb2_15 nbuf2_15 (Memref.isWhole_whole _) hwx2_15 hstage2_15

abbrev win2_16 : Pipeline.Window sig grid2 :=
  Pipeline.Window.ofSpec (Memref.whole main_v18) S1x128.size cc2_transform_16 reads2_16 false true 1 stage2_16 sem2_16
    hrank2 hreads2_16 hinb2_16 nbuf2_16 (Memref.isWhole_whole _) hwx2_16 hstage2_16

abbrev win2_17 : Pipeline.Window sig grid2 :=
  Pipeline.Window.ofSpec (Memref.whole main_v20) S128x128.size cc2_transform_17 reads2_17 false true 1 stage2_17 sem2_17
    hrank2 hreads2_17 hinb2_17 nbuf2_17 (Memref.isWhole_whole _) hwx2_17 hstage2_17

abbrev win2_18 : Pipeline.Window sig grid2 :=
  Pipeline.Window.ofSpec (Memref.whole main_v21) S1x128.size cc2_transform_18 reads2_18 false true 1 stage2_18 sem2_18
    hrank2 hreads2_18 hinb2_18 nbuf2_18 (Memref.isWhole_whole _) hwx2_18 hstage2_18

abbrev win2_19 : Pipeline.Window sig grid2 :=
  Pipeline.Window.ofSpec (Memref.whole main_arg12) S6x128.size cc2_transform_19 reads2_19 false true 1 stage2_19 sem2_19
    hrank2 hreads2_19 hinb2_19 nbuf2_19 (Memref.isWhole_whole _) hwx2_19 hstage2_19

abbrev win2_20 : Pipeline.Window sig grid2 :=
  Pipeline.Window.ofSpec (Memref.whole main_v23_0) S4000x128.size cc2_transform_20 reads2_20 true false 2 stage2_20 sem2_20
    hrank2 hreads2_20 hinb2_20 nbuf2_20 (Memref.isWhole_whole _) hwx2_20 hstage2_20

abbrev win2_21 : Pipeline.Window sig grid2 :=
  Pipeline.Window.ofSpec (Memref.whole main_v23_1) S4000x128.size cc2_transform_21 reads2_21 true false 2 stage2_21 sem2_21
    hrank2 hreads2_21 hinb2_21 nbuf2_21 (Memref.isWhole_whole _) hwx2_21 hstage2_21

abbrev win2 : Fin 22 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | 12 => win2_12 | 13 => win2_13 | 14 => win2_14 | 15 => win2_15 | 16 => win2_16 | 17 => win2_17 | 18 => win2_18 | 19 => win2_19 | 20 => win2_20 | 21 => win2_21 | ⟨_ + 22, h⟩ => absurd h (Nat.not_lt.2 (Nat.le_add_left _ _))
abbrev spec2 : Fin 22 → Pipeline.WinSpec sig grid2.rank := fun w => (win2 w).toWinSpec

class Facts : Prop extends Facts₀ where

variable [Facts]
-- ==== ReferenceIdeal.lean ====
abbrev S200000x128 : Shape := ⟨2, ![200000, 128]⟩
abbrev S200000x6 : Shape := ⟨2, ![200000, 6]⟩
abbrev S600000x42 : Shape := ⟨2, ![600000, 42]⟩
abbrev S600000x294 : Shape := ⟨2, ![600000, 294]⟩
abbrev S600000 : Shape := ⟨1, ![600000]⟩
abbrev S6x8 : Shape := ⟨2, ![6, 8]⟩
abbrev S8x128 : Shape := ⟨2, ![8, 128]⟩
abbrev S42x8 : Shape := ⟨2, ![42, 8]⟩
abbrev S8x64 : Shape := ⟨2, ![8, 64]⟩
abbrev S294x8 : Shape := ⟨2, ![294, 8]⟩
abbrev S6x128 : Shape := ⟨2, ![6, 128]⟩
abbrev S128x128 : Shape := ⟨2, ![128, 128]⟩
abbrev S128 : Shape := ⟨1, ![128]⟩
abbrev S128x64 : Shape := ⟨2, ![128, 64]⟩
abbrev S64x128 : Shape := ⟨2, ![64, 128]⟩
abbrev S1x128x128 : Shape := ⟨3, ![1, 128, 128]⟩
abbrev S1x128 : Shape := ⟨2, ![1, 128]⟩
abbrev S2x128x128 : Shape := ⟨3, ![2, 128, 128]⟩
abbrev S2x128 : Shape := ⟨2, ![2, 128]⟩
abbrev S_ : Shape := ⟨0, ![]⟩
abbrev S200000x8 : Shape := ⟨2, ![200000, 8]⟩
abbrev S200000x64 : Shape := ⟨2, ![200000, 64]⟩
abbrev S600000x8 : Shape := ⟨2, ![600000, 8]⟩
abbrev S600000x64 : Shape := ⟨2, ![600000, 64]⟩
abbrev S600000x1 : Shape := ⟨2, ![600000, 1]⟩

abbrev nBuf : Space → Nat
  | .hbm => 215
  | .vmem => 0
  | .smem => 0
  | _ => 0

abbrev hbmTy0_0 (i : Nat) : BufTy := match i % 128 with
  | 0 => ⟨S200000x128, .f32⟩
  | 1 => ⟨S200000x6, .f32⟩
  | 2 => ⟨S600000x42, .f32⟩
  | 3 => ⟨S600000x294, .f32⟩
  | 4 => ⟨S600000, .i32⟩
  | 5 => ⟨S600000, .i32⟩
  | 6 => ⟨S6x8, .f32⟩
  | 7 => ⟨S8x128, .f32⟩
  | 8 => ⟨S42x8, .f32⟩
  | 9 => ⟨S8x64, .f32⟩
  | 10 => ⟨S294x8, .f32⟩
  | 11 => ⟨S8x64, .f32⟩
  | 12 => ⟨S6x128, .f32⟩
  | 13 => ⟨S128x128, .f32⟩
  | 14 => ⟨S128, .f32⟩
  | 15 => ⟨S128x128, .f32⟩
  | 16 => ⟨S128, .f32⟩
  | 17 => ⟨S128x64, .f32⟩
  | 18 => ⟨S64x128, .f32⟩
  | 19 => ⟨S1x128x128, .f32⟩
  | 20 => ⟨S1x128, .f32⟩
  | 21 => ⟨S1x128x128, .f32⟩
  | 22 => ⟨S1x128, .f32⟩
  | 23 => ⟨S128x128, .f32⟩
  | 24 => ⟨S128, .f32⟩
  | 25 => ⟨S2x128x128, .f32⟩
  | 26 => ⟨S2x128, .f32⟩
  | 27 => ⟨S2x128x128, .f32⟩
  | 28 => ⟨S2x128, .f32⟩
  | 29 => ⟨S200000x128, .f32⟩
  | 30 => ⟨S1x128, .f32⟩
  | 31 => ⟨S200000x128, .f32⟩
  | 32 => ⟨S200000x128, .f32⟩
  | 33 => ⟨S200000x128, .f32⟩
  | 34 => ⟨S200000x128, .f32⟩
  | 35 => ⟨S_, .f32⟩
  | 36 => ⟨S200000x128, .f32⟩
  | 37 => ⟨S200000x128, .f32⟩
  | 38 => ⟨S_, .f32⟩
  | 39 => ⟨S200000x128, .f32⟩
  | 40 => ⟨S200000x128, .f32⟩
  | 41 => ⟨S200000x128, .f32⟩
  | 42 => ⟨S200000x128, .f32⟩
  | 43 => ⟨S1x128, .f32⟩
  | 44 => ⟨S200000x128, .f32⟩
  | 45 => ⟨S200000x128, .f32⟩
  | 46 => ⟨S200000x128, .f32⟩
  | 47 => ⟨S200000x128, .f32⟩
  | 48 => ⟨S_, .f32⟩
  | 49 => ⟨S200000x128, .f32⟩
  | 50 => ⟨S200000x128, .f32⟩
  | 51 => ⟨S_, .f32⟩
  | 52 => ⟨S200000x128, .f32⟩
  | 53 => ⟨S200000x128, .f32⟩
  | 54 => ⟨S200000x128, .f32⟩
  | 55 => ⟨S200000x8, .f32⟩
  | 56 => ⟨S200000x128, .f32⟩
  | 57 => ⟨S200000x128, .f32⟩
  | 58 => ⟨S200000x64, .f32⟩
  | 59 => ⟨S200000x64, .f32⟩
  | 60 => ⟨S200000x64, .f32⟩
  | 61 => ⟨S_, .f32⟩
  | 62 => ⟨S200000x64, .f32⟩
  | 63 => ⟨S200000x64, .f32⟩
  | 64 => ⟨S_, .f32⟩
  | 65 => ⟨S200000x64, .f32⟩
  | 66 => ⟨S200000x64, .f32⟩
  | 67 => ⟨S200000x64, .f32⟩
  | 68 => ⟨S600000x8, .f32⟩
  | 69 => ⟨S600000x64, .f32⟩
  | 70 => ⟨S_, .i32⟩
  | 71 => ⟨S600000, .i32⟩
  | 72 => ⟨S600000, .i1⟩
  | 73 => ⟨S_, .i32⟩
  | 74 => ⟨S600000, .i32⟩
  | 75 => ⟨S600000, .i32⟩
  | 76 => ⟨S600000, .i32⟩
  | 77 => ⟨S600000x1, .i32⟩
  | 78 => ⟨S600000x64, .f32⟩
  | 79 => ⟨S600000x64, .f32⟩
  | 80 => ⟨S600000x8, .f32⟩
  | 81 => ⟨S600000x64, .f32⟩
  | 82 => ⟨S600000x64, .f32⟩
  | 83 => ⟨S_, .f32⟩
  | 84 => ⟨S200000x64, .f32⟩
  | 85 => ⟨S600000x1, .i32⟩
  | 86 => ⟨S200000x64, .f32⟩
  | 87 => ⟨S200000x128, .f32⟩
  | 88 => ⟨S200000x128, .f32⟩
  | 89 => ⟨S200000x128, .f32⟩
  | 90 => ⟨S_, .f32⟩
  | 91 => ⟨S200000x128, .f32⟩
  | 92 => ⟨S200000x128, .f32⟩
  | 93 => ⟨S_, .f32⟩
  | 94 => ⟨S200000x128, .f32⟩
  | 95 => ⟨S200000x128, .f32⟩
  | 96 => ⟨S200000x128, .f32⟩
  | 97 => ⟨S200000x128, .f32⟩
  | 98 => ⟨S128x128, .f32⟩
  | 99 => ⟨S200000x128, .f32⟩
  | 100 => ⟨S128, .f32⟩
  | 101 => ⟨S1x128, .f32⟩
  | 102 => ⟨S200000x128, .f32⟩
  | 103 => ⟨S200000x128, .f32⟩
  | 104 => ⟨S200000x128, .f32⟩
  | 105 => ⟨S200000x128, .f32⟩
  | 106 => ⟨S_, .f32⟩
  | 107 => ⟨S200000x128, .f32⟩
  | 108 => ⟨S200000x128, .f32⟩
  | 109 => ⟨S_, .f32⟩
  | 110 => ⟨S200000x128, .f32⟩
  | 111 => ⟨S200000x128, .f32⟩
  | 112 => ⟨S200000x128, .f32⟩
  | 113 => ⟨S128x128, .f32⟩
  | 114 => ⟨S200000x128, .f32⟩
  | 115 => ⟨S128, .f32⟩
  | 116 => ⟨S1x128, .f32⟩
  | 117 => ⟨S200000x128, .f32⟩
  | 118 => ⟨S200000x128, .f32⟩
  | 119 => ⟨S200000x128, .f32⟩
  | 120 => ⟨S200000x128, .f32⟩
  | 121 => ⟨S_, .f32⟩
  | 122 => ⟨S200000x128, .f32⟩
  | 123 => ⟨S200000x128, .f32⟩
  | 124 => ⟨S_, .f32⟩
  | 125 => ⟨S200000x128, .f32⟩
  | 126 => ⟨S200000x128, .f32⟩
  | 127 => ⟨S200000x128, .f32⟩
  | _ => ⟨S200000x128, .f32⟩

abbrev hbmTy0_1 (i : Nat) : BufTy := match i % 128 with
  | 0 => ⟨S200000x128, .f32⟩
  | 1 => ⟨S200000x128, .f32⟩
  | 2 => ⟨S1x128, .f32⟩
  | 3 => ⟨S200000x128, .f32⟩
  | 4 => ⟨S200000x128, .f32⟩
  | 5 => ⟨S200000x128, .f32⟩
  | 6 => ⟨S200000x128, .f32⟩
  | 7 => ⟨S_, .f32⟩
  | 8 => ⟨S200000x128, .f32⟩
  | 9 => ⟨S200000x128, .f32⟩
  | 10 => ⟨S_, .f32⟩
  | 11 => ⟨S200000x128, .f32⟩
  | 12 => ⟨S200000x128, .f32⟩
  | 13 => ⟨S200000x128, .f32⟩
  | 14 => ⟨S200000x128, .f32⟩
  | 15 => ⟨S1x128x128, .f32⟩
  | 16 => ⟨S128x128, .f32⟩
  | 17 => ⟨S200000x128, .f32⟩
  | 18 => ⟨S1x128, .f32⟩
  | 19 => ⟨S128, .f32⟩
  | 20 => ⟨S1x128, .f32⟩
  | 21 => ⟨S200000x128, .f32⟩
  | 22 => ⟨S200000x128, .f32⟩
  | 23 => ⟨S200000x128, .f32⟩
  | 24 => ⟨S200000x128, .f32⟩
  | 25 => ⟨S_, .f32⟩
  | 26 => ⟨S200000x128, .f32⟩
  | 27 => ⟨S200000x128, .f32⟩
  | 28 => ⟨S_, .f32⟩
  | 29 => ⟨S200000x128, .f32⟩
  | 30 => ⟨S200000x128, .f32⟩
  | 31 => ⟨S200000x128, .f32⟩
  | 32 => ⟨S1x128x128, .f32⟩
  | 33 => ⟨S128x128, .f32⟩
  | 34 => ⟨S200000x128, .f32⟩
  | 35 => ⟨S1x128, .f32⟩
  | 36 => ⟨S128, .f32⟩
  | 37 => ⟨S1x128, .f32⟩
  | 38 => ⟨S200000x128, .f32⟩
  | 39 => ⟨S200000x128, .f32⟩
  | 40 => ⟨S200000x128, .f32⟩
  | 41 => ⟨S200000x128, .f32⟩
  | 42 => ⟨S_, .f32⟩
  | 43 => ⟨S200000x128, .f32⟩
  | 44 => ⟨S200000x128, .f32⟩
  | 45 => ⟨S_, .f32⟩
  | 46 => ⟨S200000x128, .f32⟩
  | 47 => ⟨S200000x128, .f32⟩
  | 48 => ⟨S200000x128, .f32⟩
  | 49 => ⟨S200000x128, .f32⟩
  | 50 => ⟨S1x128x128, .f32⟩
  | 51 => ⟨S128x128, .f32⟩
  | 52 => ⟨S200000x128, .f32⟩
  | 53 => ⟨S1x128, .f32⟩
  | 54 => ⟨S128, .f32⟩
  | 55 => ⟨S1x128, .f32⟩
  | 56 => ⟨S200000x128, .f32⟩
  | 57 => ⟨S200000x128, .f32⟩
  | 58 => ⟨S200000x128, .f32⟩
  | 59 => ⟨S200000x128, .f32⟩
  | 60 => ⟨S_, .f32⟩
  | 61 => ⟨S200000x128, .f32⟩
  | 62 => ⟨S200000x128, .f32⟩
  | 63 => ⟨S_, .f32⟩
  | 64 => ⟨S200000x128, .f32⟩
  | 65 => ⟨S200000x128, .f32⟩
  | 66 => ⟨S200000x128, .f32⟩
  | 67 => ⟨S1x128x128, .f32⟩
  | 68 => ⟨S128x128, .f32⟩
  | 69 => ⟨S200000x128, .f32⟩
  | 70 => ⟨S1x128, .f32⟩
  | 71 => ⟨S128, .f32⟩
  | 72 => ⟨S1x128, .f32⟩
  | 73 => ⟨S200000x128, .f32⟩
  | 74 => ⟨S200000x128, .f32⟩
  | 75 => ⟨S200000x128, .f32⟩
  | 76 => ⟨S200000x128, .f32⟩
  | 77 => ⟨S_, .f32⟩
  | 78 => ⟨S200000x128, .f32⟩
  | 79 => ⟨S200000x128, .f32⟩
  | 80 => ⟨S_, .f32⟩
  | 81 => ⟨S200000x128, .f32⟩
  | 82 => ⟨S200000x128, .f32⟩
  | 83 => ⟨S200000x128, .f32⟩
  | 84 => ⟨S200000x128, .f32⟩
  | 85 => ⟨S200000x128, .f32⟩
  | 86 => ⟨S200000x128, .f32⟩
  | _ => ⟨S200000x128, .f32⟩

abbrev hbmTy (i : Nat) : BufTy := match i / 128 with
  | 0 => hbmTy0_0 i
  | 1 => hbmTy0_1 i
  | _ => ⟨S200000x128, .f32⟩

abbrev bufTy : (tb : Table) → Fin (tcTables nBuf tb) → BufTy
  | .hbm, ⟨i, _⟩ => hbmTy i
  | _, _ => ⟨S200000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_v0 : Ref sig .tc := ⟨.hbm, 29, rfl⟩
abbrev main_v1 : Ref sig .tc := ⟨.hbm, 30, rfl⟩
abbrev main_v2 : Ref sig .tc := ⟨.hbm, 31, rfl⟩
abbrev main_v3 : Ref sig .tc := ⟨.hbm, 32, rfl⟩
abbrev main_call0_v0 : Ref sig .tc := ⟨.hbm, 33, rfl⟩
abbrev main_call0_v1 : Ref sig .tc := ⟨.hbm, 34, rfl⟩
abbrev main_call0_cst : Ref sig .tc := ⟨.hbm, 35, rfl⟩
abbrev main_call0_v2 : Ref sig .tc := ⟨.hbm, 36, rfl⟩
abbrev main_call0_v3 : Ref sig .tc := ⟨.hbm, 37, rfl⟩
abbrev main_call0_cst_0 : Ref sig .tc := ⟨.hbm, 38, rfl⟩
abbrev main_call0_v4 : Ref sig .tc := ⟨.hbm, 39, rfl⟩
abbrev main_call0_v5 : Ref sig .tc := ⟨.hbm, 40, rfl⟩
abbrev main_v4 : Ref sig .tc := ⟨.hbm, 41, rfl⟩
abbrev main_v5 : Ref sig .tc := ⟨.hbm, 42, rfl⟩
abbrev main_v6 : Ref sig .tc := ⟨.hbm, 43, rfl⟩
abbrev main_v7 : Ref sig .tc := ⟨.hbm, 44, rfl⟩
abbrev main_v8 : Ref sig .tc := ⟨.hbm, 45, rfl⟩
abbrev main_call1_v0 : Ref sig .tc := ⟨.hbm, 46, rfl⟩
abbrev main_call1_v1 : Ref sig .tc := ⟨.hbm, 47, rfl⟩
abbrev main_call1_cst : Ref sig .tc := ⟨.hbm, 48, rfl⟩
abbrev main_call1_v2 : Ref sig .tc := ⟨.hbm, 49, rfl⟩
abbrev main_call1_v3 : Ref sig .tc := ⟨.hbm, 50, rfl⟩
abbrev main_call1_cst_0 : Ref sig .tc := ⟨.hbm, 51, rfl⟩
abbrev main_call1_v4 : Ref sig .tc := ⟨.hbm, 52, rfl⟩
abbrev main_call1_v5 : Ref sig .tc := ⟨.hbm, 53, rfl⟩
abbrev main_v9 : Ref sig .tc := ⟨.hbm, 54, rfl⟩
abbrev main_v10 : Ref sig .tc := ⟨.hbm, 55, rfl⟩
abbrev main_v11 : Ref sig .tc := ⟨.hbm, 56, rfl⟩
abbrev main_v12 : Ref sig .tc := ⟨.hbm, 57, rfl⟩
abbrev main_v13 : Ref sig .tc := ⟨.hbm, 58, rfl⟩
abbrev main_call2_v0 : Ref sig .tc := ⟨.hbm, 59, rfl⟩
abbrev main_call2_v1 : Ref sig .tc := ⟨.hbm, 60, rfl⟩
abbrev main_call2_cst : Ref sig .tc := ⟨.hbm, 61, rfl⟩
abbrev main_call2_v2 : Ref sig .tc := ⟨.hbm, 62, rfl⟩
abbrev main_call2_v3 : Ref sig .tc := ⟨.hbm, 63, rfl⟩
abbrev main_call2_cst_0 : Ref sig .tc := ⟨.hbm, 64, rfl⟩
abbrev main_call2_v4 : Ref sig .tc := ⟨.hbm, 65, rfl⟩
abbrev main_call2_v5 : Ref sig .tc := ⟨.hbm, 66, rfl⟩
abbrev main_v14 : Ref sig .tc := ⟨.hbm, 67, rfl⟩
abbrev main_v15 : Ref sig .tc := ⟨.hbm, 68, rfl⟩
abbrev main_v16 : Ref sig .tc := ⟨.hbm, 69, rfl⟩
abbrev main_c : Ref sig .tc := ⟨.hbm, 70, rfl⟩
abbrev main_v17 : Ref sig .tc := ⟨.hbm, 71, rfl⟩
abbrev main_v18 : Ref sig .tc := ⟨.hbm, 72, rfl⟩
abbrev main_c_0 : Ref sig .tc := ⟨.hbm, 73, rfl⟩
abbrev main_v19 : Ref sig .tc := ⟨.hbm, 74, rfl⟩
abbrev main_v20 : Ref sig .tc := ⟨.hbm, 75, rfl⟩
abbrev main_v21 : Ref sig .tc := ⟨.hbm, 76, rfl⟩
abbrev main_v22 : Ref sig .tc := ⟨.hbm, 77, rfl⟩
abbrev main_v23 : Ref sig .tc := ⟨.hbm, 78, rfl⟩
abbrev main_v24 : Ref sig .tc := ⟨.hbm, 79, rfl⟩
abbrev main_v25 : Ref sig .tc := ⟨.hbm, 80, rfl⟩
abbrev main_v26 : Ref sig .tc := ⟨.hbm, 81, rfl⟩
abbrev main_v27 : Ref sig .tc := ⟨.hbm, 82, rfl⟩
abbrev main_cst : Ref sig .tc := ⟨.hbm, 83, rfl⟩
abbrev main_v28 : Ref sig .tc := ⟨.hbm, 84, rfl⟩
abbrev main_v29 : Ref sig .tc := ⟨.hbm, 85, rfl⟩
abbrev main_v30 : Ref sig .tc := ⟨.hbm, 86, rfl⟩
abbrev main_v31 : Ref sig .tc := ⟨.hbm, 87, rfl⟩
abbrev main_call3_v0 : Ref sig .tc := ⟨.hbm, 88, rfl⟩
abbrev main_call3_v1 : Ref sig .tc := ⟨.hbm, 89, rfl⟩
abbrev main_call3_cst : Ref sig .tc := ⟨.hbm, 90, rfl⟩
abbrev main_call3_v2 : Ref sig .tc := ⟨.hbm, 91, rfl⟩
abbrev main_call3_v3 : Ref sig .tc := ⟨.hbm, 92, rfl⟩
abbrev main_call3_cst_0 : Ref sig .tc := ⟨.hbm, 93, rfl⟩
abbrev main_call3_v4 : Ref sig .tc := ⟨.hbm, 94, rfl⟩
abbrev main_call3_v5 : Ref sig .tc := ⟨.hbm, 95, rfl⟩
abbrev main_v32 : Ref sig .tc := ⟨.hbm, 96, rfl⟩
abbrev main_v33 : Ref sig .tc := ⟨.hbm, 97, rfl⟩
abbrev main_v34 : Ref sig .tc := ⟨.hbm, 98, rfl⟩
abbrev main_v35 : Ref sig .tc := ⟨.hbm, 99, rfl⟩
abbrev main_v36 : Ref sig .tc := ⟨.hbm, 100, rfl⟩
abbrev main_v37 : Ref sig .tc := ⟨.hbm, 101, rfl⟩
abbrev main_v38 : Ref sig .tc := ⟨.hbm, 102, rfl⟩
abbrev main_v39 : Ref sig .tc := ⟨.hbm, 103, rfl⟩
abbrev main_call4_v0 : Ref sig .tc := ⟨.hbm, 104, rfl⟩
abbrev main_call4_v1 : Ref sig .tc := ⟨.hbm, 105, rfl⟩
abbrev main_call4_cst : Ref sig .tc := ⟨.hbm, 106, rfl⟩
abbrev main_call4_v2 : Ref sig .tc := ⟨.hbm, 107, rfl⟩
abbrev main_call4_v3 : Ref sig .tc := ⟨.hbm, 108, rfl⟩
abbrev main_call4_cst_0 : Ref sig .tc := ⟨.hbm, 109, rfl⟩
abbrev main_call4_v4 : Ref sig .tc := ⟨.hbm, 110, rfl⟩
abbrev main_call4_v5 : Ref sig .tc := ⟨.hbm, 111, rfl⟩
abbrev main_v40 : Ref sig .tc := ⟨.hbm, 112, rfl⟩
abbrev main_v41 : Ref sig .tc := ⟨.hbm, 113, rfl⟩
abbrev main_v42 : Ref sig .tc := ⟨.hbm, 114, rfl⟩
abbrev main_v43 : Ref sig .tc := ⟨.hbm, 115, rfl⟩
abbrev main_v44 : Ref sig .tc := ⟨.hbm, 116, rfl⟩
abbrev main_v45 : Ref sig .tc := ⟨.hbm, 117, rfl⟩
abbrev main_v46 : Ref sig .tc := ⟨.hbm, 118, rfl⟩
abbrev main_call5_v0 : Ref sig .tc := ⟨.hbm, 119, rfl⟩
abbrev main_call5_v1 : Ref sig .tc := ⟨.hbm, 120, rfl⟩
abbrev main_call5_cst : Ref sig .tc := ⟨.hbm, 121, rfl⟩
abbrev main_call5_v2 : Ref sig .tc := ⟨.hbm, 122, rfl⟩
abbrev main_call5_v3 : Ref sig .tc := ⟨.hbm, 123, rfl⟩
abbrev main_call5_cst_0 : Ref sig .tc := ⟨.hbm, 124, rfl⟩
abbrev main_call5_v4 : Ref sig .tc := ⟨.hbm, 125, rfl⟩
abbrev main_call5_v5 : Ref sig .tc := ⟨.hbm, 126, rfl⟩
abbrev main_v47 : Ref sig .tc := ⟨.hbm, 127, rfl⟩
abbrev main_v48 : Ref sig .tc := ⟨.hbm, 128, rfl⟩
abbrev main_v49 : Ref sig .tc := ⟨.hbm, 129, rfl⟩
abbrev main_v50 : Ref sig .tc := ⟨.hbm, 130, rfl⟩
abbrev main_v51 : Ref sig .tc := ⟨.hbm, 131, rfl⟩
abbrev main_v52 : Ref sig .tc := ⟨.hbm, 132, rfl⟩
abbrev main_call6_v0 : Ref sig .tc := ⟨.hbm, 133, rfl⟩
abbrev main_call6_v1 : Ref sig .tc := ⟨.hbm, 134, rfl⟩
abbrev main_call6_cst : Ref sig .tc := ⟨.hbm, 135, rfl⟩
abbrev main_call6_v2 : Ref sig .tc := ⟨.hbm, 136, rfl⟩
abbrev main_call6_v3 : Ref sig .tc := ⟨.hbm, 137, rfl⟩
abbrev main_call6_cst_0 : Ref sig .tc := ⟨.hbm, 138, rfl⟩
abbrev main_call6_v4 : Ref sig .tc := ⟨.hbm, 139, rfl⟩
abbrev main_call6_v5 : Ref sig .tc := ⟨.hbm, 140, rfl⟩
abbrev main_v53 : Ref sig .tc := ⟨.hbm, 141, rfl⟩
abbrev main_v54 : Ref sig .tc := ⟨.hbm, 142, rfl⟩
abbrev main_v55 : Ref sig .tc := ⟨.hbm, 143, rfl⟩
abbrev main_v56 : Ref sig .tc := ⟨.hbm, 144, rfl⟩
abbrev main_v57 : Ref sig .tc := ⟨.hbm, 145, rfl⟩
abbrev main_v58 : Ref sig .tc := ⟨.hbm, 146, rfl⟩
abbrev main_v59 : Ref sig .tc := ⟨.hbm, 147, rfl⟩
abbrev main_v60 : Ref sig .tc := ⟨.hbm, 148, rfl⟩
abbrev main_v61 : Ref sig .tc := ⟨.hbm, 149, rfl⟩
abbrev main_v62 : Ref sig .tc := ⟨.hbm, 150, rfl⟩
abbrev main_call7_v0 : Ref sig .tc := ⟨.hbm, 151, rfl⟩
abbrev main_call7_v1 : Ref sig .tc := ⟨.hbm, 152, rfl⟩
abbrev main_call7_cst : Ref sig .tc := ⟨.hbm, 153, rfl⟩
abbrev main_call7_v2 : Ref sig .tc := ⟨.hbm, 154, rfl⟩
abbrev main_call7_v3 : Ref sig .tc := ⟨.hbm, 155, rfl⟩
abbrev main_call7_cst_0 : Ref sig .tc := ⟨.hbm, 156, rfl⟩
abbrev main_call7_v4 : Ref sig .tc := ⟨.hbm, 157, rfl⟩
abbrev main_call7_v5 : Ref sig .tc := ⟨.hbm, 158, rfl⟩
abbrev main_v63 : Ref sig .tc := ⟨.hbm, 159, rfl⟩
abbrev main_v64 : Ref sig .tc := ⟨.hbm, 160, rfl⟩
abbrev main_v65 : Ref sig .tc := ⟨.hbm, 161, rfl⟩
abbrev main_v66 : Ref sig .tc := ⟨.hbm, 162, rfl⟩
abbrev main_v67 : Ref sig .tc := ⟨.hbm, 163, rfl⟩
abbrev main_v68 : Ref sig .tc := ⟨.hbm, 164, rfl⟩
abbrev main_v69 : Ref sig .tc := ⟨.hbm, 165, rfl⟩
abbrev main_v70 : Ref sig .tc := ⟨.hbm, 166, rfl⟩
abbrev main_v71 : Ref sig .tc := ⟨.hbm, 167, rfl⟩
abbrev main_call8_v0 : Ref sig .tc := ⟨.hbm, 168, rfl⟩
abbrev main_call8_v1 : Ref sig .tc := ⟨.hbm, 169, rfl⟩
abbrev main_call8_cst : Ref sig .tc := ⟨.hbm, 170, rfl⟩
abbrev main_call8_v2 : Ref sig .tc := ⟨.hbm, 171, rfl⟩
abbrev main_call8_v3 : Ref sig .tc := ⟨.hbm, 172, rfl⟩
abbrev main_call8_cst_0 : Ref sig .tc := ⟨.hbm, 173, rfl⟩
abbrev main_call8_v4 : Ref sig .tc := ⟨.hbm, 174, rfl⟩
abbrev main_call8_v5 : Ref sig .tc := ⟨.hbm, 175, rfl⟩
abbrev main_v72 : Ref sig .tc := ⟨.hbm, 176, rfl⟩
abbrev main_v73 : Ref sig .tc := ⟨.hbm, 177, rfl⟩
abbrev main_v74 : Ref sig .tc := ⟨.hbm, 178, rfl⟩
abbrev main_v75 : Ref sig .tc := ⟨.hbm, 179, rfl⟩
abbrev main_v76 : Ref sig .tc := ⟨.hbm, 180, rfl⟩
abbrev main_v77 : Ref sig .tc := ⟨.hbm, 181, rfl⟩
abbrev main_v78 : Ref sig .tc := ⟨.hbm, 182, rfl⟩
abbrev main_v79 : Ref sig .tc := ⟨.hbm, 183, rfl⟩
abbrev main_v80 : Ref sig .tc := ⟨.hbm, 184, rfl⟩
abbrev main_v81 : Ref sig .tc := ⟨.hbm, 185, rfl⟩
abbrev main_call9_v0 : Ref sig .tc := ⟨.hbm, 186, rfl⟩
abbrev main_call9_v1 : Ref sig .tc := ⟨.hbm, 187, rfl⟩
abbrev main_call9_cst : Ref sig .tc := ⟨.hbm, 188, rfl⟩
abbrev main_call9_v2 : Ref sig .tc := ⟨.hbm, 189, rfl⟩
abbrev main_call9_v3 : Ref sig .tc := ⟨.hbm, 190, rfl⟩
abbrev main_call9_cst_0 : Ref sig .tc := ⟨.hbm, 191, rfl⟩
abbrev main_call9_v4 : Ref sig .tc := ⟨.hbm, 192, rfl⟩
abbrev main_call9_v5 : Ref sig .tc := ⟨.hbm, 193, rfl⟩
abbrev main_v82 : Ref sig .tc := ⟨.hbm, 194, rfl⟩
abbrev main_v83 : Ref sig .tc := ⟨.hbm, 195, rfl⟩
abbrev main_v84 : Ref sig .tc := ⟨.hbm, 196, rfl⟩
abbrev main_v85 : Ref sig .tc := ⟨.hbm, 197, rfl⟩
abbrev main_v86 : Ref sig .tc := ⟨.hbm, 198, rfl⟩
abbrev main_v87 : Ref sig .tc := ⟨.hbm, 199, rfl⟩
abbrev main_v88 : Ref sig .tc := ⟨.hbm, 200, rfl⟩
abbrev main_v89 : Ref sig .tc := ⟨.hbm, 201, rfl⟩
abbrev main_v90 : Ref sig .tc := ⟨.hbm, 202, rfl⟩
abbrev main_call10_v0 : Ref sig .tc := ⟨.hbm, 203, rfl⟩
abbrev main_call10_v1 : Ref sig .tc := ⟨.hbm, 204, rfl⟩
abbrev main_call10_cst : Ref sig .tc := ⟨.hbm, 205, rfl⟩
abbrev main_call10_v2 : Ref sig .tc := ⟨.hbm, 206, rfl⟩
abbrev main_call10_v3 : Ref sig .tc := ⟨.hbm, 207, rfl⟩
abbrev main_call10_cst_0 : Ref sig .tc := ⟨.hbm, 208, rfl⟩
abbrev main_call10_v4 : Ref sig .tc := ⟨.hbm, 209, rfl⟩
abbrev main_call10_v5 : Ref sig .tc := ⟨.hbm, 210, rfl⟩
abbrev main_v91 : Ref sig .tc := ⟨.hbm, 211, rfl⟩
abbrev main_v92 : Ref sig .tc := ⟨.hbm, 212, rfl⟩
abbrev main_v93 : Ref sig .tc := ⟨.hbm, 213, rfl⟩
abbrev main_v94 : Ref sig .tc := ⟨.hbm, 214, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S200000x128_0_1 : S1x128.BroadcastsInDim S200000x128 (![0, 1] : Fin 2 → Fin S200000x128.rank)
  bcast_S_S200000x128 : S_.BroadcastsInDim S200000x128 (![] : Fin 0 → Fin S200000x128.rank)
  bcast_S_S200000x64 : S_.BroadcastsInDim S200000x64 (![] : Fin 0 → Fin S200000x64.rank)
  bcast_S_S600000 : S_.BroadcastsInDim S600000 (![] : Fin 0 → Fin S600000.rank)
  bcast_S600000_S600000x1_0 : S600000.BroadcastsInDim S600000x1 (![0] : Fin 1 → Fin S600000x1.rank)
  shapeCasts_S1x128x128_S128x128 : S1x128x128.ShapeCasts S128x128
  shapeCasts_S1x128_S128 : S1x128.ShapeCasts S128
  slices_S2x128x128_S1x128x128_0_0_0 : S2x128x128.Slices ![0, 0, 0] S1x128x128
  slices_S2x128_S1x128_0_0 : S2x128.Slices ![0, 0] S1x128
  slices_S2x128x128_S1x128x128_1_0_0 : S2x128x128.Slices ![1, 0, 0] S1x128x128
  slices_S2x128_S1x128_1_0 : S2x128.Slices ![1, 0] S1x128
  dot_S200000x128_S128x128_S200000x128_1_0_0_1_n_n_wf : DotDims.WF S200000x128 S128x128 S200000x128 [1] [0] [0] [1] [] []
  dot_S200000x6_S6x8_S200000x8_1_0_0_1_n_n_wf : DotDims.WF S200000x6 S6x8 S200000x8 [1] [0] [0] [1] [] []
  dot_S200000x8_S8x128_S200000x128_1_0_0_1_n_n_wf : DotDims.WF S200000x8 S8x128 S200000x128 [1] [0] [0] [1] [] []
  dot_S200000x128_S128x64_S200000x64_1_0_0_1_n_n_wf : DotDims.WF S200000x128 S128x64 S200000x64 [1] [0] [0] [1] [] []
  dot_S600000x42_S42x8_S600000x8_1_0_0_1_n_n_wf : DotDims.WF S600000x42 S42x8 S600000x8 [1] [0] [0] [1] [] []
  dot_S600000x8_S8x64_S600000x64_1_0_0_1_n_n_wf : DotDims.WF S600000x8 S8x64 S600000x64 [1] [0] [0] [1] [] []
  gather_S200000x64_S600000x1_S600000x64_1_0_n_n_0_1_164_wf : GatherDims.WF S200000x64 S600000x1 S600000x64 [1] [0] [] [0] [] 1 ![1, 64]
  dot_S600000x294_S294x8_S600000x8_1_0_0_1_n_n_wf : DotDims.WF S600000x294 S294x8 S600000x8 [1] [0] [0] [1] [] []
  scatter_S200000x64_S600000x1_S600000x64_1_0_0_1_wf : ScatterDims.WF S200000x64 S600000x1 S600000x64 [1] [0] [0] 1
  dot_S200000x64_S64x128_S200000x128_1_0_0_1_n_n_wf : DotDims.WF S200000x64 S64x128 S200000x128 [1] [0] [0] [1] [] []
  dot_S200000x6_S6x128_S200000x128_1_0_0_1_n_n_wf : DotDims.WF S200000x6 S6x128 S200000x128 [1] [0] [0] [1] [] []

variable [Facts₀]

def dot_S200000x128_S128x128_S200000x128_1_0_0_1_n_n : DotDims S200000x128 S128x128 S200000x128 where
  lhsContracting := [1]
  rhsContracting := [0]
  lhsNonContracting := [0]
  rhsNonContracting := [1]
  lhsBatch := []
  rhsBatch := []
  wf := dot_S200000x128_S128x128_S200000x128_1_0_0_1_n_n_wf
def dot_S200000x6_S6x8_S200000x8_1_0_0_1_n_n : DotDims S200000x6 S6x8 S200000x8 where
  lhsContracting := [1]
  rhsContracting := [0]
  lhsNonContracting := [0]
  rhsNonContracting := [1]
  lhsBatch := []
  rhsBatch := []
  wf := dot_S200000x6_S6x8_S200000x8_1_0_0_1_n_n_wf
def dot_S200000x8_S8x128_S200000x128_1_0_0_1_n_n : DotDims S200000x8 S8x128 S200000x128 where
  lhsContracting := [1]
  rhsContracting := [0]
  lhsNonContracting := [0]
  rhsNonContracting := [1]
  lhsBatch := []
  rhsBatch := []
  wf := dot_S200000x8_S8x128_S200000x128_1_0_0_1_n_n_wf
def dot_S200000x128_S128x64_S200000x64_1_0_0_1_n_n : DotDims S200000x128 S128x64 S200000x64 where
  lhsContracting := [1]
  rhsContracting := [0]
  lhsNonContracting := [0]
  rhsNonContracting := [1]
  lhsBatch := []
  rhsBatch := []
  wf := dot_S200000x128_S128x64_S200000x64_1_0_0_1_n_n_wf
def dot_S600000x42_S42x8_S600000x8_1_0_0_1_n_n : DotDims S600000x42 S42x8 S600000x8 where
  lhsContracting := [1]
  rhsContracting := [0]
  lhsNonContracting := [0]
  rhsNonContracting := [1]
  lhsBatch := []
  rhsBatch := []
  wf := dot_S600000x42_S42x8_S600000x8_1_0_0_1_n_n_wf
def dot_S600000x8_S8x64_S600000x64_1_0_0_1_n_n : DotDims S600000x8 S8x64 S600000x64 where
  lhsContracting := [1]
  rhsContracting := [0]
  lhsNonContracting := [0]
  rhsNonContracting := [1]
  lhsBatch := []
  rhsBatch := []
  wf := dot_S600000x8_S8x64_S600000x64_1_0_0_1_n_n_wf
def gather_S200000x64_S600000x1_S600000x64_1_0_n_n_0_1_164 : GatherDims S200000x64 S600000x1 S600000x64 where
  offsetDims := [1]
  collapsedSliceDims := [0]
  operandBatchingDims := []
  startIndicesBatchingDims := []
  startIndexMap := [0]
  indexVectorDim := 1
  sliceSizes := ![1, 64]
  wf := gather_S200000x64_S600000x1_S600000x64_1_0_n_n_0_1_164_wf
def dot_S600000x294_S294x8_S600000x8_1_0_0_1_n_n : DotDims S600000x294 S294x8 S600000x8 where
  lhsContracting := [1]
  rhsContracting := [0]
  lhsNonContracting := [0]
  rhsNonContracting := [1]
  lhsBatch := []
  rhsBatch := []
  wf := dot_S600000x294_S294x8_S600000x8_1_0_0_1_n_n_wf
def scatter_S200000x64_S600000x1_S600000x64_1_0_0_1 : ScatterDims S200000x64 S600000x1 S600000x64 where
  updateWindowDims := [1]
  insertedWindowDims := [0]
  scatterDimsToOperandDims := [0]
  indexVectorDim := 1
  wf := scatter_S200000x64_S600000x1_S600000x64_1_0_0_1_wf
def dot_S200000x64_S64x128_S200000x128_1_0_0_1_n_n : DotDims S200000x64 S64x128 S200000x128 where
  lhsContracting := [1]
  rhsContracting := [0]
  lhsNonContracting := [0]
  rhsNonContracting := [1]
  lhsBatch := []
  rhsBatch := []
  wf := dot_S200000x64_S64x128_S200000x128_1_0_0_1_n_n_wf
def dot_S200000x6_S6x128_S200000x128_1_0_0_1_n_n : DotDims S200000x6 S6x128 S200000x128 where
  lhsContracting := [1]
  rhsContracting := [0]
  lhsNonContracting := [0]
  rhsNonContracting := [1]
  lhsBatch := []
  rhsBatch := []
  wf := dot_S200000x6_S6x128_S200000x128_1_0_0_1_n_n_wf

class Facts : Prop extends Facts₀ where

variable [Facts]
-- ==== Proof.RefRun.lean ====
/- The reference program's run: it terminates, its two results are the last stages of its operations' chain, and its
   arguments end as launched.

   The 186 operations are read in nine consecutive pieces. Each piece ends at a value that later operations read more
   than once (or at a result), and what a piece leaves in that value's buffer is that value's stage, provided the piece
   starts from contents that hold the arguments as launched and, in the buffers of the earlier such values it reads,
   their stages. A piece writes only its own results' buffers, which are numbered in program order after the 29
   arguments, so every buffer numbered outside a piece's range passes through it unchanged. Composing the nine pieces
   gives the two results and the arguments after the whole list. -/
import proofs.«414090_j48034914238946_1_alg».proof.Proof.RefStage
import proofs.«414090_j48034914238946_1_alg».proof.Proof.RefOps
import Idealize.ShloMosaic.Lib.StableHlo.Run
import Idealize.ShloMosaic.Lib.Pipeline.Frame

noncomputable section

namespace Cert.ReferenceIdeal.StageRun

open Cert.ReferenceIdeal Cert.ReferenceIdeal.Gen Cert.ReferenceIdeal.Stage Cert.ReferenceIdeal.Ops Idealize.ShloMosaic Idealize.ShloMosaic.TcCoe Idealize.SL.Sem Idealize.ShloMosaic.StableHlo

variable {F : FTy → Type} [FloatOps F]

/-! ## The stages at which the list is cut, of the arguments a valuation holds -/

/-- Stage `%4` of the arguments held by `W`. -/
abbrev stg4 (W : Valuation τ sig (Elt F)) : (⟨S200000x128, .f32⟩ : BufTy).Contents (Elt F) :=
  val_main_v4 (W main_arg0) (W main_arg15) (W main_arg16)
/-- Stage `%14` of the arguments held by `W`. -/
abbrev stg14 (W : Valuation τ sig (Elt F)) : (⟨S200000x64, .f32⟩ : BufTy).Contents (Elt F) :=
  val_main_v14 (W main_arg0) (W main_arg1) (W main_arg6) (W main_arg7) (W main_arg13) (W main_arg14) (W main_arg17)
/-- Stage `%27` of the arguments held by `W`. -/
abbrev stg27 (W : Valuation τ sig (Elt F)) : (⟨S600000x64, .f32⟩ : BufTy).Contents (Elt F) :=
  val_main_v27 (W main_arg0) (W main_arg1) (W main_arg2) (W main_arg3) (W main_arg4) (W main_arg6) (W main_arg7) (W main_arg8) (W main_arg9) (W main_arg10) (W main_arg11) (W main_arg13) (W main_arg14) (W main_arg17)
/-- Stage `%33` of the arguments held by `W`. -/
abbrev stg33 (W : Valuation τ sig (Elt F)) : (⟨S200000x128, .f32⟩ : BufTy).Contents (Elt F) :=
  val_main_v33 (W main_arg0) (W main_arg1) (W main_arg2) (W main_arg3) (W main_arg4) (W main_arg5) (W main_arg6) (W main_arg7) (W main_arg8) (W main_arg9) (W main_arg10) (W main_arg11) (W main_arg13) (W main_arg14) (W main_arg15) (W main_arg16) (W main_arg17) (W main_arg18)
/-- Stage `%48` of the arguments held by `W`. -/
abbrev stg48 (W : Valuation τ sig (Elt F)) : (⟨S200000x128, .f32⟩ : BufTy).Contents (Elt F) :=
  val_main_v48 (W main_arg0) (W main_arg1) (W main_arg2) (W main_arg3) (W main_arg4) (W main_arg5) (W main_arg6) (W main_arg7) (W main_arg8) (W main_arg9) (W main_arg10) (W main_arg11) (W main_arg13) (W main_arg14) (W main_arg15) (W main_arg16) (W main_arg17) (W main_arg18) (W main_arg19) (W main_arg20) (W main_arg21) (W main_arg22)
/-- Stage `%54` of the arguments held by `W`. -/
abbrev stg54 (W : Valuation τ sig (Elt F)) : (⟨S200000x128, .f32⟩ : BufTy).Contents (Elt F) :=
  val_main_v54 (W main_arg0) (W main_arg1) (W main_arg2) (W main_arg3) (W main_arg4) (W main_arg5) (W main_arg6) (W main_arg7) (W main_arg8) (W main_arg9) (W main_arg10) (W main_arg11) (W main_arg13) (W main_arg14) (W main_arg15) (W main_arg16) (W main_arg17) (W main_arg18) (W main_arg19) (W main_arg20) (W main_arg21) (W main_arg22) (W main_arg23) (W main_arg24)
/-- Stage `%73` of the arguments held by `W`. -/
abbrev stg73 (W : Valuation τ sig (Elt F)) : (⟨S200000x128, .f32⟩ : BufTy).Contents (Elt F) :=
  val_main_v73 (W main_arg0) (W main_arg1) (W main_arg2) (W main_arg3) (W main_arg4) (W main_arg5) (W main_arg6) (W main_arg7) (W main_arg8) (W main_arg9) (W main_arg10) (W main_arg11) (W main_arg13) (W main_arg14) (W main_arg15) (W main_arg16) (W main_arg17) (W main_arg18) (W main_arg19) (W main_arg20) (W main_arg21) (W main_arg22) (W main_arg23) (W main_arg24) (W main_arg25) (W main_arg26) (W main_arg27) (W main_arg28)
/-- Stage `%92` (the first result) of the arguments held by `W`. -/
abbrev stg92 (W : Valuation τ sig (Elt F)) : (⟨S200000x128, .f32⟩ : BufTy).Contents (Elt F) :=
  val_main_v92 (W main_arg0) (W main_arg1) (W main_arg2) (W main_arg3) (W main_arg4) (W main_arg5) (W main_arg6) (W main_arg7) (W main_arg8) (W main_arg9) (W main_arg10) (W main_arg11) (W main_arg13) (W main_arg14) (W main_arg15) (W main_arg16) (W main_arg17) (W main_arg18) (W main_arg19) (W main_arg20) (W main_arg21) (W main_arg22) (W main_arg23) (W main_arg24) (W main_arg25) (W main_arg26) (W main_arg27) (W main_arg28)
/-- Stage `%94` (the second result) of the arguments held by `W`. -/
abbrev stg94 (W : Valuation τ sig (Elt F)) : (⟨S200000x128, .f32⟩ : BufTy).Contents (Elt F) :=
  val_main_v94 (W main_arg0) (W main_arg1) (W main_arg2) (W main_arg3) (W main_arg4) (W main_arg5) (W main_arg6) (W main_arg7) (W main_arg8) (W main_arg9) (W main_arg10) (W main_arg11) (W main_arg12) (W main_arg13) (W main_arg14) (W main_arg15) (W main_arg16) (W main_arg17) (W main_arg18) (W main_arg19) (W main_arg20) (W main_arg21) (W main_arg22) (W main_arg23) (W main_arg24) (W main_arg25) (W main_arg26) (W main_arg27) (W main_arg28)

/-! ## The nine pieces

For each piece: the buffers it leaves alone (`frame`), and what it leaves in the buffer of the value it ends at
(`piece`), from any contents `W` that hold the arguments as `W₀` does and the stages the piece reads. A piece's term of
`W` is read off the list one operation at a time; the hypotheses turn its leaves into the arguments of `W₀` and the
earlier stages, and what is left is the later stage's definition unfolded, operation by operation. -/

/-- The first piece (`%0` … `%4`: the edge stage's first result, a dense layer with a bias and `silu`) writes buffers 29 … 41 only. -/
theorem frame1 (W : Valuation τ sig (Elt F)) (r : Ref sig .tc) (hr : r.idx.val < 29 ∨ 42 ≤ r.idx.val) :
    after ch1 W r = W r := by
  refine after_of_forall_not_mem ch1 W (List.forall_iff_forall_mem.mp ?_)
  simp only [ch1, List.Forall, nullary_writes, unary_writes, binary_writes, ternary_writes, reshape_writes, Finset.mem_singleton]
  repeat' apply And.intro
  all_goals exact devRef_ne_of_ne (fun e => by subst e; exact absurd hr (by decide))

set_option maxHeartbeats 4000000 in
/-- The first piece ends at stage `%4`. -/
theorem piece1 (W₀ W : Valuation τ sig (Elt F)) (hA : ∀ r : Ref sig .tc, r.idx.val < 29 → W r = W₀ r) :
    after ch1 W main_v4 = stg4 W₀ := by
  after_results_simp
  rw [hA main_arg0 (by decide), hA main_arg15 (by decide), hA main_arg16 (by decide)]
  rfl

/-- The second piece (`%5` … `%14`: the edge stage's second result) writes buffers 42 … 67 only. -/
theorem frame2 (W : Valuation τ sig (Elt F)) (r : Ref sig .tc) (hr : r.idx.val < 42 ∨ 68 ≤ r.idx.val) :
    after ch2 W r = W r := by
  refine after_of_forall_not_mem ch2 W (List.forall_iff_forall_mem.mp ?_)
  simp only [ch2, List.Forall, nullary_writes, unary_writes, binary_writes, ternary_writes, reshape_writes, Finset.mem_singleton]
  repeat' apply And.intro
  all_goals exact devRef_ne_of_ne (fun e => by subst e; exact absurd hr (by decide))

set_option maxHeartbeats 4000000 in
/-- The second piece ends at stage `%14`. -/
theorem piece2 (W₀ W : Valuation τ sig (Elt F)) (hA : ∀ r : Ref sig .tc, r.idx.val < 29 → W r = W₀ r) :
    after ch2 W main_v14 = stg14 W₀ := by
  after_results_simp
  rw [hA main_arg0 (by decide), hA main_arg13 (by decide), hA main_arg14 (by decide), hA main_arg1 (by decide), hA main_arg6 (by decide), hA main_arg7 (by decide), hA main_arg17 (by decide)]
  rfl

/-- The third piece (`%15` … `%27`: the gather of `%14`'s rows and the triplet stage's products) writes buffers 68 … 82 only. -/
theorem frame3 (W : Valuation τ sig (Elt F)) (r : Ref sig .tc) (hr : r.idx.val < 68 ∨ 83 ≤ r.idx.val) :
    after ch3 W r = W r := by
  refine after_of_forall_not_mem ch3 W (List.forall_iff_forall_mem.mp ?_)
  simp only [ch3, List.Forall, nullary_writes, unary_writes, binary_writes, ternary_writes, reshape_writes, Finset.mem_singleton]
  repeat' apply And.intro
  all_goals exact devRef_ne_of_ne (fun e => by subst e; exact absurd hr (by decide))

set_option maxHeartbeats 4000000 in
/-- The third piece ends at stage `%27`, from contents that hold stage `%14`. -/
theorem piece3 (W₀ W : Valuation τ sig (Elt F)) (hA : ∀ r : Ref sig .tc, r.idx.val < 29 → W r = W₀ r)
    (h14 : W main_v14 = stg14 W₀) :
    after ch3 W main_v27 = stg27 W₀ := by
  after_results_simp
  rw [h14, hA main_arg2 (by decide), hA main_arg8 (by decide), hA main_arg9 (by decide), hA main_arg4 (by decide), hA main_arg3 (by decide), hA main_arg10 (by decide), hA main_arg11 (by decide)]
  rfl

/-- The fourth piece (the segment sum `%30` of `%27`, its dense layer and `silu`, and the sum `%33` with `%4`) writes buffers 83 … 97 only. -/
theorem frame4 (W : Valuation τ sig (Elt F)) (r : Ref sig .tc) (hr : r.idx.val < 83 ∨ 98 ≤ r.idx.val) :
    after ch4 W r = W r := by
  refine after_of_forall_not_mem ch4 W (List.forall_iff_forall_mem.mp ?_)
  simp only [ch4, List.Forall, nullary_writes, unary_writes, binary_writes, ternary_writes, reshape_writes, Finset.mem_singleton]
  repeat' apply And.intro
  all_goals exact devRef_ne_of_ne (fun e => by subst e; exact absurd hr (by decide))

set_option maxHeartbeats 4000000 in
/-- The fourth piece ends at stage `%33`, from contents that hold stages `%4` and `%27`. -/
theorem piece4 (W₀ W : Valuation τ sig (Elt F)) (hA : ∀ r : Ref sig .tc, r.idx.val < 29 → W r = W₀ r)
    (h4 : W main_v4 = stg4 W₀) (h27 : W main_v27 = stg27 W₀) :
    after ch4 W main_v33 = stg33 W₀ := by
  after_results_simp
  rw [h4, h27, hA main_arg5 (by decide), hA main_arg18 (by decide)]
  rfl

/-- The fifth piece (`%34` … `%48`: the residual layer before the skip) writes buffers 98 … 128 only. -/
theorem frame5 (W : Valuation τ sig (Elt F)) (r : Ref sig .tc) (hr : r.idx.val < 98 ∨ 129 ≤ r.idx.val) :
    after ch5 W r = W r := by
  refine after_of_forall_not_mem ch5 W (List.forall_iff_forall_mem.mp ?_)
  simp only [ch5, List.Forall, nullary_writes, unary_writes, binary_writes, ternary_writes, reshape_writes, Finset.mem_singleton]
  repeat' apply And.intro
  all_goals exact devRef_ne_of_ne (fun e => by subst e; exact absurd hr (by decide))

set_option maxHeartbeats 4000000 in
/-- The fifth piece ends at stage `%48`, from contents that hold stage `%33`. -/
theorem piece5 (W₀ W : Valuation τ sig (Elt F)) (hA : ∀ r : Ref sig .tc, r.idx.val < 29 → W r = W₀ r)
    (h33 : W main_v33 = stg33 W₀) :
    after ch5 W main_v48 = stg48 W₀ := by
  after_results_simp
  rw [h33, hA main_arg19 (by decide), hA main_arg20 (by decide), hA main_arg21 (by decide), hA main_arg22 (by decide)]
  rfl

/-- The sixth piece (`%49` … `%54`: the skip's dense layer with a bias, `silu`, and the sum with the first argument) writes buffers 129 … 142 only. -/
theorem frame6 (W : Valuation τ sig (Elt F)) (r : Ref sig .tc) (hr : r.idx.val < 129 ∨ 143 ≤ r.idx.val) :
    after ch6 W r = W r := by
  refine after_of_forall_not_mem ch6 W (List.forall_iff_forall_mem.mp ?_)
  simp only [ch6, List.Forall, nullary_writes, unary_writes, binary_writes, ternary_writes, reshape_writes, Finset.mem_singleton]
  repeat' apply And.intro
  all_goals exact devRef_ne_of_ne (fun e => by subst e; exact absurd hr (by decide))

set_option maxHeartbeats 4000000 in
/-- The sixth piece ends at stage `%54`, from contents that hold stage `%48`. -/
theorem piece6 (W₀ W : Valuation τ sig (Elt F)) (hA : ∀ r : Ref sig .tc, r.idx.val < 29 → W r = W₀ r)
    (h48 : W main_v48 = stg48 W₀) :
    after ch6 W main_v54 = stg54 W₀ := by
  after_results_simp
  rw [h48, hA main_arg23 (by decide), hA main_arg24 (by decide), hA main_arg0 (by decide)]
  rfl

/-- The seventh piece (`%55` … `%73`: the first residual layer after the skip) writes buffers 143 … 177 only. -/
theorem frame7 (W : Valuation τ sig (Elt F)) (r : Ref sig .tc) (hr : r.idx.val < 143 ∨ 178 ≤ r.idx.val) :
    after ch7 W r = W r := by
  refine after_of_forall_not_mem ch7 W (List.forall_iff_forall_mem.mp ?_)
  simp only [ch7, List.Forall, nullary_writes, unary_writes, binary_writes, ternary_writes, reshape_writes, Finset.mem_singleton]
  repeat' apply And.intro
  all_goals exact devRef_ne_of_ne (fun e => by subst e; exact absurd hr (by decide))

set_option maxHeartbeats 4000000 in
/-- The seventh piece ends at stage `%73`, from contents that hold stage `%54`. -/
theorem piece7 (W₀ W : Valuation τ sig (Elt F)) (hA : ∀ r : Ref sig .tc, r.idx.val < 29 → W r = W₀ r)
    (h54 : W main_v54 = stg54 W₀) :
    after ch7 W main_v73 = stg73 W₀ := by
  after_results_simp
  rw [h54, hA main_arg25 (by decide), hA main_arg26 (by decide), hA main_arg27 (by decide), hA main_arg28 (by decide)]
  rfl

/-- The eighth piece (`%74` … `%92`: the second residual layer after the skip) writes buffers 178 … 212 only. -/
theorem frame8 (W : Valuation τ sig (Elt F)) (r : Ref sig .tc) (hr : r.idx.val < 178 ∨ 213 ≤ r.idx.val) :
    after ch8 W r = W r := by
  refine after_of_forall_not_mem ch8 W (List.forall_iff_forall_mem.mp ?_)
  simp only [ch8, List.Forall, nullary_writes, unary_writes, binary_writes, ternary_writes, reshape_writes, Finset.mem_singleton]
  repeat' apply And.intro
  all_goals exact devRef_ne_of_ne (fun e => by subst e; exact absurd hr (by decide))

set_option maxHeartbeats 4000000 in
/-- The eighth piece ends at stage `%92`, from contents that hold stage `%73`. -/
theorem piece8 (W₀ W : Valuation τ sig (Elt F)) (hA : ∀ r : Ref sig .tc, r.idx.val < 29 → W r = W₀ r)
    (h73 : W main_v73 = stg73 W₀) :
    after ch8 W main_v92 = stg92 W₀ := by
  after_results_simp
  rw [h73, hA main_arg25 (by decide), hA main_arg26 (by decide), hA main_arg27 (by decide), hA main_arg28 (by decide)]
  rfl

/-- The ninth piece (`%93`, `%94`: the second result, a dense layer of the second argument times `%92`) writes buffers 213 and 214 only. -/
theorem frame9 (W : Valuation τ sig (Elt F)) (r : Ref sig .tc) (hr : r.idx.val < 213 ∨ 215 ≤ r.idx.val) :
    after ch9 W r = W r := by
  refine after_of_forall_not_mem ch9 W (List.forall_iff_forall_mem.mp ?_)
  simp only [ch9, List.Forall, nullary_writes, unary_writes, binary_writes, ternary_writes, reshape_writes, Finset.mem_singleton]
  repeat' apply And.intro
  all_goals exact devRef_ne_of_ne (fun e => by subst e; exact absurd hr (by decide))

set_option maxHeartbeats 4000000 in
/-- The ninth piece ends at stage `%94`, from contents that hold stage `%92`. -/
theorem piece9 (W₀ W : Valuation τ sig (Elt F)) (hA : ∀ r : Ref sig .tc, r.idx.val < 29 → W r = W₀ r)
    (h92 : W main_v92 = stg92 W₀) :
    after ch9 W main_v94 = stg94 W₀ := by
  after_results_simp
  rw [h92, hA main_arg1 (by decide), hA main_arg12 (by decide)]
  rfl

/-! ## The pieces one after the other -/

/-- The contents after the first piece, from `W₀`; `V2` … `V9`: after the first two, …, all nine. -/
abbrev V1 (W₀ : Valuation τ sig (Elt F)) : Valuation τ sig (Elt F) := after ch1 W₀
@[inherit_doc V1] abbrev V2 (W₀ : Valuation τ sig (Elt F)) : Valuation τ sig (Elt F) := after ch2 (V1 W₀)
@[inherit_doc V1] abbrev V3 (W₀ : Valuation τ sig (Elt F)) : Valuation τ sig (Elt F) := after ch3 (V2 W₀)
@[inherit_doc V1] abbrev V4 (W₀ : Valuation τ sig (Elt F)) : Valuation τ sig (Elt F) := after ch4 (V3 W₀)
@[inherit_doc V1] abbrev V5 (W₀ : Valuation τ sig (Elt F)) : Valuation τ sig (Elt F) := after ch5 (V4 W₀)
@[inherit_doc V1] abbrev V6 (W₀ : Valuation τ sig (Elt F)) : Valuation τ sig (Elt F) := after ch6 (V5 W₀)
@[inherit_doc V1] abbrev V7 (W₀ : Valuation τ sig (Elt F)) : Valuation τ sig (Elt F) := after ch7 (V6 W₀)
@[inherit_doc V1] abbrev V8 (W₀ : Valuation τ sig (Elt F)) : Valuation τ sig (Elt F) := after ch8 (V7 W₀)
@[inherit_doc V1] abbrev V9 (W₀ : Valuation τ sig (Elt F)) : Valuation τ sig (Elt F) := after ch9 (V8 W₀)

set_option maxRecDepth 8192 in
/-- The list is its nine pieces in a row. -/
theorem ops_split : (ops : List (HloOp τ sig (Elt F))) = ch1 ++ (ch2 ++ (ch3 ++ (ch4 ++ (ch5 ++ (ch6 ++ (ch7 ++ (ch8 ++ ch9))))))) := rfl

/-- Running the list is running the pieces in turn. -/
theorem after_ops (W₀ : Valuation τ sig (Elt F)) : after ops W₀ = V9 W₀ := by
  rw [ops_split, after_append, after_append, after_append, after_append, after_append, after_append, after_append, after_append]

variable (W₀ : Valuation τ sig (Elt F))

/-! No piece writes an argument: after each, the arguments are as in `W₀`. -/
theorem args1 (r : Ref sig .tc) (hr : r.idx.val < 29) : V1 W₀ r = W₀ r := frame1 _ r (Or.inl hr)
theorem args2 (r : Ref sig .tc) (hr : r.idx.val < 29) : V2 W₀ r = W₀ r := (frame2 _ r (Or.inl (by omega))).trans (args1 W₀ r hr)
theorem args3 (r : Ref sig .tc) (hr : r.idx.val < 29) : V3 W₀ r = W₀ r := (frame3 _ r (Or.inl (by omega))).trans (args2 W₀ r hr)
theorem args4 (r : Ref sig .tc) (hr : r.idx.val < 29) : V4 W₀ r = W₀ r := (frame4 _ r (Or.inl (by omega))).trans (args3 W₀ r hr)
theorem args5 (r : Ref sig .tc) (hr : r.idx.val < 29) : V5 W₀ r = W₀ r := (frame5 _ r (Or.inl (by omega))).trans (args4 W₀ r hr)
theorem args6 (r : Ref sig .tc) (hr : r.idx.val < 29) : V6 W₀ r = W₀ r := (frame6 _ r (Or.inl (by omega))).trans (args5 W₀ r hr)
theorem args7 (r : Ref sig .tc) (hr : r.idx.val < 29) : V7 W₀ r = W₀ r := (frame7 _ r (Or.inl (by omega))).trans (args6 W₀ r hr)
theorem args8 (r : Ref sig .tc) (hr : r.idx.val < 29) : V8 W₀ r = W₀ r := (frame8 _ r (Or.inl (by omega))).trans (args7 W₀ r hr)
theorem args9 (r : Ref sig .tc) (hr : r.idx.val < 29) : V9 W₀ r = W₀ r := (frame9 _ r (Or.inl (by omega))).trans (args8 W₀ r hr)

/-! Each stage where it is written, and where it is still read: `%4` is read by the fourth piece, past the second and
    third; `%92` is a result, past the ninth. -/
theorem at4_1 : V1 W₀ main_v4 = stg4 W₀ := piece1 W₀ W₀ fun _ _ => rfl
theorem at4_2 : V2 W₀ main_v4 = stg4 W₀ := (frame2 _ main_v4 (by decide)).trans (at4_1 W₀)
theorem at4_3 : V3 W₀ main_v4 = stg4 W₀ := (frame3 _ main_v4 (by decide)).trans (at4_2 W₀)
theorem at14_2 : V2 W₀ main_v14 = stg14 W₀ := piece2 W₀ _ (args1 W₀)
theorem at27_3 : V3 W₀ main_v27 = stg27 W₀ := piece3 W₀ _ (args2 W₀) (at14_2 W₀)
theorem at33_4 : V4 W₀ main_v33 = stg33 W₀ := piece4 W₀ _ (args3 W₀) (at4_3 W₀) (at27_3 W₀)
theorem at48_5 : V5 W₀ main_v48 = stg48 W₀ := piece5 W₀ _ (args4 W₀) (at33_4 W₀)
theorem at54_6 : V6 W₀ main_v54 = stg54 W₀ := piece6 W₀ _ (args5 W₀) (at48_5 W₀)
theorem at73_7 : V7 W₀ main_v73 = stg73 W₀ := piece7 W₀ _ (args6 W₀) (at54_6 W₀)
theorem at92_8 : V8 W₀ main_v92 = stg92 W₀ := piece8 W₀ _ (args7 W₀) (at73_7 W₀)
theorem at92_9 : V9 W₀ main_v92 = stg92 W₀ := (frame9 _ main_v92 (by decide)).trans (at92_8 W₀)
theorem at94_9 : V9 W₀ main_v94 = stg94 W₀ := piece9 W₀ _ (args8 W₀) (at92_8 W₀)

/-! After the whole list. -/
theorem ops_v92 : after ops W₀ main_v92 = stg92 W₀ := by rw [after_ops]; exact at92_9 W₀
theorem ops_v94 : after ops W₀ main_v94 = stg94 W₀ := by rw [after_ops]; exact at94_9 W₀
theorem ops_arg (r : Ref sig .tc) (hr : r.idx.val < 29) : after ops W₀ r = W₀ r := by rw [after_ops]; exact args9 W₀ r hr

/-! ## The run -/

/-- Every weakly fair execution of the reference's @main terminates; its first result is the stage `val_main_v92` of the
    arguments as launched, its second `val_main_v94`, and every argument is unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v92) = val_main_v92 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28))
      ∧ r.2.mem ((c.tc : Thread nD τ).loc main_v94) = val_main_v94 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28) :=
  (θ_run defs _ _).mono (fun _ h c => ⟨(h c main_v92).trans (ops_v92 _), (h c main_v94).trans (ops_v94 _),
      (h c main_arg0).trans (ops_arg _ main_arg0 (by decide)),
      (h c main_arg1).trans (ops_arg _ main_arg1 (by decide)),
      (h c main_arg2).trans (ops_arg _ main_arg2 (by decide)),
      (h c main_arg3).trans (ops_arg _ main_arg3 (by decide)),
      (h c main_arg4).trans (ops_arg _ main_arg4 (by decide)),
      (h c main_arg5).trans (ops_arg _ main_arg5 (by decide)),
      (h c main_arg6).trans (ops_arg _ main_arg6 (by decide)),
      (h c main_arg7).trans (ops_arg _ main_arg7 (by decide)),
      (h c main_arg8).trans (ops_arg _ main_arg8 (by decide)),
      (h c main_arg9).trans (ops_arg _ main_arg9 (by decide)),
      (h c main_arg10).trans (ops_arg _ main_arg10 (by decide)),
      (h c main_arg11).trans (ops_arg _ main_arg11 (by decide)),
      (h c main_arg12).trans (ops_arg _ main_arg12 (by decide)),
      (h c main_arg13).trans (ops_arg _ main_arg13 (by decide)),
      (h c main_arg14).trans (ops_arg _ main_arg14 (by decide)),
      (h c main_arg15).trans (ops_arg _ main_arg15 (by decide)),
      (h c main_arg16).trans (ops_arg _ main_arg16 (by decide)),
      (h c main_arg17).trans (ops_arg _ main_arg17 (by decide)),
      (h c main_arg18).trans (ops_arg _ main_arg18 (by decide)),
      (h c main_arg19).trans (ops_arg _ main_arg19 (by decide)),
      (h c main_arg20).trans (ops_arg _ main_arg20 (by decide)),
      (h c main_arg21).trans (ops_arg _ main_arg21 (by decide)),
      (h c main_arg22).trans (ops_arg _ main_arg22 (by decide)),
      (h c main_arg23).trans (ops_arg _ main_arg23 (by decide)),
      (h c main_arg24).trans (ops_arg _ main_arg24 (by decide)),
      (h c main_arg25).trans (ops_arg _ main_arg25 (by decide)),
      (h c main_arg26).trans (ops_arg _ main_arg26 (by decide)),
      (h c main_arg27).trans (ops_arg _ main_arg27 (by decide)),
      (h c main_arg28).trans (ops_arg _ main_arg28 (by decide))⟩)
    (run_seq scopedRefs_eq scopedSems_eq defs main (fun _ => ops) main_eq (fun _ => ops_sub) m ρ)

end Cert.ReferenceIdeal.StageRun

end
-- ==== Proof.Spec.lean ====
/-
  The interaction block as mathematics, row by row, on the extended reals.

  Every stage of the block acts on one row of its operands at a time: a dense layer is the row times a
  weight matrix, `silu z = z · (1 / (1 + e^(-z)))` acts entrywise, a residual layer adds to a row its image
  under two dense layers with a bias and `silu` after each. Both programs are shown to compute, at every row
  `r` and column `q`, the functions below of the rows `r` of their operands: the edge stage (`xjiRow`,
  `xkjdRow`), the triplet stage (`msgRow`) and the combine stage (`e1outRow`, `e2outRow`). Only sums and
  products of extended reals occur, in the same order on both sides, so no law of arithmetic is needed to
  join them and nothing here asks for finiteness.
-/
import Idealize.ShloMosaic.PureOps.Ideal
import Idealize.ShloMosaic.Lib.ValueIdx

noncomputable section

namespace Cert.Interaction

open Idealize.ShloMosaic Idealize.ShloMosaic.ValueIdx

/-- Row `r` of a matrix given as an array over a two-axis index. -/
def row {R C : Nat} (a : (⟨2, ![R, C]⟩ : Shape).Idx → EReal) (r : Fin R) : Fin C → EReal := fun k => a (ix2 r k)

/-- A two-axis array as a matrix of its entries. -/
def mat {K C : Nat} (a : (⟨2, ![K, C]⟩ : Shape).Idx → EReal) : Fin K → Fin C → EReal := fun k j => a (ix2 k j)

/-- A one-axis array as a vector of its entries. -/
def vec {C : Nat} (a : (⟨1, ![C]⟩ : Shape).Idx → EReal) : Fin C → EReal := fun j => a (ix1 j)

/-- Slab `n` of a stack of matrices. -/
def mat3 {N K C : Nat} (a : (⟨3, ![N, K, C]⟩ : Shape).Idx → EReal) (n : Fin N) : Fin K → Fin C → EReal :=
  fun k j => a (ix3 n k j)

/-- A row times a matrix: entry `c` is the sum over `k` of `x k · W k c`. -/
def dense {K C : Nat} (x : Fin K → EReal) (W : Fin K → Fin C → EReal) : Fin C → EReal := fun c => ∑ k, x k * W k c

/-- `silu z = z · logistic z`, with `logistic z = 1 / (1 + e^(-z))`. -/
def silu (z : EReal) : EReal := z * Ideal.logistic z

/-- A dense layer with a bias. -/
def lin {K C : Nat} (x : Fin K → EReal) (W : Fin K → Fin C → EReal) (b : Fin C → EReal) : Fin C → EReal :=
  fun c => dense x W c + b c

/-- `silu` entrywise. -/
def act {C : Nat} (v : Fin C → EReal) : Fin C → EReal := fun c => silu (v c)

/-- A residual layer: `h + silu (silu (h W₁ + b₁) W₂ + b₂)`. -/
def resid {C : Nat} (h : Fin C → EReal) (W1 : Fin C → Fin C → EReal) (b1 : Fin C → EReal)
    (W2 : Fin C → Fin C → EReal) (b2 : Fin C → EReal) : Fin C → EReal :=
  fun c => h c + act (lin (act (lin h W1 b1)) W2 b2) c

/-- The edge stage's first result: `silu (e1 W_ji + b_ji)`. -/
def xjiRow (e1 : Fin 128 → EReal) (Wji : Fin 128 → Fin 128 → EReal) (bji : Fin 128 → EReal) : Fin 128 → EReal :=
  act (lin e1 Wji bji)

/-- The edge stage's second result: `silu ((silu (e1 W_kj + b_kj) ⊙ ((rbf W_rbf1) W_rbf2)) W_down)`. -/
def xkjdRow (e1 : Fin 128 → EReal) (rbf : Fin 6 → EReal) (Wkj : Fin 128 → Fin 128 → EReal) (bkj : Fin 128 → EReal)
    (Wr1 : Fin 6 → Fin 8 → EReal) (Wr2 : Fin 8 → Fin 128 → EReal) (Wd : Fin 128 → Fin 64 → EReal) : Fin 64 → EReal :=
  act (dense (fun j => act (lin e1 Wkj bkj) j * dense (dense rbf Wr1) Wr2 j) Wd)

/-- The triplet stage: `(x ⊙ ((sbf W_sbf1) W_sbf2)) ⊙ ((t W_t1) W_t2)`. -/
def msgRow (sbf : Fin 42 → EReal) (t : Fin 294 → EReal) (x : Fin 64 → EReal) (Ws1 : Fin 42 → Fin 8 → EReal)
    (Ws2 : Fin 8 → Fin 64 → EReal) (Wt1 : Fin 294 → Fin 8 → EReal) (Wt2 : Fin 8 → Fin 64 → EReal) : Fin 64 → EReal :=
  fun c => x c * dense (dense sbf Ws1) Ws2 c * dense (dense t Wt1) Wt2 c

/-- The combine stage's first result: `x_ji + silu (s W_up)`, one residual layer, the skip
    `silu (· W_lin + b_lin) + e1`, two residual layers. -/
def e1outRow (xji : Fin 128 → EReal) (s : Fin 64 → EReal) (e1 : Fin 128 → EReal) (Wup : Fin 64 → Fin 128 → EReal)
    (Wb1 : Fin 128 → Fin 128 → EReal) (bb1 : Fin 128 → EReal) (Wb2 : Fin 128 → Fin 128 → EReal) (bb2 : Fin 128 → EReal)
    (Wlin : Fin 128 → Fin 128 → EReal) (blin : Fin 128 → EReal)
    (Wa10 : Fin 128 → Fin 128 → EReal) (ba10 : Fin 128 → EReal) (Wa20 : Fin 128 → Fin 128 → EReal) (ba20 : Fin 128 → EReal)
    (Wa11 : Fin 128 → Fin 128 → EReal) (ba11 : Fin 128 → EReal) (Wa21 : Fin 128 → Fin 128 → EReal) (ba21 : Fin 128 → EReal) :
    Fin 128 → EReal :=
  resid (resid (fun c => act (lin (resid (fun c => xji c + act (dense s Wup) c) Wb1 bb1 Wb2 bb2) Wlin blin) c + e1 c)
    Wa10 ba10 Wa20 ba20) Wa11 ba11 Wa21 ba21

/-- The combine stage's second result: `(rbf W_rbf) ⊙ e1_out`. -/
def e2outRow (rbf : Fin 6 → EReal) (Wrbf : Fin 6 → Fin 128 → EReal) (e1o : Fin 128 → EReal) : Fin 128 → EReal :=
  fun c => dense rbf Wrbf c * e1o c

/-- Every gather index lies inside the gathered array's 200000 rows. -/
def IdxOk (a : (⟨1, ![600000]⟩ : Shape).Idx → BitVec 32) : Prop :=
  ∀ r : Fin 600000, 0 ≤ (a (ix1 r)).toInt ∧ (a (ix1 r)).toInt < 200000

end Cert.Interaction

end
-- ==== Proof.PreIdx.lean ====
/- The index range read out of the precondition. -/
import proofs.«414090_j48034914238946_1_alg».proof.Proof.Gen.Pre_finite_inputs
import proofs.«414090_j48034914238946_1_alg».proof.Proof.Spec
import Idealize.ShloMosaic.Lib.ValueIdx
import Idealize.ShloMosaic.Lib.ReduceAll
import Idealize.ShloMosaic.Lib.StableHlo.Predicate

noncomputable section

namespace Cert.PreIdx

open Idealize.ShloMosaic Idealize.ShloMosaic.ValueIdx Cert.Interaction

open Cert.Pre_finite_inputs Cert.Pre_finite_inputs.Facts

/-- The scalar shape has one index. -/
instance : Subsingleton S_.Idx := ⟨fun _ _ => funext fun d => d.elim0⟩

/-- The last eight operations of the precondition: the conjunction of what came before, of the reduction by `and` of a
    mask handed in, and of the reduction by `and` of the entrywise comparison `idx < 200000`. Where it is 1, the mask is
    all ones and every entry of `idx` is below 200000 as a signed word. -/
theorem tail_spec [Facts] (a4 : IVec S600000 32) (v133 : IVec S_ 1) (m : IVec S600000 1) (c : IVec S_ 1)
    (h : fn_part8 (F := Ideal) a4 v133 m c ix0 = 1#1) :
    (∀ i, m i = 1#1) ∧ ∀ i, (a4 i).toInt < 200000 := by
  dsimp only [fn_part8, andi] at h
  obtain ⟨h1, h2⟩ := IntOp.andi_eq_one.1 h
  obtain ⟨_, h3⟩ := IntOp.andi_eq_one.1 h1
  refine ⟨fun i => Host.reduce_andi_all _ _ _ _ _ h3 i, fun i => ?_⟩
  have e : IntOp.cmpi .slt (a4 i) (200000#32) = 1#1 := Host.reduce_andi_all _ _ _ _ _ h2 i
  have e' := IntOp.cmpi_slt.1 e
  rwa [show (200000#32 : BitVec 32).toInt = 200000 from rfl] at e'

/-- Where the precondition is all ones, every entry of the gather index `idx_kj` (argument 4) is at least 0 and less
    than 200000: its last two conjuncts. -/
theorem idxOk_of_pre [Cert.Pre_finite_inputs.Facts] (x0 : FVec Ideal Cert.Pre_finite_inputs.S200000x128 .f32) (x1 : FVec Ideal Cert.Pre_finite_inputs.S200000x6 .f32) (x2 : FVec Ideal Cert.Pre_finite_inputs.S600000x42 .f32) (x3 : FVec Ideal Cert.Pre_finite_inputs.S600000x294 .f32) (x4 : IVec Cert.Pre_finite_inputs.S600000 32) (x5 : IVec Cert.Pre_finite_inputs.S600000 32) (x6 : FVec Ideal Cert.Pre_finite_inputs.S6x8 .f32) (x7 : FVec Ideal Cert.Pre_finite_inputs.S8x128 .f32) (x8 : FVec Ideal Cert.Pre_finite_inputs.S42x8 .f32) (x9 : FVec Ideal Cert.Pre_finite_inputs.S8x64 .f32) (x10 : FVec Ideal Cert.Pre_finite_inputs.S294x8 .f32) (x11 : FVec Ideal Cert.Pre_finite_inputs.S8x64 .f32) (x12 : FVec Ideal Cert.Pre_finite_inputs.S6x128 .f32) (x13 : FVec Ideal Cert.Pre_finite_inputs.S128x128 .f32) (x14 : FVec Ideal Cert.Pre_finite_inputs.S128 .f32) (x15 : FVec Ideal Cert.Pre_finite_inputs.S128x128 .f32) (x16 : FVec Ideal Cert.Pre_finite_inputs.S128 .f32) (x17 : FVec Ideal Cert.Pre_finite_inputs.S128x64 .f32) (x18 : FVec Ideal Cert.Pre_finite_inputs.S64x128 .f32) (x19 : FVec Ideal Cert.Pre_finite_inputs.S1x128x128 .f32) (x20 : FVec Ideal Cert.Pre_finite_inputs.S1x128 .f32) (x21 : FVec Ideal Cert.Pre_finite_inputs.S1x128x128 .f32) (x22 : FVec Ideal Cert.Pre_finite_inputs.S1x128 .f32) (x23 : FVec Ideal Cert.Pre_finite_inputs.S128x128 .f32) (x24 : FVec Ideal Cert.Pre_finite_inputs.S128 .f32) (x25 : FVec Ideal Cert.Pre_finite_inputs.S2x128x128 .f32) (x26 : FVec Ideal Cert.Pre_finite_inputs.S2x128 .f32) (x27 : FVec Ideal Cert.Pre_finite_inputs.S2x128x128 .f32) (x28 : FVec Ideal Cert.Pre_finite_inputs.S2x128 .f32)
    (h : Cert.Pre_finite_inputs.fn (F := Ideal) x0 x1 x2 x3 x4 x5 x6 x7 x8 x9 x10 x11 x12 x13 x14 x15 x16 x17 x18 x19 x20 x21 x22 x23 x24 x25 x26 x27 x28 = fun _ => 1#1) : IdxOk x4 := by
  have h0 := congrFun h ix0
  dsimp only [Cert.Pre_finite_inputs.fn, Cert.Pre_finite_inputs.fn_part1, Cert.Pre_finite_inputs.fn_part2,
    Cert.Pre_finite_inputs.fn_part3, Cert.Pre_finite_inputs.fn_part4, Cert.Pre_finite_inputs.fn_part5,
    Cert.Pre_finite_inputs.fn_part6, Cert.Pre_finite_inputs.fn_part7] at h0
  obtain ⟨hge, hlt⟩ := tail_spec _ _ _ _ h0
  intro r
  refine ⟨?_, hlt (ix1 r)⟩
  have e : IntOp.cmpi .sge (x4 (ix1 r)) (0#32) = 1#1 := hge (ix1 r)
  have e' := IntOp.cmpi_sge.1 e
  rwa [show (0#32 : BitVec 32).toInt = 0 from rfl] at e'

end Cert.PreIdx

end
-- ==== Proof.KArgs.lean ====
/-
  The launch contents of the idealized kernel's arguments, each named at its literal array type.
-/
import proofs.«414090_j48034914238946_1_alg».proof.KernelIdeal
import Idealize.ShloMosaic.PureOps.Ideal

noncomputable section

namespace Cert.KernelIdeal.Args

open Cert.KernelIdeal Idealize.ShloMosaic Idealize.SL.Sem

variable (m : (ℓ : Loc nD τ sig) → Buf (Elt Ideal) ℓ)

/-- Argument 0 of the program as launched, on core `c`. -/
abbrev A0 (c : Dev nD) : FVec Ideal S200000x128 .f32 := m ((c.tc : Thread nD τ).loc main_arg0)
/-- Argument 1 of the program as launched, on core `c`. -/
abbrev A1 (c : Dev nD) : FVec Ideal S200000x6 .f32 := m ((c.tc : Thread nD τ).loc main_arg1)
/-- Argument 2 of the program as launched, on core `c`. -/
abbrev A2 (c : Dev nD) : FVec Ideal S600000x42 .f32 := m ((c.tc : Thread nD τ).loc main_arg2)
/-- Argument 3 of the program as launched, on core `c`. -/
abbrev A3 (c : Dev nD) : FVec Ideal S600000x294 .f32 := m ((c.tc : Thread nD τ).loc main_arg3)
/-- Argument 4 of the program as launched, on core `c`. -/
abbrev A4 (c : Dev nD) : IVec S600000 32 := m ((c.tc : Thread nD τ).loc main_arg4)
/-- Argument 5 of the program as launched, on core `c`. -/
abbrev A5 (c : Dev nD) : IVec S600000 32 := m ((c.tc : Thread nD τ).loc main_arg5)
/-- Argument 6 of the program as launched, on core `c`. -/
abbrev A6 (c : Dev nD) : FVec Ideal S6x8 .f32 := m ((c.tc : Thread nD τ).loc main_arg6)
/-- Argument 7 of the program as launched, on core `c`. -/
abbrev A7 (c : Dev nD) : FVec Ideal S8x128 .f32 := m ((c.tc : Thread nD τ).loc main_arg7)
/-- Argument 8 of the program as launched, on core `c`. -/
abbrev A8 (c : Dev nD) : FVec Ideal S42x8 .f32 := m ((c.tc : Thread nD τ).loc main_arg8)
/-- Argument 9 of the program as launched, on core `c`. -/
abbrev A9 (c : Dev nD) : FVec Ideal S8x64 .f32 := m ((c.tc : Thread nD τ).loc main_arg9)
/-- Argument 10 of the program as launched, on core `c`. -/
abbrev A10 (c : Dev nD) : FVec Ideal S294x8 .f32 := m ((c.tc : Thread nD τ).loc main_arg10)
/-- Argument 11 of the program as launched, on core `c`. -/
abbrev A11 (c : Dev nD) : FVec Ideal S8x64 .f32 := m ((c.tc : Thread nD τ).loc main_arg11)
/-- Argument 12 of the program as launched, on core `c`. -/
abbrev A12 (c : Dev nD) : FVec Ideal S6x128 .f32 := m ((c.tc : Thread nD τ).loc main_arg12)
/-- Argument 13 of the program as launched, on core `c`. -/
abbrev A13 (c : Dev nD) : FVec Ideal S128x128 .f32 := m ((c.tc : Thread nD τ).loc main_arg13)
/-- Argument 14 of the program as launched, on core `c`. -/
abbrev A14 (c : Dev nD) : FVec Ideal S128 .f32 := m ((c.tc : Thread nD τ).loc main_arg14)
/-- Argument 15 of the program as launched, on core `c`. -/
abbrev A15 (c : Dev nD) : FVec Ideal S128x128 .f32 := m ((c.tc : Thread nD τ).loc main_arg15)
/-- Argument 16 of the program as launched, on core `c`. -/
abbrev A16 (c : Dev nD) : FVec Ideal S128 .f32 := m ((c.tc : Thread nD τ).loc main_arg16)
/-- Argument 17 of the program as launched, on core `c`. -/
abbrev A17 (c : Dev nD) : FVec Ideal S128x64 .f32 := m ((c.tc : Thread nD τ).loc main_arg17)
/-- Argument 18 of the program as launched, on core `c`. -/
abbrev A18 (c : Dev nD) : FVec Ideal S64x128 .f32 := m ((c.tc : Thread nD τ).loc main_arg18)
/-- Argument 19 of the program as launched, on core `c`. -/
abbrev A19 (c : Dev nD) : FVec Ideal S1x128x128 .f32 := m ((c.tc : Thread nD τ).loc main_arg19)
/-- Argument 20 of the program as launched, on core `c`. -/
abbrev A20 (c : Dev nD) : FVec Ideal S1x128 .f32 := m ((c.tc : Thread nD τ).loc main_arg20)
/-- Argument 21 of the program as launched, on core `c`. -/
abbrev A21 (c : Dev nD) : FVec Ideal S1x128x128 .f32 := m ((c.tc : Thread nD τ).loc main_arg21)
/-- Argument 22 of the program as launched, on core `c`. -/
abbrev A22 (c : Dev nD) : FVec Ideal S1x128 .f32 := m ((c.tc : Thread nD τ).loc main_arg22)
/-- Argument 23 of the program as launched, on core `c`. -/
abbrev A23 (c : Dev nD) : FVec Ideal S128x128 .f32 := m ((c.tc : Thread nD τ).loc main_arg23)
/-- Argument 24 of the program as launched, on core `c`. -/
abbrev A24 (c : Dev nD) : FVec Ideal S128 .f32 := m ((c.tc : Thread nD τ).loc main_arg24)
/-- Argument 25 of the program as launched, on core `c`. -/
abbrev A25 (c : Dev nD) : FVec Ideal S2x128x128 .f32 := m ((c.tc : Thread nD τ).loc main_arg25)
/-- Argument 26 of the program as launched, on core `c`. -/
abbrev A26 (c : Dev nD) : FVec Ideal S2x128 .f32 := m ((c.tc : Thread nD τ).loc main_arg26)
/-- Argument 27 of the program as launched, on core `c`. -/
abbrev A27 (c : Dev nD) : FVec Ideal S2x128x128 .f32 := m ((c.tc : Thread nD τ).loc main_arg27)
/-- Argument 28 of the program as launched, on core `c`. -/
abbrev A28 (c : Dev nD) : FVec Ideal S2x128 .f32 := m ((c.tc : Thread nD τ).loc main_arg28)

end Cert.KernelIdeal.Args

end
-- ==== Proof.K0.lean ====
/- The edge stage of the kernel program, read at a row and a column. -/
import proofs.«414090_j48034914238946_1_alg».proof.Proof.Gen.KernelIdeal.Frame
import proofs.«414090_j48034914238946_1_alg».proof.Proof.Spec
import proofs.«414090_j48034914238946_1_alg».proof.Proof.KArgs
import Idealize.ShloMosaic.Lib.ValueIdx
import Idealize.ShloMosaic.Lib.Pipeline.Value
import Idealize.ShloMosaic.Lib.StableHlo.Run
import Idealize.ShloMosaic.PureOps.Ideal.Laws

noncomputable section

namespace Cert.KernelIdeal.Edge

open Cert.KernelIdeal Cert.KernelIdeal.Gen Cert.KernelIdeal.Args Cert.Interaction Idealize.ShloMosaic Idealize.ShloMosaic.ValueIdx Idealize.SL.Sem
open Idealize.ShloMosaic.TcCoe

/-! ## The body at a row and a column -/

/-! The product of a [4000,128] block with a [128,128] matrix: the operand indices at an output index and a contraction index. -/
theorem lhs_4000x128x128_0 (i : S4000x128.Idx) (q : dot_S4000x128_S128x128_S4000x128_1_0_0_1_n_n.contr.Idx) :
    (dot_S4000x128_S128x128_S4000x128_1_0_0_1_n_n.lhsIdx i q 0).val = (i 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl
theorem lhs_4000x128x128_1 (i : S4000x128.Idx) (q : dot_S4000x128_S128x128_S4000x128_1_0_0_1_n_n.contr.Idx) :
    (dot_S4000x128_S128x128_S4000x128_1_0_0_1_n_n.lhsIdx i q 1).val = (q ⟨0, by decide⟩).val :=
  dot_S4000x128_S128x128_S4000x128_1_0_0_1_n_n.lhsIdx_val_of_single rfl i q
theorem rhs_4000x128x128_0 (i : S4000x128.Idx) (q : dot_S4000x128_S128x128_S4000x128_1_0_0_1_n_n.contr.Idx) :
    (dot_S4000x128_S128x128_S4000x128_1_0_0_1_n_n.rhsIdx i q 0).val = (q ⟨0, by decide⟩).val :=
  dot_S4000x128_S128x128_S4000x128_1_0_0_1_n_n.rhsIdx_val_of_single rfl i q
theorem rhs_4000x128x128_1 (i : S4000x128.Idx) (q : dot_S4000x128_S128x128_S4000x128_1_0_0_1_n_n.contr.Idx) :
    (dot_S4000x128_S128x128_S4000x128_1_0_0_1_n_n.rhsIdx i q 1).val = (i 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl
/-- Into a zero accumulator the product's entry at row `p`, column `q` is row `p` of the left operand times the right operand's matrix. -/
theorem matmul_4000x128x128_apply {φ₁ φ₂ : FTy} (a : FVec Ideal S4000x128 φ₁) (b : FVec Ideal S128x128 φ₂) (p : Fin 4000) (q : Fin 128) :
    matmul dot_S4000x128_S128x128_S4000x128_1_0_0_1_n_n none a b (constant (F := Ideal) S4000x128 .f32 0x00000000#32) (ix2 p q)
      = dense (row a p) (mat b) q := by
  show FloatOps.matmul dot_S4000x128_S128x128_S4000x128_1_0_0_1_n_n none a b (constant (F := Ideal) S4000x128 .f32 0x00000000#32) (ix2 p q) = ∑ k : Fin 128, a (ix2 p k) * b (ix2 k q)
  rw [Ideal.matmul_constant_zero_apply, ← Equiv.sum_comp (ValueIdx.contrEquiv1 dot_S4000x128_S128x128_S4000x128_1_0_0_1_n_n 128 rfl rfl).symm]
  refine Finset.sum_congr rfl fun k _ => ?_
  have hk := ValueIdx.contrEquiv1_symm_val dot_S4000x128_S128x128_S4000x128_1_0_0_1_n_n 128 rfl rfl k
  have el : dot_S4000x128_S128x128_S4000x128_1_0_0_1_n_n.lhsIdx (ix2 p q) ((ValueIdx.contrEquiv1 dot_S4000x128_S128x128_S4000x128_1_0_0_1_n_n 128 rfl rfl).symm k) = ix2 p k := funext fun a => Fin.ext (by
    match a with
    | ⟨0, _⟩ => exact lhs_4000x128x128_0 _ _
    | ⟨1, _⟩ => exact (lhs_4000x128x128_1 _ _).trans hk)
  have er : dot_S4000x128_S128x128_S4000x128_1_0_0_1_n_n.rhsIdx (ix2 p q) ((ValueIdx.contrEquiv1 dot_S4000x128_S128x128_S4000x128_1_0_0_1_n_n 128 rfl rfl).symm k) = ix2 k q := funext fun a => Fin.ext (by
    match a with
    | ⟨0, _⟩ => exact (rhs_4000x128x128_0 _ _).trans hk
    | ⟨1, _⟩ => exact rhs_4000x128x128_1 _ _)
  rw [el, er]

/-! The product of a [4000,6] block with a [6,8] matrix: the operand indices at an output index and a contraction index. -/
theorem lhs_4000x6x8_0 (i : S4000x8.Idx) (q : dot_S4000x6_S6x8_S4000x8_1_0_0_1_n_n.contr.Idx) :
    (dot_S4000x6_S6x8_S4000x8_1_0_0_1_n_n.lhsIdx i q 0).val = (i 0).val := by
  unfold DotDims.lhsIdx
  rw [dif_neg (show ¬(0 : Fin S4000x6.rank) ∈ dot_S4000x6_S6x8_S4000x8_1_0_0_1_n_n.lhsBatch by decide), dif_pos (show (0 : Fin S4000x6.rank) ∈ dot_S4000x6_S6x8_S4000x8_1_0_0_1_n_n.lhsNonContracting by decide)]
  rfl
theorem lhs_4000x6x8_1 (i : S4000x8.Idx) (q : dot_S4000x6_S6x8_S4000x8_1_0_0_1_n_n.contr.Idx) :
    (dot_S4000x6_S6x8_S4000x8_1_0_0_1_n_n.lhsIdx i q 1).val = (q ⟨0, by decide⟩).val :=
  dot_S4000x6_S6x8_S4000x8_1_0_0_1_n_n.lhsIdx_val_of_single rfl i q
theorem rhs_4000x6x8_0 (i : S4000x8.Idx) (q : dot_S4000x6_S6x8_S4000x8_1_0_0_1_n_n.contr.Idx) :
    (dot_S4000x6_S6x8_S4000x8_1_0_0_1_n_n.rhsIdx i q 0).val = (q ⟨0, by decide⟩).val :=
  dot_S4000x6_S6x8_S4000x8_1_0_0_1_n_n.rhsIdx_val_of_single rfl i q
theorem rhs_4000x6x8_1 (i : S4000x8.Idx) (q : dot_S4000x6_S6x8_S4000x8_1_0_0_1_n_n.contr.Idx) :
    (dot_S4000x6_S6x8_S4000x8_1_0_0_1_n_n.rhsIdx i q 1).val = (i 1).val := by
  unfold DotDims.rhsIdx
  rw [dif_neg (show ¬(1 : Fin S6x8.rank) ∈ dot_S4000x6_S6x8_S4000x8_1_0_0_1_n_n.rhsBatch by decide), dif_pos (show (1 : Fin S6x8.rank) ∈ dot_S4000x6_S6x8_S4000x8_1_0_0_1_n_n.rhsNonContracting by decide)]
  rfl
/-- Into a zero accumulator the product's entry at row `p`, column `q` is row `p` of the left operand times the right operand's matrix. -/
theorem matmul_4000x6x8_apply {φ₁ φ₂ : FTy} (a : FVec Ideal S4000x6 φ₁) (b : FVec Ideal S6x8 φ₂) (p : Fin 4000) (q : Fin 8) :
    matmul dot_S4000x6_S6x8_S4000x8_1_0_0_1_n_n none a b (constant (F := Ideal) S4000x8 .f32 0x00000000#32) (ix2 p q)
      = dense (row a p) (mat b) q := by
  show FloatOps.matmul dot_S4000x6_S6x8_S4000x8_1_0_0_1_n_n none a b (constant (F := Ideal) S4000x8 .f32 0x00000000#32) (ix2 p q) = ∑ k : Fin 6, a (ix2 p k) * b (ix2 k q)
  rw [Ideal.matmul_constant_zero_apply, ← Equiv.sum_comp (ValueIdx.contrEquiv1 dot_S4000x6_S6x8_S4000x8_1_0_0_1_n_n 6 rfl rfl).symm]
  refine Finset.sum_congr rfl fun k _ => ?_
  have hk := ValueIdx.contrEquiv1_symm_val dot_S4000x6_S6x8_S4000x8_1_0_0_1_n_n 6 rfl rfl k
  have el : dot_S4000x6_S6x8_S4000x8_1_0_0_1_n_n.lhsIdx (ix2 p q) ((ValueIdx.contrEquiv1 dot_S4000x6_S6x8_S4000x8_1_0_0_1_n_n 6 rfl rfl).symm k) = ix2 p k := funext fun a => Fin.ext (by
    match a with
    | ⟨0, _⟩ => exact lhs_4000x6x8_0 _ _
    | ⟨1, _⟩ => exact (lhs_4000x6x8_1 _ _).trans hk)
  have er : dot_S4000x6_S6x8_S4000x8_1_0_0_1_n_n.rhsIdx (ix2 p q) ((ValueIdx.contrEquiv1 dot_S4000x6_S6x8_S4000x8_1_0_0_1_n_n 6 rfl rfl).symm k) = ix2 k q := funext fun a => Fin.ext (by
    match a with
    | ⟨0, _⟩ => exact (rhs_4000x6x8_0 _ _).trans hk
    | ⟨1, _⟩ => exact rhs_4000x6x8_1 _ _)
  rw [el, er]

/-! The product of a [4000,8] block with a [8,128] matrix: the operand indices at an output index and a contraction index. -/
theorem lhs_4000x8x128_0 (i : S4000x128.Idx) (q : dot_S4000x8_S8x128_S4000x128_1_0_0_1_n_n.contr.Idx) :
    (dot_S4000x8_S8x128_S4000x128_1_0_0_1_n_n.lhsIdx i q 0).val = (i 0).val := by
  unfold DotDims.lhsIdx
  rw [dif_neg (show ¬(0 : Fin S4000x8.rank) ∈ dot_S4000x8_S8x128_S4000x128_1_0_0_1_n_n.lhsBatch by decide), dif_pos (show (0 : Fin S4000x8.rank) ∈ dot_S4000x8_S8x128_S4000x128_1_0_0_1_n_n.lhsNonContracting by decide)]
  rfl
theorem lhs_4000x8x128_1 (i : S4000x128.Idx) (q : dot_S4000x8_S8x128_S4000x128_1_0_0_1_n_n.contr.Idx) :
    (dot_S4000x8_S8x128_S4000x128_1_0_0_1_n_n.lhsIdx i q 1).val = (q ⟨0, by decide⟩).val :=
  dot_S4000x8_S8x128_S4000x128_1_0_0_1_n_n.lhsIdx_val_of_single rfl i q
theorem rhs_4000x8x128_0 (i : S4000x128.Idx) (q : dot_S4000x8_S8x128_S4000x128_1_0_0_1_n_n.contr.Idx) :
    (dot_S4000x8_S8x128_S4000x128_1_0_0_1_n_n.rhsIdx i q 0).val = (q ⟨0, by decide⟩).val :=
  dot_S4000x8_S8x128_S4000x128_1_0_0_1_n_n.rhsIdx_val_of_single rfl i q
theorem rhs_4000x8x128_1 (i : S4000x128.Idx) (q : dot_S4000x8_S8x128_S4000x128_1_0_0_1_n_n.contr.Idx) :
    (dot_S4000x8_S8x128_S4000x128_1_0_0_1_n_n.rhsIdx i q 1).val = (i 1).val := by
  unfold DotDims.rhsIdx
  rw [dif_neg (show ¬(1 : Fin S8x128.rank) ∈ dot_S4000x8_S8x128_S4000x128_1_0_0_1_n_n.rhsBatch by decide), dif_pos (show (1 : Fin S8x128.rank) ∈ dot_S4000x8_S8x128_S4000x128_1_0_0_1_n_n.rhsNonContracting by decide)]
  rfl
/-- Into a zero accumulator the product's entry at row `p`, column `q` is row `p` of the left operand times the right operand's matrix. -/
theorem matmul_4000x8x128_apply {φ₁ φ₂ : FTy} (a : FVec Ideal S4000x8 φ₁) (b : FVec Ideal S8x128 φ₂) (p : Fin 4000) (q : Fin 128) :
    matmul dot_S4000x8_S8x128_S4000x128_1_0_0_1_n_n none a b (constant (F := Ideal) S4000x128 .f32 0x00000000#32) (ix2 p q)
      = dense (row a p) (mat b) q := by
  show FloatOps.matmul dot_S4000x8_S8x128_S4000x128_1_0_0_1_n_n none a b (constant (F := Ideal) S4000x128 .f32 0x00000000#32) (ix2 p q) = ∑ k : Fin 8, a (ix2 p k) * b (ix2 k q)
  rw [Ideal.matmul_constant_zero_apply, ← Equiv.sum_comp (ValueIdx.contrEquiv1 dot_S4000x8_S8x128_S4000x128_1_0_0_1_n_n 8 rfl rfl).symm]
  refine Finset.sum_congr rfl fun k _ => ?_
  have hk := ValueIdx.contrEquiv1_symm_val dot_S4000x8_S8x128_S4000x128_1_0_0_1_n_n 8 rfl rfl k
  have el : dot_S4000x8_S8x128_S4000x128_1_0_0_1_n_n.lhsIdx (ix2 p q) ((ValueIdx.contrEquiv1 dot_S4000x8_S8x128_S4000x128_1_0_0_1_n_n 8 rfl rfl).symm k) = ix2 p k := funext fun a => Fin.ext (by
    match a with
    | ⟨0, _⟩ => exact lhs_4000x8x128_0 _ _
    | ⟨1, _⟩ => exact (lhs_4000x8x128_1 _ _).trans hk)
  have er : dot_S4000x8_S8x128_S4000x128_1_0_0_1_n_n.rhsIdx (ix2 p q) ((ValueIdx.contrEquiv1 dot_S4000x8_S8x128_S4000x128_1_0_0_1_n_n 8 rfl rfl).symm k) = ix2 k q := funext fun a => Fin.ext (by
    match a with
    | ⟨0, _⟩ => exact (rhs_4000x8x128_0 _ _).trans hk
    | ⟨1, _⟩ => exact rhs_4000x8x128_1 _ _)
  rw [el, er]

/-! The product of a [4000,128] block with a [128,64] matrix: the operand indices at an output index and a contraction index. -/
theorem lhs_4000x128x64_0 (i : S4000x64.Idx) (q : dot_S4000x128_S128x64_S4000x64_1_0_0_1_n_n.contr.Idx) :
    (dot_S4000x128_S128x64_S4000x64_1_0_0_1_n_n.lhsIdx i q 0).val = (i 0).val := by
  unfold DotDims.lhsIdx
  rw [dif_neg (show ¬(0 : Fin S4000x128.rank) ∈ dot_S4000x128_S128x64_S4000x64_1_0_0_1_n_n.lhsBatch by decide), dif_pos (show (0 : Fin S4000x128.rank) ∈ dot_S4000x128_S128x64_S4000x64_1_0_0_1_n_n.lhsNonContracting by decide)]
  rfl
theorem lhs_4000x128x64_1 (i : S4000x64.Idx) (q : dot_S4000x128_S128x64_S4000x64_1_0_0_1_n_n.contr.Idx) :
    (dot_S4000x128_S128x64_S4000x64_1_0_0_1_n_n.lhsIdx i q 1).val = (q ⟨0, by decide⟩).val :=
  dot_S4000x128_S128x64_S4000x64_1_0_0_1_n_n.lhsIdx_val_of_single rfl i q
theorem rhs_4000x128x64_0 (i : S4000x64.Idx) (q : dot_S4000x128_S128x64_S4000x64_1_0_0_1_n_n.contr.Idx) :
    (dot_S4000x128_S128x64_S4000x64_1_0_0_1_n_n.rhsIdx i q 0).val = (q ⟨0, by decide⟩).val :=
  dot_S4000x128_S128x64_S4000x64_1_0_0_1_n_n.rhsIdx_val_of_single rfl i q
theorem rhs_4000x128x64_1 (i : S4000x64.Idx) (q : dot_S4000x128_S128x64_S4000x64_1_0_0_1_n_n.contr.Idx) :
    (dot_S4000x128_S128x64_S4000x64_1_0_0_1_n_n.rhsIdx i q 1).val = (i 1).val := by
  unfold DotDims.rhsIdx
  rw [dif_neg (show ¬(1 : Fin S128x64.rank) ∈ dot_S4000x128_S128x64_S4000x64_1_0_0_1_n_n.rhsBatch by decide), dif_pos (show (1 : Fin S128x64.rank) ∈ dot_S4000x128_S128x64_S4000x64_1_0_0_1_n_n.rhsNonContracting by decide)]
  rfl
/-- Into a zero accumulator the product's entry at row `p`, column `q` is row `p` of the left operand times the right operand's matrix. -/
theorem matmul_4000x128x64_apply {φ₁ φ₂ : FTy} (a : FVec Ideal S4000x128 φ₁) (b : FVec Ideal S128x64 φ₂) (p : Fin 4000) (q : Fin 64) :
    matmul dot_S4000x128_S128x64_S4000x64_1_0_0_1_n_n none a b (constant (F := Ideal) S4000x64 .f32 0x00000000#32) (ix2 p q)
      = dense (row a p) (mat b) q := by
  show FloatOps.matmul dot_S4000x128_S128x64_S4000x64_1_0_0_1_n_n none a b (constant (F := Ideal) S4000x64 .f32 0x00000000#32) (ix2 p q) = ∑ k : Fin 128, a (ix2 p k) * b (ix2 k q)
  rw [Ideal.matmul_constant_zero_apply, ← Equiv.sum_comp (ValueIdx.contrEquiv1 dot_S4000x128_S128x64_S4000x64_1_0_0_1_n_n 128 rfl rfl).symm]
  refine Finset.sum_congr rfl fun k _ => ?_
  have hk := ValueIdx.contrEquiv1_symm_val dot_S4000x128_S128x64_S4000x64_1_0_0_1_n_n 128 rfl rfl k
  have el : dot_S4000x128_S128x64_S4000x64_1_0_0_1_n_n.lhsIdx (ix2 p q) ((ValueIdx.contrEquiv1 dot_S4000x128_S128x64_S4000x64_1_0_0_1_n_n 128 rfl rfl).symm k) = ix2 p k := funext fun a => Fin.ext (by
    match a with
    | ⟨0, _⟩ => exact lhs_4000x128x64_0 _ _
    | ⟨1, _⟩ => exact (lhs_4000x128x64_1 _ _).trans hk)
  have er : dot_S4000x128_S128x64_S4000x64_1_0_0_1_n_n.rhsIdx (ix2 p q) ((ValueIdx.contrEquiv1 dot_S4000x128_S128x64_S4000x64_1_0_0_1_n_n 128 rfl rfl).symm k) = ix2 k q := funext fun a => Fin.ext (by
    match a with
    | ⟨0, _⟩ => exact (rhs_4000x128x64_0 _ _).trans hk
    | ⟨1, _⟩ => exact rhs_4000x128x64_1 _ _)
  rw [el, er]

/-! The pointwise pieces of the body. -/

/-- `z · logistic z` entrywise is `silu` of the entry. -/
theorem mulf_logistic_apply {s : Shape} (v : FVec Ideal s .f32) (i : s.Idx) : mulf v (logistic v) i = silu (v i) := rfl

/-- The bias block of one row, cast to its own shape and broadcast down the 4000 rows, reads its column. -/
theorem bias_apply (b : Vec Ideal S1x128 .f32) (p : Fin 4000) (q : Fin 128) :
    broadcastTo S4000x128 (shapeCast S1x128 b shapeCasts_S1x128_S1x128) broadcasts_S1x128_S4000x128 (ix2 p q) = row b 0 q := by
  rw [shapeCast_self]
  exact broadcastTo_apply b broadcasts_S1x128_S4000x128 (ix2 p q) (ix2 0 q) (fun a => match a with
    | ⟨0, _⟩ => by show 0 = if (1 : Nat) = 1 then 0 else p.val; rw [if_pos rfl]
    | ⟨1, _⟩ => by show q.val = if (128 : Nat) = 1 then 0 else q.val; rw [if_neg (by decide)])

/-! The body's payloads at a row and a column. -/

/-- The first stored block: at row `p`, column `q` it is `xjiRow` of row `p` of the first block. -/
theorem xji_payload_apply (v0 : Vec Ideal S4000x128 .f32) (v2 : Vec Ideal S128x128 .f32) (v5 : Vec Ideal S1x128 .f32) (p : Fin 4000) (q : Fin 128) :
    k0_pay3 (F := Ideal) v0 v2 v5 (ix2 p q) = xjiRow (row v0 p) (mat v2) (row v5 0) q := by
  unfold k0_pay3 k0_pay2
  refine (mulf_logistic_apply _ _).trans (congrArg silu ?_)
  refine (addf_apply _ _ _).trans ?_
  exact congrArg₂ (· + ·) (matmul_4000x128x128_apply _ _ p q) (bias_apply v5 p q)

/-- The gated row the last product consumes: `silu (e1 W_kj + b_kj)` times `(rbf W_rbf1) W_rbf2`, entry by entry. -/
theorem gated_payload_apply (v0 : Vec Ideal S4000x128 .f32) (v12 : Vec Ideal S128x128 .f32) (v15 : Vec Ideal S1x128 .f32)
    (v21 : Vec Ideal S4000x6 .f32) (v23 : Vec Ideal S6x8 .f32) (v26 : Vec Ideal S8x128 .f32) (p : Fin 4000) (j : Fin 128) :
    k0_pay5 (F := Ideal) v0 v12 v15 v21 v23 v26 (ix2 p j)
      = act (lin (row v0 p) (mat v12) (row v15 0)) j * dense (dense (row v21 p) (mat v23)) (mat v26) j := by
  unfold k0_pay5 k0_pay2
  refine (truncf_apply (φ := .f32) (ψ := .bf16) _ bitsLt_bf16_f32 (ix2 p j)).trans ?_
  refine (mulf_apply _ _ _).trans ?_
  refine congrArg₂ (· * ·) ?_ ?_
  · refine (mulf_logistic_apply _ _).trans (congrArg silu ?_)
    refine (addf_apply _ _ _).trans ?_
    exact congrArg₂ (· + ·) (matmul_4000x128x128_apply _ _ p j) (bias_apply v15 p j)
  · refine (matmul_4000x8x128_apply _ _ p j).trans ?_
    refine Finset.sum_congr rfl fun k _ => ?_
    exact congrArg (· * _) (matmul_4000x6x8_apply _ _ p k)

/-- The second stored block: at row `p`, column `q` it is `xkjdRow` of rows `p` of the first two blocks. -/
theorem xkjd_payload_apply (v0 : Vec Ideal S4000x128 .f32) (v12 : Vec Ideal S128x128 .f32) (v15 : Vec Ideal S1x128 .f32)
    (v21 : Vec Ideal S4000x6 .f32) (v23 : Vec Ideal S6x8 .f32) (v26 : Vec Ideal S8x128 .f32) (v31 : Vec Ideal S128x64 .f32)
    (p : Fin 4000) (q : Fin 64) :
    k0_pay1 (F := Ideal) (k0_pay4 v31) (k0_pay5 v0 v12 v15 v21 v23 v26) (ix2 p q)
      = xkjdRow (row v0 p) (row v21 p) (mat v12) (row v15 0) (mat v23) (mat v26) (mat v31) q := by
  unfold k0_pay1 k0_pay4
  refine (mulf_logistic_apply _ _).trans (congrArg silu ?_)
  refine (matmul_4000x128x64_apply _ _ p q).trans ?_
  refine Finset.sum_congr rfl fun k _ => ?_
  exact congrArg (· * _) (gated_payload_apply v0 v12 v15 v21 v23 v26 p k)

/-! ## The region at any entry contents -/

section Region

variable (V : (c : Dev nD) → (b : Ref sig .tc) → Buf (Elt Ideal) ((c : Thread nD τ).loc b))

/-- The array of the edge features, as the region finds it. -/
abbrev e1Arr (c : Dev nD) : FVec Ideal S200000x128 .f32 := V c main_arg0
/-- The array of the radial basis, as the region finds it. -/
abbrev rbfArr (c : Dev nD) : FVec Ideal S200000x6 .f32 := V c main_arg1
/-- The array of the weights `W_ji`, as the region finds it. -/
abbrev WjiArr (c : Dev nD) : FVec Ideal S128x128 .f32 := V c main_arg15
/-- The array of the bias `b_ji` as one row, as the region finds it. -/
abbrev bjiArr (c : Dev nD) : FVec Ideal S1x128 .f32 := V c main_v0
/-- The array of the weights `W_kj`, as the region finds it. -/
abbrev WkjArr (c : Dev nD) : FVec Ideal S128x128 .f32 := V c main_arg13
/-- The array of the bias `b_kj` as one row, as the region finds it. -/
abbrev bkjArr (c : Dev nD) : FVec Ideal S1x128 .f32 := V c main_v1
/-- The array of the weights `W_rbf1`, as the region finds it. -/
abbrev Wr1Arr (c : Dev nD) : FVec Ideal S6x8 .f32 := V c main_arg6
/-- The array of the weights `W_rbf2`, as the region finds it. -/
abbrev Wr2Arr (c : Dev nD) : FVec Ideal S8x128 .f32 := V c main_arg7
/-- The array of the weights `W_down`, as the region finds it. -/
abbrev WdArr (c : Dev nD) : FVec Ideal S128x64 .f32 := V c main_arg17

theorem origin_zero : (![0, 0] : Fin 2 → Nat) = fun _ => 0 := funext fun a => by fin_cases a <;> rfl

/-- The block indices over the grid: the two row-blocked inputs and the two results move with the point, every weight and bias window stays at block 0. -/
theorem block_index : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = t.val ∧ win0_9.index t (1 : Fin 2) = 0)
    ∧ (win0_10.index t (0 : Fin 2) = t.val ∧ win0_10.index t (1 : Fin 2) = 0) :=
  (by decide +kernel : ∀ t : Fin grid0.N, _)

theorem grid_points : cfg0.N = 50 := N_0

/-- Block `t` of window 0 is rows `4000 t … 4000 t + 3999` of its array. -/
theorem e1_block_apply (c : Dev nD) (t : Fin cfg0.N) (p : Fin 4000) (k : Fin 128) (r : Fin 200000) (hr : r.val = 4000 * t.val + p.val) :
    (iblk0 V c 0 t : Vec Ideal S4000x128 .f32) (ix2 p k) = e1Arr V c (ix2 r k) := by
  have h := (block_index t).1
  unfold iblk0
  rw [View.read_apply]
  show V c main_arg0 _ = V c main_arg0 _
  congr 1
  funext a; apply Fin.ext
  match a with
  | ⟨0, _⟩ => show win0_0.index t (0 : Fin 2) * 4000 + 1 * p.val = r.val; have := h.1; omega
  | ⟨1, _⟩ => show win0_0.index t (1 : Fin 2) * 128 + 1 * k.val = k.val; have := h.2; omega
theorem e1_block_row (c : Dev nD) (t : Fin cfg0.N) (p : Fin 4000) (r : Fin 200000) (hr : r.val = 4000 * t.val + p.val) :
    row (iblk0 V c 0 t : Vec Ideal S4000x128 .f32) p = row (e1Arr V c) r :=
  funext fun k => e1_block_apply V c t p k r hr

/-- Block `t` of window 1 is rows `4000 t … 4000 t + 3999` of its array. -/
theorem rbf_block_apply (c : Dev nD) (t : Fin cfg0.N) (p : Fin 4000) (k : Fin 6) (r : Fin 200000) (hr : r.val = 4000 * t.val + p.val) :
    (iblk0 V c 1 t : Vec Ideal S4000x6 .f32) (ix2 p k) = rbfArr V c (ix2 r k) := by
  have h := (block_index t).2.1
  unfold iblk0
  rw [View.read_apply]
  show V c main_arg1 _ = V c main_arg1 _
  congr 1
  funext a; apply Fin.ext
  match a with
  | ⟨0, _⟩ => show win0_1.index t (0 : Fin 2) * 4000 + 1 * p.val = r.val; have := h.1; omega
  | ⟨1, _⟩ => show win0_1.index t (1 : Fin 2) * 6 + 1 * k.val = k.val; have := h.2; omega
theorem rbf_block_row (c : Dev nD) (t : Fin cfg0.N) (p : Fin 4000) (r : Fin 200000) (hr : r.val = 4000 * t.val + p.val) :
    row (iblk0 V c 1 t : Vec Ideal S4000x6 .f32) p = row (rbfArr V c) r :=
  funext fun k => rbf_block_apply V c t p k r hr

/-- Window 2's one block is its whole array. -/
theorem Wji_block (c : Dev nD) (t : Fin cfg0.N) : (iblk0 V c 2 t : Vec Ideal S128x128 .f32) = WjiArr V c := by
  have h := (block_index t).2.2.1
  funext j
  unfold iblk0
  rw [View.read_apply]
  show V c main_arg15 _ = V c main_arg15 j
  congr 1
  funext a; apply Fin.ext
  match a with
  | ⟨0, _⟩ => show win0_2.index t (0 : Fin 2) * 128 + 1 * (j 0).val = (j 0).val; have := h.1; omega
  | ⟨1, _⟩ => show win0_2.index t (1 : Fin 2) * 128 + 1 * (j 1).val = (j 1).val; have := h.2; omega

/-- Window 3's one block is its whole array. -/
theorem bji_block (c : Dev nD) (t : Fin cfg0.N) : (iblk0 V c 3 t : Vec Ideal S1x128 .f32) = bjiArr V c := by
  have h := (block_index t).2.2.2.1
  funext j
  unfold iblk0
  rw [View.read_apply]
  show V c main_v0 _ = V c main_v0 j
  congr 1
  funext a; apply Fin.ext
  match a with
  | ⟨0, _⟩ => show win0_3.index t (0 : Fin 2) * 1 + 1 * (j 0).val = (j 0).val; have := h.1; omega
  | ⟨1, _⟩ => show win0_3.index t (1 : Fin 2) * 128 + 1 * (j 1).val = (j 1).val; have := h.2; omega

/-- Window 4's one block is its whole array. -/
theorem Wkj_block (c : Dev nD) (t : Fin cfg0.N) : (iblk0 V c 4 t : Vec Ideal S128x128 .f32) = WkjArr V c := by
  have h := (block_index t).2.2.2.2.1
  funext j
  unfold iblk0
  rw [View.read_apply]
  show V c main_arg13 _ = V c main_arg13 j
  congr 1
  funext a; apply Fin.ext
  match a with
  | ⟨0, _⟩ => show win0_4.index t (0 : Fin 2) * 128 + 1 * (j 0).val = (j 0).val; have := h.1; omega
  | ⟨1, _⟩ => show win0_4.index t (1 : Fin 2) * 128 + 1 * (j 1).val = (j 1).val; have := h.2; omega

/-- Window 5's one block is its whole array. -/
theorem bkj_block (c : Dev nD) (t : Fin cfg0.N) : (iblk0 V c 5 t : Vec Ideal S1x128 .f32) = bkjArr V c := by
  have h := (block_index t).2.2.2.2.2.1
  funext j
  unfold iblk0
  rw [View.read_apply]
  show V c main_v1 _ = V c main_v1 j
  congr 1
  funext a; apply Fin.ext
  match a with
  | ⟨0, _⟩ => show win0_5.index t (0 : Fin 2) * 1 + 1 * (j 0).val = (j 0).val; have := h.1; omega
  | ⟨1, _⟩ => show win0_5.index t (1 : Fin 2) * 128 + 1 * (j 1).val = (j 1).val; have := h.2; omega

/-- Window 6's one block is its whole array. -/
theorem Wr1_block (c : Dev nD) (t : Fin cfg0.N) : (iblk0 V c 6 t : Vec Ideal S6x8 .f32) = Wr1Arr V c := by
  have h := (block_index t).2.2.2.2.2.2.1
  funext j
  unfold iblk0
  rw [View.read_apply]
  show V c main_arg6 _ = V c main_arg6 j
  congr 1
  funext a; apply Fin.ext
  match a with
  | ⟨0, _⟩ => show win0_6.index t (0 : Fin 2) * 6 + 1 * (j 0).val = (j 0).val; have := h.1; omega
  | ⟨1, _⟩ => show win0_6.index t (1 : Fin 2) * 8 + 1 * (j 1).val = (j 1).val; have := h.2; omega

/-- Window 7's one block is its whole array. -/
theorem Wr2_block (c : Dev nD) (t : Fin cfg0.N) : (iblk0 V c 7 t : Vec Ideal S8x128 .f32) = Wr2Arr V c := by
  have h := (block_index t).2.2.2.2.2.2.2.1
  funext j
  unfold iblk0
  rw [View.read_apply]
  show V c main_arg7 _ = V c main_arg7 j
  congr 1
  funext a; apply Fin.ext
  match a with
  | ⟨0, _⟩ => show win0_7.index t (0 : Fin 2) * 8 + 1 * (j 0).val = (j 0).val; have := h.1; omega
  | ⟨1, _⟩ => show win0_7.index t (1 : Fin 2) * 128 + 1 * (j 1).val = (j 1).val; have := h.2; omega

/-- Window 8's one block is its whole array. -/
theorem Wd_block (c : Dev nD) (t : Fin cfg0.N) : (iblk0 V c 8 t : Vec Ideal S128x64 .f32) = WdArr V c := by
  have h := (block_index t).2.2.2.2.2.2.2.2.1
  funext j
  unfold iblk0
  rw [View.read_apply]
  show V c main_arg17 _ = V c main_arg17 j
  congr 1
  funext a; apply Fin.ext
  match a with
  | ⟨0, _⟩ => show win0_8.index t (0 : Fin 2) * 128 + 1 * (j 0).val = (j 0).val; have := h.1; omega
  | ⟨1, _⟩ => show win0_8.index t (1 : Fin 2) * 64 + 1 * (j 1).val = (j 1).val; have := h.2; omega

/-- What the first result array ends holding: at row `r`, column `q`, `xjiRow` of row `r` of the edge features. -/
def xjiArr (c : Dev nD) : FVec Ideal S200000x128 .f32 := fun i =>
  xjiRow (row (e1Arr V c) (i 0)) (mat (WjiArr V c)) (row (bjiArr V c) 0) (i 1)

/-- What the second result array ends holding: at row `r`, column `q`, `xkjdRow` of rows `r` of the edge features and the radial basis. -/
def xkjdArr (c : Dev nD) : FVec Ideal S200000x64 .f32 := fun i =>
  xkjdRow (row (e1Arr V c) (i 0)) (row (rbfArr V c) (i 0)) (mat (WkjArr V c)) (row (bkjArr V c) 0)
    (mat (Wr1Arr V c)) (mat (Wr2Arr V c)) (mat (WdArr V c)) (i 1)

/-- What point `t` writes back through window 9 is block `t` of `xjiArr`. -/
theorem xji_block (c : Dev nD) (t : Fin cfg0.N) :
    (dat0 V c).flushed 9 t = ((cfg0.win 9).blk t).view.read (Elt Ideal) (xjiArr V c) := by
  show (cfg0.win 9).cut (grid0.coords t) ((dat0 V c).after 9 t) = _
  rw [after0_9]
  unfold out0_9
  rw [View.canon_unit_zero origin_zero]
  simp only [View.ld_unit_zero (S := S4000x128) origin_zero, View.ld_unit_zero (S := S128x128) origin_zero, View.ld_unit_zero (S := S1x128) origin_zero]
  have h := (block_index t).2.2.2.2.2.2.2.2.2.1
  funext j
  obtain ⟨p, q, rfl⟩ : ∃ (p : Fin 4000) (q : Fin 128), j = ix2 p q := ⟨j 0, j 1, eq_ix2 j⟩
  have hr : 4000 * t.val + p.val < 200000 := by have := t.isLt; have := grid_points; omega
  have he : ((cfg0.win 9).blk t).view.emb (ix2 p q) = ix2 (⟨4000 * t.val + p.val, hr⟩ : Fin 200000) q := by
    funext a; apply Fin.ext
    match a with
    | ⟨0, _⟩ => show win0_9.index t (0 : Fin 2) * 4000 + 1 * p.val = 4000 * t.val + p.val; have := h.1; omega
    | ⟨1, _⟩ => show win0_9.index t (1 : Fin 2) * 128 + 1 * q.val = q.val; have := h.2; omega
  show k0_pay3 (iblk0 V c 0 t) (iblk0 V c 2 t) (iblk0 V c 3 t) (ix2 p q) = xjiArr V c (((cfg0.win 9).blk t).view.emb (ix2 p q))
  rw [he]
  refine (xji_payload_apply (iblk0 V c 0 t) (iblk0 V c 2 t) (iblk0 V c 3 t) p q).trans ?_
  show _ = xjiRow (row (e1Arr V c) ⟨4000 * t.val + p.val, hr⟩) (mat (WjiArr V c)) (row (bjiArr V c) 0) q
  rw [e1_block_row V c t p ⟨4000 * t.val + p.val, hr⟩ rfl, Wji_block V c t, bji_block V c t]

/-- Membership in the block point `t` writes back, coordinate by coordinate: rows `4000 t … 4000 t + 3999`, every column. -/
theorem mem_xji_block (t : Fin cfg0.N) (i : S200000x128.Idx) :
    i ∈ ((cfg0.win 9).blk t).view.set ↔ ∀ a : Fin 2, win0_9.index t a * S4000x128.size a ≤ (i a).val ∧ (i a).val < win0_9.index t a * S4000x128.size a + S4000x128.size a := by
  show i ∈ ((View.whole main_v2_0).slice (win0_9.rect t)).set ↔ _
  rw [View.set_slice_whole, Rect.mem_set_unit]
  exact Iff.rfl

/-- Row `r` lies in the block of point `r / 4000`, which is written back. -/
theorem xji_rows_covered (i : S200000x128.Idx) :
    ∃ t : Fin cfg0.N, (cfg0.win 9).flush t = true ∧ i ∈ ((cfg0.win 9).blk t).view.set := by
  have hi0 : (i 0).val < 200000 := (i 0).isLt
  have hi1 : (i 1).val < 128 := (i 1).isLt
  obtain ⟨t, ht⟩ : ∃ t : Fin cfg0.N, t.val = (i 0).val / 4000 := ⟨⟨(i 0).val / 4000, by have := grid_points; omega⟩, rfl⟩
  have h := (block_index t).2.2.2.2.2.2.2.2.2.1
  refine ⟨t, flush0_9 t, ?_⟩
  rw [mem_xji_block]
  intro a
  match a with
  | ⟨0, _⟩ => show win0_9.index t (0 : Fin 2) * 4000 ≤ (i 0).val ∧ (i 0).val < win0_9.index t (0 : Fin 2) * 4000 + 4000; have := h.1; omega
  | ⟨1, _⟩ => show win0_9.index t (1 : Fin 2) * 128 ≤ (i 1).val ∧ (i 1).val < win0_9.index t (1 : Fin 2) * 128 + 128; have := h.2; omega

/-- The array behind window 9 after the region is `xjiArr`. -/
theorem xji_array (c : Dev nD) : (dat0 V c).arrAt 9 cfg0.N = xjiArr V c :=
  (dat0 V c).arrAt_eq_of_cover 9 (xjiArr V c) (fun t _ => xji_block V c t) (xji_rows_covered)

/-- What point `t` writes back through window 10 is block `t` of `xkjdArr`. -/
theorem xkjd_block (c : Dev nD) (t : Fin cfg0.N) :
    (dat0 V c).flushed 10 t = ((cfg0.win 10).blk t).view.read (Elt Ideal) (xkjdArr V c) := by
  show (cfg0.win 10).cut (grid0.coords t) ((dat0 V c).after 10 t) = _
  rw [after0_10]
  unfold out0_10
  rw [View.canon_unit_zero origin_zero]
  simp only [View.ld_unit_zero (S := S4000x128) origin_zero, View.ld_unit_zero (S := S128x128) origin_zero, View.ld_unit_zero (S := S1x128) origin_zero, View.ld_unit_zero (S := S4000x6) origin_zero, View.ld_unit_zero (S := S6x8) origin_zero, View.ld_unit_zero (S := S8x128) origin_zero, View.ld_unit_zero (S := S128x64) origin_zero, View.ld_unit_zero (S := S4000x64) origin_zero]
  have h := (block_index t).2.2.2.2.2.2.2.2.2.2
  funext j
  obtain ⟨p, q, rfl⟩ : ∃ (p : Fin 4000) (q : Fin 64), j = ix2 p q := ⟨j 0, j 1, eq_ix2 j⟩
  have hr : 4000 * t.val + p.val < 200000 := by have := t.isLt; have := grid_points; omega
  have he : ((cfg0.win 10).blk t).view.emb (ix2 p q) = ix2 (⟨4000 * t.val + p.val, hr⟩ : Fin 200000) q := by
    funext a; apply Fin.ext
    match a with
    | ⟨0, _⟩ => show win0_10.index t (0 : Fin 2) * 4000 + 1 * p.val = 4000 * t.val + p.val; have := h.1; omega
    | ⟨1, _⟩ => show win0_10.index t (1 : Fin 2) * 64 + 1 * q.val = q.val; have := h.2; omega
  show k0_pay1 (k0_pay4 (iblk0 V c 8 t)) (k0_pay5 (iblk0 V c 0 t) (iblk0 V c 4 t) (iblk0 V c 5 t) (iblk0 V c 1 t) (iblk0 V c 6 t) (iblk0 V c 7 t)) (ix2 p q) = xkjdArr V c (((cfg0.win 10).blk t).view.emb (ix2 p q))
  rw [he]
  refine (xkjd_payload_apply (iblk0 V c 0 t) (iblk0 V c 4 t) (iblk0 V c 5 t) (iblk0 V c 1 t) (iblk0 V c 6 t) (iblk0 V c 7 t) (iblk0 V c 8 t) p q).trans ?_
  show _ = xkjdRow (row (e1Arr V c) ⟨4000 * t.val + p.val, hr⟩) (row (rbfArr V c) ⟨4000 * t.val + p.val, hr⟩) (mat (WkjArr V c)) (row (bkjArr V c) 0) (mat (Wr1Arr V c)) (mat (Wr2Arr V c)) (mat (WdArr V c)) q
  rw [e1_block_row V c t p ⟨4000 * t.val + p.val, hr⟩ rfl, rbf_block_row V c t p ⟨4000 * t.val + p.val, hr⟩ rfl, Wkj_block V c t, bkj_block V c t, Wr1_block V c t, Wr2_block V c t, Wd_block V c t]

/-- Membership in the block point `t` writes back, coordinate by coordinate: rows `4000 t … 4000 t + 3999`, every column. -/
theorem mem_xkjd_block (t : Fin cfg0.N) (i : S200000x64.Idx) :
    i ∈ ((cfg0.win 10).blk t).view.set ↔ ∀ a : Fin 2, win0_10.index t a * S4000x64.size a ≤ (i a).val ∧ (i a).val < win0_10.index t a * S4000x64.size a + S4000x64.size a := by
  show i ∈ ((View.whole main_v2_1).slice (win0_10.rect t)).set ↔ _
  rw [View.set_slice_whole, Rect.mem_set_unit]
  exact Iff.rfl

/-- Row `r` lies in the block of point `r / 4000`, which is written back. -/
theorem xkjd_rows_covered (i : S200000x64.Idx) :
    ∃ t : Fin cfg0.N, (cfg0.win 10).flush t = true ∧ i ∈ ((cfg0.win 10).blk t).view.set := by
  have hi0 : (i 0).val < 200000 := (i 0).isLt
  have hi1 : (i 1).val < 64 := (i 1).isLt
  obtain ⟨t, ht⟩ : ∃ t : Fin cfg0.N, t.val = (i 0).val / 4000 := ⟨⟨(i 0).val / 4000, by have := grid_points; omega⟩, rfl⟩
  have h := (block_index t).2.2.2.2.2.2.2.2.2.2
  refine ⟨t, flush0_10 t, ?_⟩
  rw [mem_xkjd_block]
  intro a
  match a with
  | ⟨0, _⟩ => show win0_10.index t (0 : Fin 2) * 4000 ≤ (i 0).val ∧ (i 0).val < win0_10.index t (0 : Fin 2) * 4000 + 4000; have := h.1; omega
  | ⟨1, _⟩ => show win0_10.index t (1 : Fin 2) * 64 ≤ (i 1).val ∧ (i 1).val < win0_10.index t (1 : Fin 2) * 64 + 64; have := h.2; omega

/-- The array behind window 10 after the region is `xkjdArr`. -/
theorem xkjd_array (c : Dev nD) : (dat0 V c).arrAt 10 cfg0.N = xkjdArr V c :=
  (dat0 V c).arrAt_eq_of_cover 10 (xkjdArr V c) (fun t _ => xkjd_block V c t) (xkjd_rows_covered)

end Region

/-! ## The region as launched: its entry contents are the launch memory after the two bias reshapes -/

variable (m : (ℓ : Loc nD τ sig) → Buf (Elt Ideal) ℓ) (ρ : Dev nD → PrngReg)

/-- Neither reshape writes this argument: the region finds it as launched. -/
theorem entry_e1 (c : Dev nD) : V1 m ρ c main_arg0 = A0 m c :=
  calc W1 m ρ c (Proc.devRef .tc main_arg0)
    _ = W0 m ρ c (Proc.devRef .tc main_arg0) := StableHlo.after_of_forall_not_mem (b := Proc.devRef .tc main_arg0) _ _ (List.forall_iff_forall_mem.mp (by
          simp only [hostOps0, List.Forall, StableHlo.reshape_writes, Finset.mem_singleton]
          repeat' apply And.intro
          all_goals exact StableHlo.devRef_ne_of_ne (by decide)))
    _ = m ((c : Thread nD τ).loc main_arg0) := rfl

/-- Neither reshape writes this argument: the region finds it as launched. -/
theorem entry_rbf (c : Dev nD) : V1 m ρ c main_arg1 = A1 m c :=
  calc W1 m ρ c (Proc.devRef .tc main_arg1)
    _ = W0 m ρ c (Proc.devRef .tc main_arg1) := StableHlo.after_of_forall_not_mem (b := Proc.devRef .tc main_arg1) _ _ (List.forall_iff_forall_mem.mp (by
          simp only [hostOps0, List.Forall, StableHlo.reshape_writes, Finset.mem_singleton]
          repeat' apply And.intro
          all_goals exact StableHlo.devRef_ne_of_ne (by decide)))
    _ = m ((c : Thread nD τ).loc main_arg1) := rfl

/-- Neither reshape writes this argument: the region finds it as launched. -/
theorem entry_Wji (c : Dev nD) : V1 m ρ c main_arg15 = A15 m c :=
  calc W1 m ρ c (Proc.devRef .tc main_arg15)
    _ = W0 m ρ c (Proc.devRef .tc main_arg15) := StableHlo.after_of_forall_not_mem (b := Proc.devRef .tc main_arg15) _ _ (List.forall_iff_forall_mem.mp (by
          simp only [hostOps0, List.Forall, StableHlo.reshape_writes, Finset.mem_singleton]
          repeat' apply And.intro
          all_goals exact StableHlo.devRef_ne_of_ne (by decide)))
    _ = m ((c : Thread nD τ).loc main_arg15) := rfl

/-- Neither reshape writes this argument: the region finds it as launched. -/
theorem entry_Wkj (c : Dev nD) : V1 m ρ c main_arg13 = A13 m c :=
  calc W1 m ρ c (Proc.devRef .tc main_arg13)
    _ = W0 m ρ c (Proc.devRef .tc main_arg13) := StableHlo.after_of_forall_not_mem (b := Proc.devRef .tc main_arg13) _ _ (List.forall_iff_forall_mem.mp (by
          simp only [hostOps0, List.Forall, StableHlo.reshape_writes, Finset.mem_singleton]
          repeat' apply And.intro
          all_goals exact StableHlo.devRef_ne_of_ne (by decide)))
    _ = m ((c : Thread nD τ).loc main_arg13) := rfl

/-- Neither reshape writes this argument: the region finds it as launched. -/
theorem entry_Wr1 (c : Dev nD) : V1 m ρ c main_arg6 = A6 m c :=
  calc W1 m ρ c (Proc.devRef .tc main_arg6)
    _ = W0 m ρ c (Proc.devRef .tc main_arg6) := StableHlo.after_of_forall_not_mem (b := Proc.devRef .tc main_arg6) _ _ (List.forall_iff_forall_mem.mp (by
          simp only [hostOps0, List.Forall, StableHlo.reshape_writes, Finset.mem_singleton]
          repeat' apply And.intro
          all_goals exact StableHlo.devRef_ne_of_ne (by decide)))
    _ = m ((c : Thread nD τ).loc main_arg6) := rfl

/-- Neither reshape writes this argument: the region finds it as launched. -/
theorem entry_Wr2 (c : Dev nD) : V1 m ρ c main_arg7 = A7 m c :=
  calc W1 m ρ c (Proc.devRef .tc main_arg7)
    _ = W0 m ρ c (Proc.devRef .tc main_arg7) := StableHlo.after_of_forall_not_mem (b := Proc.devRef .tc main_arg7) _ _ (List.forall_iff_forall_mem.mp (by
          simp only [hostOps0, List.Forall, StableHlo.reshape_writes, Finset.mem_singleton]
          repeat' apply And.intro
          all_goals exact StableHlo.devRef_ne_of_ne (by decide)))
    _ = m ((c : Thread nD τ).loc main_arg7) := rfl

/-- Neither reshape writes this argument: the region finds it as launched. -/
theorem entry_Wd (c : Dev nD) : V1 m ρ c main_arg17 = A17 m c :=
  calc W1 m ρ c (Proc.devRef .tc main_arg17)
    _ = W0 m ρ c (Proc.devRef .tc main_arg17) := StableHlo.after_of_forall_not_mem (b := Proc.devRef .tc main_arg17) _ _ (List.forall_iff_forall_mem.mp (by
          simp only [hostOps0, List.Forall, StableHlo.reshape_writes, Finset.mem_singleton]
          repeat' apply And.intro
          all_goals exact StableHlo.devRef_ne_of_ne (by decide)))
    _ = m ((c : Thread nD τ).loc main_arg17) := rfl

/-- The bias `b_ji` as the region finds it: the launched vector cast to one row. -/
theorem entry_bji (c : Dev nD) : (V1 m ρ c main_v0 : S1x128.Idx → EReal) = shapeCast S1x128 (A16 m c) shapeCasts_S128_S1x128 := by
  dsimp only [V1, W1, hostOps0]
  after_results
  rfl

/-- The bias `b_kj` as the region finds it: the launched vector cast to one row. -/
theorem entry_bkj (c : Dev nD) : (V1 m ρ c main_v1 : S1x128.Idx → EReal) = shapeCast S1x128 (A14 m c) shapeCasts_S128_S1x128 := by
  dsimp only [V1, W1, hostOps0]
  after_results
  rfl

/-- A vector cast to one row reads, in that row, the vector. -/
theorem row_shapeCast (x : FVec Ideal S128 .f32) : row (shapeCast S1x128 x shapeCasts_S128_S1x128) 0 = vec x := by
  funext q
  refine shapeCast_apply x shapeCasts_S128_S1x128 (ix2 0 q) (ix1 q) ?_
  rw [Shape.rowMajor_val_one, Shape.rowMajor_val_two]
  show q.val = 0 * 128 + q.val
  omega

/-- After the edge region the first result array holds, at row `r` and column `q`, `xjiRow` of row `r` of `e1`. -/
theorem xji_apply (c : Dev nD) (r : Fin 200000) (q : Fin 128) :
    (W2 m ρ c (Proc.devRef .tc main_v2_0) : FVec Ideal S200000x128 .f32) (ix2 r q)
      = xjiRow (row (A0 m c) r) (mat (A15 m c)) (vec (A16 m c)) q := by
  rw [show W2 m ρ c (Proc.devRef .tc main_v2_0) = (dat0 (V1 m ρ) c).arrAt 9 cfg0.N from W2_arr m ρ c 9, xji_array]
  show xjiRow (row (V1 m ρ c main_arg0) r) (mat (V1 m ρ c main_arg15)) (row (V1 m ρ c main_v0 : S1x128.Idx → EReal) 0) q = _
  rw [entry_e1, entry_Wji, entry_bji, row_shapeCast]

/-- After the edge region the second result array holds, at row `r` and column `q`, `xkjdRow` of rows `r` of `e1` and `rbf`. -/
theorem xkjd_apply (c : Dev nD) (r : Fin 200000) (q : Fin 64) :
    (W2 m ρ c (Proc.devRef .tc main_v2_1) : FVec Ideal S200000x64 .f32) (ix2 r q)
      = xkjdRow (row (A0 m c) r) (row (A1 m c) r) (mat (A13 m c)) (vec (A14 m c)) (mat (A6 m c)) (mat (A7 m c)) (mat (A17 m c)) q := by
  rw [show W2 m ρ c (Proc.devRef .tc main_v2_1) = (dat0 (V1 m ρ) c).arrAt 10 cfg0.N from W2_arr m ρ c 10, xkjd_array]
  show xkjdRow (row (V1 m ρ c main_arg0) r) (row (V1 m ρ c main_arg1) r) (mat (V1 m ρ c main_arg13)) (row (V1 m ρ c main_v1 : S1x128.Idx → EReal) 0)
    (mat (V1 m ρ c main_arg6)) (mat (V1 m ρ c main_arg7)) (mat (V1 m ρ c main_arg17)) q = _
  rw [entry_e1, entry_rbf, entry_Wkj, entry_bkj, entry_Wr1, entry_Wr2, entry_Wd, row_shapeCast]

end Cert.KernelIdeal.Edge

end
-- ==== Proof.K1Body.lean ====
/-
  The triplet stage's arithmetic, read at a row and a column.

  The stage's one stored value is a product of three factors: the gathered row, and two rows each obtained from an
  input row by two successive matrix products, (sbf · W_sbf1) · W_sbf2 and (t · W_t1) · W_t2. On the extended reals a
  format change is the identity and a matrix product into a zero accumulator is the plain sum over the contracted
  axis, so entry (p, q) of the stored value is `msgRow` of rows p of the three row operands, at q.
-/
import proofs.«414090_j48034914238946_1_alg».proof.Proof.Gen.KernelIdeal.Skeleton
import proofs.«414090_j48034914238946_1_alg».proof.Proof.Spec
import Idealize.ShloMosaic.Lib.ValueIdx
import Idealize.ShloMosaic.Lib.Pipeline.Value
import Idealize.ShloMosaic.PureOps.Ideal.Laws

noncomputable section

namespace Cert.KernelIdeal.Triplet

open Cert.KernelIdeal Cert.KernelIdeal.Gen Cert.Interaction Idealize.ShloMosaic Idealize.ShloMosaic.ValueIdx Idealize.SL.Sem

/-! ## The three matrix products at an entry

Each contracts the left operand's columns against the right operand's rows: at result entry (p, c) the left operand is
read at (p, k) and the right at (k, c), k running over the contracted axis. -/

/-! ### A row of 42 against a 42 × 8 matrix -/

theorem lhsA_0 (i : S4000x8.Idx) (q : dot_S4000x42_S42x8_S4000x8_1_0_0_1_n_n.contr.Idx) :
    (dot_S4000x42_S42x8_S4000x8_1_0_0_1_n_n.lhsIdx i q 0).val = (i 0).val := by
  unfold DotDims.lhsIdx
  rw [dif_neg (show ¬(0 : Fin S4000x42.rank) ∈ dot_S4000x42_S42x8_S4000x8_1_0_0_1_n_n.lhsBatch by decide), dif_pos (show (0 : Fin S4000x42.rank) ∈ dot_S4000x42_S42x8_S4000x8_1_0_0_1_n_n.lhsNonContracting by decide)]
  rfl
theorem lhsA_1 (i : S4000x8.Idx) (q : dot_S4000x42_S42x8_S4000x8_1_0_0_1_n_n.contr.Idx) :
    (dot_S4000x42_S42x8_S4000x8_1_0_0_1_n_n.lhsIdx i q 1).val = (q ⟨0, by decide⟩).val :=
  dot_S4000x42_S42x8_S4000x8_1_0_0_1_n_n.lhsIdx_val_of_single rfl i q
theorem rhsA_0 (i : S4000x8.Idx) (q : dot_S4000x42_S42x8_S4000x8_1_0_0_1_n_n.contr.Idx) :
    (dot_S4000x42_S42x8_S4000x8_1_0_0_1_n_n.rhsIdx i q 0).val = (q ⟨0, by decide⟩).val :=
  dot_S4000x42_S42x8_S4000x8_1_0_0_1_n_n.rhsIdx_val_of_single rfl i q
theorem rhsA_1 (i : S4000x8.Idx) (q : dot_S4000x42_S42x8_S4000x8_1_0_0_1_n_n.contr.Idx) :
    (dot_S4000x42_S42x8_S4000x8_1_0_0_1_n_n.rhsIdx i q 1).val = (i 1).val := by
  unfold DotDims.rhsIdx
  rw [dif_neg (show ¬(1 : Fin S42x8.rank) ∈ dot_S4000x42_S42x8_S4000x8_1_0_0_1_n_n.rhsBatch by decide), dif_pos (show (1 : Fin S42x8.rank) ∈ dot_S4000x42_S42x8_S4000x8_1_0_0_1_n_n.rhsNonContracting by decide)]
  rfl

/-- Entry (p, c) of a [4000, 42] × [42, 8] product into zero is the sum over the 42 contracted positions. -/
theorem mmA_apply {φ₁ φ₂ : FTy} (a : FVec Ideal S4000x42 φ₁) (b : FVec Ideal S42x8 φ₂) (p : Fin 4000) (c : Fin 8) :
    matmul dot_S4000x42_S42x8_S4000x8_1_0_0_1_n_n none a b (constant (F := Ideal) S4000x8 .f32 0x00000000#32) (ix2 p c)
      = ∑ k : Fin 42, a (ix2 p k) * b (ix2 k c) := by
  simp only [matmul]
  rw [Ideal.matmul_constant_zero_apply, ← Equiv.sum_comp (contrEquiv1 dot_S4000x42_S42x8_S4000x8_1_0_0_1_n_n 42 rfl rfl).symm]
  refine Finset.sum_congr rfl fun k _ => ?_
  have hk := contrEquiv1_symm_val dot_S4000x42_S42x8_S4000x8_1_0_0_1_n_n 42 rfl rfl k
  have el : dot_S4000x42_S42x8_S4000x8_1_0_0_1_n_n.lhsIdx (ix2 p c) ((contrEquiv1 dot_S4000x42_S42x8_S4000x8_1_0_0_1_n_n 42 rfl rfl).symm k) = ix2 p k := funext fun a => Fin.ext (by
    match a with
    | ⟨0, _⟩ => exact lhsA_0 _ _
    | ⟨1, _⟩ => exact (lhsA_1 _ _).trans hk)
  have er : dot_S4000x42_S42x8_S4000x8_1_0_0_1_n_n.rhsIdx (ix2 p c) ((contrEquiv1 dot_S4000x42_S42x8_S4000x8_1_0_0_1_n_n 42 rfl rfl).symm k) = ix2 k c := funext fun a => Fin.ext (by
    match a with
    | ⟨0, _⟩ => exact (rhsA_0 _ _).trans hk
    | ⟨1, _⟩ => exact rhsA_1 _ _)
  rw [el, er]

/-! ### A row of 8 against an 8 × 64 matrix -/

theorem lhsB_0 (i : S4000x64.Idx) (q : dot_S4000x8_S8x64_S4000x64_1_0_0_1_n_n.contr.Idx) :
    (dot_S4000x8_S8x64_S4000x64_1_0_0_1_n_n.lhsIdx i q 0).val = (i 0).val := by
  unfold DotDims.lhsIdx
  rw [dif_neg (show ¬(0 : Fin S4000x8.rank) ∈ dot_S4000x8_S8x64_S4000x64_1_0_0_1_n_n.lhsBatch by decide), dif_pos (show (0 : Fin S4000x8.rank) ∈ dot_S4000x8_S8x64_S4000x64_1_0_0_1_n_n.lhsNonContracting by decide)]
  rfl
theorem lhsB_1 (i : S4000x64.Idx) (q : dot_S4000x8_S8x64_S4000x64_1_0_0_1_n_n.contr.Idx) :
    (dot_S4000x8_S8x64_S4000x64_1_0_0_1_n_n.lhsIdx i q 1).val = (q ⟨0, by decide⟩).val :=
  dot_S4000x8_S8x64_S4000x64_1_0_0_1_n_n.lhsIdx_val_of_single rfl i q
theorem rhsB_0 (i : S4000x64.Idx) (q : dot_S4000x8_S8x64_S4000x64_1_0_0_1_n_n.contr.Idx) :
    (dot_S4000x8_S8x64_S4000x64_1_0_0_1_n_n.rhsIdx i q 0).val = (q ⟨0, by decide⟩).val :=
  dot_S4000x8_S8x64_S4000x64_1_0_0_1_n_n.rhsIdx_val_of_single rfl i q
theorem rhsB_1 (i : S4000x64.Idx) (q : dot_S4000x8_S8x64_S4000x64_1_0_0_1_n_n.contr.Idx) :
    (dot_S4000x8_S8x64_S4000x64_1_0_0_1_n_n.rhsIdx i q 1).val = (i 1).val := by
  unfold DotDims.rhsIdx
  rw [dif_neg (show ¬(1 : Fin S8x64.rank) ∈ dot_S4000x8_S8x64_S4000x64_1_0_0_1_n_n.rhsBatch by decide), dif_pos (show (1 : Fin S8x64.rank) ∈ dot_S4000x8_S8x64_S4000x64_1_0_0_1_n_n.rhsNonContracting by decide)]
  rfl

/-- Entry (p, c) of a [4000, 8] × [8, 64] product into zero is the sum over the 8 contracted positions. -/
theorem mmB_apply {φ₁ φ₂ : FTy} (a : FVec Ideal S4000x8 φ₁) (b : FVec Ideal S8x64 φ₂) (p : Fin 4000) (c : Fin 64) :
    matmul dot_S4000x8_S8x64_S4000x64_1_0_0_1_n_n none a b (constant (F := Ideal) S4000x64 .f32 0x00000000#32) (ix2 p c)
      = ∑ k : Fin 8, a (ix2 p k) * b (ix2 k c) := by
  simp only [matmul]
  rw [Ideal.matmul_constant_zero_apply, ← Equiv.sum_comp (contrEquiv1 dot_S4000x8_S8x64_S4000x64_1_0_0_1_n_n 8 rfl rfl).symm]
  refine Finset.sum_congr rfl fun k _ => ?_
  have hk := contrEquiv1_symm_val dot_S4000x8_S8x64_S4000x64_1_0_0_1_n_n 8 rfl rfl k
  have el : dot_S4000x8_S8x64_S4000x64_1_0_0_1_n_n.lhsIdx (ix2 p c) ((contrEquiv1 dot_S4000x8_S8x64_S4000x64_1_0_0_1_n_n 8 rfl rfl).symm k) = ix2 p k := funext fun a => Fin.ext (by
    match a with
    | ⟨0, _⟩ => exact lhsB_0 _ _
    | ⟨1, _⟩ => exact (lhsB_1 _ _).trans hk)
  have er : dot_S4000x8_S8x64_S4000x64_1_0_0_1_n_n.rhsIdx (ix2 p c) ((contrEquiv1 dot_S4000x8_S8x64_S4000x64_1_0_0_1_n_n 8 rfl rfl).symm k) = ix2 k c := funext fun a => Fin.ext (by
    match a with
    | ⟨0, _⟩ => exact (rhsB_0 _ _).trans hk
    | ⟨1, _⟩ => exact rhsB_1 _ _)
  rw [el, er]

/-! ### A row of 294 against a 294 × 8 matrix -/

theorem lhsC_0 (i : S4000x8.Idx) (q : dot_S4000x294_S294x8_S4000x8_1_0_0_1_n_n.contr.Idx) :
    (dot_S4000x294_S294x8_S4000x8_1_0_0_1_n_n.lhsIdx i q 0).val = (i 0).val := by
  unfold DotDims.lhsIdx
  rw [dif_neg (show ¬(0 : Fin S4000x294.rank) ∈ dot_S4000x294_S294x8_S4000x8_1_0_0_1_n_n.lhsBatch by decide), dif_pos (show (0 : Fin S4000x294.rank) ∈ dot_S4000x294_S294x8_S4000x8_1_0_0_1_n_n.lhsNonContracting by decide)]
  rfl
theorem lhsC_1 (i : S4000x8.Idx) (q : dot_S4000x294_S294x8_S4000x8_1_0_0_1_n_n.contr.Idx) :
    (dot_S4000x294_S294x8_S4000x8_1_0_0_1_n_n.lhsIdx i q 1).val = (q ⟨0, by decide⟩).val :=
  dot_S4000x294_S294x8_S4000x8_1_0_0_1_n_n.lhsIdx_val_of_single rfl i q
theorem rhsC_0 (i : S4000x8.Idx) (q : dot_S4000x294_S294x8_S4000x8_1_0_0_1_n_n.contr.Idx) :
    (dot_S4000x294_S294x8_S4000x8_1_0_0_1_n_n.rhsIdx i q 0).val = (q ⟨0, by decide⟩).val :=
  dot_S4000x294_S294x8_S4000x8_1_0_0_1_n_n.rhsIdx_val_of_single rfl i q
theorem rhsC_1 (i : S4000x8.Idx) (q : dot_S4000x294_S294x8_S4000x8_1_0_0_1_n_n.contr.Idx) :
    (dot_S4000x294_S294x8_S4000x8_1_0_0_1_n_n.rhsIdx i q 1).val = (i 1).val := by
  unfold DotDims.rhsIdx
  rw [dif_neg (show ¬(1 : Fin S294x8.rank) ∈ dot_S4000x294_S294x8_S4000x8_1_0_0_1_n_n.rhsBatch by decide), dif_pos (show (1 : Fin S294x8.rank) ∈ dot_S4000x294_S294x8_S4000x8_1_0_0_1_n_n.rhsNonContracting by decide)]
  rfl

/-- Entry (p, c) of a [4000, 294] × [294, 8] product into zero is the sum over the 294 contracted positions. -/
theorem mmC_apply {φ₁ φ₂ : FTy} (a : FVec Ideal S4000x294 φ₁) (b : FVec Ideal S294x8 φ₂) (p : Fin 4000) (c : Fin 8) :
    matmul dot_S4000x294_S294x8_S4000x8_1_0_0_1_n_n none a b (constant (F := Ideal) S4000x8 .f32 0x00000000#32) (ix2 p c)
      = ∑ k : Fin 294, a (ix2 p k) * b (ix2 k c) := by
  simp only [matmul]
  rw [Ideal.matmul_constant_zero_apply, ← Equiv.sum_comp (contrEquiv1 dot_S4000x294_S294x8_S4000x8_1_0_0_1_n_n 294 rfl rfl).symm]
  refine Finset.sum_congr rfl fun k _ => ?_
  have hk := contrEquiv1_symm_val dot_S4000x294_S294x8_S4000x8_1_0_0_1_n_n 294 rfl rfl k
  have el : dot_S4000x294_S294x8_S4000x8_1_0_0_1_n_n.lhsIdx (ix2 p c) ((contrEquiv1 dot_S4000x294_S294x8_S4000x8_1_0_0_1_n_n 294 rfl rfl).symm k) = ix2 p k := funext fun a => Fin.ext (by
    match a with
    | ⟨0, _⟩ => exact lhsC_0 _ _
    | ⟨1, _⟩ => exact (lhsC_1 _ _).trans hk)
  have er : dot_S4000x294_S294x8_S4000x8_1_0_0_1_n_n.rhsIdx (ix2 p c) ((contrEquiv1 dot_S4000x294_S294x8_S4000x8_1_0_0_1_n_n 294 rfl rfl).symm k) = ix2 k c := funext fun a => Fin.ext (by
    match a with
    | ⟨0, _⟩ => exact (rhsC_0 _ _).trans hk
    | ⟨1, _⟩ => exact rhsC_1 _ _)
  rw [el, er]

/-! ## The stored value at an entry -/

/-- Entry (p, q) of the stage's stored value is `msgRow` of rows p of its three row operands and of the four weight
    matrices, at q: the format changes read through, each matrix product is its sum, and the two products of the
    entries are the ones `msgRow` names, in the same order. -/
theorem pay_apply (x0 : Vec Ideal S4000x42 .f32) (x3 : Vec Ideal S42x8 .f32) (x4 : Vec Ideal S8x64 .f32)
    (x1 : Vec Ideal S4000x294 .f32) (x5 : Vec Ideal S294x8 .f32) (x6 : Vec Ideal S8x64 .f32) (x2 : Vec Ideal S4000x64 .f32)
    (p : Fin 4000) (q : Fin 64) :
    k1_pay1 (F := Ideal) x0 x3 x4 x1 x5 x6 x2 (ix2 p q)
      = msgRow (row x0 p) (row x1 p) (row x2 p) (mat x3) (mat x4) (mat x5) (mat x6) q := by
  unfold k1_pay1
  rw [mulf_apply, mulf_apply, shapeCast_self, mmB_apply, mmB_apply]
  simp only [truncf_apply, mmA_apply, mmC_apply]
  rfl

end Cert.KernelIdeal.Triplet

end
-- ==== Proof.K1.lean ====
/-
  The triplet stage of the kernel program, read at a row and a column.

  The stage runs over 150 grid points. Point `t` reads rows 4000 t … 4000 t + 3999 of `sbf`, of `t` and of the gathered
  array, and the four weight matrices whole, and writes rows 4000 t … 4000 t + 3999 of the message array. Entry (p, q) of
  what it writes depends on rows p of its three row blocks only (`pay_apply`), and those are rows 4000 t + p of the
  arrays. So every point writes its block of ONE function of the arrays, `msgArr`; the 150 blocks cover the message
  array's 600000 rows, hence the array after the stage is `msgArr`. The arrays the stage is entered with are, but for
  the gathered one, untouched since the launch.
-/
import proofs.«414090_j48034914238946_1_alg».proof.Proof.Gen.KernelIdeal.Frame
import proofs.«414090_j48034914238946_1_alg».proof.Proof.Spec
import proofs.«414090_j48034914238946_1_alg».proof.Proof.KArgs
import proofs.«414090_j48034914238946_1_alg».proof.Proof.K1Body
import Idealize.ShloMosaic.Lib.ValueIdx
import Idealize.ShloMosaic.Lib.Pipeline.Value
import Idealize.ShloMosaic.PureOps.Ideal.Laws

set_option maxRecDepth 16384

noncomputable section

namespace Cert.KernelIdeal.Triplet

open Cert.KernelIdeal Cert.KernelIdeal.Gen Cert.KernelIdeal.Args Cert.Interaction Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-! ## The region's arrays, and the message array as one function of them -/

/-- `sbf` as the region finds it. -/
abbrev sbfArr (c : Dev nD) : FVec Ideal S600000x42 .f32 := V c main_arg2
/-- `t` as the region finds it. -/
abbrev tArr (c : Dev nD) : FVec Ideal S600000x294 .f32 := V c main_arg3
/-- The gathered array as the region finds it. -/
abbrev xArr (c : Dev nD) : FVec Ideal S600000x64 .f32 := V c main_v3
/-- `W_sbf1` as the region finds it. -/
abbrev ws1Arr (c : Dev nD) : FVec Ideal S42x8 .f32 := V c main_arg8
/-- `W_sbf2` as the region finds it. -/
abbrev ws2Arr (c : Dev nD) : FVec Ideal S8x64 .f32 := V c main_arg9
/-- `W_t1` as the region finds it. -/
abbrev wt1Arr (c : Dev nD) : FVec Ideal S294x8 .f32 := V c main_arg10
/-- `W_t2` as the region finds it. -/
abbrev wt2Arr (c : Dev nD) : FVec Ideal S8x64 .f32 := V c main_arg11

/-- The message array the region leaves, as one function of the arrays it finds: entry (r, q) is `msgRow` of rows `r`
    of `sbf`, `t` and the gathered array, at `q`. -/
def msgArr (c : Dev nD) : S600000x64.Idx → EReal := fun i =>
  msgRow (row (sbfArr V c) (i 0)) (row (tArr V c) (i 0)) (row (xArr V c) (i 0))
    (mat (ws1Arr V c)) (mat (ws2Arr V c)) (mat (wt1Arr V c)) (mat (wt2Arr V c)) (i 1)

/-! ## The body at an entry of its block -/

theorem hz : (![0, 0] : Fin 2 → Nat) = fun _ => 0 := funext fun a => by fin_cases a <;> rfl

/-- What the body leaves in the output block, at entry (p, q): `msgRow` of rows `p` of the three row blocks. The one
    store covers the block and every load reads a whole block, so this is the stored value at (p, q). -/
theorem out_apply (x0 : Vec Ideal S4000x42 .f32) (x1 : Vec Ideal S4000x294 .f32) (x2 : Vec Ideal S4000x64 .f32)
    (x3 : Vec Ideal S42x8 .f32) (x4 : Vec Ideal S8x64 .f32) (x5 : Vec Ideal S294x8 .f32) (x6 : Vec Ideal S8x64 .f32)
    (j : S4000x64.Idx) :
    out1_7 (F := Ideal) x0 x1 x2 x3 x4 x5 x6 j
      = msgRow (row x0 (j 0)) (row x1 (j 0)) (row x2 (j 0)) (mat x3) (mat x4) (mat x5) (mat x6) (j 1) := by
  unfold out1_7
  rw [View.canon_unit_zero hz]
  simp only [View.ld_unit_zero (S := S4000x42) hz, View.ld_unit_zero (S := S42x8) hz, View.ld_unit_zero (S := S8x64) hz,
    View.ld_unit_zero (S := S4000x294) hz, View.ld_unit_zero (S := S294x8) hz, View.ld_unit_zero (S := S4000x64) hz]
  exact (congrArg _ (eq_ix2 j)).trans (pay_apply x0 x3 x4 x1 x5 x6 x2 (j 0) (j 1))

/-! ## The blocks of a grid point

The grid has 150 points. At point `t` the three row windows and the output window are at block `t` of 4000 rows and
the four weight windows at their one block: decided once over the grid. -/

theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

/-- Row `p` of point `t`'s block of `sbf` is row `4000 t + p` of `sbf`. -/
theorem sbf_row (c : Dev nD) (t : Fin cfg1.N) (p : Fin 4000) (r : Fin 600000) (hr : r.val = t.val * 4000 + p.val) :
    row (iblk1 V c 0 t : Vec Ideal S4000x42 .f32) p = row (sbfArr V c) r := by
  funext k
  show V c main_arg2 (((cfg1.win 0).blk t).view.emb (ix2 p k)) = V c main_arg2 (ix2 r k)
  refine congrArg _ (funext fun a => Fin.ext ?_)
  obtain ⟨e00, e01, e10, e11, e20, e21, -⟩ := idx_facts t
  match a with
  | ⟨0, _⟩ => show win1_0.index t (0 : Fin 2) * 4000 + 1 * p.val = r.val; omega
  | ⟨1, _⟩ => show win1_0.index t (1 : Fin 2) * 42 + 1 * k.val = k.val; omega

/-- Row `p` of point `t`'s block of `t` is row `4000 t + p` of `t`. -/
theorem t_row (c : Dev nD) (t : Fin cfg1.N) (p : Fin 4000) (r : Fin 600000) (hr : r.val = t.val * 4000 + p.val) :
    row (iblk1 V c 1 t : Vec Ideal S4000x294 .f32) p = row (tArr V c) r := by
  funext k
  show V c main_arg3 (((cfg1.win 1).blk t).view.emb (ix2 p k)) = V c main_arg3 (ix2 r k)
  refine congrArg _ (funext fun a => Fin.ext ?_)
  obtain ⟨e00, e01, e10, e11, e20, e21, -⟩ := idx_facts t
  match a with
  | ⟨0, _⟩ => show win1_1.index t (0 : Fin 2) * 4000 + 1 * p.val = r.val; omega
  | ⟨1, _⟩ => show win1_1.index t (1 : Fin 2) * 294 + 1 * k.val = k.val; omega

/-- Row `p` of point `t`'s block of the gathered array is row `4000 t + p` of that array. -/
theorem x_row (c : Dev nD) (t : Fin cfg1.N) (p : Fin 4000) (r : Fin 600000) (hr : r.val = t.val * 4000 + p.val) :
    row (iblk1 V c 2 t : Vec Ideal S4000x64 .f32) p = row (xArr V c) r := by
  funext k
  show V c main_v3 (((cfg1.win 2).blk t).view.emb (ix2 p k)) = V c main_v3 (ix2 r k)
  refine congrArg _ (funext fun a => Fin.ext ?_)
  obtain ⟨e00, e01, e10, e11, e20, e21, -⟩ := idx_facts t
  match a with
  | ⟨0, _⟩ => show win1_2.index t (0 : Fin 2) * 4000 + 1 * p.val = r.val; omega
  | ⟨1, _⟩ => show win1_2.index t (1 : Fin 2) * 64 + 1 * k.val = k.val; omega

/-- The one block of `W_sbf1` is `W_sbf1`. -/
theorem ws1_blk (c : Dev nD) (t : Fin cfg1.N) :
    mat (iblk1 V c 3 t : Vec Ideal S42x8 .f32) = mat (ws1Arr V c) := by
  funext k j
  show V c main_arg8 (((cfg1.win 3).blk t).view.emb (ix2 k j)) = V c main_arg8 (ix2 k j)
  refine congrArg _ (funext fun a => Fin.ext ?_)
  obtain ⟨-, -, -, -, -, -, e0, e1, -⟩ := idx_facts t
  match a with
  | ⟨0, _⟩ => show win1_3.index t (0 : Fin 2) * 42 + 1 * k.val = k.val; omega
  | ⟨1, _⟩ => show win1_3.index t (1 : Fin 2) * 8 + 1 * j.val = j.val; omega

/-- The one block of `W_sbf2` is `W_sbf2`. -/
theorem ws2_blk (c : Dev nD) (t : Fin cfg1.N) :
    mat (iblk1 V c 4 t : Vec Ideal S8x64 .f32) = mat (ws2Arr V c) := by
  funext k j
  show V c main_arg9 (((cfg1.win 4).blk t).view.emb (ix2 k j)) = V c main_arg9 (ix2 k j)
  refine congrArg _ (funext fun a => Fin.ext ?_)
  obtain ⟨-, -, -, -, -, -, -, -, e0, e1, -⟩ := idx_facts t
  match a with
  | ⟨0, _⟩ => show win1_4.index t (0 : Fin 2) * 8 + 1 * k.val = k.val; omega
  | ⟨1, _⟩ => show win1_4.index t (1 : Fin 2) * 64 + 1 * j.val = j.val; omega

/-- The one block of `W_t1` is `W_t1`. -/
theorem wt1_blk (c : Dev nD) (t : Fin cfg1.N) :
    mat (iblk1 V c 5 t : Vec Ideal S294x8 .f32) = mat (wt1Arr V c) := by
  funext k j
  show V c main_arg10 (((cfg1.win 5).blk t).view.emb (ix2 k j)) = V c main_arg10 (ix2 k j)
  refine congrArg _ (funext fun a => Fin.ext ?_)
  obtain ⟨-, -, -, -, -, -, -, -, -, -, e0, e1, -⟩ := idx_facts t
  match a with
  | ⟨0, _⟩ => show win1_5.index t (0 : Fin 2) * 294 + 1 * k.val = k.val; omega
  | ⟨1, _⟩ => show win1_5.index t (1 : Fin 2) * 8 + 1 * j.val = j.val; omega

/-- The one block of `W_t2` is `W_t2`. -/
theorem wt2_blk (c : Dev nD) (t : Fin cfg1.N) :
    mat (iblk1 V c 6 t : Vec Ideal S8x64 .f32) = mat (wt2Arr V c) := by
  funext k j
  show V c main_arg11 (((cfg1.win 6).blk t).view.emb (ix2 k j)) = V c main_arg11 (ix2 k j)
  refine congrArg _ (funext fun a => Fin.ext ?_)
  obtain ⟨-, -, -, -, -, -, -, -, -, -, -, -, e0, e1, -⟩ := idx_facts t
  match a with
  | ⟨0, _⟩ => show win1_6.index t (0 : Fin 2) * 8 + 1 * k.val = k.val; omega
  | ⟨1, _⟩ => show win1_6.index t (1 : Fin 2) * 64 + 1 * j.val = j.val; omega

/-- What point `t` writes back is block `t` of `msgArr`: entry (p, q) of the body's result depends on rows `p` of the
    row blocks only, which are rows `4000 t + p` of the arrays, the row of the message array the entry is written to. -/
theorem flushed_eq (c : Dev nD) (t : Fin cfg1.N) :
    (dat1 (F := Ideal) V c).flushed 7 t = ((cfg1.win 7).blk t).view.read (Elt Ideal) (msgArr V c) := by
  show (cfg1.win 7).cut (grid1.coords t) ((dat1 V c).after 7 t) = _
  rw [after1_7]
  funext j
  show out1_7 (iblk1 V c 0 t) (iblk1 V c 1 t) (iblk1 V c 2 t) (iblk1 V c 3 t) (iblk1 V c 4 t) (iblk1 V c 5 t) (iblk1 V c 6 t) j
    = msgArr V c (((cfg1.win 7).blk t).view.emb j)
  refine (out_apply (iblk1 V c 0 t) (iblk1 V c 1 t) (iblk1 V c 2 t) (iblk1 V c 3 t) (iblk1 V c 4 t) (iblk1 V c 5 t) (iblk1 V c 6 t) j).trans ?_
  obtain ⟨-, -, -, -, -, -, -, -, -, -, -, -, -, -, e0, e1⟩ := idx_facts t
  have hr : ((((cfg1.win 7).blk t).view.emb j) 0).val = t.val * 4000 + (j 0).val := by
    show win1_7.index t (0 : Fin 2) * 4000 + 1 * (j 0).val = _; omega
  have hq : (((cfg1.win 7).blk t).view.emb j) 1 = j 1 := Fin.ext (by
    show win1_7.index t (1 : Fin 2) * 64 + 1 * (j 1).val = _; omega)
  unfold msgArr
  rw [sbf_row V c t (j 0) _ hr, t_row V c t (j 0) _ hr, x_row V c t (j 0) _ hr, ws1_blk V c t, ws2_blk V c t, wt1_blk V c t,
    wt2_blk V c t, hq]

/-! ## The cover: every row of the message array is in some point's block -/

/-- An entry of the message array is in point `t`'s block iff each coordinate is in the block's range on its axis. -/
theorem mem_blk (t : Fin cfg1.N) (i : S600000x64.Idx) :
    i ∈ ((cfg1.win 7).blk t).view.set ↔ ∀ a : Fin 2, win1_7.index t a * S4000x64.size a ≤ (i a).val ∧ (i a).val < win1_7.index t a * S4000x64.size a + S4000x64.size a := by
  show i ∈ ((View.whole main_v4).slice (win1_7.rect t)).set ↔ _
  rw [View.set_slice_whole, Rect.mem_set_unit]
  exact Iff.rfl

/-- Row `r` is in the block of point `r / 4000`, which writes its block back. -/
theorem cover (i : S600000x64.Idx) :
    ∃ t : Fin cfg1.N, (cfg1.win 7).flush t = true ∧ i ∈ ((cfg1.win 7).blk t).view.set := by
  have hi0 : (i 0).val < 600000 := (i 0).isLt
  have hi1 : (i 1).val < 64 := (i 1).isLt
  have hN : cfg1.N = 150 := N_1
  have ht : (i 0).val / 4000 < cfg1.N := by rw [hN]; omega
  obtain ⟨-, -, -, -, -, -, -, -, -, -, -, -, -, -, e0, e1⟩ := idx_facts ⟨(i 0).val / 4000, ht⟩
  refine ⟨⟨(i 0).val / 4000, ht⟩, flush1_7 _, ?_⟩
  rw [mem_blk]
  intro a
  match a with
  | ⟨0, _⟩ =>
    show win1_7.index ⟨(i 0).val / 4000, ht⟩ (0 : Fin 2) * 4000 ≤ (i 0).val ∧ (i 0).val < win1_7.index ⟨(i 0).val / 4000, ht⟩ (0 : Fin 2) * 4000 + 4000
    rw [e0]; show (i 0).val / 4000 * 4000 ≤ (i 0).val ∧ (i 0).val < (i 0).val / 4000 * 4000 + 4000; omega
  | ⟨1, _⟩ =>
    show win1_7.index ⟨(i 0).val / 4000, ht⟩ (1 : Fin 2) * 64 ≤ (i 1).val ∧ (i 1).val < win1_7.index ⟨(i 0).val / 4000, ht⟩ (1 : Fin 2) * 64 + 64
    rw [e1]; omega

/-- The message array after the region is `msgArr` of the arrays the region was entered with. -/
theorem arr_eq (c : Dev nD) : (dat1 (F := Ideal) V c).arrAt 7 cfg1.N = msgArr V c :=
  (dat1 (F := Ideal) V c).arrAt_eq_of_cover 7 (msgArr V c) (fun t _ => flushed_eq V c t) cover

/-! ## The region in the run: the arrays it is entered with are the launch's -/

variable (m : (ℓ : Loc nD τ sig) → Buf (Elt Ideal) ℓ) (ρ : Dev nD → PrngReg)

/-- `sbf` is not written before the region is entered: neither stretch of host operations names it and the edge stage does not window it, so the region finds it as launched. -/
theorem entry_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := StableHlo.after_of_forall_not_mem (b := Proc.devRef .tc main_arg2) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
    _ = m ((c : Thread nD τ).loc main_arg2) := rfl

/-- `t` is not written before the region is entered: neither stretch of host operations names it and the edge stage does not window it, so the region finds it as launched. -/
theorem entry_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := StableHlo.after_of_forall_not_mem (b := Proc.devRef .tc main_arg3) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
    _ = m ((c : Thread nD τ).loc main_arg3) := rfl

/-- `W_sbf1` is not written before the region is entered: neither stretch of host operations names it and the edge stage does not window it, so the region finds it as launched. -/
theorem entry_main_arg8 (c : Dev nD) : W3 m ρ c (Proc.devRef .tc main_arg8) = m ((c : Thread nD τ).loc main_arg8) :=
  calc W3 m ρ c (Proc.devRef .tc main_arg8)
    _ = W2 m ρ c (Proc.devRef .tc main_arg8) := StableHlo.after_of_forall_not_mem (b := Proc.devRef .tc main_arg8) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
    _ = W1 m ρ c (Proc.devRef .tc main_arg8) := W2_of_ne m ρ c main_arg8 (by decide)
    _ = W0 m ρ c (Proc.devRef .tc main_arg8) := StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
    _ = m ((c : Thread nD τ).loc main_arg8) := rfl

/-- `W_sbf2` is not written before the region is entered: neither stretch of host operations names it and the edge stage does not window it, so the region finds it as launched. -/
theorem entry_main_arg9 (c : Dev nD) : W3 m ρ c (Proc.devRef .tc main_arg9) = m ((c : Thread nD τ).loc main_arg9) :=
  calc W3 m ρ c (Proc.devRef .tc main_arg9)
    _ = W2 m ρ c (Proc.devRef .tc main_arg9) := StableHlo.after_of_forall_not_mem (b := Proc.devRef .tc main_arg9) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
    _ = W1 m ρ c (Proc.devRef .tc main_arg9) := W2_of_ne m ρ c main_arg9 (by decide)
    _ = W0 m ρ c (Proc.devRef .tc main_arg9) := StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
    _ = m ((c : Thread nD τ).loc main_arg9) := rfl

/-- `W_t1` is not written before the region is entered: neither stretch of host operations names it and the edge stage does not window it, so the region finds it as launched. -/
theorem entry_main_arg10 (c : Dev nD) : W3 m ρ c (Proc.devRef .tc main_arg10) = m ((c : Thread nD τ).loc main_arg10) :=
  calc W3 m ρ c (Proc.devRef .tc main_arg10)
    _ = W2 m ρ c (Proc.devRef .tc main_arg10) := StableHlo.after_of_forall_not_mem (b := Proc.devRef .tc main_arg10) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
    _ = W1 m ρ c (Proc.devRef .tc main_arg10) := W2_of_ne m ρ c main_arg10 (by decide)
    _ = W0 m ρ c (Proc.devRef .tc main_arg10) := StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
    _ = m ((c : Thread nD τ).loc main_arg10) := rfl

/-- `W_t2` is not written before the region is entered: neither stretch of host operations names it and the edge stage does not window it, so the region finds it as launched. -/
theorem entry_main_arg11 (c : Dev nD) : W3 m ρ c (Proc.devRef .tc main_arg11) = m ((c : Thread nD τ).loc main_arg11) :=
  calc W3 m ρ c (Proc.devRef .tc main_arg11)
    _ = W2 m ρ c (Proc.devRef .tc main_arg11) := StableHlo.after_of_forall_not_mem (b := Proc.devRef .tc main_arg11) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
    _ = W1 m ρ c (Proc.devRef .tc main_arg11) := W2_of_ne m ρ c main_arg11 (by decide)
    _ = W0 m ρ c (Proc.devRef .tc main_arg11) := StableHlo.after_of_forall_not_mem (b := Proc.devRef .tc main_arg11) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
    _ = m ((c : Thread nD τ).loc main_arg11) := rfl

/-- After the triplet region the message array holds, at row `r` and column `q`, `msgRow` of rows `r` of `sbf`, `t` and
    of the gathered array the region was entered with. -/
theorem msg_apply (c : Dev nD) (r : Fin 600000) (q : Fin 64) :
    (W4 m ρ c (Proc.devRef .tc main_v4) : FVec Ideal S600000x64 .f32) (ix2 r q)
      = msgRow (row (A2 m c) r) (row (A3 m c) r) (row (W3 m ρ c (Proc.devRef .tc main_v3) : FVec Ideal S600000x64 .f32) r)
          (mat (A8 m c)) (mat (A9 m c)) (mat (A10 m c)) (mat (A11 m c)) q := by
  refine (congrFun ((W4_arr m ρ c 7).trans (arr_eq (V3 m ρ) c)) (ix2 r q)).trans ?_
  show msgRow (row (W3 m ρ c (Proc.devRef .tc main_arg2) : FVec Ideal S600000x42 .f32) r)
      (row (W3 m ρ c (Proc.devRef .tc main_arg3) : FVec Ideal S600000x294 .f32) r)
      (row (W3 m ρ c (Proc.devRef .tc main_v3) : FVec Ideal S600000x64 .f32) r)
      (mat (W3 m ρ c (Proc.devRef .tc main_arg8) : FVec Ideal S42x8 .f32)) (mat (W3 m ρ c (Proc.devRef .tc main_arg9) : FVec Ideal S8x64 .f32))
      (mat (W3 m ρ c (Proc.devRef .tc main_arg10) : FVec Ideal S294x8 .f32)) (mat (W3 m ρ c (Proc.devRef .tc main_arg11) : FVec Ideal S8x64 .f32)) q = _
  rw [entry_main_arg2, entry_main_arg3, entry_main_arg8, entry_main_arg9, entry_main_arg10, entry_main_arg11]

end Cert.KernelIdeal.Triplet

end
-- ==== Proof.K2Pay.lean ====
/- The combine stage's body on one block of 4000 rows, read at a row and a column of the block. -/
import proofs.«414090_j48034914238946_1_alg».proof.Proof.Gen.KernelIdeal.Frame
import proofs.«414090_j48034914238946_1_alg».proof.Proof.Spec
import Idealize.ShloMosaic.Lib.ValueIdx
import Idealize.ShloMosaic.Lib.Pipeline.Value
import Idealize.ShloMosaic.PureOps.Ideal.Laws

noncomputable section

namespace Cert.KernelIdeal.CombineBody

open Cert.KernelIdeal Cert.KernelIdeal.Gen Cert.Interaction Idealize.ShloMosaic Idealize.ShloMosaic.ValueIdx

/-! ## Rows of the pointwise and layout operations -/

theorem hz : (![0, 0] : Fin 2 → Nat) = fun _ => 0 := funext fun a => match a with
  | ⟨0, _⟩ => rfl
  | ⟨1, _⟩ => rfl

/-- A row of a sum is the sum of the rows. -/
theorem row_addf {R C : Nat} {φ : FTy} (a b : FVec Ideal ⟨2, ![R, C]⟩ φ) (p : Fin R) :
    row (addf a b) p = fun c => row a p c + row b p c := rfl

/-- `z · logistic z` entrywise is `silu` of the row. -/
theorem row_silu {R C : Nat} {φ : FTy} (v : FVec Ideal ⟨2, ![R, C]⟩ φ) (p : Fin R) :
    row (mulf v (logistic v)) p = act (row v p) := rfl

/-- A change of format keeps the extended reals. -/
theorem row_truncf {R C : Nat} {φ ψ : FTy} (a : FVec Ideal ⟨2, ![R, C]⟩ φ) (h : ψ.bits < φ.bits) (p : Fin R) :
    row (truncf ψ a h) p = row a p := rfl
theorem mat_truncf {R C : Nat} {φ ψ : FTy} (a : FVec Ideal ⟨2, ![R, C]⟩ φ) (h : ψ.bits < φ.bits) :
    mat (truncf ψ a h) = mat a := rfl

/-- A cast to the same shape keeps the array. -/
theorem row_cast {R C : Nat} (a : (⟨2, ![R, C]⟩ : Shape).Idx → EReal) (h : (⟨2, ![R, C]⟩ : Shape).ShapeCasts ⟨2, ![R, C]⟩) (p : Fin R) :
    row (shapeCast ⟨2, ![R, C]⟩ a h) p = row a p := by rw [shapeCast_self]
theorem mat_cast {R C : Nat} (a : (⟨2, ![R, C]⟩ : Shape).Idx → EReal) (h : (⟨2, ![R, C]⟩ : Shape).ShapeCasts ⟨2, ![R, C]⟩) :
    mat (shapeCast ⟨2, ![R, C]⟩ a h) = mat a := by rw [shapeCast_self]

/-- Every row of a one-row array spread over the block is that one row. -/
theorem row_bias (b : (⟨2, ![1, 128]⟩ : Shape).Idx → EReal) (h : S1x128.Broadcasts S4000x128) (p : Fin 4000) :
    row (broadcastTo S4000x128 b h) p = row b 0 := by
  funext q
  exact broadcastTo_apply b h (ix2 p q) (ix2 0 q) (fun a => match a with
    | ⟨0, _⟩ => by show 0 = if (1 : Nat) = 1 then 0 else _; rw [if_pos rfl]
    | ⟨1, _⟩ => by show q.val = if (128 : Nat) = 1 then 0 else q.val; rw [if_neg (by decide)])

/-! ### The product of a 4000x128 block by a 128x128 matrix -/

theorem lhs128_0 (i : S4000x128.Idx) (k : dot_S4000x128_S128x128_S4000x128_1_0_0_1_n_n.contr.Idx) :
    (dot_S4000x128_S128x128_S4000x128_1_0_0_1_n_n.lhsIdx i k 0).val = (i 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl
theorem lhs128_1 (i : S4000x128.Idx) (k : dot_S4000x128_S128x128_S4000x128_1_0_0_1_n_n.contr.Idx) :
    (dot_S4000x128_S128x128_S4000x128_1_0_0_1_n_n.lhsIdx i k 1).val = (k ⟨0, by decide⟩).val :=
  dot_S4000x128_S128x128_S4000x128_1_0_0_1_n_n.lhsIdx_val_of_single rfl i k
theorem rhs128_0 (i : S4000x128.Idx) (k : dot_S4000x128_S128x128_S4000x128_1_0_0_1_n_n.contr.Idx) :
    (dot_S4000x128_S128x128_S4000x128_1_0_0_1_n_n.rhsIdx i k 0).val = (k ⟨0, by decide⟩).val :=
  dot_S4000x128_S128x128_S4000x128_1_0_0_1_n_n.rhsIdx_val_of_single rfl i k
theorem rhs128_1 (i : S4000x128.Idx) (k : dot_S4000x128_S128x128_S4000x128_1_0_0_1_n_n.contr.Idx) :
    (dot_S4000x128_S128x128_S4000x128_1_0_0_1_n_n.rhsIdx i k 1).val = (i 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

/-- Row `p` of the product into the zero accumulator is row `p` of the left factor times the right factor. -/
theorem row_mm128 {φ₁ φ₂ : FTy} (x : FVec Ideal S4000x128 φ₁) (w : FVec Ideal S128x128 φ₂) (p : Fin 4000) :
    row (matmul dot_S4000x128_S128x128_S4000x128_1_0_0_1_n_n none x w (constant (F := Ideal) S4000x128 .f32 0x00000000#32)) p = dense (row x p) (mat w) := by
  funext q
  show FloatOps.matmul dot_S4000x128_S128x128_S4000x128_1_0_0_1_n_n none x w (constant (F := Ideal) S4000x128 .f32 0x00000000#32) (ix2 p q) = ∑ k : Fin 128, x (ix2 p k) * w (ix2 k q)
  rw [Ideal.matmul_constant_zero_apply, ← Equiv.sum_comp (ValueIdx.contrEquiv1 dot_S4000x128_S128x128_S4000x128_1_0_0_1_n_n 128 rfl rfl).symm]
  refine Finset.sum_congr rfl fun k _ => ?_
  have hk := ValueIdx.contrEquiv1_symm_val dot_S4000x128_S128x128_S4000x128_1_0_0_1_n_n 128 rfl rfl k
  have el : dot_S4000x128_S128x128_S4000x128_1_0_0_1_n_n.lhsIdx (ix2 p q) ((ValueIdx.contrEquiv1 dot_S4000x128_S128x128_S4000x128_1_0_0_1_n_n 128 rfl rfl).symm k) = ix2 p k := funext fun a => Fin.ext (by
    match a with
    | ⟨0, _⟩ => exact lhs128_0 _ _
    | ⟨1, _⟩ => exact (lhs128_1 _ _).trans hk)
  have er : dot_S4000x128_S128x128_S4000x128_1_0_0_1_n_n.rhsIdx (ix2 p q) ((ValueIdx.contrEquiv1 dot_S4000x128_S128x128_S4000x128_1_0_0_1_n_n 128 rfl rfl).symm k) = ix2 k q := funext fun a => Fin.ext (by
    match a with
    | ⟨0, _⟩ => exact (rhs128_0 _ _).trans hk
    | ⟨1, _⟩ => exact rhs128_1 _ _)
  rw [el, er]

/-! ### The product of a 4000x64 block by a 64x128 matrix -/

theorem lhs64_0 (i : S4000x128.Idx) (k : dot_S4000x64_S64x128_S4000x128_1_0_0_1_n_n.contr.Idx) :
    (dot_S4000x64_S64x128_S4000x128_1_0_0_1_n_n.lhsIdx i k 0).val = (i 0).val := by
  unfold DotDims.lhsIdx
  rw [dif_neg (show ¬(0 : Fin S4000x64.rank) ∈ dot_S4000x64_S64x128_S4000x128_1_0_0_1_n_n.lhsBatch by decide), dif_pos (show (0 : Fin S4000x64.rank) ∈ dot_S4000x64_S64x128_S4000x128_1_0_0_1_n_n.lhsNonContracting by decide)]
  rfl
theorem lhs64_1 (i : S4000x128.Idx) (k : dot_S4000x64_S64x128_S4000x128_1_0_0_1_n_n.contr.Idx) :
    (dot_S4000x64_S64x128_S4000x128_1_0_0_1_n_n.lhsIdx i k 1).val = (k ⟨0, by decide⟩).val :=
  dot_S4000x64_S64x128_S4000x128_1_0_0_1_n_n.lhsIdx_val_of_single rfl i k
theorem rhs64_0 (i : S4000x128.Idx) (k : dot_S4000x64_S64x128_S4000x128_1_0_0_1_n_n.contr.Idx) :
    (dot_S4000x64_S64x128_S4000x128_1_0_0_1_n_n.rhsIdx i k 0).val = (k ⟨0, by decide⟩).val :=
  dot_S4000x64_S64x128_S4000x128_1_0_0_1_n_n.rhsIdx_val_of_single rfl i k
theorem rhs64_1 (i : S4000x128.Idx) (k : dot_S4000x64_S64x128_S4000x128_1_0_0_1_n_n.contr.Idx) :
    (dot_S4000x64_S64x128_S4000x128_1_0_0_1_n_n.rhsIdx i k 1).val = (i 1).val := by
  unfold DotDims.rhsIdx
  rw [dif_neg (show ¬(1 : Fin S64x128.rank) ∈ dot_S4000x64_S64x128_S4000x128_1_0_0_1_n_n.rhsBatch by decide), dif_pos (show (1 : Fin S64x128.rank) ∈ dot_S4000x64_S64x128_S4000x128_1_0_0_1_n_n.rhsNonContracting by decide)]
  rfl

/-- Row `p` of the product into the zero accumulator is row `p` of the left factor times the right factor. -/
theorem row_mm64 {φ₁ φ₂ : FTy} (x : FVec Ideal S4000x64 φ₁) (w : FVec Ideal S64x128 φ₂) (p : Fin 4000) :
    row (matmul dot_S4000x64_S64x128_S4000x128_1_0_0_1_n_n none x w (constant (F := Ideal) S4000x128 .f32 0x00000000#32)) p = dense (row x p) (mat w) := by
  funext q
  show FloatOps.matmul dot_S4000x64_S64x128_S4000x128_1_0_0_1_n_n none x w (constant (F := Ideal) S4000x128 .f32 0x00000000#32) (ix2 p q) = ∑ k : Fin 64, x (ix2 p k) * w (ix2 k q)
  rw [Ideal.matmul_constant_zero_apply, ← Equiv.sum_comp (ValueIdx.contrEquiv1 dot_S4000x64_S64x128_S4000x128_1_0_0_1_n_n 64 rfl rfl).symm]
  refine Finset.sum_congr rfl fun k _ => ?_
  have hk := ValueIdx.contrEquiv1_symm_val dot_S4000x64_S64x128_S4000x128_1_0_0_1_n_n 64 rfl rfl k
  have el : dot_S4000x64_S64x128_S4000x128_1_0_0_1_n_n.lhsIdx (ix2 p q) ((ValueIdx.contrEquiv1 dot_S4000x64_S64x128_S4000x128_1_0_0_1_n_n 64 rfl rfl).symm k) = ix2 p k := funext fun a => Fin.ext (by
    match a with
    | ⟨0, _⟩ => exact lhs64_0 _ _
    | ⟨1, _⟩ => exact (lhs64_1 _ _).trans hk)
  have er : dot_S4000x64_S64x128_S4000x128_1_0_0_1_n_n.rhsIdx (ix2 p q) ((ValueIdx.contrEquiv1 dot_S4000x64_S64x128_S4000x128_1_0_0_1_n_n 64 rfl rfl).symm k) = ix2 k q := funext fun a => Fin.ext (by
    match a with
    | ⟨0, _⟩ => exact (rhs64_0 _ _).trans hk
    | ⟨1, _⟩ => exact rhs64_1 _ _)
  rw [el, er]

/-! ### The product of a 4000x6 block by a 6x128 matrix -/

theorem lhs6_0 (i : S4000x128.Idx) (k : dot_S4000x6_S6x128_S4000x128_1_0_0_1_n_n.contr.Idx) :
    (dot_S4000x6_S6x128_S4000x128_1_0_0_1_n_n.lhsIdx i k 0).val = (i 0).val := by
  unfold DotDims.lhsIdx
  rw [dif_neg (show ¬(0 : Fin S4000x6.rank) ∈ dot_S4000x6_S6x128_S4000x128_1_0_0_1_n_n.lhsBatch by decide), dif_pos (show (0 : Fin S4000x6.rank) ∈ dot_S4000x6_S6x128_S4000x128_1_0_0_1_n_n.lhsNonContracting by decide)]
  rfl
theorem lhs6_1 (i : S4000x128.Idx) (k : dot_S4000x6_S6x128_S4000x128_1_0_0_1_n_n.contr.Idx) :
    (dot_S4000x6_S6x128_S4000x128_1_0_0_1_n_n.lhsIdx i k 1).val = (k ⟨0, by decide⟩).val :=
  dot_S4000x6_S6x128_S4000x128_1_0_0_1_n_n.lhsIdx_val_of_single rfl i k
theorem rhs6_0 (i : S4000x128.Idx) (k : dot_S4000x6_S6x128_S4000x128_1_0_0_1_n_n.contr.Idx) :
    (dot_S4000x6_S6x128_S4000x128_1_0_0_1_n_n.rhsIdx i k 0).val = (k ⟨0, by decide⟩).val :=
  dot_S4000x6_S6x128_S4000x128_1_0_0_1_n_n.rhsIdx_val_of_single rfl i k
theorem rhs6_1 (i : S4000x128.Idx) (k : dot_S4000x6_S6x128_S4000x128_1_0_0_1_n_n.contr.Idx) :
    (dot_S4000x6_S6x128_S4000x128_1_0_0_1_n_n.rhsIdx i k 1).val = (i 1).val := by
  unfold DotDims.rhsIdx
  rw [dif_neg (show ¬(1 : Fin S6x128.rank) ∈ dot_S4000x6_S6x128_S4000x128_1_0_0_1_n_n.rhsBatch by decide), dif_pos (show (1 : Fin S6x128.rank) ∈ dot_S4000x6_S6x128_S4000x128_1_0_0_1_n_n.rhsNonContracting by decide)]
  rfl

/-- Row `p` of the product into the zero accumulator is row `p` of the left factor times the right factor. -/
theorem row_mm6 {φ₁ φ₂ : FTy} (x : FVec Ideal S4000x6 φ₁) (w : FVec Ideal S6x128 φ₂) (p : Fin 4000) :
    row (matmul dot_S4000x6_S6x128_S4000x128_1_0_0_1_n_n none x w (constant (F := Ideal) S4000x128 .f32 0x00000000#32)) p = dense (row x p) (mat w) := by
  funext q
  show FloatOps.matmul dot_S4000x6_S6x128_S4000x128_1_0_0_1_n_n none x w (constant (F := Ideal) S4000x128 .f32 0x00000000#32) (ix2 p q) = ∑ k : Fin 6, x (ix2 p k) * w (ix2 k q)
  rw [Ideal.matmul_constant_zero_apply, ← Equiv.sum_comp (ValueIdx.contrEquiv1 dot_S4000x6_S6x128_S4000x128_1_0_0_1_n_n 6 rfl rfl).symm]
  refine Finset.sum_congr rfl fun k _ => ?_
  have hk := ValueIdx.contrEquiv1_symm_val dot_S4000x6_S6x128_S4000x128_1_0_0_1_n_n 6 rfl rfl k
  have el : dot_S4000x6_S6x128_S4000x128_1_0_0_1_n_n.lhsIdx (ix2 p q) ((ValueIdx.contrEquiv1 dot_S4000x6_S6x128_S4000x128_1_0_0_1_n_n 6 rfl rfl).symm k) = ix2 p k := funext fun a => Fin.ext (by
    match a with
    | ⟨0, _⟩ => exact lhs6_0 _ _
    | ⟨1, _⟩ => exact (lhs6_1 _ _).trans hk)
  have er : dot_S4000x6_S6x128_S4000x128_1_0_0_1_n_n.rhsIdx (ix2 p q) ((ValueIdx.contrEquiv1 dot_S4000x6_S6x128_S4000x128_1_0_0_1_n_n 6 rfl rfl).symm k) = ix2 k q := funext fun a => Fin.ext (by
    match a with
    | ⟨0, _⟩ => exact (rhs6_0 _ _).trans hk
    | ⟨1, _⟩ => exact rhs6_1 _ _)
  rw [el, er]

/-! ## Rows of the body's five payloads -/

/-- The first part, up to the product by `W_lin`: `x_ji + silu (s W_up)`, one residual layer, times `W_lin`. -/
theorem row_pay3 (v0 : Vec Ideal S4000x64 .f32) (v3 : Vec Ideal S64x128 .f32) (v8 : Vec Ideal S4000x128 .f32) (v11 : Vec Ideal S128x128 .f32)
    (v16 : Vec Ideal S1x128 .f32) (v21 : Vec Ideal S128x128 .f32) (v26 : Vec Ideal S1x128 .f32) (v32 : Vec Ideal S128x128 .f32) (p : Fin 4000) :
    row (k2_pay3 (F := Ideal) v0 v3 v8 v11 v16 v21 v26 v32) p
      = dense (resid (fun c => row v8 p c + act (dense (row v0 p) (mat v3)) c) (mat v11) (row v16 0) (mat v21) (row v26 0)) (mat v32) := by
  unfold k2_pay3
  simp only [row_addf, row_silu, row_truncf, mat_truncf, row_cast, mat_cast, row_bias, row_mm128, row_mm64, row_mm6]
  rfl

/-- The second part: the bias and `silu` of the skip, plus `e1`, then one residual layer. -/
theorem row_pay4 (v35 : FVec Ideal S4000x128 .f32) (v36 : Vec Ideal S1x128 .f32) (v42 : Vec Ideal S4000x128 .f32) (v44 : Vec Ideal S128x128 .f32)
    (v49 : Vec Ideal S1x128 .f32) (v55 : Vec Ideal S128x128 .f32) (v60 : Vec Ideal S1x128 .f32) (p : Fin 4000) :
    row (k2_pay4 (F := Ideal) v35 v36 v42 v44 v49 v55 v60) p
      = resid (fun c => act (fun c => row v35 p c + row v36 0 c) c + row v42 p c) (mat v44) (row v49 0) (mat v55) (row v60 0) := by
  unfold k2_pay4
  simp only [row_addf, row_silu, row_truncf, mat_truncf, row_cast, mat_cast, row_bias, row_mm128, row_mm64, row_mm6]
  rfl

/-- The last residual layer's inner dense layer. -/
theorem row_pay5 (v35 : FVec Ideal S4000x128 .f32) (v36 : Vec Ideal S1x128 .f32) (v42 : Vec Ideal S4000x128 .f32) (v44 : Vec Ideal S128x128 .f32)
    (v49 : Vec Ideal S1x128 .f32) (v55 : Vec Ideal S128x128 .f32) (v60 : Vec Ideal S1x128 .f32) (v67 : Vec Ideal S128x128 .f32) (v72 : Vec Ideal S1x128 .f32) (p : Fin 4000) :
    row (k2_pay5 (F := Ideal) v35 v36 v42 v44 v49 v55 v60 v67 v72) p
      = act (lin (row (k2_pay4 (F := Ideal) v35 v36 v42 v44 v49 v55 v60) p) (mat v67) (row v72 0)) := by
  unfold k2_pay5
  simp only [row_addf, row_silu, row_truncf, mat_truncf, row_cast, mat_cast, row_bias, row_mm128, row_mm64, row_mm6]
  rfl

/-- The last residual layer's outer dense layer, added to its input. -/
theorem row_pay1 (v66 : FVec Ideal S4000x128 .f32) (v77 : FVec Ideal S4000x128 .f32) (v78 : Vec Ideal S128x128 .f32) (v83 : Vec Ideal S1x128 .f32) (p : Fin 4000) :
    row (k2_pay1 (F := Ideal) v66 v77 v78 v83) p = fun c => row v66 p c + act (lin (row v77 p) (mat v78) (row v83 0)) c := by
  unfold k2_pay1
  simp only [row_addf, row_silu, row_truncf, mat_truncf, row_cast, mat_cast, row_bias, row_mm128, row_mm64, row_mm6]
  rfl

/-- The second output's payload: the rbf row times `W_rbf`, entrywise times the first output's row. -/
theorem row_pay2 (v66 : FVec Ideal S4000x128 .f32) (v77 : FVec Ideal S4000x128 .f32) (v78 : Vec Ideal S128x128 .f32) (v83 : Vec Ideal S1x128 .f32)
    (v90 : Vec Ideal S4000x6 .f32) (v92 : Vec Ideal S6x128 .f32) (p : Fin 4000) :
    row (k2_pay2 (F := Ideal) v66 v77 v78 v83 v90 v92) p
      = fun c => dense (row v90 p) (mat v92) c * row (k2_pay1 (F := Ideal) v66 v77 v78 v83) p c := by
  unfold k2_pay2
  have row_mulf : ∀ (a b : FVec Ideal S4000x128 .f32), row (mulf a b) p = fun c => row a p c * row b p c := fun _ _ => rfl
  simp only [row_mulf, row_addf, row_silu, row_truncf, mat_truncf, row_cast, mat_cast, row_bias, row_mm128, row_mm64, row_mm6]

/-! ## The two output blocks -/

/-- Row `p` of the first output's payload over the loaded blocks: the payloads' rows composed. -/
theorem row_e1out (x0 : Vec Ideal S4000x128 .f32) (x1 : Vec Ideal S4000x64 .f32) (x2 : Vec Ideal S4000x128 .f32) (x4 : Vec Ideal S64x128 .f32)
    (x5 : Vec Ideal S128x128 .f32) (x6 : Vec Ideal S1x128 .f32) (x7 : Vec Ideal S128x128 .f32) (x8 : Vec Ideal S1x128 .f32) (x9 : Vec Ideal S128x128 .f32) (x10 : Vec Ideal S1x128 .f32)
    (x11 : Vec Ideal S128x128 .f32) (x12 : Vec Ideal S1x128 .f32) (x13 : Vec Ideal S128x128 .f32) (x14 : Vec Ideal S1x128 .f32) (x15 : Vec Ideal S128x128 .f32) (x16 : Vec Ideal S1x128 .f32)
    (x17 : Vec Ideal S128x128 .f32) (x18 : Vec Ideal S1x128 .f32) (p : Fin 4000) :
    row (k2_pay1 (F := Ideal) (k2_pay4 (k2_pay3 x1 x4 x0 x5 x6 x7 x8 x9) x10 x2 x11 x12 x13 x14)
        (k2_pay5 (k2_pay3 x1 x4 x0 x5 x6 x7 x8 x9) x10 x2 x11 x12 x13 x14 x15 x16) x17 x18) p
      = e1outRow (row x0 p) (row x1 p) (row x2 p) (mat x4) (mat x5) (row x6 0) (mat x7) (row x8 0) (mat x9) (row x10 0)
          (mat x11) (row x12 0) (mat x13) (row x14 0) (mat x15) (row x16 0) (mat x17) (row x18 0) := by
  rw [row_pay1, row_pay5, row_pay4, row_pay3]
  rfl

/-- What the body leaves in the first output block, at row `p` and column `q` of the block: `e1outRow` of rows `p` of the
    three row blocks it loads (x_ji, the summed messages, e1) and of the weights. -/
theorem out2_20_apply (x0 : Vec Ideal S4000x128 .f32) (x1 : Vec Ideal S4000x64 .f32) (x2 : Vec Ideal S4000x128 .f32) (x3 : Vec Ideal S4000x6 .f32) (x4 : Vec Ideal S64x128 .f32)
    (x5 : Vec Ideal S128x128 .f32) (x6 : Vec Ideal S1x128 .f32) (x7 : Vec Ideal S128x128 .f32) (x8 : Vec Ideal S1x128 .f32) (x9 : Vec Ideal S128x128 .f32) (x10 : Vec Ideal S1x128 .f32)
    (x11 : Vec Ideal S128x128 .f32) (x12 : Vec Ideal S1x128 .f32) (x13 : Vec Ideal S128x128 .f32) (x14 : Vec Ideal S1x128 .f32) (x15 : Vec Ideal S128x128 .f32) (x16 : Vec Ideal S1x128 .f32)
    (x17 : Vec Ideal S128x128 .f32) (x18 : Vec Ideal S1x128 .f32) (x19 : Vec Ideal S6x128 .f32) (p : Fin 4000) (q : Fin 128) :
    out2_20 (F := Ideal) x0 x1 x2 x3 x4 x5 x6 x7 x8 x9 x10 x11 x12 x13 x14 x15 x16 x17 x18 x19 (ix2 p q)
      = e1outRow (row x0 p) (row x1 p) (row x2 p) (mat x4) (mat x5) (row x6 0) (mat x7) (row x8 0) (mat x9) (row x10 0)
          (mat x11) (row x12 0) (mat x13) (row x14 0) (mat x15) (row x16 0) (mat x17) (row x18 0) q := by
  unfold out2_20
  rw [View.canon_unit_zero (S := S4000x128) hz]
  simp only [View.ld_unit_zero (S := S4000x64) hz, View.ld_unit_zero (S := S64x128) hz, View.ld_unit_zero (S := S4000x128) hz, View.ld_unit_zero (S := S128x128) hz, View.ld_unit_zero (S := S1x128) hz, View.ld_unit_zero (S := S4000x6) hz, View.ld_unit_zero (S := S6x128) hz]
  exact congrFun (row_e1out x0 x1 x2 x4 x5 x6 x7 x8 x9 x10 x11 x12 x13 x14 x15 x16 x17 x18 p) q

/-- What the body leaves in the second output block: `e2outRow` of row `p` of the rbf block and of the first output's row. -/
theorem out2_21_apply (x0 : Vec Ideal S4000x128 .f32) (x1 : Vec Ideal S4000x64 .f32) (x2 : Vec Ideal S4000x128 .f32) (x3 : Vec Ideal S4000x6 .f32) (x4 : Vec Ideal S64x128 .f32)
    (x5 : Vec Ideal S128x128 .f32) (x6 : Vec Ideal S1x128 .f32) (x7 : Vec Ideal S128x128 .f32) (x8 : Vec Ideal S1x128 .f32) (x9 : Vec Ideal S128x128 .f32) (x10 : Vec Ideal S1x128 .f32)
    (x11 : Vec Ideal S128x128 .f32) (x12 : Vec Ideal S1x128 .f32) (x13 : Vec Ideal S128x128 .f32) (x14 : Vec Ideal S1x128 .f32) (x15 : Vec Ideal S128x128 .f32) (x16 : Vec Ideal S1x128 .f32)
    (x17 : Vec Ideal S128x128 .f32) (x18 : Vec Ideal S1x128 .f32) (x19 : Vec Ideal S6x128 .f32) (p : Fin 4000) (q : Fin 128) :
    out2_21 (F := Ideal) x0 x1 x2 x3 x4 x5 x6 x7 x8 x9 x10 x11 x12 x13 x14 x15 x16 x17 x18 x19 (ix2 p q)
      = e2outRow (row x3 p) (mat x19)
          (e1outRow (row x0 p) (row x1 p) (row x2 p) (mat x4) (mat x5) (row x6 0) (mat x7) (row x8 0) (mat x9) (row x10 0)
          (mat x11) (row x12 0) (mat x13) (row x14 0) (mat x15) (row x16 0) (mat x17) (row x18 0)) q := by
  unfold out2_21
  rw [View.canon_unit_zero (S := S4000x128) hz]
  simp only [View.ld_unit_zero (S := S4000x64) hz, View.ld_unit_zero (S := S64x128) hz, View.ld_unit_zero (S := S4000x128) hz, View.ld_unit_zero (S := S128x128) hz, View.ld_unit_zero (S := S1x128) hz, View.ld_unit_zero (S := S4000x6) hz, View.ld_unit_zero (S := S6x128) hz]
  refine (congrFun (row_pay2 _ _ x17 x18 x3 x19 p) q).trans ?_
  rw [row_e1out]
  rfl

end Cert.KernelIdeal.CombineBody

end
-- ==== Proof.K2.lean ====
/- The combine stage of the kernel program, read at a row and a column. -/
import proofs.«414090_j48034914238946_1_alg».proof.Proof.Gen.KernelIdeal.Frame
import proofs.«414090_j48034914238946_1_alg».proof.Proof.Spec
import proofs.«414090_j48034914238946_1_alg».proof.Proof.KArgs
import proofs.«414090_j48034914238946_1_alg».proof.Proof.K2Pay
import Idealize.ShloMosaic.Lib.ValueIdx
import Idealize.ShloMosaic.Lib.Pipeline.Value

set_option maxRecDepth 16384

noncomputable section

namespace Cert.KernelIdeal.Combine

open Cert.KernelIdeal Cert.KernelIdeal.Gen Cert.KernelIdeal.Args Cert.Interaction Idealize.ShloMosaic Idealize.ShloMosaic.ValueIdx Idealize.SL.Sem
open Idealize.ShloMosaic.TcCoe
open Idealize.ShloMosaic.Pipeline (Dat)

section Region
variable (V : (c : Dev nD) → (b : Ref sig .tc) → Buf (Elt Ideal) ((c : Thread nD τ).loc b))

/-- The index maps over the grid's 50 points: a window of 4000 rows is at block `t` of its array's rows at point `t`,
    a weight's window is its whole array at every point. -/
theorem idx_maps : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0
    ∧ win2_8.index t (0 : Fin 2) = 0 ∧ win2_8.index t (1 : Fin 2) = 0
    ∧ win2_9.index t (0 : Fin 2) = 0 ∧ win2_9.index t (1 : Fin 2) = 0
    ∧ win2_10.index t (0 : Fin 2) = 0 ∧ win2_10.index t (1 : Fin 2) = 0
    ∧ win2_11.index t (0 : Fin 2) = 0 ∧ win2_11.index t (1 : Fin 2) = 0
    ∧ win2_12.index t (0 : Fin 2) = 0 ∧ win2_12.index t (1 : Fin 2) = 0
    ∧ win2_13.index t (0 : Fin 2) = 0 ∧ win2_13.index t (1 : Fin 2) = 0
    ∧ win2_14.index t (0 : Fin 2) = 0 ∧ win2_14.index t (1 : Fin 2) = 0
    ∧ win2_15.index t (0 : Fin 2) = 0 ∧ win2_15.index t (1 : Fin 2) = 0
    ∧ win2_16.index t (0 : Fin 2) = 0 ∧ win2_16.index t (1 : Fin 2) = 0
    ∧ win2_17.index t (0 : Fin 2) = 0 ∧ win2_17.index t (1 : Fin 2) = 0
    ∧ win2_18.index t (0 : Fin 2) = 0 ∧ win2_18.index t (1 : Fin 2) = 0
    ∧ win2_19.index t (0 : Fin 2) = 0 ∧ win2_19.index t (1 : Fin 2) = 0
    ∧ win2_20.index t (0 : Fin 2) = t.val ∧ win2_20.index t (1 : Fin 2) = 0
    ∧ win2_21.index t (0 : Fin 2) = t.val ∧ win2_21.index t (1 : Fin 2) = 0 :=
  (by decide +kernel : ∀ t : Fin grid2.N, _)

/-- Window 0's array as the region finds it, and its block at point `t`. -/
abbrev arr0 (c : Dev nD) : Vec Ideal S200000x128 .f32 := V c main_v2_0
abbrev blk0 (c : Dev nD) (t : Fin cfg2.N) : Vec Ideal S4000x128 .f32 := iblk2 V c 0 t

/-- Row `p` of the block at point `t` is row `4000 t + p` of the array. -/
theorem blk0_row (c : Dev nD) (t : Fin cfg2.N) (p : Fin 4000) (r : Fin 200000) (hr : r.val = 4000 * t.val + p.val) :
    row (blk0 V c t) p = row (arr0 V c) r := by
  funext k
  show iblk2 V c 0 t (ix2 p k) = V c main_v2_0 (ix2 r k)
  unfold iblk2
  rw [View.read_apply]
  show V c main_v2_0 _ = V c main_v2_0 _
  congr 1
  funext a
  apply Fin.ext
  obtain ⟨e0, e1, -, -, -, -, -, -, -, -, -, -, -, -, -, -, -, -, -, -, -, -, -, -, -, -, -, -, -, -, -, -, -, -, -, -, -, -, -, -, -, -, -, -⟩ := idx_maps t
  match a with
  | ⟨0, _⟩ => show win2_0.index t (0 : Fin 2) * 4000 + 1 * p.val = r.val; omega
  | ⟨1, _⟩ => show win2_0.index t (1 : Fin 2) * 128 + 1 * k.val = k.val; omega

/-- Window 1's array as the region finds it, and its block at point `t`. -/
abbrev arr1 (c : Dev nD) : Vec Ideal S200000x64 .f32 := V c main_v7
abbrev blk1 (c : Dev nD) (t : Fin cfg2.N) : Vec Ideal S4000x64 .f32 := iblk2 V c 1 t

/-- Row `p` of the block at point `t` is row `4000 t + p` of the array. -/
theorem blk1_row (c : Dev nD) (t : Fin cfg2.N) (p : Fin 4000) (r : Fin 200000) (hr : r.val = 4000 * t.val + p.val) :
    row (blk1 V c t) p = row (arr1 V c) r := by
  funext k
  show iblk2 V c 1 t (ix2 p k) = V c main_v7 (ix2 r k)
  unfold iblk2
  rw [View.read_apply]
  show V c main_v7 _ = V c main_v7 _
  congr 1
  funext a
  apply Fin.ext
  obtain ⟨-, -, e0, e1, -, -, -, -, -, -, -, -, -, -, -, -, -, -, -, -, -, -, -, -, -, -, -, -, -, -, -, -, -, -, -, -, -, -, -, -, -, -, -, -⟩ := idx_maps t
  match a with
  | ⟨0, _⟩ => show win2_1.index t (0 : Fin 2) * 4000 + 1 * p.val = r.val; omega
  | ⟨1, _⟩ => show win2_1.index t (1 : Fin 2) * 64 + 1 * k.val = k.val; omega

/-- Window 2's array as the region finds it, and its block at point `t`. -/
abbrev arr2 (c : Dev nD) : Vec Ideal S200000x128 .f32 := V c main_arg0
abbrev blk2 (c : Dev nD) (t : Fin cfg2.N) : Vec Ideal S4000x128 .f32 := iblk2 V c 2 t

/-- Row `p` of the block at point `t` is row `4000 t + p` of the array. -/
theorem blk2_row (c : Dev nD) (t : Fin cfg2.N) (p : Fin 4000) (r : Fin 200000) (hr : r.val = 4000 * t.val + p.val) :
    row (blk2 V c t) p = row (arr2 V c) r := by
  funext k
  show iblk2 V c 2 t (ix2 p k) = V c main_arg0 (ix2 r k)
  unfold iblk2
  rw [View.read_apply]
  show V c main_arg0 _ = V c main_arg0 _
  congr 1
  funext a
  apply Fin.ext
  obtain ⟨-, -, -, -, e0, e1, -, -, -, -, -, -, -, -, -, -, -, -, -, -, -, -, -, -, -, -, -, -, -, -, -, -, -, -, -, -, -, -, -, -, -, -, -, -⟩ := idx_maps t
  match a with
  | ⟨0, _⟩ => show win2_2.index t (0 : Fin 2) * 4000 + 1 * p.val = r.val; omega
  | ⟨1, _⟩ => show win2_2.index t (1 : Fin 2) * 128 + 1 * k.val = k.val; omega

/-- Window 3's array as the region finds it, and its block at point `t`. -/
abbrev arr3 (c : Dev nD) : Vec Ideal S200000x6 .f32 := V c main_arg1
abbrev blk3 (c : Dev nD) (t : Fin cfg2.N) : Vec Ideal S4000x6 .f32 := iblk2 V c 3 t

/-- Row `p` of the block at point `t` is row `4000 t + p` of the array. -/
theorem blk3_row (c : Dev nD) (t : Fin cfg2.N) (p : Fin 4000) (r : Fin 200000) (hr : r.val = 4000 * t.val + p.val) :
    row (blk3 V c t) p = row (arr3 V c) r := by
  funext k
  show iblk2 V c 3 t (ix2 p k) = V c main_arg1 (ix2 r k)
  unfold iblk2
  rw [View.read_apply]
  show V c main_arg1 _ = V c main_arg1 _
  congr 1
  funext a
  apply Fin.ext
  obtain ⟨-, -, -, -, -, -, e0, e1, -, -, -, -, -, -, -, -, -, -, -, -, -, -, -, -, -, -, -, -, -, -, -, -, -, -, -, -, -, -, -, -, -, -, -, -⟩ := idx_maps t
  match a with
  | ⟨0, _⟩ => show win2_3.index t (0 : Fin 2) * 4000 + 1 * p.val = r.val; omega
  | ⟨1, _⟩ => show win2_3.index t (1 : Fin 2) * 6 + 1 * k.val = k.val; omega

/-- Window 4's array as the region finds it, and its block at point `t`. -/
abbrev arr4 (c : Dev nD) : Vec Ideal S64x128 .f32 := V c main_arg18
abbrev blk4 (c : Dev nD) (t : Fin cfg2.N) : Vec Ideal S64x128 .f32 := iblk2 V c 4 t

/-- The block is the whole array at every point. -/
theorem blk4_eq (c : Dev nD) (t : Fin cfg2.N) : blk4 V c t = arr4 V c := by
  funext y
  show iblk2 V c 4 t y = V c main_arg18 y
  unfold iblk2
  rw [View.read_apply]
  show V c main_arg18 _ = V c main_arg18 _
  congr 1
  funext a
  apply Fin.ext
  obtain ⟨-, -, -, -, -, -, -, -, e0, e1, -, -, -, -, -, -, -, -, -, -, -, -, -, -, -, -, -, -, -, -, -, -, -, -, -, -, -, -, -, -, -, -, -, -⟩ := idx_maps t
  match a with
  | ⟨0, _⟩ => show win2_4.index t (0 : Fin 2) * 64 + 1 * (y 0).val = (y 0).val; omega
  | ⟨1, _⟩ => show win2_4.index t (1 : Fin 2) * 128 + 1 * (y 1).val = (y 1).val; omega

/-- Window 5's array as the region finds it, and its block at point `t`. -/
abbrev arr5 (c : Dev nD) : Vec Ideal S128x128 .f32 := V c main_v8
abbrev blk5 (c : Dev nD) (t : Fin cfg2.N) : Vec Ideal S128x128 .f32 := iblk2 V c 5 t

/-- The block is the whole array at every point. -/
theorem blk5_eq (c : Dev nD) (t : Fin cfg2.N) : blk5 V c t = arr5 V c := by
  funext y
  show iblk2 V c 5 t y = V c main_v8 y
  unfold iblk2
  rw [View.read_apply]
  show V c main_v8 _ = V c main_v8 _
  congr 1
  funext a
  apply Fin.ext
  obtain ⟨-, -, -, -, -, -, -, -, -, -, e0, e1, -, -, -, -, -, -, -, -, -, -, -, -, -, -, -, -, -, -, -, -, -, -, -, -, -, -, -, -, -, -, -, -⟩ := idx_maps t
  match a with
  | ⟨0, _⟩ => show win2_5.index t (0 : Fin 2) * 128 + 1 * (y 0).val = (y 0).val; omega
  | ⟨1, _⟩ => show win2_5.index t (1 : Fin 2) * 128 + 1 * (y 1).val = (y 1).val; omega

/-- Window 6's array as the region finds it, and its block at point `t`. -/
abbrev arr6 (c : Dev nD) : Vec Ideal S1x128 .f32 := V c main_arg20
abbrev blk6 (c : Dev nD) (t : Fin cfg2.N) : Vec Ideal S1x128 .f32 := iblk2 V c 6 t

/-- The block is the whole array at every point. -/
theorem blk6_eq (c : Dev nD) (t : Fin cfg2.N) : blk6 V c t = arr6 V c := by
  funext y
  show iblk2 V c 6 t y = V c main_arg20 y
  unfold iblk2
  rw [View.read_apply]
  show V c main_arg20 _ = V c main_arg20 _
  congr 1
  funext a
  apply Fin.ext
  obtain ⟨-, -, -, -, -, -, -, -, -, -, -, -, e0, e1, -, -, -, -, -, -, -, -, -, -, -, -, -, -, -, -, -, -, -, -, -, -, -, -, -, -, -, -, -, -⟩ := idx_maps t
  match a with
  | ⟨0, _⟩ => show win2_6.index t (0 : Fin 2) * 1 + 1 * (y 0).val = (y 0).val; omega
  | ⟨1, _⟩ => show win2_6.index t (1 : Fin 2) * 128 + 1 * (y 1).val = (y 1).val; omega

/-- Window 7's array as the region finds it, and its block at point `t`. -/
abbrev arr7 (c : Dev nD) : Vec Ideal S128x128 .f32 := V c main_v9
abbrev blk7 (c : Dev nD) (t : Fin cfg2.N) : Vec Ideal S128x128 .f32 := iblk2 V c 7 t

/-- The block is the whole array at every point. -/
theorem blk7_eq (c : Dev nD) (t : Fin cfg2.N) : blk7 V c t = arr7 V c := by
  funext y
  show iblk2 V c 7 t y = V c main_v9 y
  unfold iblk2
  rw [View.read_apply]
  show V c main_v9 _ = V c main_v9 _
  congr 1
  funext a
  apply Fin.ext
  obtain ⟨-, -, -, -, -, -, -, -, -, -, -, -, -, -, e0, e1, -, -, -, -, -, -, -, -, -, -, -, -, -, -, -, -, -, -, -, -, -, -, -, -, -, -, -, -⟩ := idx_maps t
  match a with
  | ⟨0, _⟩ => show win2_7.index t (0 : Fin 2) * 128 + 1 * (y 0).val = (y 0).val; omega
  | ⟨1, _⟩ => show win2_7.index t (1 : Fin 2) * 128 + 1 * (y 1).val = (y 1).val; omega

/-- Window 8's array as the region finds it, and its block at point `t`. -/
abbrev arr8 (c : Dev nD) : Vec Ideal S1x128 .f32 := V c main_arg22
abbrev blk8 (c : Dev nD) (t : Fin cfg2.N) : Vec Ideal S1x128 .f32 := iblk2 V c 8 t

/-- The block is the whole array at every point. -/
theorem blk8_eq (c : Dev nD) (t : Fin cfg2.N) : blk8 V c t = arr8 V c := by
  funext y
  show iblk2 V c 8 t y = V c main_arg22 y
  unfold iblk2
  rw [View.read_apply]
  show V c main_arg22 _ = V c main_arg22 _
  congr 1
  funext a
  apply Fin.ext
  obtain ⟨-, -, -, -, -, -, -, -, -, -, -, -, -, -, -, -, e0, e1, -, -, -, -, -, -, -, -, -, -, -, -, -, -, -, -, -, -, -, -, -, -, -, -, -, -⟩ := idx_maps t
  match a with
  | ⟨0, _⟩ => show win2_8.index t (0 : Fin 2) * 1 + 1 * (y 0).val = (y 0).val; omega
  | ⟨1, _⟩ => show win2_8.index t (1 : Fin 2) * 128 + 1 * (y 1).val = (y 1).val; omega

/-- Window 9's array as the region finds it, and its block at point `t`. -/
abbrev arr9 (c : Dev nD) : Vec Ideal S128x128 .f32 := V c main_arg23
abbrev blk9 (c : Dev nD) (t : Fin cfg2.N) : Vec Ideal S128x128 .f32 := iblk2 V c 9 t

/-- The block is the whole array at every point. -/
theorem blk9_eq (c : Dev nD) (t : Fin cfg2.N) : blk9 V c t = arr9 V c := by
  funext y
  show iblk2 V c 9 t y = V c main_arg23 y
  unfold iblk2
  rw [View.read_apply]
  show V c main_arg23 _ = V c main_arg23 _
  congr 1
  funext a
  apply Fin.ext
  obtain ⟨-, -, -, -, -, -, -, -, -, -, -, -, -, -, -, -, -, -, e0, e1, -, -, -, -, -, -, -, -, -, -, -, -, -, -, -, -, -, -, -, -, -, -, -, -⟩ := idx_maps t
  match a with
  | ⟨0, _⟩ => show win2_9.index t (0 : Fin 2) * 128 + 1 * (y 0).val = (y 0).val; omega
  | ⟨1, _⟩ => show win2_9.index t (1 : Fin 2) * 128 + 1 * (y 1).val = (y 1).val; omega

/-- Window 10's array as the region finds it, and its block at point `t`. -/
abbrev arr10 (c : Dev nD) : Vec Ideal S1x128 .f32 := V c main_v22
abbrev blk10 (c : Dev nD) (t : Fin cfg2.N) : Vec Ideal S1x128 .f32 := iblk2 V c 10 t

/-- The block is the whole array at every point. -/
theorem blk10_eq (c : Dev nD) (t : Fin cfg2.N) : blk10 V c t = arr10 V c := by
  funext y
  show iblk2 V c 10 t y = V c main_v22 y
  unfold iblk2
  rw [View.read_apply]
  show V c main_v22 _ = V c main_v22 _
  congr 1
  funext a
  apply Fin.ext
  obtain ⟨-, -, -, -, -, -, -, -, -, -, -, -, -, -, -, -, -, -, -, -, e0, e1, -, -, -, -, -, -, -, -, -, -, -, -, -, -, -, -, -, -, -, -, -, -⟩ := idx_maps t
  match a with
  | ⟨0, _⟩ => show win2_10.index t (0 : Fin 2) * 1 + 1 * (y 0).val = (y 0).val; omega
  | ⟨1, _⟩ => show win2_10.index t (1 : Fin 2) * 128 + 1 * (y 1).val = (y 1).val; omega

/-- Window 11's array as the region finds it, and its block at point `t`. -/
abbrev arr11 (c : Dev nD) : Vec Ideal S128x128 .f32 := V c main_v11
abbrev blk11 (c : Dev nD) (t : Fin cfg2.N) : Vec Ideal S128x128 .f32 := iblk2 V c 11 t

/-- The block is the whole array at every point. -/
theorem blk11_eq (c : Dev nD) (t : Fin cfg2.N) : blk11 V c t = arr11 V c := by
  funext y
  show iblk2 V c 11 t y = V c main_v11 y
  unfold iblk2
  rw [View.read_apply]
  show V c main_v11 _ = V c main_v11 _
  congr 1
  funext a
  apply Fin.ext
  obtain ⟨-, -, -, -, -, -, -, -, -, -, -, -, -, -, -, -, -, -, -, -, -, -, e0, e1, -, -, -, -, -, -, -, -, -, -, -, -, -, -, -, -, -, -, -, -⟩ := idx_maps t
  match a with
  | ⟨0, _⟩ => show win2_11.index t (0 : Fin 2) * 128 + 1 * (y 0).val = (y 0).val; omega
  | ⟨1, _⟩ => show win2_11.index t (1 : Fin 2) * 128 + 1 * (y 1).val = (y 1).val; omega

/-- Window 12's array as the region finds it, and its block at point `t`. -/
abbrev arr12 (c : Dev nD) : Vec Ideal S1x128 .f32 := V c main_v12
abbrev blk12 (c : Dev nD) (t : Fin cfg2.N) : Vec Ideal S1x128 .f32 := iblk2 V c 12 t

/-- The block is the whole array at every point. -/
theorem blk12_eq (c : Dev nD) (t : Fin cfg2.N) : blk12 V c t = arr12 V c := by
  funext y
  show iblk2 V c 12 t y = V c main_v12 y
  unfold iblk2
  rw [View.read_apply]
  show V c main_v12 _ = V c main_v12 _
  congr 1
  funext a
  apply Fin.ext
  obtain ⟨-, -, -, -, -, -, -, -, -, -, -, -, -, -, -, -, -, -, -, -, -, -, -, -, e0, e1, -, -, -, -, -, -, -, -, -, -, -, -, -, -, -, -, -, -⟩ := idx_maps t
  match a with
  | ⟨0, _⟩ => show win2_12.index t (0 : Fin 2) * 1 + 1 * (y 0).val = (y 0).val; omega
  | ⟨1, _⟩ => show win2_12.index t (1 : Fin 2) * 128 + 1 * (y 1).val = (y 1).val; omega

/-- Window 13's array as the region finds it, and its block at point `t`. -/
abbrev arr13 (c : Dev nD) : Vec Ideal S128x128 .f32 := V c main_v14
abbrev blk13 (c : Dev nD) (t : Fin cfg2.N) : Vec Ideal S128x128 .f32 := iblk2 V c 13 t

/-- The block is the whole array at every point. -/
theorem blk13_eq (c : Dev nD) (t : Fin cfg2.N) : blk13 V c t = arr13 V c := by
  funext y
  show iblk2 V c 13 t y = V c main_v14 y
  unfold iblk2
  rw [View.read_apply]
  show V c main_v14 _ = V c main_v14 _
  congr 1
  funext a
  apply Fin.ext
  obtain ⟨-, -, -, -, -, -, -, -, -, -, -, -, -, -, -, -, -, -, -, -, -, -, -, -, -, -, e0, e1, -, -, -, -, -, -, -, -, -, -, -, -, -, -, -, -⟩ := idx_maps t
  match a with
  | ⟨0, _⟩ => show win2_13.index t (0 : Fin 2) * 128 + 1 * (y 0).val = (y 0).val; omega
  | ⟨1, _⟩ => show win2_13.index t (1 : Fin 2) * 128 + 1 * (y 1).val = (y 1).val; omega

/-- Window 14's array as the region finds it, and its block at point `t`. -/
abbrev arr14 (c : Dev nD) : Vec Ideal S1x128 .f32 := V c main_v15
abbrev blk14 (c : Dev nD) (t : Fin cfg2.N) : Vec Ideal S1x128 .f32 := iblk2 V c 14 t

/-- The block is the whole array at every point. -/
theorem blk14_eq (c : Dev nD) (t : Fin cfg2.N) : blk14 V c t = arr14 V c := by
  funext y
  show iblk2 V c 14 t y = V c main_v15 y
  unfold iblk2
  rw [View.read_apply]
  show V c main_v15 _ = V c main_v15 _
  congr 1
  funext a
  apply Fin.ext
  obtain ⟨-, -, -, -, -, -, -, -, -, -, -, -, -, -, -, -, -, -, -, -, -, -, -, -, -, -, -, -, e0, e1, -, -, -, -, -, -, -, -, -, -, -, -, -, -⟩ := idx_maps t
  match a with
  | ⟨0, _⟩ => show win2_14.index t (0 : Fin 2) * 1 + 1 * (y 0).val = (y 0).val; omega
  | ⟨1, _⟩ => show win2_14.index t (1 : Fin 2) * 128 + 1 * (y 1).val = (y 1).val; omega

/-- Window 15's array as the region finds it, and its block at point `t`. -/
abbrev arr15 (c : Dev nD) : Vec Ideal S128x128 .f32 := V c main_v17
abbrev blk15 (c : Dev nD) (t : Fin cfg2.N) : Vec Ideal S128x128 .f32 := iblk2 V c 15 t

/-- The block is the whole array at every point. -/
theorem blk15_eq (c : Dev nD) (t : Fin cfg2.N) : blk15 V c t = arr15 V c := by
  funext y
  show iblk2 V c 15 t y = V c main_v17 y
  unfold iblk2
  rw [View.read_apply]
  show V c main_v17 _ = V c main_v17 _
  congr 1
  funext a
  apply Fin.ext
  obtain ⟨-, -, -, -, -, -, -, -, -, -, -, -, -, -, -, -, -, -, -, -, -, -, -, -, -, -, -, -, -, -, e0, e1, -, -, -, -, -, -, -, -, -, -, -, -⟩ := idx_maps t
  match a with
  | ⟨0, _⟩ => show win2_15.index t (0 : Fin 2) * 128 + 1 * (y 0).val = (y 0).val; omega
  | ⟨1, _⟩ => show win2_15.index t (1 : Fin 2) * 128 + 1 * (y 1).val = (y 1).val; omega

/-- Window 16's array as the region finds it, and its block at point `t`. -/
abbrev arr16 (c : Dev nD) : Vec Ideal S1x128 .f32 := V c main_v18
abbrev blk16 (c : Dev nD) (t : Fin cfg2.N) : Vec Ideal S1x128 .f32 := iblk2 V c 16 t

/-- The block is the whole array at every point. -/
theorem blk16_eq (c : Dev nD) (t : Fin cfg2.N) : blk16 V c t = arr16 V c := by
  funext y
  show iblk2 V c 16 t y = V c main_v18 y
  unfold iblk2
  rw [View.read_apply]
  show V c main_v18 _ = V c main_v18 _
  congr 1
  funext a
  apply Fin.ext
  obtain ⟨-, -, -, -, -, -, -, -, -, -, -, -, -, -, -, -, -, -, -, -, -, -, -, -, -, -, -, -, -, -, -, -, e0, e1, -, -, -, -, -, -, -, -, -, -⟩ := idx_maps t
  match a with
  | ⟨0, _⟩ => show win2_16.index t (0 : Fin 2) * 1 + 1 * (y 0).val = (y 0).val; omega
  | ⟨1, _⟩ => show win2_16.index t (1 : Fin 2) * 128 + 1 * (y 1).val = (y 1).val; omega

/-- Window 17's array as the region finds it, and its block at point `t`. -/
abbrev arr17 (c : Dev nD) : Vec Ideal S128x128 .f32 := V c main_v20
abbrev blk17 (c : Dev nD) (t : Fin cfg2.N) : Vec Ideal S128x128 .f32 := iblk2 V c 17 t

/-- The block is the whole array at every point. -/
theorem blk17_eq (c : Dev nD) (t : Fin cfg2.N) : blk17 V c t = arr17 V c := by
  funext y
  show iblk2 V c 17 t y = V c main_v20 y
  unfold iblk2
  rw [View.read_apply]
  show V c main_v20 _ = V c main_v20 _
  congr 1
  funext a
  apply Fin.ext
  obtain ⟨-, -, -, -, -, -, -, -, -, -, -, -, -, -, -, -, -, -, -, -, -, -, -, -, -, -, -, -, -, -, -, -, -, -, e0, e1, -, -, -, -, -, -, -, -⟩ := idx_maps t
  match a with
  | ⟨0, _⟩ => show win2_17.index t (0 : Fin 2) * 128 + 1 * (y 0).val = (y 0).val; omega
  | ⟨1, _⟩ => show win2_17.index t (1 : Fin 2) * 128 + 1 * (y 1).val = (y 1).val; omega

/-- Window 18's array as the region finds it, and its block at point `t`. -/
abbrev arr18 (c : Dev nD) : Vec Ideal S1x128 .f32 := V c main_v21
abbrev blk18 (c : Dev nD) (t : Fin cfg2.N) : Vec Ideal S1x128 .f32 := iblk2 V c 18 t

/-- The block is the whole array at every point. -/
theorem blk18_eq (c : Dev nD) (t : Fin cfg2.N) : blk18 V c t = arr18 V c := by
  funext y
  show iblk2 V c 18 t y = V c main_v21 y
  unfold iblk2
  rw [View.read_apply]
  show V c main_v21 _ = V c main_v21 _
  congr 1
  funext a
  apply Fin.ext
  obtain ⟨-, -, -, -, -, -, -, -, -, -, -, -, -, -, -, -, -, -, -, -, -, -, -, -, -, -, -, -, -, -, -, -, -, -, -, -, e0, e1, -, -, -, -, -, -⟩ := idx_maps t
  match a with
  | ⟨0, _⟩ => show win2_18.index t (0 : Fin 2) * 1 + 1 * (y 0).val = (y 0).val; omega
  | ⟨1, _⟩ => show win2_18.index t (1 : Fin 2) * 128 + 1 * (y 1).val = (y 1).val; omega

/-- Window 19's array as the region finds it, and its block at point `t`. -/
abbrev arr19 (c : Dev nD) : Vec Ideal S6x128 .f32 := V c main_arg12
abbrev blk19 (c : Dev nD) (t : Fin cfg2.N) : Vec Ideal S6x128 .f32 := iblk2 V c 19 t

/-- The block is the whole array at every point. -/
theorem blk19_eq (c : Dev nD) (t : Fin cfg2.N) : blk19 V c t = arr19 V c := by
  funext y
  show iblk2 V c 19 t y = V c main_arg12 y
  unfold iblk2
  rw [View.read_apply]
  show V c main_arg12 _ = V c main_arg12 _
  congr 1
  funext a
  apply Fin.ext
  obtain ⟨-, -, -, -, -, -, -, -, -, -, -, -, -, -, -, -, -, -, -, -, -, -, -, -, -, -, -, -, -, -, -, -, -, -, -, -, -, -, e0, e1, -, -, -, -⟩ := idx_maps t
  match a with
  | ⟨0, _⟩ => show win2_19.index t (0 : Fin 2) * 6 + 1 * (y 0).val = (y 0).val; omega
  | ⟨1, _⟩ => show win2_19.index t (1 : Fin 2) * 128 + 1 * (y 1).val = (y 1).val; omega

/-- What the first result array ends holding: at row `r` and column `q`, `e1outRow` of rows `r` of the three row arrays
    and of the weights, all as the region finds them. -/
def res1 (c : Dev nD) : Vec Ideal S200000x128 .f32 := fun i =>
  e1outRow (row (arr0 V c) (i 0)) (row (arr1 V c) (i 0)) (row (arr2 V c) (i 0)) (mat (arr4 V c)) (mat (arr5 V c)) (row (arr6 V c) 0) (mat (arr7 V c)) (row (arr8 V c) 0) (mat (arr9 V c)) (row (arr10 V c) 0)
      (mat (arr11 V c)) (row (arr12 V c) 0) (mat (arr13 V c)) (row (arr14 V c) 0) (mat (arr15 V c)) (row (arr16 V c) 0) (mat (arr17 V c)) (row (arr18 V c) 0) (i 1)

/-- What the second result array ends holding: `e2outRow` of row `r` of the rbf array and of the first result's row. -/
def res2 (c : Dev nD) : Vec Ideal S200000x128 .f32 := fun i =>
  e2outRow (row (arr3 V c) (i 0)) (mat (arr19 V c)) (row (res1 V c) (i 0)) (i 1)

theorem res1_apply (c : Dev nD) (r : Fin 200000) (q : Fin 128) :
    res1 V c (ix2 r q) = e1outRow (row (arr0 V c) r) (row (arr1 V c) r) (row (arr2 V c) r) (mat (arr4 V c)) (mat (arr5 V c)) (row (arr6 V c) 0) (mat (arr7 V c)) (row (arr8 V c) 0) (mat (arr9 V c)) (row (arr10 V c) 0)
      (mat (arr11 V c)) (row (arr12 V c) 0) (mat (arr13 V c)) (row (arr14 V c) 0) (mat (arr15 V c)) (row (arr16 V c) 0) (mat (arr17 V c)) (row (arr18 V c) 0) q := rfl

theorem res2_apply (c : Dev nD) (r : Fin 200000) (q : Fin 128) :
    res2 V c (ix2 r q) = e2outRow (row (arr3 V c) r) (mat (arr19 V c)) (row (res1 V c) r) q := rfl

theorem res1_row (c : Dev nD) (r : Fin 200000) :
    row (res1 V c) r = e1outRow (row (arr0 V c) r) (row (arr1 V c) r) (row (arr2 V c) r) (mat (arr4 V c)) (mat (arr5 V c)) (row (arr6 V c) 0) (mat (arr7 V c)) (row (arr8 V c) 0) (mat (arr9 V c)) (row (arr10 V c) 0)
      (mat (arr11 V c)) (row (arr12 V c) 0) (mat (arr13 V c)) (row (arr14 V c) 0) (mat (arr15 V c)) (row (arr16 V c) 0) (mat (arr17 V c)) (row (arr18 V c) 0) := rfl

/-- At point `t` the body's first output block, at row `p` and column `q`, is the first result at row `4000 t + p`. -/
theorem point1 (c : Dev nD) (t : Fin cfg2.N) (p : Fin 4000) (q : Fin 128) (r : Fin 200000) (h0 : r.val = 4000 * t.val + p.val) :
    out2_20 (blk0 V c t) (blk1 V c t) (blk2 V c t) (blk3 V c t) (blk4 V c t) (blk5 V c t) (blk6 V c t) (blk7 V c t) (blk8 V c t) (blk9 V c t) (blk10 V c t) (blk11 V c t) (blk12 V c t) (blk13 V c t) (blk14 V c t) (blk15 V c t) (blk16 V c t) (blk17 V c t) (blk18 V c t) (blk19 V c t) (ix2 p q) = res1 V c (ix2 r q) := by
  refine (CombineBody.out2_20_apply (blk0 V c t) (blk1 V c t) (blk2 V c t) (blk3 V c t) (blk4 V c t) (blk5 V c t) (blk6 V c t) (blk7 V c t) (blk8 V c t) (blk9 V c t) (blk10 V c t) (blk11 V c t) (blk12 V c t) (blk13 V c t) (blk14 V c t) (blk15 V c t) (blk16 V c t) (blk17 V c t) (blk18 V c t) (blk19 V c t) p q).trans ?_
  rw [res1_apply, blk0_row V c t p r h0, blk1_row V c t p r h0, blk2_row V c t p r h0,
    blk4_eq V c t, blk5_eq V c t, blk6_eq V c t, blk7_eq V c t, blk8_eq V c t, blk9_eq V c t, blk10_eq V c t, blk11_eq V c t, blk12_eq V c t, blk13_eq V c t, blk14_eq V c t, blk15_eq V c t, blk16_eq V c t, blk17_eq V c t, blk18_eq V c t]

/-- At point `t` the body's second output block, at row `p` and column `q`, is the second result at row `4000 t + p`. -/
theorem point2 (c : Dev nD) (t : Fin cfg2.N) (p : Fin 4000) (q : Fin 128) (r : Fin 200000) (h0 : r.val = 4000 * t.val + p.val) :
    out2_21 (blk0 V c t) (blk1 V c t) (blk2 V c t) (blk3 V c t) (blk4 V c t) (blk5 V c t) (blk6 V c t) (blk7 V c t) (blk8 V c t) (blk9 V c t) (blk10 V c t) (blk11 V c t) (blk12 V c t) (blk13 V c t) (blk14 V c t) (blk15 V c t) (blk16 V c t) (blk17 V c t) (blk18 V c t) (blk19 V c t) (ix2 p q) = res2 V c (ix2 r q) := by
  refine (CombineBody.out2_21_apply (blk0 V c t) (blk1 V c t) (blk2 V c t) (blk3 V c t) (blk4 V c t) (blk5 V c t) (blk6 V c t) (blk7 V c t) (blk8 V c t) (blk9 V c t) (blk10 V c t) (blk11 V c t) (blk12 V c t) (blk13 V c t) (blk14 V c t) (blk15 V c t) (blk16 V c t) (blk17 V c t) (blk18 V c t) (blk19 V c t) p q).trans ?_
  rw [res2_apply, res1_row, blk0_row V c t p r h0, blk1_row V c t p r h0, blk2_row V c t p r h0, blk3_row V c t p r h0,
    blk4_eq V c t, blk5_eq V c t, blk6_eq V c t, blk7_eq V c t, blk8_eq V c t, blk9_eq V c t, blk10_eq V c t, blk11_eq V c t, blk12_eq V c t, blk13_eq V c t, blk14_eq V c t, blk15_eq V c t, blk16_eq V c t, blk17_eq V c t, blk18_eq V c t, blk19_eq V c t]

/-- Point `t` writes rows `4000 t … 4000 t + 3999` of `res1` into the first result array. -/
theorem flushed1_eq (c : Dev nD) (t : Fin cfg2.N) :
    (dat2 V c).flushed 20 t = ((cfg2.win 20).blk t).view.read (Elt Ideal) (res1 V c) := by
  show (cfg2.win 20).cut (grid2.coords t) ((dat2 V c).after 20 t) = _
  rw [after2_20]
  funext j
  show out2_20 (blk0 V c t) (blk1 V c t) (blk2 V c t) (blk3 V c t) (blk4 V c t) (blk5 V c t) (blk6 V c t) (blk7 V c t) (blk8 V c t) (blk9 V c t) (blk10 V c t) (blk11 V c t) (blk12 V c t) (blk13 V c t) (blk14 V c t) (blk15 V c t) (blk16 V c t) (blk17 V c t) (blk18 V c t) (blk19 V c t) j = res1 V c (((cfg2.win 20).blk t).view.emb j)
  obtain ⟨-, -, -, -, -, -, -, -, -, -, -, -, -, -, -, -, -, -, -, -, -, -, -, -, -, -, -, -, -, -, -, -, -, -, -, -, -, -, -, -, e0, e1, -, -⟩ := idx_maps t
  have hj0 : (j 0).val < 4000 := (j 0).isLt
  have hN : cfg2.N = 50 := N_2
  have ht : t.val < 50 := hN ▸ t.isLt
  have hi : ((cfg2.win 20).blk t).view.emb j = ix2 (⟨4000 * t.val + (j 0).val, by omega⟩ : Fin 200000) (j 1) := by
    funext a
    apply Fin.ext
    match a with
    | ⟨0, _⟩ => show win2_20.index t (0 : Fin 2) * 4000 + 1 * (j 0).val = 4000 * t.val + (j 0).val; omega
    | ⟨1, _⟩ => show win2_20.index t (1 : Fin 2) * 128 + 1 * (j 1).val = (j 1).val; omega
  rw [hi]
  refine (congrArg _ (eq_ix2 j)).trans ?_
  exact point1 V c t (j 0) (j 1) ⟨4000 * t.val + (j 0).val, by omega⟩ rfl

/-- Which entries of the result array lie in the 4000 rows that point `t` writes, coordinate by coordinate. -/
theorem mem_blk1 (t : Fin cfg2.N) (i : S200000x128.Idx) :
    i ∈ ((cfg2.win 20).blk t).view.set ↔ ∀ a : Fin 2, win2_20.index t a * S4000x128.size a ≤ (i a).val ∧ (i a).val < win2_20.index t a * S4000x128.size a + S4000x128.size a := by
  show i ∈ ((View.whole main_v23_0).slice (win2_20.rect t)).set ↔ _
  rw [View.set_slice_whole, Rect.mem_set_unit]
  exact Iff.rfl

/-- Row `r` is in the block of point `r / 4000`. -/
theorem cover1 (i : S200000x128.Idx) : ∃ t : Fin cfg2.N, (cfg2.win 20).flush t = true ∧ i ∈ ((cfg2.win 20).blk t).view.set := by
  have hi0 : (i 0).val < 200000 := (i 0).isLt
  have hi1 : (i 1).val < 128 := (i 1).isLt
  have hN : cfg2.N = 50 := N_2
  have hlt : (i 0).val / 4000 < cfg2.N := by rw [hN]; omega
  refine ⟨⟨(i 0).val / 4000, hlt⟩, flush2_20 _, ?_⟩
  rw [mem_blk1]
  obtain ⟨-, -, -, -, -, -, -, -, -, -, -, -, -, -, -, -, -, -, -, -, -, -, -, -, -, -, -, -, -, -, -, -, -, -, -, -, -, -, -, -, e0, e1, -, -⟩ := idx_maps ⟨(i 0).val / 4000, hlt⟩
  have e0' : win2_20.index ⟨(i 0).val / 4000, hlt⟩ (0 : Fin 2) = (i 0).val / 4000 := e0
  intro a
  match a with
  | ⟨0, _⟩ => show win2_20.index ⟨(i 0).val / 4000, hlt⟩ (0 : Fin 2) * 4000 ≤ (i 0).val ∧ (i 0).val < win2_20.index ⟨(i 0).val / 4000, hlt⟩ (0 : Fin 2) * 4000 + 4000; omega
  | ⟨1, _⟩ => show win2_20.index ⟨(i 0).val / 4000, hlt⟩ (1 : Fin 2) * 128 ≤ (i 1).val ∧ (i 1).val < win2_20.index ⟨(i 0).val / 4000, hlt⟩ (1 : Fin 2) * 128 + 128; omega

/-- So the first result array ends holding `res1` of the arrays as the region finds them. -/
theorem final1 (c : Dev nD) : (dat2 V c).arrAt 20 cfg2.N = res1 V c :=
  (dat2 V c).arrAt_eq_of_cover 20 (res1 V c) (fun t _ => flushed1_eq V c t) cover1

/-- Point `t` writes rows `4000 t … 4000 t + 3999` of `res2` into the second result array. -/
theorem flushed2_eq (c : Dev nD) (t : Fin cfg2.N) :
    (dat2 V c).flushed 21 t = ((cfg2.win 21).blk t).view.read (Elt Ideal) (res2 V c) := by
  show (cfg2.win 21).cut (grid2.coords t) ((dat2 V c).after 21 t) = _
  rw [after2_21]
  funext j
  show out2_21 (blk0 V c t) (blk1 V c t) (blk2 V c t) (blk3 V c t) (blk4 V c t) (blk5 V c t) (blk6 V c t) (blk7 V c t) (blk8 V c t) (blk9 V c t) (blk10 V c t) (blk11 V c t) (blk12 V c t) (blk13 V c t) (blk14 V c t) (blk15 V c t) (blk16 V c t) (blk17 V c t) (blk18 V c t) (blk19 V c t) j = res2 V c (((cfg2.win 21).blk t).view.emb j)
  obtain ⟨-, -, -, -, -, -, -, -, -, -, -, -, -, -, -, -, -, -, -, -, -, -, -, -, -, -, -, -, -, -, -, -, -, -, -, -, -, -, -, -, -, -, e0, e1⟩ := idx_maps t
  have hj0 : (j 0).val < 4000 := (j 0).isLt
  have hN : cfg2.N = 50 := N_2
  have ht : t.val < 50 := hN ▸ t.isLt
  have hi : ((cfg2.win 21).blk t).view.emb j = ix2 (⟨4000 * t.val + (j 0).val, by omega⟩ : Fin 200000) (j 1) := by
    funext a
    apply Fin.ext
    match a with
    | ⟨0, _⟩ => show win2_21.index t (0 : Fin 2) * 4000 + 1 * (j 0).val = 4000 * t.val + (j 0).val; omega
    | ⟨1, _⟩ => show win2_21.index t (1 : Fin 2) * 128 + 1 * (j 1).val = (j 1).val; omega
  rw [hi]
  refine (congrArg _ (eq_ix2 j)).trans ?_
  exact point2 V c t (j 0) (j 1) ⟨4000 * t.val + (j 0).val, by omega⟩ rfl

/-- Which entries of the result array lie in the 4000 rows that point `t` writes, coordinate by coordinate. -/
theorem mem_blk2 (t : Fin cfg2.N) (i : S200000x128.Idx) :
    i ∈ ((cfg2.win 21).blk t).view.set ↔ ∀ a : Fin 2, win2_21.index t a * S4000x128.size a ≤ (i a).val ∧ (i a).val < win2_21.index t a * S4000x128.size a + S4000x128.size a := by
  show i ∈ ((View.whole main_v23_1).slice (win2_21.rect t)).set ↔ _
  rw [View.set_slice_whole, Rect.mem_set_unit]
  exact Iff.rfl

/-- Row `r` is in the block of point `r / 4000`. -/
theorem cover2 (i : S200000x128.Idx) : ∃ t : Fin cfg2.N, (cfg2.win 21).flush t = true ∧ i ∈ ((cfg2.win 21).blk t).view.set := by
  have hi0 : (i 0).val < 200000 := (i 0).isLt
  have hi1 : (i 1).val < 128 := (i 1).isLt
  have hN : cfg2.N = 50 := N_2
  have hlt : (i 0).val / 4000 < cfg2.N := by rw [hN]; omega
  refine ⟨⟨(i 0).val / 4000, hlt⟩, flush2_21 _, ?_⟩
  rw [mem_blk2]
  obtain ⟨-, -, -, -, -, -, -, -, -, -, -, -, -, -, -, -, -, -, -, -, -, -, -, -, -, -, -, -, -, -, -, -, -, -, -, -, -, -, -, -, -, -, e0, e1⟩ := idx_maps ⟨(i 0).val / 4000, hlt⟩
  have e0' : win2_21.index ⟨(i 0).val / 4000, hlt⟩ (0 : Fin 2) = (i 0).val / 4000 := e0
  intro a
  match a with
  | ⟨0, _⟩ => show win2_21.index ⟨(i 0).val / 4000, hlt⟩ (0 : Fin 2) * 4000 ≤ (i 0).val ∧ (i 0).val < win2_21.index ⟨(i 0).val / 4000, hlt⟩ (0 : Fin 2) * 4000 + 4000; omega
  | ⟨1, _⟩ => show win2_21.index ⟨(i 0).val / 4000, hlt⟩ (1 : Fin 2) * 128 ≤ (i 1).val ∧ (i 1).val < win2_21.index ⟨(i 0).val / 4000, hlt⟩ (1 : Fin 2) * 128 + 128; omega

/-- So the second result array ends holding `res2` of the arrays as the region finds them. -/
theorem final2 (c : Dev nD) : (dat2 V c).arrAt 21 cfg2.N = res2 V c :=
  (dat2 V c).arrAt_eq_of_cover 21 (res2 V c) (fun t _ => flushed2_eq V c t) cover2

end Region

variable (m : (ℓ : Loc nD τ sig) → Buf (Elt Ideal) ℓ) (ρ : Dev nD → PrngReg)

/-! The arrays the region is entered with, read back to the launch contents. -/

theorem entry_arg0 (c : Dev nD) : arr2 (V5 m ρ) c = A0 m c :=
  ((W6_arr m ρ c 2).trans (((dat2 (V5 m ρ) c).arrAt_in 2 rfl _).trans (A_eq2 (V5 m ρ) c 2))).symm.trans (W6_main_arg0 m ρ c)

theorem entry_arg1 (c : Dev nD) : arr3 (V5 m ρ) c = A1 m c :=
  ((W6_arr m ρ c 3).trans (((dat2 (V5 m ρ) c).arrAt_in 3 rfl _).trans (A_eq2 (V5 m ρ) c 3))).symm.trans (W6_main_arg1 m ρ c)

theorem entry_arg12 (c : Dev nD) : arr19 (V5 m ρ) c = A12 m c :=
  ((W6_arr m ρ c 19).trans (((dat2 (V5 m ρ) c).arrAt_in 19 rfl _).trans (A_eq2 (V5 m ρ) c 19))).symm.trans (W6_main_arg12 m ρ c)

theorem entry_arg18 (c : Dev nD) : arr4 (V5 m ρ) c = A18 m c :=
  ((W6_arr m ρ c 4).trans (((dat2 (V5 m ρ) c).arrAt_in 4 rfl _).trans (A_eq2 (V5 m ρ) c 4))).symm.trans (W6_main_arg18 m ρ c)

theorem entry_arg20 (c : Dev nD) : arr6 (V5 m ρ) c = A20 m c :=
  ((W6_arr m ρ c 6).trans (((dat2 (V5 m ρ) c).arrAt_in 6 rfl _).trans (A_eq2 (V5 m ρ) c 6))).symm.trans (W6_main_arg20 m ρ c)

theorem entry_arg22 (c : Dev nD) : arr8 (V5 m ρ) c = A22 m c :=
  ((W6_arr m ρ c 8).trans (((dat2 (V5 m ρ) c).arrAt_in 8 rfl _).trans (A_eq2 (V5 m ρ) c 8))).symm.trans (W6_main_arg22 m ρ c)

theorem entry_arg23 (c : Dev nD) : arr9 (V5 m ρ) c = A23 m c :=
  ((W6_arr m ρ c 9).trans (((dat2 (V5 m ρ) c).arrAt_in 9 rfl _).trans (A_eq2 (V5 m ρ) c 9))).symm.trans (W6_main_arg23 m ρ c)

theorem host_arg19 (c : Dev nD) : (W4 m ρ c (Proc.devRef .tc main_arg19) : FVec Ideal S1x128x128 .f32) = A19 m c :=
  (StableHlo.after_of_forall_not_mem (b := Proc.devRef .tc main_arg19) _ _ (List.forall_iff_forall_mem.mp (by
      simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).symm.trans
    ((W6_of_ne m ρ c main_arg19 (by decide)).symm.trans (W6_main_arg19 m ρ c))

theorem host_arg21 (c : Dev nD) : (W4 m ρ c (Proc.devRef .tc main_arg21) : FVec Ideal S1x128x128 .f32) = A21 m c :=
  (StableHlo.after_of_forall_not_mem (b := Proc.devRef .tc main_arg21) _ _ (List.forall_iff_forall_mem.mp (by
      simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).symm.trans
    ((W6_of_ne m ρ c main_arg21 (by decide)).symm.trans (W6_main_arg21 m ρ c))

theorem host_arg24 (c : Dev nD) : (W4 m ρ c (Proc.devRef .tc main_arg24) : FVec Ideal S128 .f32) = A24 m c :=
  (StableHlo.after_of_forall_not_mem (b := Proc.devRef .tc main_arg24) _ _ (List.forall_iff_forall_mem.mp (by
      simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).symm.trans
    ((W6_of_ne m ρ c main_arg24 (by decide)).symm.trans (W6_main_arg24 m ρ c))

theorem host_arg25 (c : Dev nD) : (W4 m ρ c (Proc.devRef .tc main_arg25) : FVec Ideal S2x128x128 .f32) = A25 m c :=
  (StableHlo.after_of_forall_not_mem (b := Proc.devRef .tc main_arg25) _ _ (List.forall_iff_forall_mem.mp (by
      simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).symm.trans
    ((W6_of_ne m ρ c main_arg25 (by decide)).symm.trans (W6_main_arg25 m ρ c))

theorem host_arg26 (c : Dev nD) : (W4 m ρ c (Proc.devRef .tc main_arg26) : FVec Ideal S2x128 .f32) = A26 m c :=
  (StableHlo.after_of_forall_not_mem (b := Proc.devRef .tc main_arg26) _ _ (List.forall_iff_forall_mem.mp (by
      simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).symm.trans
    ((W6_of_ne m ρ c main_arg26 (by decide)).symm.trans (W6_main_arg26 m ρ c))

theorem host_arg27 (c : Dev nD) : (W4 m ρ c (Proc.devRef .tc main_arg27) : FVec Ideal S2x128x128 .f32) = A27 m c :=
  (StableHlo.after_of_forall_not_mem (b := Proc.devRef .tc main_arg27) _ _ (List.forall_iff_forall_mem.mp (by
      simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).symm.trans
    ((W6_of_ne m ρ c main_arg27 (by decide)).symm.trans (W6_main_arg27 m ρ c))

theorem host_arg28 (c : Dev nD) : (W4 m ρ c (Proc.devRef .tc main_arg28) : FVec Ideal S2x128 .f32) = A28 m c :=
  (StableHlo.after_of_forall_not_mem (b := Proc.devRef .tc main_arg28) _ _ (List.forall_iff_forall_mem.mp (by
      simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).symm.trans
    ((W6_of_ne m ρ c main_arg28 (by decide)).symm.trans (W6_main_arg28 m ρ c))

/-! The weight arrays the host makes before the region (a reshape of a stack of one matrix, a slab of a stack of two), read at an index. -/

theorem host_v8 (c : Dev nD) : mat (arr5 (V5 m ρ) c) = mat3 (A19 m c) 0 := by
  funext k j
  show (W5 m ρ c (Proc.devRef .tc main_v8) : FVec Ideal S128x128 .f32) (ix2 k j) = A19 m c (ix3 0 k j)
  have hv : (W5 m ρ c (Proc.devRef .tc main_v8) : FVec Ideal S128x128 .f32) = shapeCast S128x128 (A19 m c) shapeCasts_S1x128x128_S128x128 := by
    show StableHlo.after hostOps2 _ (Proc.devRef .tc main_v8) = _
    after_results
    rw [host_arg19]
    rfl
  rw [hv]
  refine shapeCast_apply _ _ (ix2 k j) (ix3 0 k j) ?_
  rw [Shape.rowMajor_val_three, Shape.rowMajor_val_two]
  show (0 * 128 + k.val) * 128 + j.val = k.val * 128 + j.val
  omega

theorem host_v9 (c : Dev nD) : mat (arr7 (V5 m ρ) c) = mat3 (A21 m c) 0 := by
  funext k j
  show (W5 m ρ c (Proc.devRef .tc main_v9) : FVec Ideal S128x128 .f32) (ix2 k j) = A21 m c (ix3 0 k j)
  have hv : (W5 m ρ c (Proc.devRef .tc main_v9) : FVec Ideal S128x128 .f32) = shapeCast S128x128 (A21 m c) shapeCasts_S1x128x128_S128x128 := by
    show StableHlo.after hostOps2 _ (Proc.devRef .tc main_v9) = _
    after_results
    rw [host_arg21]
    rfl
  rw [hv]
  refine shapeCast_apply _ _ (ix2 k j) (ix3 0 k j) ?_
  rw [Shape.rowMajor_val_three, Shape.rowMajor_val_two]
  show (0 * 128 + k.val) * 128 + j.val = k.val * 128 + j.val
  omega

theorem host_v22 (c : Dev nD) : row (arr10 (V5 m ρ) c) 0 = vec (A24 m c) := by
  funext j
  show (W5 m ρ c (Proc.devRef .tc main_v22) : FVec Ideal S1x128 .f32) (ix2 0 j) = A24 m c (ix1 j)
  have hv : (W5 m ρ c (Proc.devRef .tc main_v22) : FVec Ideal S1x128 .f32) = shapeCast S1x128 (A24 m c) shapeCasts_S128_S1x128 := by
    show StableHlo.after hostOps2 _ (Proc.devRef .tc main_v22) = _
    after_results
    rw [host_arg24]
    rfl
  rw [hv]
  refine shapeCast_apply _ _ (ix2 0 j) (ix1 j) ?_
  rw [Shape.rowMajor_val_one, Shape.rowMajor_val_two]
  show j.val = 0 * 128 + j.val
  omega

theorem host_v11 (c : Dev nD) : mat (arr11 (V5 m ρ) c) = mat3 (A25 m c) 0 := by
  funext k j
  show (W5 m ρ c (Proc.devRef .tc main_v11) : FVec Ideal S128x128 .f32) (ix2 k j) = A25 m c (ix3 0 k j)
  have hv : (W5 m ρ c (Proc.devRef .tc main_v11) : FVec Ideal S128x128 .f32)
      = shapeCast S128x128 (extractStridedSlice S1x128x128 ![0, 0, 0] (A25 m c) slices_S2x128x128_S1x128x128_0_0_0) shapeCasts_S1x128x128_S128x128 := by
    show StableHlo.after hostOps2 _ (Proc.devRef .tc main_v11) = _
    after_results
    rw [host_arg25]
    rfl
  rw [hv]
  refine (shapeCast_apply _ _ (ix2 k j) (ix3 0 k j) ?_).trans ?_
  · rw [Shape.rowMajor_val_three, Shape.rowMajor_val_two]
    show (0 * 128 + k.val) * 128 + j.val = k.val * 128 + j.val
    omega
  · refine extractStridedSlice_apply _ _ _ (ix3 0 k j) (ix3 0 k j) fun a => ?_
    match a with
    | ⟨0, _⟩ => rfl
    | ⟨1, _⟩ => show k.val = 0 + k.val; omega
    | ⟨2, _⟩ => show j.val = 0 + j.val; omega

theorem host_v12 (c : Dev nD) : row (arr12 (V5 m ρ) c) 0 = row (A26 m c) 0 := by
  funext j
  show (W5 m ρ c (Proc.devRef .tc main_v12) : FVec Ideal S1x128 .f32) (ix2 0 j) = A26 m c (ix2 0 j)
  have hv : (W5 m ρ c (Proc.devRef .tc main_v12) : FVec Ideal S1x128 .f32)
      = extractStridedSlice S1x128 ![0, 0] (A26 m c) slices_S2x128_S1x128_0_0 := by
    show StableHlo.after hostOps2 _ (Proc.devRef .tc main_v12) = _
    after_results
    rw [host_arg26]
  rw [hv]
  refine extractStridedSlice_apply _ _ _ (ix2 0 j) (ix2 0 j) fun a => ?_
  match a with
  | ⟨0, _⟩ => rfl
  | ⟨1, _⟩ => show j.val = 0 + j.val; omega

theorem host_v14 (c : Dev nD) : mat (arr13 (V5 m ρ) c) = mat3 (A27 m c) 0 := by
  funext k j
  show (W5 m ρ c (Proc.devRef .tc main_v14) : FVec Ideal S128x128 .f32) (ix2 k j) = A27 m c (ix3 0 k j)
  have hv : (W5 m ρ c (Proc.devRef .tc main_v14) : FVec Ideal S128x128 .f32)
      = shapeCast S128x128 (extractStridedSlice S1x128x128 ![0, 0, 0] (A27 m c) slices_S2x128x128_S1x128x128_0_0_0) shapeCasts_S1x128x128_S128x128 := by
    show StableHlo.after hostOps2 _ (Proc.devRef .tc main_v14) = _
    after_results
    rw [host_arg27]
    rfl
  rw [hv]
  refine (shapeCast_apply _ _ (ix2 k j) (ix3 0 k j) ?_).trans ?_
  · rw [Shape.rowMajor_val_three, Shape.rowMajor_val_two]
    show (0 * 128 + k.val) * 128 + j.val = k.val * 128 + j.val
    omega
  · refine extractStridedSlice_apply _ _ _ (ix3 0 k j) (ix3 0 k j) fun a => ?_
    match a with
    | ⟨0, _⟩ => rfl
    | ⟨1, _⟩ => show k.val = 0 + k.val; omega
    | ⟨2, _⟩ => show j.val = 0 + j.val; omega

theorem host_v15 (c : Dev nD) : row (arr14 (V5 m ρ) c) 0 = row (A28 m c) 0 := by
  funext j
  show (W5 m ρ c (Proc.devRef .tc main_v15) : FVec Ideal S1x128 .f32) (ix2 0 j) = A28 m c (ix2 0 j)
  have hv : (W5 m ρ c (Proc.devRef .tc main_v15) : FVec Ideal S1x128 .f32)
      = extractStridedSlice S1x128 ![0, 0] (A28 m c) slices_S2x128_S1x128_0_0 := by
    show StableHlo.after hostOps2 _ (Proc.devRef .tc main_v15) = _
    after_results
    rw [host_arg28]
  rw [hv]
  refine extractStridedSlice_apply _ _ _ (ix2 0 j) (ix2 0 j) fun a => ?_
  match a with
  | ⟨0, _⟩ => rfl
  | ⟨1, _⟩ => show j.val = 0 + j.val; omega

theorem host_v17 (c : Dev nD) : mat (arr15 (V5 m ρ) c) = mat3 (A25 m c) 1 := by
  funext k j
  show (W5 m ρ c (Proc.devRef .tc main_v17) : FVec Ideal S128x128 .f32) (ix2 k j) = A25 m c (ix3 1 k j)
  have hv : (W5 m ρ c (Proc.devRef .tc main_v17) : FVec Ideal S128x128 .f32)
      = shapeCast S128x128 (extractStridedSlice S1x128x128 ![1, 0, 0] (A25 m c) slices_S2x128x128_S1x128x128_1_0_0) shapeCasts_S1x128x128_S128x128 := by
    show StableHlo.after hostOps2 _ (Proc.devRef .tc main_v17) = _
    after_results
    rw [host_arg25]
    rfl
  rw [hv]
  refine (shapeCast_apply _ _ (ix2 k j) (ix3 0 k j) ?_).trans ?_
  · rw [Shape.rowMajor_val_three, Shape.rowMajor_val_two]
    show (0 * 128 + k.val) * 128 + j.val = k.val * 128 + j.val
    omega
  · refine extractStridedSlice_apply _ _ _ (ix3 0 k j) (ix3 1 k j) fun a => ?_
    match a with
    | ⟨0, _⟩ => rfl
    | ⟨1, _⟩ => show k.val = 0 + k.val; omega
    | ⟨2, _⟩ => show j.val = 0 + j.val; omega

theorem host_v18 (c : Dev nD) : row (arr16 (V5 m ρ) c) 0 = row (A26 m c) 1 := by
  funext j
  show (W5 m ρ c (Proc.devRef .tc main_v18) : FVec Ideal S1x128 .f32) (ix2 0 j) = A26 m c (ix2 1 j)
  have hv : (W5 m ρ c (Proc.devRef .tc main_v18) : FVec Ideal S1x128 .f32)
      = extractStridedSlice S1x128 ![1, 0] (A26 m c) slices_S2x128_S1x128_1_0 := by
    show StableHlo.after hostOps2 _ (Proc.devRef .tc main_v18) = _
    after_results
    rw [host_arg26]
  rw [hv]
  refine extractStridedSlice_apply _ _ _ (ix2 0 j) (ix2 1 j) fun a => ?_
  match a with
  | ⟨0, _⟩ => rfl
  | ⟨1, _⟩ => show j.val = 0 + j.val; omega

theorem host_v20 (c : Dev nD) : mat (arr17 (V5 m ρ) c) = mat3 (A27 m c) 1 := by
  funext k j
  show (W5 m ρ c (Proc.devRef .tc main_v20) : FVec Ideal S128x128 .f32) (ix2 k j) = A27 m c (ix3 1 k j)
  have hv : (W5 m ρ c (Proc.devRef .tc main_v20) : FVec Ideal S128x128 .f32)
      = shapeCast S128x128 (extractStridedSlice S1x128x128 ![1, 0, 0] (A27 m c) slices_S2x128x128_S1x128x128_1_0_0) shapeCasts_S1x128x128_S128x128 := by
    show StableHlo.after hostOps2 _ (Proc.devRef .tc main_v20) = _
    after_results
    rw [host_arg27]
    rfl
  rw [hv]
  refine (shapeCast_apply _ _ (ix2 k j) (ix3 0 k j) ?_).trans ?_
  · rw [Shape.rowMajor_val_three, Shape.rowMajor_val_two]
    show (0 * 128 + k.val) * 128 + j.val = k.val * 128 + j.val
    omega
  · refine extractStridedSlice_apply _ _ _ (ix3 0 k j) (ix3 1 k j) fun a => ?_
    match a with
    | ⟨0, _⟩ => rfl
    | ⟨1, _⟩ => show k.val = 0 + k.val; omega
    | ⟨2, _⟩ => show j.val = 0 + j.val; omega

theorem host_v21 (c : Dev nD) : row (arr18 (V5 m ρ) c) 0 = row (A28 m c) 1 := by
  funext j
  show (W5 m ρ c (Proc.devRef .tc main_v21) : FVec Ideal S1x128 .f32) (ix2 0 j) = A28 m c (ix2 1 j)
  have hv : (W5 m ρ c (Proc.devRef .tc main_v21) : FVec Ideal S1x128 .f32)
      = extractStridedSlice S1x128 ![1, 0] (A28 m c) slices_S2x128_S1x128_1_0 := by
    show StableHlo.after hostOps2 _ (Proc.devRef .tc main_v21) = _
    after_results
    rw [host_arg28]
  rw [hv]
  refine extractStridedSlice_apply _ _ _ (ix2 0 j) (ix2 1 j) fun a => ?_
  match a with
  | ⟨0, _⟩ => rfl
  | ⟨1, _⟩ => show j.val = 0 + j.val; omega

/-- The edge stage's first result is untouched between its region and this one. -/
theorem entry_xji (c : Dev nD) : arr0 (V5 m ρ) c = (W2 m ρ c (Proc.devRef .tc main_v2_0) : FVec Ideal S200000x128 .f32) :=
  (StableHlo.after_of_forall_not_mem (b := Proc.devRef .tc main_v2_0) _ _ (List.forall_iff_forall_mem.mp (by
      simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans
    ((W4_of_ne m ρ c main_v2_0 (by decide)).trans
      (StableHlo.after_of_forall_not_mem (b := Proc.devRef .tc main_v2_0) _ _ (List.forall_iff_forall_mem.mp (by
        simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide)))))

/-- After the combine region the first result array holds, at row `r` and column `q`, `e1outRow` of rows `r` of the
    edge stage's first result, of the summed messages the region was entered with, and of `e1`. -/
theorem e1out_apply (c : Dev nD) (r : Fin 200000) (q : Fin 128) :
    (W6 m ρ c (Proc.devRef .tc main_v23_0) : FVec Ideal S200000x128 .f32) (ix2 r q)
      = e1outRow (row (W2 m ρ c (Proc.devRef .tc main_v2_0) : FVec Ideal S200000x128 .f32) r)
          (row (W5 m ρ c (Proc.devRef .tc main_v7) : FVec Ideal S200000x64 .f32) r) (row (A0 m c) r) (mat (A18 m c))
          (mat3 (A19 m c) 0) (row (A20 m c) 0) (mat3 (A21 m c) 0) (row (A22 m c) 0) (mat (A23 m c)) (vec (A24 m c))
          (mat3 (A25 m c) 0) (row (A26 m c) 0) (mat3 (A27 m c) 0) (row (A28 m c) 0)
          (mat3 (A25 m c) 1) (row (A26 m c) 1) (mat3 (A27 m c) 1) (row (A28 m c) 1) q := by
  have h : (W6 m ρ c (Proc.devRef .tc main_v23_0) : FVec Ideal S200000x128 .f32) = res1 (V5 m ρ) c :=
    (W6_arr m ρ c 20).trans (final1 (V5 m ρ) c)
  rw [h, res1_apply, entry_xji, entry_arg0, entry_arg18, host_v8, entry_arg20, host_v9, entry_arg22, entry_arg23, host_v22,
    host_v11, host_v12, host_v14, host_v15, host_v17, host_v18, host_v20, host_v21]

/-- The second result array: `e2outRow` of row `r` of `rbf` and of the first result's row `r`. -/
theorem e2out_apply (c : Dev nD) (r : Fin 200000) (q : Fin 128) :
    (W6 m ρ c (Proc.devRef .tc main_v23_1) : FVec Ideal S200000x128 .f32) (ix2 r q)
      = e2outRow (row (A1 m c) r) (mat (A12 m c))
          (row (W6 m ρ c (Proc.devRef .tc main_v23_0) : FVec Ideal S200000x128 .f32) r) q := by
  have h1 : (W6 m ρ c (Proc.devRef .tc main_v23_0) : FVec Ideal S200000x128 .f32) = res1 (V5 m ρ) c :=
    (W6_arr m ρ c 20).trans (final1 (V5 m ρ) c)
  have h2 : (W6 m ρ c (Proc.devRef .tc main_v23_1) : FVec Ideal S200000x128 .f32) = res2 (V5 m ρ) c :=
    (W6_arr m ρ c 21).trans (final2 (V5 m ρ) c)
  rw [h2, h1, res2_apply, entry_arg1, entry_arg12]

end Cert.KernelIdeal.Combine

end
-- ==== Proof.KHost.lean ====
/- The host operations between the kernel program's regions: the row gather and the segment sum. -/
import proofs.«414090_j48034914238946_1_alg».proof.Proof.Gen.KernelIdeal.Frame
import proofs.«414090_j48034914238946_1_alg».proof.Proof.Spec
import proofs.«414090_j48034914238946_1_alg».proof.Proof.KArgs
import Idealize.ShloMosaic.Lib.ValueIdx
import Idealize.ShloMosaic.Lib.StableHlo.Run
import Idealize.ShloMosaic.PureOps.Reduce

noncomputable section

namespace Cert.KernelIdeal.HostOps

open Cert.KernelIdeal Cert.KernelIdeal.Gen Cert.KernelIdeal.Args Cert.Interaction Idealize.ShloMosaic Idealize.ShloMosaic.ValueIdx Idealize.SL.Sem

variable (m : (ℓ : Loc nD τ sig) → Buf (Elt Ideal) ℓ) (ρ : Dev nD → PrngReg)

/-! ## The index arguments are as launched where the host operations read them -/

/-- The contents of `main_arg4` are what the program was launched with at the edge region's exit: no host
    operation and no region before it writes that argument. -/
theorem W2_main_arg4 (c : Dev nD) : W2 m ρ c (Proc.devRef .tc main_arg4) = A4 m c :=
  calc W2 m ρ c (Proc.devRef .tc main_arg4)
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = A4 m c := rfl

/-- The contents of `main_arg5` are what the program was launched with at the triplet region's exit: no host
    operation and no region before it writes that argument. -/
theorem W4_main_arg5 (c : Dev nD) : W4 m ρ c (Proc.devRef .tc main_arg5) = A5 m c :=
  calc W4 m ρ c (Proc.devRef .tc main_arg5)
    _ = W3 m ρ c (Proc.devRef .tc main_arg5) := W4_of_ne m ρ c main_arg5 (by decide)
    _ = W2 m ρ c (Proc.devRef .tc main_arg5) := StableHlo.after_of_forall_not_mem (b := Proc.devRef .tc main_arg5) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = A5 m c := rfl

/-! ## The range mask of the row gather -/

/-- A left fold by `and` from the bit 1 over bits that are all 1 is 1. -/
theorem foldl_andi_one {ι : Type} (x : ι → BitVec 1) (hx : ∀ i, x i = 1#1) :
    ∀ l : List ι, l.foldl (fun r i => IntOp.andi r (x i)) 1#1 = 1#1
  | [] => rfl
  | a :: l => by
    have e : IntOp.andi (1#1) (1#1) = 1#1 := by decide
    rw [List.foldl_cons, hx a, e]
    exact foldl_andi_one x hx l

/-- A reduction by `and` from the bit 1 of an array of bits that are all 1 is 1 at every index. -/
theorem reduce_andi_of_all_one {s t u : Shape} {axes : List (Fin s.rank)} (x : s.Idx → BitVec 1) (init : u.Idx → BitVec 1)
    (hr : s.ReducesTo axes t) (hu : 0 < u.numel) (hinit : init (Shape.Idx.first hu) = 1#1) (hx : ∀ i, x i = 1#1) (j : t.Idx) :
    Host.reduce IntOp.andi x init hr hu j = 1#1 := by
  rw [Host.reduce_eq_foldl, hinit]
  exact foldl_andi_one x hx _

/-- A word `w` with `0 ≤ w < 200000` as a signed integer is not negative, so its sign wrap `w < 0 ? w + 200000 : w` is
    `w` itself, and that lies in `[0, 199999]`: the conjunction of the two comparisons is the bit 1. -/
theorem inRange_word (w : BitVec 32) (h0 : 0 ≤ w.toInt) (h1 : w.toInt < 200000) :
    IntOp.andi (IntOp.cmpi .sge (Scalar.select (IntOp.cmpi .slt w 0#32) (IntOp.addi w 200000#32) w) 0#32)
      (IntOp.cmpi .sle (Scalar.select (IntOp.cmpi .slt w 0#32) (IntOp.addi w 200000#32) w) 199999#32) = 1#1 := by
  have z : (0#32 : BitVec 32).toInt = 0 := by decide
  have k : (199999#32 : BitVec 32).toInt = 199999 := by decide
  have e0 : IntOp.cmpi .slt w 0#32 = 0#1 := by
    show BitVec.ofBool (w.slt 0#32) = 0#1
    have : w.slt 0#32 = false := by
      simp only [BitVec.slt, z, decide_eq_false_iff_not, not_lt]; exact h0
    rw [this]; rfl
  have e1 : IntOp.cmpi .sge w 0#32 = 1#1 := by
    show BitVec.ofBool ((0#32 : BitVec 32).sle w) = 1#1
    have : (0#32 : BitVec 32).sle w = true := by
      simp only [BitVec.sle, z, decide_eq_true_eq]; exact h0
    rw [this]; rfl
  have e2 : IntOp.cmpi .sle w 199999#32 = 1#1 := by
    show BitVec.ofBool (w.sle 199999#32) = 1#1
    have : w.sle 199999#32 = true := by
      simp only [BitVec.sle, k, decide_eq_true_eq]; omega
    rw [this]; rfl
  rw [e0, select_zero, e1, e2]; decide

/-- The column of sign-wrapped gather indices. -/
abbrev idxcol (a : IVec S600000 32) : IVec S600000x1 32 :=
  broadcastInDim S600000x1 ![0] bcast_S600000_S600000x1_0
    (select (cmpi .slt a (broadcastInDim S600000 ![] bcast_S_S600000 (constantI S_ 32 0#32)))
      (addi a (broadcastInDim S600000 ![] bcast_S_S600000 (constantI S_ 32 200000#32))) a)

/-- With every index inside the gathered array the range test `0 ≤ idx ≤ 199999` holds at every entry of the column. -/
theorem inRange_col (a : IVec S600000 32) (h : IdxOk a) (i : S600000x1.Idx) :
    andi (cmpi .sge (idxcol a) (broadcastInDim S600000x1 ![] bcast_S_S600000x1 (constantI S_ 32 0#32)))
      (cmpi .sle (idxcol a) (broadcastInDim S600000x1 ![0, 1] bcast_S1x1_S600000x1_0_1
        (broadcastInDim S1x1 ![1] bcast_S1_S1x1_1 (constantI S1 32 199999#32)))) i = 1#1 := by
  have h' : ∀ k : S600000.Idx, 0 ≤ (a k).toInt ∧ (a k).toInt < 200000 := fun k => by
    rw [eq_ix1 k]; exact h (k 0)
  exact inRange_word (a _) (h' _).1 (h' _).2

/-- Hence the mask is the bit 1 everywhere and the masked gather is the gather. -/
theorem take_core (x : FVec Ideal S200000x64 .f32) (a : IVec S600000 32) (h : IdxOk a) :
    select (broadcastInDim S600000x64 ![0] bcast_S600000_S600000x64_0
        (Host.reduce IntOp.andi
          (andi (cmpi .sge (idxcol a) (broadcastInDim S600000x1 ![] bcast_S_S600000x1 (constantI S_ 32 0#32)))
            (cmpi .sle (idxcol a) (broadcastInDim S600000x1 ![0, 1] bcast_S1x1_S600000x1_0_1
              (broadcastInDim S1x1 ![1] bcast_S1_S1x1_1 (constantI S1 32 199999#32)))))
          (constantI S_ 1 1#1) reducesTo_S600000x1_S600000_d1 h_S_))
      (Host.gather gather_S200000x64_S600000x1_S600000x64_1_0_n_n_0_1_164 x (idxcol a))
      (broadcastInDim S600000x64 ![] bcast_S_S600000x64 (constant (F := Ideal) S_ .f32 0x7FC00000#32))
    = Host.gather gather_S200000x64_S600000x1_S600000x64_1_0_n_n_0_1_164 x (idxcol a) := by
  funext j
  rw [select_apply]
  have hm : broadcastInDim S600000x64 ![0] bcast_S600000_S600000x64_0
        (Host.reduce IntOp.andi
          (andi (cmpi .sge (idxcol a) (broadcastInDim S600000x1 ![] bcast_S_S600000x1 (constantI S_ 32 0#32)))
            (cmpi .sle (idxcol a) (broadcastInDim S600000x1 ![0, 1] bcast_S1x1_S600000x1_0_1
              (broadcastInDim S1x1 ![1] bcast_S1_S1x1_1 (constantI S1 32 199999#32)))))
          (constantI S_ 1 1#1) reducesTo_S600000x1_S600000_d1 h_S_) j = 1#1 := by
    unfold broadcastInDim
    exact reduce_andi_of_all_one _ _ _ _ rfl (inRange_col a h) _
  rw [hm, select_one]

set_option maxHeartbeats 1000000 in
/-- With every index inside the gathered array, the take's range mask is true everywhere and the array the triplet region
    is entered with is the plain row gather of the edge stage's second result at the (sign-wrapped) indices. -/
theorem take_eq (c : Dev nD) (h : IdxOk (A4 m c)) :
    (W3 m ρ c (Proc.devRef .tc main_v3) : FVec Ideal S600000x64 .f32)
      = Host.gather gather_S200000x64_S600000x1_S600000x64_1_0_n_n_0_1_164
          (W2 m ρ c (Proc.devRef .tc main_v2_1) : FVec Ideal S200000x64 .f32)
          (broadcastInDim S600000x1 ![0] bcast_S600000_S600000x1_0
            (select (cmpi .slt (A4 m c) (broadcastInDim S600000 ![] bcast_S_S600000 (constantI S_ 32 0#32)))
              (addi (A4 m c) (broadcastInDim S600000 ![] bcast_S_S600000 (constantI S_ 32 200000#32))) (A4 m c))) := by
  show StableHlo.after hostOps1 _ (Proc.devRef .tc main_v3) = _
  after_results_simp
  simp only [StableHlo.TRef.ofBuf, StableHlo.TRef.toBuf, cast_eq]
  rw [W2_main_arg4]
  exact take_core _ _ h

/-! ## The segment sum -/

/-- The array of summed messages the combine region is entered with is the segment sum (a scatter-add into zeros at
    the column of `idx_ji`) of the triplet region's message array. -/
theorem segsum_eq (c : Dev nD) :
    (W5 m ρ c (Proc.devRef .tc main_v7) : FVec Ideal S200000x64 .f32)
      = Host.scatterAdd scatter_S200000x64_S600000x1_S600000x64_1_0_0_1
          (broadcastInDim S200000x64 ![] bcast_S_S200000x64 (constant (F := Ideal) S_ .f32 0x00000000#32))
          (broadcastInDim S600000x1 ![0] bcast_S600000_S600000x1_0 (A5 m c))
          (W4 m ρ c (Proc.devRef .tc main_v4) : FVec Ideal S600000x64 .f32) := by
  show StableHlo.after hostOps2 _ (Proc.devRef .tc main_v7) = _
  after_results
  rw [W4_main_arg5]

end Cert.KernelIdeal.HostOps

end
-- ==== Proof.R0.lean ====
/- The reference's edge stage, read at a row and a column. -/
import proofs.«414090_j48034914238946_1_alg».proof.Proof.RefStage
import proofs.«414090_j48034914238946_1_alg».proof.Proof.Spec
import Idealize.ShloMosaic.Lib.ValueIdx
import Idealize.ShloMosaic.Lib.IdealHost
import Idealize.ShloMosaic.PureOps.Ideal.Laws

noncomputable section

namespace Cert.ReferenceIdeal.EdgeRef

open Cert.ReferenceIdeal Cert.ReferenceIdeal.Stage Cert.Interaction Idealize.ShloMosaic Idealize.ShloMosaic.ValueIdx

/-- The entrywise chain negate, exponential, one plus, one over, multiply is `silu`: the pattern `0x3F800000` is one. -/
theorem silu_chain (z : EReal) :
    FloatOps.mulf (F := Ideal) (φ := .f32) z
        (FloatOps.hostDivf (FloatOps.ofBits .f32 0x3F800000#32)
          (FloatOps.addf (FloatOps.ofBits .f32 0x3F800000#32) (FloatOps.hostUnary .exp (FloatOps.hostNegf z))))
      = silu z := by
  simp only [Ideal.mulf_def, Ideal.hostDivf_def, Ideal.addf_def, Ideal.hostUnary_exp_def, Ideal.hostNegf_def, Ideal.negf_def,
    Ideal.ofBits_def, Ideal.ofBits_one_f32]
  rfl

/-! ## `silu (e1 W_ji + b_ji)` -/

theorem lidx_v0 (r : Fin 200000) (q : Fin 128) (k : Fin 128) : lidx_main_v0 (ix2 r q) k = ix2 r k :=
  funext fun a => Fin.ext (by match a with | ⟨0, _⟩ => rfl | ⟨1, _⟩ => rfl)

theorem ridx_v0 (r : Fin 200000) (q : Fin 128) (k : Fin 128) : ridx_main_v0 (ix2 r q) k = ix2 k q :=
  funext fun a => Fin.ext (by match a with | ⟨0, _⟩ => rfl | ⟨1, _⟩ => rfl)

theorem idx_v2 (r : Fin 200000) (q : Fin 128) : idx_main_v1 (idx_main_v2 (ix2 r q)) = ix1 q :=
  funext fun a => Fin.ext (by match a with | ⟨0, _⟩ => rfl)

/-- The dense layer `e1 W_ji + b_ji` at row `r` and column `q`. -/
theorem v3_apply (x0 : FVec Ideal S200000x128 .f32) (x15 : FVec Ideal S128x128 .f32) (x16 : FVec Ideal S128 .f32) (r : Fin 200000) (q : Fin 128) :
    val_main_v3 (F := Ideal) x0 x15 x16 (ix2 r q) = lin (row x0 r) (mat x15) (vec x16) q := by
  rw [val_main_v3_apply, val_main_v0_apply, val_main_v2_apply, val_main_v1_apply, idx_v2]
  simp only [lidx_v0, ridx_v0, Ideal.addf_def]
  rfl

/-- The reference's `silu (e1 W_ji + b_ji)` at row `r` and column `q`. -/
theorem xji_apply (x0 : FVec Ideal S200000x128 .f32) (x15 : FVec Ideal S128x128 .f32) (x16 : FVec Ideal S128 .f32) (r : Fin 200000) (q : Fin 128) :
    val_main_v4 (F := Ideal) x0 x15 x16 (ix2 r q) = xjiRow (row x0 r) (mat x15) (vec x16) q := by
  rw [val_main_v4_apply, val_main_call0_v5_apply, val_main_call0_v4_apply, val_main_call0_cst_0_apply, val_main_call0_v3_apply,
    val_main_call0_v2_apply, val_main_call0_cst_apply, val_main_call0_v1_apply, val_main_call0_v0_apply, silu_chain, v3_apply]
  rfl

/-! ## `silu ((silu (e1 W_kj + b_kj) * ((rbf W_rbf1) W_rbf2)) W_down)` -/

theorem lidx_v5 (r : Fin 200000) (q : Fin 128) (k : Fin 128) : lidx_main_v5 (ix2 r q) k = ix2 r k :=
  funext fun a => Fin.ext (by match a with | ⟨0, _⟩ => rfl | ⟨1, _⟩ => rfl)

theorem ridx_v5 (r : Fin 200000) (q : Fin 128) (k : Fin 128) : ridx_main_v5 (ix2 r q) k = ix2 k q :=
  funext fun a => Fin.ext (by match a with | ⟨0, _⟩ => rfl | ⟨1, _⟩ => rfl)

theorem idx_v7 (r : Fin 200000) (q : Fin 128) : idx_main_v6 (idx_main_v7 (ix2 r q)) = ix1 q :=
  funext fun a => Fin.ext (by match a with | ⟨0, _⟩ => rfl)

/-- The dense layer `e1 W_kj + b_kj` at row `r` and column `q`. -/
theorem v8_apply (x0 : FVec Ideal S200000x128 .f32) (x13 : FVec Ideal S128x128 .f32) (x14 : FVec Ideal S128 .f32) (r : Fin 200000) (q : Fin 128) :
    val_main_v8 (F := Ideal) x0 x13 x14 (ix2 r q) = lin (row x0 r) (mat x13) (vec x14) q := by
  rw [val_main_v8_apply, val_main_v5_apply, val_main_v7_apply, val_main_v6_apply, idx_v7]
  simp only [lidx_v5, ridx_v5, Ideal.addf_def]
  rfl

/-- `silu (e1 W_kj + b_kj)` at row `r` and column `q`. -/
theorem v9_apply (x0 : FVec Ideal S200000x128 .f32) (x13 : FVec Ideal S128x128 .f32) (x14 : FVec Ideal S128 .f32) (r : Fin 200000) (q : Fin 128) :
    val_main_v9 (F := Ideal) x0 x13 x14 (ix2 r q) = act (lin (row x0 r) (mat x13) (vec x14)) q := by
  rw [val_main_v9_apply, val_main_call1_v5_apply, val_main_call1_v4_apply, val_main_call1_cst_0_apply, val_main_call1_v3_apply,
    val_main_call1_v2_apply, val_main_call1_cst_apply, val_main_call1_v1_apply, val_main_call1_v0_apply, silu_chain, v8_apply]
  rfl

theorem lidx_v10 (r : Fin 200000) (q : Fin 8) (k : Fin 6) : lidx_main_v10 (ix2 r q) k = ix2 r k :=
  funext fun a => Fin.ext (by match a with | ⟨0, _⟩ => rfl | ⟨1, _⟩ => rfl)

theorem ridx_v10 (r : Fin 200000) (q : Fin 8) (k : Fin 6) : ridx_main_v10 (ix2 r q) k = ix2 k q :=
  funext fun a => Fin.ext (by match a with | ⟨0, _⟩ => rfl | ⟨1, _⟩ => rfl)

/-- `rbf W_rbf1` at row `r` and column `j`. -/
theorem v10_apply (x1 : FVec Ideal S200000x6 .f32) (x6 : FVec Ideal S6x8 .f32) (r : Fin 200000) (j : Fin 8) :
    val_main_v10 (F := Ideal) x1 x6 (ix2 r j) = dense (row x1 r) (mat x6) j := by
  rw [val_main_v10_apply]
  simp only [lidx_v10, ridx_v10]
  rfl

theorem lidx_v11 (r : Fin 200000) (q : Fin 128) (k : Fin 8) : lidx_main_v11 (ix2 r q) k = ix2 r k :=
  funext fun a => Fin.ext (by match a with | ⟨0, _⟩ => rfl | ⟨1, _⟩ => rfl)

theorem ridx_v11 (r : Fin 200000) (q : Fin 128) (k : Fin 8) : ridx_main_v11 (ix2 r q) k = ix2 k q :=
  funext fun a => Fin.ext (by match a with | ⟨0, _⟩ => rfl | ⟨1, _⟩ => rfl)

/-- `(rbf W_rbf1) W_rbf2` at row `r` and column `q`. -/
theorem v11_apply (x1 : FVec Ideal S200000x6 .f32) (x6 : FVec Ideal S6x8 .f32) (x7 : FVec Ideal S8x128 .f32) (r : Fin 200000) (q : Fin 128) :
    val_main_v11 (F := Ideal) x1 x6 x7 (ix2 r q) = dense (dense (row x1 r) (mat x6)) (mat x7) q := by
  rw [val_main_v11_apply]
  simp only [lidx_v11, ridx_v11, v10_apply]
  rfl

/-- The product of the two at row `r` and column `q`. -/
theorem v12_apply (x0 : FVec Ideal S200000x128 .f32) (x1 : FVec Ideal S200000x6 .f32) (x6 : FVec Ideal S6x8 .f32) (x7 : FVec Ideal S8x128 .f32) (x13 : FVec Ideal S128x128 .f32) (x14 : FVec Ideal S128 .f32) (r : Fin 200000) (q : Fin 128) :
    val_main_v12 (F := Ideal) x0 x1 x6 x7 x13 x14 (ix2 r q)
      = act (lin (row x0 r) (mat x13) (vec x14)) q * dense (dense (row x1 r) (mat x6)) (mat x7) q := by
  rw [val_main_v12_apply, v9_apply, v11_apply]
  rfl

theorem lidx_v13 (r : Fin 200000) (q : Fin 64) (k : Fin 128) : lidx_main_v13 (ix2 r q) k = ix2 r k :=
  funext fun a => Fin.ext (by match a with | ⟨0, _⟩ => rfl | ⟨1, _⟩ => rfl)

theorem ridx_v13 (r : Fin 200000) (q : Fin 64) (k : Fin 128) : ridx_main_v13 (ix2 r q) k = ix2 k q :=
  funext fun a => Fin.ext (by match a with | ⟨0, _⟩ => rfl | ⟨1, _⟩ => rfl)

/-- The product times `W_down` at row `r` and column `q`. -/
theorem v13_apply (x0 : FVec Ideal S200000x128 .f32) (x1 : FVec Ideal S200000x6 .f32) (x6 : FVec Ideal S6x8 .f32) (x7 : FVec Ideal S8x128 .f32) (x13 : FVec Ideal S128x128 .f32) (x14 : FVec Ideal S128 .f32) (x17 : FVec Ideal S128x64 .f32) (r : Fin 200000) (q : Fin 64) :
    val_main_v13 (F := Ideal) x0 x1 x6 x7 x13 x14 x17 (ix2 r q)
      = dense (fun j => act (lin (row x0 r) (mat x13) (vec x14)) j * dense (dense (row x1 r) (mat x6)) (mat x7) j) (mat x17) q := by
  rw [val_main_v13_apply]
  simp only [lidx_v13, ridx_v13, v12_apply]
  rfl

/-- The reference's `silu ((silu (e1 W_kj + b_kj) * ((rbf W_rbf1) W_rbf2)) W_down)` at row `r` and column `q`. -/
theorem xkjd_apply (x0 : FVec Ideal S200000x128 .f32) (x1 : FVec Ideal S200000x6 .f32) (x6 : FVec Ideal S6x8 .f32) (x7 : FVec Ideal S8x128 .f32) (x13 : FVec Ideal S128x128 .f32) (x14 : FVec Ideal S128 .f32) (x17 : FVec Ideal S128x64 .f32) (r : Fin 200000) (q : Fin 64) :
    val_main_v14 (F := Ideal) x0 x1 x6 x7 x13 x14 x17 (ix2 r q)
      = xkjdRow (row x0 r) (row x1 r) (mat x13) (vec x14) (mat x6) (mat x7) (mat x17) q := by
  rw [val_main_v14_apply, val_main_call2_v5_apply, val_main_call2_v4_apply, val_main_call2_cst_0_apply, val_main_call2_v3_apply,
    val_main_call2_v2_apply, val_main_call2_cst_apply, val_main_call2_v1_apply, val_main_call2_v0_apply, silu_chain, v13_apply]
  rfl

end Cert.ReferenceIdeal.EdgeRef

end
-- ==== Proof.R1.lean ====
/- The reference's triplet stage, read at a row and a column. -/
import proofs.«414090_j48034914238946_1_alg».proof.Proof.RefStage
import proofs.«414090_j48034914238946_1_alg».proof.Proof.Spec
import Idealize.ShloMosaic.Lib.ValueIdx
import Idealize.ShloMosaic.PureOps.Ideal.Laws

noncomputable section

namespace Cert.ReferenceIdeal.TripletRef

open Cert.ReferenceIdeal Cert.ReferenceIdeal.Stage Cert.Interaction Idealize.ShloMosaic Idealize.ShloMosaic.ValueIdx

/-! ## `(sbf W_sbf1) W_sbf2` -/

theorem lidx_v15 (r : Fin 600000) (q : Fin 8) (k : Fin 42) : lidx_main_v15 (ix2 r q) k = ix2 r k :=
  funext fun a => Fin.ext (by match a with | ⟨0, _⟩ => rfl | ⟨1, _⟩ => rfl)

theorem ridx_v15 (r : Fin 600000) (q : Fin 8) (k : Fin 42) : ridx_main_v15 (ix2 r q) k = ix2 k q :=
  funext fun a => Fin.ext (by match a with | ⟨0, _⟩ => rfl | ⟨1, _⟩ => rfl)

/-- `sbf W_sbf1` at row `r` and column `j`. -/
theorem v15_apply (x2 : FVec Ideal S600000x42 .f32) (x8 : FVec Ideal S42x8 .f32) (r : Fin 600000) (j : Fin 8) :
    val_main_v15 (F := Ideal) x2 x8 (ix2 r j) = dense (row x2 r) (mat x8) j := by
  rw [val_main_v15_apply]
  simp only [lidx_v15, ridx_v15]
  rfl

theorem lidx_v16 (r : Fin 600000) (q : Fin 64) (k : Fin 8) : lidx_main_v16 (ix2 r q) k = ix2 r k :=
  funext fun a => Fin.ext (by match a with | ⟨0, _⟩ => rfl | ⟨1, _⟩ => rfl)

theorem ridx_v16 (r : Fin 600000) (q : Fin 64) (k : Fin 8) : ridx_main_v16 (ix2 r q) k = ix2 k q :=
  funext fun a => Fin.ext (by match a with | ⟨0, _⟩ => rfl | ⟨1, _⟩ => rfl)

/-- `(sbf W_sbf1) W_sbf2` at row `r` and column `q`. -/
theorem v16_apply (x2 : FVec Ideal S600000x42 .f32) (x8 : FVec Ideal S42x8 .f32) (x9 : FVec Ideal S8x64 .f32) (r : Fin 600000) (q : Fin 64) :
    val_main_v16 (F := Ideal) x2 x8 x9 (ix2 r q) = dense (dense (row x2 r) (mat x8)) (mat x9) q := by
  rw [val_main_v16_apply]
  simp only [lidx_v16, ridx_v16, v15_apply]
  rfl

/-! ## `(t W_t1) W_t2` -/

theorem lidx_v25 (r : Fin 600000) (q : Fin 8) (k : Fin 294) : lidx_main_v25 (ix2 r q) k = ix2 r k :=
  funext fun a => Fin.ext (by match a with | ⟨0, _⟩ => rfl | ⟨1, _⟩ => rfl)

theorem ridx_v25 (r : Fin 600000) (q : Fin 8) (k : Fin 294) : ridx_main_v25 (ix2 r q) k = ix2 k q :=
  funext fun a => Fin.ext (by match a with | ⟨0, _⟩ => rfl | ⟨1, _⟩ => rfl)

/-- `t W_t1` at row `r` and column `j`. -/
theorem v25_apply (x3 : FVec Ideal S600000x294 .f32) (x10 : FVec Ideal S294x8 .f32) (r : Fin 600000) (j : Fin 8) :
    val_main_v25 (F := Ideal) x3 x10 (ix2 r j) = dense (row x3 r) (mat x10) j := by
  rw [val_main_v25_apply]
  simp only [lidx_v25, ridx_v25]
  rfl

theorem lidx_v26 (r : Fin 600000) (q : Fin 64) (k : Fin 8) : lidx_main_v26 (ix2 r q) k = ix2 r k :=
  funext fun a => Fin.ext (by match a with | ⟨0, _⟩ => rfl | ⟨1, _⟩ => rfl)

theorem ridx_v26 (r : Fin 600000) (q : Fin 64) (k : Fin 8) : ridx_main_v26 (ix2 r q) k = ix2 k q :=
  funext fun a => Fin.ext (by match a with | ⟨0, _⟩ => rfl | ⟨1, _⟩ => rfl)

/-- `(t W_t1) W_t2` at row `r` and column `q`. -/
theorem v26_apply (x3 : FVec Ideal S600000x294 .f32) (x10 : FVec Ideal S294x8 .f32) (x11 : FVec Ideal S8x64 .f32) (r : Fin 600000) (q : Fin 64) :
    val_main_v26 (F := Ideal) x3 x10 x11 (ix2 r q) = dense (dense (row x3 r) (mat x10)) (mat x11) q := by
  rw [val_main_v26_apply]
  simp only [lidx_v26, ridx_v26, v25_apply]
  rfl

/-! ## The message -/

/-- The reference's message `(x_kj[idx_kj] * ((sbf W_sbf1) W_sbf2)) * ((t W_t1) W_t2)` at row `r` and column `q`, over the
    gathered array as it stands. -/
theorem msg_apply (x0 : FVec Ideal S200000x128 .f32) (x1 : FVec Ideal S200000x6 .f32) (x2 : FVec Ideal S600000x42 .f32) (x3 : FVec Ideal S600000x294 .f32) (x4 : IVec S600000 32) (x6 : FVec Ideal S6x8 .f32) (x7 : FVec Ideal S8x128 .f32) (x8 : FVec Ideal S42x8 .f32) (x9 : FVec Ideal S8x64 .f32) (x10 : FVec Ideal S294x8 .f32) (x11 : FVec Ideal S8x64 .f32) (x13 : FVec Ideal S128x128 .f32) (x14 : FVec Ideal S128 .f32) (x17 : FVec Ideal S128x64 .f32) (r : Fin 600000) (q : Fin 64) :
    val_main_v27 (F := Ideal) x0 x1 x2 x3 x4 x6 x7 x8 x9 x10 x11 x13 x14 x17 (ix2 r q)
      = msgRow (row x2 r) (row x3 r) (row (val_main_v23 (F := Ideal) x0 x1 x4 x6 x7 x13 x14 x17) r) (mat x8) (mat x9) (mat x10) (mat x11) q := by
  rw [val_main_v27_apply, val_main_v24_apply, v16_apply, v26_apply]
  rfl

end Cert.ReferenceIdeal.TripletRef

end
-- ==== Proof.R2.lean ====
/- The reference's combine stage, read at a row and a column. -/
import proofs.«414090_j48034914238946_1_alg».proof.Proof.RefStage
import proofs.«414090_j48034914238946_1_alg».proof.Proof.Spec
import Idealize.ShloMosaic.Lib.ValueIdx
import Idealize.ShloMosaic.Lib.IdealHost
import Idealize.ShloMosaic.PureOps.Ideal.Laws

noncomputable section

namespace Cert.ReferenceIdeal.CombineRef

open Cert.ReferenceIdeal Cert.ReferenceIdeal.Gen Cert.ReferenceIdeal.Stage Cert.Interaction Idealize.ShloMosaic Idealize.ShloMosaic.ValueIdx

/-! ## The layer shapes, over arbitrary arrays -/

/-- `silu` of an array as the reference spells it: negate, exponential, add one, reciprocal, multiply. -/
def siluA (v : FVec Ideal S200000x128 .f32) : FVec Ideal S200000x128 .f32 :=
  mulf v (Host.divf (broadcastInDim S200000x128 ![] bcast_S_S200000x128 (constant (F := Ideal) S_ .f32 0x3F800000#32))
    (addf (broadcastInDim S200000x128 ![] bcast_S_S200000x128 (constant (F := Ideal) S_ .f32 0x3F800000#32))
      (Host.exp (Host.negf v))))

/-- At an index it is `silu` of the entry: the literal is one, and `1 / (1 + e^(-z))` is the logistic function. -/
theorem siluA_apply (v : FVec Ideal S200000x128 .f32) (i : S200000x128.Idx) : siluA v i = silu (v i) := by
  unfold siluA silu Ideal.logistic
  rw [mulf_apply, hostDivf_apply, addf_apply, broadcastInDim_scalar_apply, constant_apply, Ideal.ofBits_one_f32]
  rfl

/-- A product of a 200000 x 128 array with a 128 x 128 matrix. -/
def dotA (x : FVec Ideal S200000x128 .f32) (w : FVec Ideal S128x128 .f32) : FVec Ideal S200000x128 .f32 :=
  Host.dotGeneral dot_S200000x128_S128x128_S200000x128_1_0_0_1_n_n none x w

/-- At row `r` and column `q` it is the row times the matrix. -/
theorem dotA_apply (x : FVec Ideal S200000x128 .f32) (w : FVec Ideal S128x128 .f32) (r : Fin 200000) (q : Fin 128) :
    dotA x w (ix2 r q) = dense (row x r) (mat w) q := by
  show val_main_v0 (F := Ideal) x w (ix2 r q) = _
  rw [val_main_v0_apply]
  unfold dense row mat
  refine Finset.sum_congr rfl fun k _ => ?_
  have el : lidx_main_v0 (ix2 r q) k = ix2 r k := funext fun a => by
    match a with
    | ⟨0, _⟩ => rfl
    | ⟨1, _⟩ => rfl
  have er : ridx_main_v0 (ix2 r q) k = ix2 k q := funext fun a => by
    match a with
    | ⟨0, _⟩ => rfl
    | ⟨1, _⟩ => rfl
  rw [el, er]

/-- A residual layer on arrays: `h + silu (silu (h W₁ + b₁) W₂ + b₂)`. -/
def residA (h : FVec Ideal S200000x128 .f32) (w1 : FVec Ideal S128x128 .f32) (b1 : FVec Ideal S200000x128 .f32)
    (w2 : FVec Ideal S128x128 .f32) (b2 : FVec Ideal S200000x128 .f32) : FVec Ideal S200000x128 .f32 :=
  addf h (siluA (addf (dotA (siluA (addf (dotA h w1) b1)) w2) b2))

/-- At row `r` it is the residual layer of the rows `r`. -/
theorem residA_apply (h : FVec Ideal S200000x128 .f32) (w1 : FVec Ideal S128x128 .f32) (b1 : FVec Ideal S200000x128 .f32)
    (w2 : FVec Ideal S128x128 .f32) (b2 : FVec Ideal S200000x128 .f32) (r : Fin 200000) (q : Fin 128) :
    residA h w1 b1 w2 b2 (ix2 r q) = resid (row h r) (mat w1) (row b1 r) (mat w2) (row b2 r) q := by
  have e : row (siluA (addf (dotA h w1) b1)) r = act (lin (row h r) (mat w1) (row b1 r)) := by
    funext c
    show siluA (addf (dotA h w1) b1) (ix2 r c) = _
    rw [siluA_apply, addf_apply, dotA_apply]
    rfl
  unfold residA
  rw [addf_apply, siluA_apply, addf_apply, dotA_apply, e]
  rfl

/-- The skip layer on arrays: `silu (h W + b) + e`. -/
def skipA (h : FVec Ideal S200000x128 .f32) (w : FVec Ideal S128x128 .f32) (b e : FVec Ideal S200000x128 .f32) :
    FVec Ideal S200000x128 .f32 :=
  addf (siluA (addf (dotA h w) b)) e

theorem skipA_apply (h : FVec Ideal S200000x128 .f32) (w : FVec Ideal S128x128 .f32) (b e : FVec Ideal S200000x128 .f32)
    (r : Fin 200000) (q : Fin 128) :
    skipA h w b e (ix2 r q) = act (lin (row h r) (mat w) (row b r)) q + row e r q := by
  unfold skipA
  rw [addf_apply, siluA_apply, addf_apply, dotA_apply]
  rfl

/-! ## The stacked weights and the biases, at an index -/

theorem mat_v34 (x19 : FVec Ideal S1x128x128 .f32) : mat (val_main_v34 (F := Ideal) x19) = mat3 x19 0 := by
  funext k j
  unfold mat mat3
  rw [val_main_v34_apply]
  refine congrArg x19 (funext fun a => Fin.ext ?_)
  have hk := k.isLt
  have hj := j.isLt
  match a with
  | ⟨0, _⟩ => rfl
  | ⟨1, _⟩ => show (k.val * 128 + j.val) / 128 % 128 = k.val; omega
  | ⟨2, _⟩ => show (k.val * 128 + j.val) % 128 = j.val; omega

theorem mat_v41 (x21 : FVec Ideal S1x128x128 .f32) : mat (val_main_v41 (F := Ideal) x21) = mat3 x21 0 := by
  funext k j
  unfold mat mat3
  rw [val_main_v41_apply]
  refine congrArg x21 (funext fun a => Fin.ext ?_)
  have hk := k.isLt
  have hj := j.isLt
  match a with
  | ⟨0, _⟩ => rfl
  | ⟨1, _⟩ => show (k.val * 128 + j.val) / 128 % 128 = k.val; omega
  | ⟨2, _⟩ => show (k.val * 128 + j.val) % 128 = j.val; omega

theorem mat_v56 (x25 : FVec Ideal S2x128x128 .f32) : mat (val_main_v56 (F := Ideal) x25) = mat3 x25 0 := by
  funext k j
  unfold mat mat3
  rw [val_main_v56_apply, val_main_v55_apply]
  refine congrArg x25 (funext fun a => Fin.ext ?_)
  have hk := k.isLt
  have hj := j.isLt
  match a with
  | ⟨0, _⟩ => rfl
  | ⟨1, _⟩ => show (k.val * 128 + j.val) / 128 % 128 = k.val; omega
  | ⟨2, _⟩ => show (k.val * 128 + j.val) % 128 = j.val; omega

theorem mat_v65 (x27 : FVec Ideal S2x128x128 .f32) : mat (val_main_v65 (F := Ideal) x27) = mat3 x27 0 := by
  funext k j
  unfold mat mat3
  rw [val_main_v65_apply, val_main_v64_apply]
  refine congrArg x27 (funext fun a => Fin.ext ?_)
  have hk := k.isLt
  have hj := j.isLt
  match a with
  | ⟨0, _⟩ => rfl
  | ⟨1, _⟩ => show (k.val * 128 + j.val) / 128 % 128 = k.val; omega
  | ⟨2, _⟩ => show (k.val * 128 + j.val) % 128 = j.val; omega

theorem mat_v75 (x25 : FVec Ideal S2x128x128 .f32) : mat (val_main_v75 (F := Ideal) x25) = mat3 x25 1 := by
  funext k j
  unfold mat mat3
  rw [val_main_v75_apply, val_main_v74_apply]
  refine congrArg x25 (funext fun a => Fin.ext ?_)
  have hk := k.isLt
  have hj := j.isLt
  match a with
  | ⟨0, _⟩ => rfl
  | ⟨1, _⟩ => show (k.val * 128 + j.val) / 128 % 128 = k.val; omega
  | ⟨2, _⟩ => show (k.val * 128 + j.val) % 128 = j.val; omega

theorem mat_v84 (x27 : FVec Ideal S2x128x128 .f32) : mat (val_main_v84 (F := Ideal) x27) = mat3 x27 1 := by
  funext k j
  unfold mat mat3
  rw [val_main_v84_apply, val_main_v83_apply]
  refine congrArg x27 (funext fun a => Fin.ext ?_)
  have hk := k.isLt
  have hj := j.isLt
  match a with
  | ⟨0, _⟩ => rfl
  | ⟨1, _⟩ => show (k.val * 128 + j.val) / 128 % 128 = k.val; omega
  | ⟨2, _⟩ => show (k.val * 128 + j.val) % 128 = j.val; omega

theorem row_v38 (x20 : FVec Ideal S1x128 .f32) (r : Fin 200000) : row (val_main_v38 (F := Ideal) x20) r = row x20 0 := by
  funext c
  unfold row
  rw [val_main_v38_apply, val_main_v37_apply, val_main_v36_apply]
  refine congrArg x20 (funext fun a => Fin.ext ?_)
  match a with
  | ⟨0, _⟩ => rfl
  | ⟨1, _⟩ => show c.val % 128 = c.val; exact Nat.mod_eq_of_lt c.isLt

theorem row_v45 (x22 : FVec Ideal S1x128 .f32) (r : Fin 200000) : row (val_main_v45 (F := Ideal) x22) r = row x22 0 := by
  funext c
  unfold row
  rw [val_main_v45_apply, val_main_v44_apply, val_main_v43_apply]
  refine congrArg x22 (funext fun a => Fin.ext ?_)
  match a with
  | ⟨0, _⟩ => rfl
  | ⟨1, _⟩ => show c.val % 128 = c.val; exact Nat.mod_eq_of_lt c.isLt

theorem row_v51 (x24 : FVec Ideal S128 .f32) (r : Fin 200000) : row (val_main_v51 (F := Ideal) x24) r = vec x24 := by
  funext c
  unfold row vec
  rw [val_main_v51_apply, val_main_v50_apply]
  refine congrArg x24 (funext fun a => Fin.ext ?_)
  match a with
  | ⟨0, _⟩ => rfl

theorem row_v61 (x26 : FVec Ideal S2x128 .f32) (r : Fin 200000) : row (val_main_v61 (F := Ideal) x26) r = row x26 0 := by
  funext c
  unfold row
  rw [val_main_v61_apply, val_main_v60_apply, val_main_v59_apply, val_main_v58_apply]
  refine congrArg x26 (funext fun a => Fin.ext ?_)
  match a with
  | ⟨0, _⟩ => rfl
  | ⟨1, _⟩ => show c.val % 128 = c.val; exact Nat.mod_eq_of_lt c.isLt

theorem row_v70 (x28 : FVec Ideal S2x128 .f32) (r : Fin 200000) : row (val_main_v70 (F := Ideal) x28) r = row x28 0 := by
  funext c
  unfold row
  rw [val_main_v70_apply, val_main_v69_apply, val_main_v68_apply, val_main_v67_apply]
  refine congrArg x28 (funext fun a => Fin.ext ?_)
  match a with
  | ⟨0, _⟩ => rfl
  | ⟨1, _⟩ => show c.val % 128 = c.val; exact Nat.mod_eq_of_lt c.isLt

theorem row_v80 (x26 : FVec Ideal S2x128 .f32) (r : Fin 200000) : row (val_main_v80 (F := Ideal) x26) r = row x26 1 := by
  funext c
  unfold row
  rw [val_main_v80_apply, val_main_v79_apply, val_main_v78_apply, val_main_v77_apply]
  refine congrArg x26 (funext fun a => Fin.ext ?_)
  match a with
  | ⟨0, _⟩ => rfl
  | ⟨1, _⟩ => show c.val % 128 = c.val; exact Nat.mod_eq_of_lt c.isLt

theorem row_v89 (x28 : FVec Ideal S2x128 .f32) (r : Fin 200000) : row (val_main_v89 (F := Ideal) x28) r = row x28 1 := by
  funext c
  unfold row
  rw [val_main_v89_apply, val_main_v88_apply, val_main_v87_apply, val_main_v86_apply]
  refine congrArg x28 (funext fun a => Fin.ext ?_)
  match a with
  | ⟨0, _⟩ => rfl
  | ⟨1, _⟩ => show c.val % 128 = c.val; exact Nat.mod_eq_of_lt c.isLt

/-! ## The two narrow products -/

/-- The sum a 200000 x 64 by 64 x 128 product reads at row `r` and column `q` is the row times the matrix. -/
theorem sum_up (y : FVec Ideal S200000x64 .f32) (w : FVec Ideal S64x128 .f32) (r : Fin 200000) (q : Fin 128) :
    ∑ k : Fin 64, y (lidx_main_v31 (ix2 r q) k) * w (ridx_main_v31 (ix2 r q) k) = dense (row y r) (mat w) q := by
  unfold dense row mat
  refine Finset.sum_congr rfl fun k _ => ?_
  have el : lidx_main_v31 (ix2 r q) k = ix2 r k := funext fun a => by
    match a with
    | ⟨0, _⟩ => rfl
    | ⟨1, _⟩ => rfl
  have er : ridx_main_v31 (ix2 r q) k = ix2 k q := funext fun a => by
    match a with
    | ⟨0, _⟩ => rfl
    | ⟨1, _⟩ => rfl
  rw [el, er]

/-- The radial product `rbf W_rbf` at row `r` and column `q`. -/
theorem rbf_apply (x1 : FVec Ideal S200000x6 .f32) (x12 : FVec Ideal S6x128 .f32) (r : Fin 200000) (q : Fin 128) :
    val_main_v93 (F := Ideal) x1 x12 (ix2 r q) = dense (row x1 r) (mat x12) q := by
  rw [val_main_v93_apply]
  unfold dense row mat
  refine Finset.sum_congr rfl fun k _ => ?_
  have el : lidx_main_v93 (ix2 r q) k = ix2 r k := funext fun a => by
    match a with
    | ⟨0, _⟩ => rfl
    | ⟨1, _⟩ => rfl
  have er : ridx_main_v93 (ix2 r q) k = ix2 k q := funext fun a => by
    match a with
    | ⟨0, _⟩ => rfl
    | ⟨1, _⟩ => rfl
  rw [el, er]

/-! ## The named intermediates, row by row -/

section

variable (x0 : FVec Ideal S200000x128 .f32) (x1 : FVec Ideal S200000x6 .f32) (x2 : FVec Ideal S600000x42 .f32) (x3 : FVec Ideal S600000x294 .f32) (x4 : IVec S600000 32) (x5 : IVec S600000 32) (x6 : FVec Ideal S6x8 .f32) (x7 : FVec Ideal S8x128 .f32) (x8 : FVec Ideal S42x8 .f32) (x9 : FVec Ideal S8x64 .f32) (x10 : FVec Ideal S294x8 .f32) (x11 : FVec Ideal S8x64 .f32) (x13 : FVec Ideal S128x128 .f32) (x14 : FVec Ideal S128 .f32) (x15 : FVec Ideal S128x128 .f32) (x16 : FVec Ideal S128 .f32) (x17 : FVec Ideal S128x64 .f32) (x18 : FVec Ideal S64x128 .f32) (x19 : FVec Ideal S1x128x128 .f32) (x20 : FVec Ideal S1x128 .f32) (x21 : FVec Ideal S1x128x128 .f32) (x22 : FVec Ideal S1x128 .f32) (x23 : FVec Ideal S128x128 .f32) (x24 : FVec Ideal S128 .f32) (x25 : FVec Ideal S2x128x128 .f32) (x26 : FVec Ideal S2x128 .f32) (x27 : FVec Ideal S2x128x128 .f32) (x28 : FVec Ideal S2x128 .f32)

/-- `h0 = x_ji + silu (s W_up)`. -/
theorem h0_row (r : Fin 200000) :
    row (val_main_v33 (F := Ideal) x0 x1 x2 x3 x4 x5 x6 x7 x8 x9 x10 x11 x13 x14 x15 x16 x17 x18) r
      = fun c => row (val_main_v4 (F := Ideal) x0 x15 x16) r c + act (dense (row (val_main_v30 (F := Ideal) x0 x1 x2 x3 x4 x5 x6 x7 x8 x9 x10 x11 x13 x14 x17) r) (mat x18)) c := by
  have e : val_main_v32 (F := Ideal) x0 x1 x2 x3 x4 x5 x6 x7 x8 x9 x10 x11 x13 x14 x17 x18 = siluA (val_main_v31 (F := Ideal) x0 x1 x2 x3 x4 x5 x6 x7 x8 x9 x10 x11 x13 x14 x17 x18) := rfl
  funext q
  show val_main_v33 (F := Ideal) x0 x1 x2 x3 x4 x5 x6 x7 x8 x9 x10 x11 x13 x14 x15 x16 x17 x18 (ix2 r q) = _
  rw [val_main_v33_apply, e, siluA_apply, val_main_v31_apply, sum_up]
  rfl

/-- `h1`: the first residual layer. -/
theorem h1_row (r : Fin 200000) (H : Fin 128 → EReal)
    (hH : row (val_main_v33 (F := Ideal) x0 x1 x2 x3 x4 x5 x6 x7 x8 x9 x10 x11 x13 x14 x15 x16 x17 x18) r = H) :
    row (val_main_v48 (F := Ideal) x0 x1 x2 x3 x4 x5 x6 x7 x8 x9 x10 x11 x13 x14 x15 x16 x17 x18 x19 x20 x21 x22) r = resid H (mat3 x19 0) (row x20 0) (mat3 x21 0) (row x22 0) := by
  have e : val_main_v48 (F := Ideal) x0 x1 x2 x3 x4 x5 x6 x7 x8 x9 x10 x11 x13 x14 x15 x16 x17 x18 x19 x20 x21 x22
      = residA (val_main_v33 (F := Ideal) x0 x1 x2 x3 x4 x5 x6 x7 x8 x9 x10 x11 x13 x14 x15 x16 x17 x18) (val_main_v34 (F := Ideal) x19) (val_main_v38 (F := Ideal) x20) (val_main_v41 (F := Ideal) x21) (val_main_v45 (F := Ideal) x22) := rfl
  funext q
  show val_main_v48 (F := Ideal) x0 x1 x2 x3 x4 x5 x6 x7 x8 x9 x10 x11 x13 x14 x15 x16 x17 x18 x19 x20 x21 x22 (ix2 r q) = _
  rw [e, residA_apply, hH, mat_v34, row_v38, mat_v41, row_v45]

/-- `h2 = silu (h1 W_lin + b_lin) + e1`. -/
theorem h2_row (r : Fin 200000) (H : Fin 128 → EReal)
    (hH : row (val_main_v48 (F := Ideal) x0 x1 x2 x3 x4 x5 x6 x7 x8 x9 x10 x11 x13 x14 x15 x16 x17 x18 x19 x20 x21 x22) r = H) :
    row (val_main_v54 (F := Ideal) x0 x1 x2 x3 x4 x5 x6 x7 x8 x9 x10 x11 x13 x14 x15 x16 x17 x18 x19 x20 x21 x22 x23 x24) r = fun c => act (lin H (mat x23) (vec x24)) c + row x0 r c := by
  have e : val_main_v54 (F := Ideal) x0 x1 x2 x3 x4 x5 x6 x7 x8 x9 x10 x11 x13 x14 x15 x16 x17 x18 x19 x20 x21 x22 x23 x24
      = skipA (val_main_v48 (F := Ideal) x0 x1 x2 x3 x4 x5 x6 x7 x8 x9 x10 x11 x13 x14 x15 x16 x17 x18 x19 x20 x21 x22) x23 (val_main_v51 (F := Ideal) x24) x0 := rfl
  funext q
  show val_main_v54 (F := Ideal) x0 x1 x2 x3 x4 x5 x6 x7 x8 x9 x10 x11 x13 x14 x15 x16 x17 x18 x19 x20 x21 x22 x23 x24 (ix2 r q) = _
  rw [e, skipA_apply, hH, row_v51]

/-- `h3`: the residual layer with slab 0. -/
theorem h3_row (r : Fin 200000) (H : Fin 128 → EReal)
    (hH : row (val_main_v54 (F := Ideal) x0 x1 x2 x3 x4 x5 x6 x7 x8 x9 x10 x11 x13 x14 x15 x16 x17 x18 x19 x20 x21 x22 x23 x24) r = H) :
    row (val_main_v73 (F := Ideal) x0 x1 x2 x3 x4 x5 x6 x7 x8 x9 x10 x11 x13 x14 x15 x16 x17 x18 x19 x20 x21 x22 x23 x24 x25 x26 x27 x28) r = resid H (mat3 x25 0) (row x26 0) (mat3 x27 0) (row x28 0) := by
  have e : val_main_v73 (F := Ideal) x0 x1 x2 x3 x4 x5 x6 x7 x8 x9 x10 x11 x13 x14 x15 x16 x17 x18 x19 x20 x21 x22 x23 x24 x25 x26 x27 x28
      = residA (val_main_v54 (F := Ideal) x0 x1 x2 x3 x4 x5 x6 x7 x8 x9 x10 x11 x13 x14 x15 x16 x17 x18 x19 x20 x21 x22 x23 x24) (val_main_v56 (F := Ideal) x25) (val_main_v61 (F := Ideal) x26) (val_main_v65 (F := Ideal) x27) (val_main_v70 (F := Ideal) x28) := rfl
  funext q
  show val_main_v73 (F := Ideal) x0 x1 x2 x3 x4 x5 x6 x7 x8 x9 x10 x11 x13 x14 x15 x16 x17 x18 x19 x20 x21 x22 x23 x24 x25 x26 x27 x28 (ix2 r q) = _
  rw [e, residA_apply, hH, mat_v56, row_v61, mat_v65, row_v70]

/-- The first result: the residual layer with slab 1. -/
theorem h4_row (r : Fin 200000) (H : Fin 128 → EReal)
    (hH : row (val_main_v73 (F := Ideal) x0 x1 x2 x3 x4 x5 x6 x7 x8 x9 x10 x11 x13 x14 x15 x16 x17 x18 x19 x20 x21 x22 x23 x24 x25 x26 x27 x28) r = H) :
    row (val_main_v92 (F := Ideal) x0 x1 x2 x3 x4 x5 x6 x7 x8 x9 x10 x11 x13 x14 x15 x16 x17 x18 x19 x20 x21 x22 x23 x24 x25 x26 x27 x28) r = resid H (mat3 x25 1) (row x26 1) (mat3 x27 1) (row x28 1) := by
  have e : val_main_v92 (F := Ideal) x0 x1 x2 x3 x4 x5 x6 x7 x8 x9 x10 x11 x13 x14 x15 x16 x17 x18 x19 x20 x21 x22 x23 x24 x25 x26 x27 x28
      = residA (val_main_v73 (F := Ideal) x0 x1 x2 x3 x4 x5 x6 x7 x8 x9 x10 x11 x13 x14 x15 x16 x17 x18 x19 x20 x21 x22 x23 x24 x25 x26 x27 x28) (val_main_v75 (F := Ideal) x25) (val_main_v80 (F := Ideal) x26) (val_main_v84 (F := Ideal) x27) (val_main_v89 (F := Ideal) x28) := rfl
  funext q
  show val_main_v92 (F := Ideal) x0 x1 x2 x3 x4 x5 x6 x7 x8 x9 x10 x11 x13 x14 x15 x16 x17 x18 x19 x20 x21 x22 x23 x24 x25 x26 x27 x28 (ix2 r q) = _
  rw [e, residA_apply, hH, mat_v75, row_v80, mat_v84, row_v89]

end

/-! ## The two results -/

/-- The reference's first result at row `r` and column `q`: `e1outRow` of rows `r` of its edge stage's first result, of its
    segment sum as it stands, and of `e1`. -/
theorem e1out_apply (x0 : FVec Ideal S200000x128 .f32) (x1 : FVec Ideal S200000x6 .f32) (x2 : FVec Ideal S600000x42 .f32) (x3 : FVec Ideal S600000x294 .f32) (x4 : IVec S600000 32) (x5 : IVec S600000 32) (x6 : FVec Ideal S6x8 .f32) (x7 : FVec Ideal S8x128 .f32) (x8 : FVec Ideal S42x8 .f32) (x9 : FVec Ideal S8x64 .f32) (x10 : FVec Ideal S294x8 .f32) (x11 : FVec Ideal S8x64 .f32) (x13 : FVec Ideal S128x128 .f32) (x14 : FVec Ideal S128 .f32) (x15 : FVec Ideal S128x128 .f32) (x16 : FVec Ideal S128 .f32) (x17 : FVec Ideal S128x64 .f32) (x18 : FVec Ideal S64x128 .f32) (x19 : FVec Ideal S1x128x128 .f32) (x20 : FVec Ideal S1x128 .f32) (x21 : FVec Ideal S1x128x128 .f32) (x22 : FVec Ideal S1x128 .f32) (x23 : FVec Ideal S128x128 .f32) (x24 : FVec Ideal S128 .f32) (x25 : FVec Ideal S2x128x128 .f32) (x26 : FVec Ideal S2x128 .f32) (x27 : FVec Ideal S2x128x128 .f32) (x28 : FVec Ideal S2x128 .f32) (r : Fin 200000) (q : Fin 128) :
    val_main_v92 (F := Ideal) x0 x1 x2 x3 x4 x5 x6 x7 x8 x9 x10 x11 x13 x14 x15 x16 x17 x18 x19 x20 x21 x22 x23 x24 x25 x26 x27 x28 (ix2 r q)
      = e1outRow (row (val_main_v4 (F := Ideal) x0 x15 x16) r) (row (val_main_v30 (F := Ideal) x0 x1 x2 x3 x4 x5 x6 x7 x8 x9 x10 x11 x13 x14 x17) r) (row x0 r) (mat x18)
          (mat3 x19 0) (row x20 0) (mat3 x21 0) (row x22 0) (mat x23) (vec x24)
          (mat3 x25 0) (row x26 0) (mat3 x27 0) (row x28 0) (mat3 x25 1) (row x26 1) (mat3 x27 1) (row x28 1) q := by
  unfold e1outRow
  exact congrFun (h4_row x0 x1 x2 x3 x4 x5 x6 x7 x8 x9 x10 x11 x13 x14 x15 x16 x17 x18 x19 x20 x21 x22 x23 x24 x25 x26 x27 x28 r _ (h3_row x0 x1 x2 x3 x4 x5 x6 x7 x8 x9 x10 x11 x13 x14 x15 x16 x17 x18 x19 x20 x21 x22 x23 x24 x25 x26 x27 x28 r _ (h2_row x0 x1 x2 x3 x4 x5 x6 x7 x8 x9 x10 x11 x13 x14 x15 x16 x17 x18 x19 x20 x21 x22 x23 x24 r _
    (h1_row x0 x1 x2 x3 x4 x5 x6 x7 x8 x9 x10 x11 x13 x14 x15 x16 x17 x18 x19 x20 x21 x22 r _ (h0_row x0 x1 x2 x3 x4 x5 x6 x7 x8 x9 x10 x11 x13 x14 x15 x16 x17 x18 r))))) q

/-- The reference's second result: `(rbf W_rbf) * e1_out`. -/
theorem e2out_apply (x0 : FVec Ideal S200000x128 .f32) (x1 : FVec Ideal S200000x6 .f32) (x2 : FVec Ideal S600000x42 .f32) (x3 : FVec Ideal S600000x294 .f32) (x4 : IVec S600000 32) (x5 : IVec S600000 32) (x6 : FVec Ideal S6x8 .f32) (x7 : FVec Ideal S8x128 .f32) (x8 : FVec Ideal S42x8 .f32) (x9 : FVec Ideal S8x64 .f32) (x10 : FVec Ideal S294x8 .f32) (x11 : FVec Ideal S8x64 .f32) (x12 : FVec Ideal S6x128 .f32) (x13 : FVec Ideal S128x128 .f32) (x14 : FVec Ideal S128 .f32) (x15 : FVec Ideal S128x128 .f32) (x16 : FVec Ideal S128 .f32) (x17 : FVec Ideal S128x64 .f32) (x18 : FVec Ideal S64x128 .f32) (x19 : FVec Ideal S1x128x128 .f32) (x20 : FVec Ideal S1x128 .f32) (x21 : FVec Ideal S1x128x128 .f32) (x22 : FVec Ideal S1x128 .f32) (x23 : FVec Ideal S128x128 .f32) (x24 : FVec Ideal S128 .f32) (x25 : FVec Ideal S2x128x128 .f32) (x26 : FVec Ideal S2x128 .f32) (x27 : FVec Ideal S2x128x128 .f32) (x28 : FVec Ideal S2x128 .f32) (r : Fin 200000) (q : Fin 128) :
    val_main_v94 (F := Ideal) x0 x1 x2 x3 x4 x5 x6 x7 x8 x9 x10 x11 x12 x13 x14 x15 x16 x17 x18 x19 x20 x21 x22 x23 x24 x25 x26 x27 x28 (ix2 r q)
      = e2outRow (row x1 r) (mat x12) (row (val_main_v92 (F := Ideal) x0 x1 x2 x3 x4 x5 x6 x7 x8 x9 x10 x11 x13 x14 x15 x16 x17 x18 x19 x20 x21 x22 x23 x24 x25 x26 x27 x28) r) q := by
  rw [val_main_v94_apply, rbf_apply]
  rfl

end Cert.ReferenceIdeal.CombineRef

end
-- ==== Proof.Bridge.lean ====
/-
  The two programs meet, array by array.

  Each array the kernel program's fold holds between and after its regions equals the reference's stage of the same
  name in the mathematics: the edge stage's two results, the gathered rows (where every gather index is in range, so
  that the take's fill never shows), the message, the segment sum, and the two results. Row-wise stages are compared
  entry by entry through the row functions of `Cert.Interaction`; the gather and the segment sum are the same host
  operation on both sides, applied to equal arrays.
-/
import proofs.«414090_j48034914238946_1_alg».proof.Proof.K0
import proofs.«414090_j48034914238946_1_alg».proof.Proof.K1
import proofs.«414090_j48034914238946_1_alg».proof.Proof.K2
import proofs.«414090_j48034914238946_1_alg».proof.Proof.KHost
import proofs.«414090_j48034914238946_1_alg».proof.Proof.R0
import proofs.«414090_j48034914238946_1_alg».proof.Proof.R1
import proofs.«414090_j48034914238946_1_alg».proof.Proof.R2
import proofs.«414090_j48034914238946_1_alg».proof.Proof.Spec
import proofs.«414090_j48034914238946_1_alg».proof.Proof.KArgs
import proofs.«414090_j48034914238946_1_alg».proof.Proof.RefStage
import Idealize.ShloMosaic.Lib.ValueIdx

noncomputable section

namespace Cert.Bridge

open Cert.KernelIdeal.Gen Cert.KernelIdeal.Args Cert.Interaction Idealize.ShloMosaic Idealize.ShloMosaic.ValueIdx Idealize.SL.Sem
open Cert.ReferenceIdeal.Stage

variable (m : (ℓ : Loc Cert.KernelIdeal.nD Cert.KernelIdeal.τ Cert.KernelIdeal.sig) → Buf (Elt Ideal) ℓ)
  (ρ : Dev Cert.KernelIdeal.nD → PrngReg) (c : Dev Cert.KernelIdeal.nD)

/-- The edge stage's first result is the reference's `silu (e1 W_ji + b_ji)`. -/
theorem xji_eq :
    (W2 m ρ c (Proc.devRef .tc Cert.KernelIdeal.main_v2_0) : FVec Ideal Cert.KernelIdeal.S200000x128 .f32)
      = val_main_v4 (F := Ideal) (A0 m c) (A15 m c) (A16 m c) := by
  funext i
  obtain ⟨r, q, rfl⟩ : ∃ (r : Fin 200000) (q : Fin 128), i = ix2 r q := ⟨i 0, i 1, eq_ix2 i⟩
  exact (Cert.KernelIdeal.Edge.xji_apply m ρ c r q).trans (Cert.ReferenceIdeal.EdgeRef.xji_apply _ _ _ r q).symm

/-- The edge stage's second result is the reference's down-projected `x_kj`. -/
theorem xkjd_eq :
    (W2 m ρ c (Proc.devRef .tc Cert.KernelIdeal.main_v2_1) : FVec Ideal Cert.KernelIdeal.S200000x64 .f32)
      = val_main_v14 (F := Ideal) (A0 m c) (A1 m c) (A6 m c) (A7 m c) (A13 m c) (A14 m c) (A17 m c) := by
  funext i
  obtain ⟨r, q, rfl⟩ : ∃ (r : Fin 200000) (q : Fin 64), i = ix2 r q := ⟨i 0, i 1, eq_ix2 i⟩
  exact (Cert.KernelIdeal.Edge.xkjd_apply m ρ c r q).trans (Cert.ReferenceIdeal.EdgeRef.xkjd_apply _ _ _ _ _ _ _ r q).symm

/-- With every gather index in range, the rows the triplet region is entered with are the reference's gathered rows:
    one gather on both sides, of equal arrays at one index column. -/
theorem gathered_eq (h : IdxOk (A4 m c)) :
    (W3 m ρ c (Proc.devRef .tc Cert.KernelIdeal.main_v3) : FVec Ideal Cert.KernelIdeal.S600000x64 .f32)
      = val_main_v23 (F := Ideal) (A0 m c) (A1 m c) (A4 m c) (A6 m c) (A7 m c) (A13 m c) (A14 m c) (A17 m c) := by
  rw [Cert.KernelIdeal.HostOps.take_eq m ρ c h, xkjd_eq m ρ c]
  rfl

/-- The message array is the reference's. -/
theorem msg_eq (h : IdxOk (A4 m c)) :
    (W4 m ρ c (Proc.devRef .tc Cert.KernelIdeal.main_v4) : FVec Ideal Cert.KernelIdeal.S600000x64 .f32)
      = val_main_v27 (F := Ideal) (A0 m c) (A1 m c) (A2 m c) (A3 m c) (A4 m c) (A6 m c) (A7 m c) (A8 m c) (A9 m c) (A10 m c) (A11 m c) (A13 m c) (A14 m c) (A17 m c) := by
  funext i
  obtain ⟨r, q, rfl⟩ : ∃ (r : Fin 600000) (q : Fin 64), i = ix2 r q := ⟨i 0, i 1, eq_ix2 i⟩
  rw [Cert.KernelIdeal.Triplet.msg_apply m ρ c r q, gathered_eq m ρ c h]
  exact (Cert.ReferenceIdeal.TripletRef.msg_apply _ _ _ _ _ _ _ _ _ _ _ _ _ _ r q).symm

/-- The summed messages are the reference's segment sum: one scatter-add on both sides, of equal message arrays. -/
theorem summed_eq (h : IdxOk (A4 m c)) :
    (W5 m ρ c (Proc.devRef .tc Cert.KernelIdeal.main_v7) : FVec Ideal Cert.KernelIdeal.S200000x64 .f32)
      = val_main_v30 (F := Ideal) (A0 m c) (A1 m c) (A2 m c) (A3 m c) (A4 m c) (A5 m c) (A6 m c) (A7 m c) (A8 m c) (A9 m c) (A10 m c) (A11 m c) (A13 m c) (A14 m c) (A17 m c) := by
  rw [Cert.KernelIdeal.HostOps.segsum_eq m ρ c, msg_eq m ρ c h]
  rfl

/-- The first result is the reference's. -/
theorem e1out_eq (h : IdxOk (A4 m c)) :
    (W6 m ρ c (Proc.devRef .tc Cert.KernelIdeal.main_v23_0) : FVec Ideal Cert.KernelIdeal.S200000x128 .f32)
      = val_main_v92 (F := Ideal) (A0 m c) (A1 m c) (A2 m c) (A3 m c) (A4 m c) (A5 m c) (A6 m c) (A7 m c) (A8 m c) (A9 m c) (A10 m c) (A11 m c) (A13 m c) (A14 m c) (A15 m c) (A16 m c) (A17 m c) (A18 m c) (A19 m c) (A20 m c) (A21 m c) (A22 m c) (A23 m c) (A24 m c) (A25 m c) (A26 m c) (A27 m c) (A28 m c) := by
  funext i
  obtain ⟨r, q, rfl⟩ : ∃ (r : Fin 200000) (q : Fin 128), i = ix2 r q := ⟨i 0, i 1, eq_ix2 i⟩
  rw [Cert.KernelIdeal.Combine.e1out_apply m ρ c r q, xji_eq m ρ c, summed_eq m ρ c h]
  exact (Cert.ReferenceIdeal.CombineRef.e1out_apply _ _ _ _ _ _ _ _ _ _ _ _ _ _ _ _ _ _ _ _ _ _ _ _ _ _ _ _ r q).symm

/-- The second result is the reference's. -/
theorem e2out_eq (h : IdxOk (A4 m c)) :
    (W6 m ρ c (Proc.devRef .tc Cert.KernelIdeal.main_v23_1) : FVec Ideal Cert.KernelIdeal.S200000x128 .f32)
      = val_main_v94 (F := Ideal) (A0 m c) (A1 m c) (A2 m c) (A3 m c) (A4 m c) (A5 m c) (A6 m c) (A7 m c) (A8 m c) (A9 m c) (A10 m c) (A11 m c) (A12 m c) (A13 m c) (A14 m c) (A15 m c) (A16 m c) (A17 m c) (A18 m c) (A19 m c) (A20 m c) (A21 m c) (A22 m c) (A23 m c) (A24 m c) (A25 m c) (A26 m c) (A27 m c) (A28 m c) := by
  funext i
  obtain ⟨r, q, rfl⟩ : ∃ (r : Fin 200000) (q : Fin 128), i = ix2 r q := ⟨i 0, i 1, eq_ix2 i⟩
  rw [Cert.KernelIdeal.Combine.e2out_apply m ρ c r q, e1out_eq m ρ c h]
  exact (Cert.ReferenceIdeal.CombineRef.e2out_apply _ _ _ _ _ _ _ _ _ _ _ _ _ _ _ _ _ _ _ _ _ _ _ _ _ _ _ _ _ r q).symm

/-- The same for any arrays equal to the arguments as launched (the reference's own copies of them). -/
theorem e1out_eq_of (h : IdxOk (A4 m c)) (y0 : FVec Ideal Cert.ReferenceIdeal.S200000x128 .f32) (y1 : FVec Ideal Cert.ReferenceIdeal.S200000x6 .f32) (y2 : FVec Ideal Cert.ReferenceIdeal.S600000x42 .f32) (y3 : FVec Ideal Cert.ReferenceIdeal.S600000x294 .f32) (y4 : IVec Cert.ReferenceIdeal.S600000 32) (y5 : IVec Cert.ReferenceIdeal.S600000 32) (y6 : FVec Ideal Cert.ReferenceIdeal.S6x8 .f32) (y7 : FVec Ideal Cert.ReferenceIdeal.S8x128 .f32) (y8 : FVec Ideal Cert.ReferenceIdeal.S42x8 .f32) (y9 : FVec Ideal Cert.ReferenceIdeal.S8x64 .f32) (y10 : FVec Ideal Cert.ReferenceIdeal.S294x8 .f32) (y11 : FVec Ideal Cert.ReferenceIdeal.S8x64 .f32) (y13 : FVec Ideal Cert.ReferenceIdeal.S128x128 .f32) (y14 : FVec Ideal Cert.ReferenceIdeal.S128 .f32) (y15 : FVec Ideal Cert.ReferenceIdeal.S128x128 .f32) (y16 : FVec Ideal Cert.ReferenceIdeal.S128 .f32) (y17 : FVec Ideal Cert.ReferenceIdeal.S128x64 .f32) (y18 : FVec Ideal Cert.ReferenceIdeal.S64x128 .f32) (y19 : FVec Ideal Cert.ReferenceIdeal.S1x128x128 .f32) (y20 : FVec Ideal Cert.ReferenceIdeal.S1x128 .f32) (y21 : FVec Ideal Cert.ReferenceIdeal.S1x128x128 .f32) (y22 : FVec Ideal Cert.ReferenceIdeal.S1x128 .f32) (y23 : FVec Ideal Cert.ReferenceIdeal.S128x128 .f32) (y24 : FVec Ideal Cert.ReferenceIdeal.S128 .f32) (y25 : FVec Ideal Cert.ReferenceIdeal.S2x128x128 .f32) (y26 : FVec Ideal Cert.ReferenceIdeal.S2x128 .f32) (y27 : FVec Ideal Cert.ReferenceIdeal.S2x128x128 .f32) (y28 : FVec Ideal Cert.ReferenceIdeal.S2x128 .f32)
    (e0 : y0 = A0 m c) (e1 : y1 = A1 m c) (e2 : y2 = A2 m c) (e3 : y3 = A3 m c) (e4 : y4 = A4 m c) (e5 : y5 = A5 m c) (e6 : y6 = A6 m c) (e7 : y7 = A7 m c) (e8 : y8 = A8 m c) (e9 : y9 = A9 m c) (e10 : y10 = A10 m c) (e11 : y11 = A11 m c) (e13 : y13 = A13 m c) (e14 : y14 = A14 m c) (e15 : y15 = A15 m c) (e16 : y16 = A16 m c) (e17 : y17 = A17 m c) (e18 : y18 = A18 m c) (e19 : y19 = A19 m c) (e20 : y20 = A20 m c) (e21 : y21 = A21 m c) (e22 : y22 = A22 m c) (e23 : y23 = A23 m c) (e24 : y24 = A24 m c) (e25 : y25 = A25 m c) (e26 : y26 = A26 m c) (e27 : y27 = A27 m c) (e28 : y28 = A28 m c) :
    (W6 m ρ c (Proc.devRef .tc Cert.KernelIdeal.main_v23_0) : FVec Ideal Cert.KernelIdeal.S200000x128 .f32)
      = val_main_v92 (F := Ideal) y0 y1 y2 y3 y4 y5 y6 y7 y8 y9 y10 y11 y13 y14 y15 y16 y17 y18 y19 y20 y21 y22 y23 y24 y25 y26 y27 y28 := by
  subst e0; subst e1; subst e2; subst e3; subst e4; subst e5; subst e6; subst e7; subst e8; subst e9; subst e10; subst e11; subst e13; subst e14; subst e15; subst e16; subst e17; subst e18; subst e19; subst e20; subst e21; subst e22; subst e23; subst e24; subst e25; subst e26; subst e27; subst e28
  exact e1out_eq m ρ c h

/-- The same for the second result. -/
theorem e2out_eq_of (h : IdxOk (A4 m c)) (y0 : FVec Ideal Cert.ReferenceIdeal.S200000x128 .f32) (y1 : FVec Ideal Cert.ReferenceIdeal.S200000x6 .f32) (y2 : FVec Ideal Cert.ReferenceIdeal.S600000x42 .f32) (y3 : FVec Ideal Cert.ReferenceIdeal.S600000x294 .f32) (y4 : IVec Cert.ReferenceIdeal.S600000 32) (y5 : IVec Cert.ReferenceIdeal.S600000 32) (y6 : FVec Ideal Cert.ReferenceIdeal.S6x8 .f32) (y7 : FVec Ideal Cert.ReferenceIdeal.S8x128 .f32) (y8 : FVec Ideal Cert.ReferenceIdeal.S42x8 .f32) (y9 : FVec Ideal Cert.ReferenceIdeal.S8x64 .f32) (y10 : FVec Ideal Cert.ReferenceIdeal.S294x8 .f32) (y11 : FVec Ideal Cert.ReferenceIdeal.S8x64 .f32) (y12 : FVec Ideal Cert.ReferenceIdeal.S6x128 .f32) (y13 : FVec Ideal Cert.ReferenceIdeal.S128x128 .f32) (y14 : FVec Ideal Cert.ReferenceIdeal.S128 .f32) (y15 : FVec Ideal Cert.ReferenceIdeal.S128x128 .f32) (y16 : FVec Ideal Cert.ReferenceIdeal.S128 .f32) (y17 : FVec Ideal Cert.ReferenceIdeal.S128x64 .f32) (y18 : FVec Ideal Cert.ReferenceIdeal.S64x128 .f32) (y19 : FVec Ideal Cert.ReferenceIdeal.S1x128x128 .f32) (y20 : FVec Ideal Cert.ReferenceIdeal.S1x128 .f32) (y21 : FVec Ideal Cert.ReferenceIdeal.S1x128x128 .f32) (y22 : FVec Ideal Cert.ReferenceIdeal.S1x128 .f32) (y23 : FVec Ideal Cert.ReferenceIdeal.S128x128 .f32) (y24 : FVec Ideal Cert.ReferenceIdeal.S128 .f32) (y25 : FVec Ideal Cert.ReferenceIdeal.S2x128x128 .f32) (y26 : FVec Ideal Cert.ReferenceIdeal.S2x128 .f32) (y27 : FVec Ideal Cert.ReferenceIdeal.S2x128x128 .f32) (y28 : FVec Ideal Cert.ReferenceIdeal.S2x128 .f32)
    (e0 : y0 = A0 m c) (e1 : y1 = A1 m c) (e2 : y2 = A2 m c) (e3 : y3 = A3 m c) (e4 : y4 = A4 m c) (e5 : y5 = A5 m c) (e6 : y6 = A6 m c) (e7 : y7 = A7 m c) (e8 : y8 = A8 m c) (e9 : y9 = A9 m c) (e10 : y10 = A10 m c) (e11 : y11 = A11 m c) (e12 : y12 = A12 m c) (e13 : y13 = A13 m c) (e14 : y14 = A14 m c) (e15 : y15 = A15 m c) (e16 : y16 = A16 m c) (e17 : y17 = A17 m c) (e18 : y18 = A18 m c) (e19 : y19 = A19 m c) (e20 : y20 = A20 m c) (e21 : y21 = A21 m c) (e22 : y22 = A22 m c) (e23 : y23 = A23 m c) (e24 : y24 = A24 m c) (e25 : y25 = A25 m c) (e26 : y26 = A26 m c) (e27 : y27 = A27 m c) (e28 : y28 = A28 m c) :
    (W6 m ρ c (Proc.devRef .tc Cert.KernelIdeal.main_v23_1) : FVec Ideal Cert.KernelIdeal.S200000x128 .f32)
      = val_main_v94 (F := Ideal) y0 y1 y2 y3 y4 y5 y6 y7 y8 y9 y10 y11 y12 y13 y14 y15 y16 y17 y18 y19 y20 y21 y22 y23 y24 y25 y26 y27 y28 := by
  subst e0; subst e1; subst e2; subst e3; subst e4; subst e5; subst e6; subst e7; subst e8; subst e9; subst e10; subst e11; subst e12; subst e13; subst e14; subst e15; subst e16; subst e17; subst e18; subst e19; subst e20; subst e21; subst e22; subst e23; subst e24; subst e25; subst e26; subst e27; subst e28
  exact e2out_eq m ρ c h

end Cert.Bridge

end
-- ==== Proof.lean ====
/-
  The certificate of the interaction block: the kernel program (three pipelined regions — the edge stage, the triplet
  stage, the combine stage — with a row gather and a segment sum on the host between them) against its plain reference,
  over the extended reals.

  Both programs compute, row by row, the same sums and products in the same order (`Cert.Interaction`): a dense layer
  is a row times a weight matrix whether a block of 4000 rows or the whole array is multiplied, `silu` is one function
  on both sides, and a change of float format is the identity. The one place where the programs part is the gather:
  the kernel's take fills a row whose index is out of range where the reference clamps the index, so the claim is
  stated where every gather index lies in `[0, 200000)`, and there the fill never shows. The three frames are the
  programs' runs with the results dropped; the idealization rewrote nothing, so `preserves` is trivial.
-/
import proofs.«414090_j48034914238946_1_alg».proof.Defs
import proofs.«414090_j48034914238946_1_alg».proof.Proof.Gen.Kernel
import proofs.«414090_j48034914238946_1_alg».proof.Proof.Gen.Kernel.Frame
import proofs.«414090_j48034914238946_1_alg».proof.Proof.Gen.KernelIdeal
import proofs.«414090_j48034914238946_1_alg».proof.Proof.Gen.KernelIdeal.Frame
import proofs.«414090_j48034914238946_1_alg».proof.Proof.Gen.ReferenceIdeal
import proofs.«414090_j48034914238946_1_alg».proof.Proof.Gen.Pre_finite_inputs
import proofs.«414090_j48034914238946_1_alg».proof.Proof.RunNamed
import proofs.«414090_j48034914238946_1_alg».proof.Proof.RefRun
import proofs.«414090_j48034914238946_1_alg».proof.Proof.PreIdx
import proofs.«414090_j48034914238946_1_alg».proof.Proof.Bridge
import Idealize.ShloMosaic.Adequacy
import Idealize.ShloMosaic.Init

noncomputable section

namespace Cert.Proof

open Idealize.ShloMosaic Idealize.SL.Sem

attribute [local instance] Cert.Kernel.Gen.facts Cert.KernelIdeal.Gen.facts Cert.ReferenceIdeal.Gen.facts Cert.Pre_finite_inputs.Gen.facts

/-- The word-level kernel runs and leaves its arguments as launched: the generated frame. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference runs and leaves its arguments as launched: its run with the two results dropped. -/
theorem frame_ri : Cert.frame_ReferenceIdeal := fun m ρ _ =>
  (θ_run Cert.ReferenceIdeal.defs _ _).mono (fun _ h c => (h c).2.2) (Cert.ReferenceIdeal.StageRun.run (F := Ideal) m ρ)

/-- Under the precondition every gather index is in range, on every core. -/
theorem idxOk (m : (ℓ : Loc Cert.KernelIdeal.nD Cert.KernelIdeal.τ Cert.KernelIdeal.sig) → Buf (Elt Ideal) ℓ)
    (hpre : Cert.Pre_KernelIdeal m) (c : Dev Cert.KernelIdeal.nD) : Cert.Interaction.IdxOk (Cert.KernelIdeal.Args.A4 m c) :=
  Cert.PreIdx.idxOk_of_pre _ _ _ _ _ _ _ _ _ _ _ _ _ _ _ _ _ _ _ _ _ _ _ _ _ _ _ _ _ (hpre c)

/-- From memories that agree on the arguments both idealized programs run, and the kernel's two result arrays — the
    fold's values after the combine region — are the reference's last two stages of the same arguments. -/
theorem algebraic : Cert.algebraic_KernelIdeal_ReferenceIdeal := by
  intro m ρ m' ρ' hpre hagree
  refine ⟨fun c => Cert.KernelIdeal.Gen.W6 m ρ c (Proc.devRef .tc Cert.KernelIdeal.main_v23_0),
    fun c => Cert.KernelIdeal.Gen.W6 m ρ c (Proc.devRef .tc Cert.KernelIdeal.main_v23_1),
    Cert.KernelIdeal.Named.run (F := Ideal) m ρ, ?_⟩
  refine (θ_run Cert.ReferenceIdeal.defs _ _).mono (fun r h c => ?_) (Cert.ReferenceIdeal.StageRun.run (F := Ideal) m' ρ')
  obtain ⟨h0, h1, h2, h3, h4, h5, h6, h7, h8, h9, h10, h11, h12, h13, h14, h15, h16, h17, h18, h19, h20, h21, h22, h23, h24, h25, h26, h27, h28⟩ := hagree c
  refine ⟨(h c).1.trans ?_, (h c).2.1.trans ?_, (h c).2.2⟩
  · exact (Cert.Bridge.e1out_eq_of m ρ c (idxOk m hpre c) _ _ _ _ _ _ _ _ _ _ _ _ _ _ _ _ _ _ _ _ _ _ _ _ _ _ _ _ h0 h1 h2 h3 h4 h5 h6 h7 h8 h9 h10 h11 h13 h14 h15 h16 h17 h18 h19 h20 h21 h22 h23 h24 h25 h26 h27 h28).symm
  · exact (Cert.Bridge.e2out_eq_of m ρ c (idxOk m hpre c) _ _ _ _ _ _ _ _ _ _ _ _ _ _ _ _ _ _ _ _ _ _ _ _ _ _ _ _ _ h0 h1 h2 h3 h4 h5 h6 h7 h8 h9 h10 h11 h12 h13 h14 h15 h16 h17 h18 h19 h20 h21 h22 h23 h24 h25 h26 h27 h28).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
